-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v139)) (v1 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_v151) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S600000x2 : Shape := ⟨2, ![600000, 2]⟩
abbrev S64x128 : Shape := ⟨2, ![64, 128]⟩
abbrev S128 : Shape := ⟨1, ![128]⟩
abbrev S2x128 : Shape := ⟨2, ![2, 128]⟩
abbrev S3x128x128 : Shape := ⟨3, ![3, 128, 128]⟩
abbrev S3x128 : Shape := ⟨2, ![3, 128]⟩
abbrev S128x128 : Shape := ⟨2, ![128, 128]⟩
abbrev S2x600000 : Shape := ⟨2, ![2, 600000]⟩
abbrev S50000 : Shape := ⟨1, ![50000]⟩
abbrev S_ : Shape := ⟨0, ![]⟩
abbrev S1x600000 : Shape := ⟨2, ![1, 600000]⟩
abbrev S600000 : Shape := ⟨1, ![600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S600000x2 : S_.BroadcastsInDim S600000x2 (![] : Fin 0 → Fin S600000x2.rank)
  reducesTo_S600000x2_S_d0_1 : S600000x2.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_
  bcast_S_S50000 : S_.BroadcastsInDim S50000 (![] : Fin 0 → Fin S50000.rank)
  reducesTo_S50000_S_d0 : S50000.ReducesTo [0] S_

variable [Facts]

def fn_part5 {F : FTy → Type} [FloatOps F] (main_arg17 : IVec S50000 32) (main_v84 : IVec S_ 1) (main_v85 : IVec S1x600000 32) : IVec S_ 1 :=
  let main_v86 : IVec S600000 32 := shapeCast S600000 main_v85 shapeCasts_S1x600000_S600000
  let main_c_32 : IVec S_ 32 := constantI S_ 32 50000#32
  let main_v87 : IVec S600000 32 := broadcastInDim S600000 ![] bcast_S_S600000 main_c_32
  let main_v88 : IVec S600000 1 := cmpi .slt main_v86 main_v87
  let main_c_33 : IVec S_ 1 := constantI S_ 1 1#1
  let main_v89 : IVec S_ 1 := (fun x v => Host.reduce IntOp.andi x v reducesTo_S600000_S_d0 h_S_) main_v88 main_c_33
  let main_v90 : IVec S_ 1 := andi main_v84 main_v89
  let main_c_34 : IVec S_ 32 := constantI S_ 32 0#32
  let main_v91 : IVec S50000 32 := broadcastInDim S50000 ![] bcast_S_S50000 main_c_34
  let main_v92 : IVec S50000 1 := cmpi .sge main_arg17 main_v91
  let main_c_35 : IVec S_ 1 := constantI S_ 1 1#1
  let main_v93 : IVec S_ 1 := (fun x v => Host.reduce IntOp.andi x v reducesTo_S50000_S_d0 h_S_) main_v92 main_c_35
  let main_v94 : IVec S_ 1 := andi main_v90 main_v93
  let main_c_36 : IVec S_ 32 := constantI S_ 32 512#32
  let main_v95 : IVec S50000 32 := broadcastInDim S50000 ![] bcast_S_S50000 main_c_36
  let main_v96 : IVec S50000 1 := cmpi .slt main_arg17 main_v95
  let main_c_37 : IVec S_ 1 := constantI S_ 1 1#1
  let main_v97 : IVec S_ 1 := (fun x v => Host.reduce IntOp.andi x v reducesTo_S50000_S_d0 h_S_) main_v96 main_c_37
  let main_v98 : IVec S_ 1 := andi main_v94 main_v97
  main_v98

def fn_part4 {F : FTy → Type} [FloatOps F] (main_arg14 : FVec F S128x128 .f32) (main_arg15 : FVec F S128 .f32) (main_arg16 : IVec S2x600000 32) (main_arg17 : IVec S50000 32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : IVec S1x600000 32 := (extractStridedSlice S1x600000 ![0, 0] · slices_S2x600000_S1x600000_0_0) main_arg16
  let main_v80 : IVec S600000 32 := shapeCast S600000 main_v79 shapeCasts_S1x600000_S600000
  let main_c_30 : IVec S_ 32 := constantI S_ 32 0#32
  let main_v81 : IVec S600000 32 := broadcastInDim S600000 ![] bcast_S_S600000 main_c_30
  let main_v82 : IVec S600000 1 := cmpi .sge main_v80 main_v81
  let main_c_31 : IVec S_ 1 := constantI S_ 1 1#1
  let main_v83 : IVec S_ 1 := (fun x v => Host.reduce IntOp.andi x v reducesTo_S600000_S_d0 h_S_) main_v82 main_c_31
  let main_v84 : IVec S_ 1 := andi main_v78 main_v83
  let main_v85 : IVec S1x600000 32 := (extractStridedSlice S1x600000 ![0, 0] · slices_S2x600000_S1x600000_0_0) main_arg16
  fn_part5 (F := F) main_arg17 main_v84 main_v85

def fn_part3 {F : FTy → Type} [FloatOps F] (main_arg11 : FVec F S3x128 .f32) (main_arg12 : FVec F S128x128 .f32) (main_arg13 : FVec F S128 .f32) (main_arg14 : FVec F S128x128 .f32) (main_arg15 : FVec F S128 .f32) (main_arg16 : IVec S2x600000 32) (main_arg17 : IVec S50000 32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x128 .f32) (main_arg15 : FVec F S128 .f32) (main_arg16 : IVec S2x600000 32) (main_arg17 : IVec S50000 32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg15 main_arg16 main_arg17 main_v48 main_v49 main_v50

def fn_part1 {F : FTy → Type} [FloatOps F] (main_arg4 : FVec F S2x128 .f32) (main_arg5 : FVec F S128 .f32) (main_arg6 : FVec F S3x128x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x128 .f32) (main_arg15 : FVec F S128 .f32) (main_arg16 : IVec S2x600000 32) (main_arg17 : IVec S50000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S50000x64 .f32) (main_arg1 : FVec F S600000x2 .f32) (main_arg2 : FVec F S64x128 .f32) (main_arg3 : FVec F S128 .f32) (main_arg4 : FVec F S2x128 .f32) (main_arg5 : FVec F S128 .f32) (main_arg6 : FVec F S3x128x128 .f32) (main_arg7 : FVec F S3x128 .f32) (main_arg8 : FVec F S3x128x128 .f32) (main_arg9 : FVec F S3x128 .f32) (main_arg10 : FVec F S3x128 .f32) (main_arg11 : FVec F S3x128 .f32) (main_arg12 : FVec F S128x128 .f32) (main_arg13 : FVec F S128 .f32) (main_arg14 : FVec F S128x128 .f32) (main_arg15 : FVec F S128 .f32) (main_arg16 : IVec S2x600000 32) (main_arg17 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S600000x2 .f32 := Host.absf main_arg1
  let main_cst_0 : FVec F S_ .f32 := constant S_ .f32 0x7F800000#32
  let main_v5 : FVec F S600000x2 .f32 := broadcastInDim S600000x2 ![] bcast_S_S600000x2 main_cst_0
  let main_v6 : IVec S600000x2 1 := cmpf .olt main_v4 main_v5
  let main_c_1 : IVec S_ 1 := constantI S_ 1 1#1
  let main_v7 : IVec S_ 1 := (fun x v => Host.reduce IntOp.andi x v reducesTo_S600000x2_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S600000x2 : Shape := ⟨2, ![600000, 2]⟩
abbrev S64x128 : Shape := ⟨2, ![64, 128]⟩
abbrev S128 : Shape := ⟨1, ![128]⟩
abbrev S2x128 : Shape := ⟨2, ![2, 128]⟩
abbrev S3x128x128 : Shape := ⟨3, ![3, 128, 128]⟩
abbrev S3x128 : Shape := ⟨2, ![3, 128]⟩
abbrev S128x128 : Shape := ⟨2, ![128, 128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S600000x128 : Shape := ⟨2, ![600000, 128]⟩
abbrev S6000x2 : Shape := ⟨2, ![6000, 2]⟩
abbrev S6000x128 : Shape := ⟨2, ![6000, 128]⟩
abbrev S_ : Shape := ⟨0, ![]⟩
abbrev S512x128 : Shape := ⟨2, ![512, 128]⟩
abbrev S50000x1 : Shape := ⟨2, ![50000, 1]⟩
abbrev S1 : Shape := ⟨1, ![1]⟩
abbrev S1x1 : Shape := ⟨2, ![1, 1]⟩
abbrev S600000x1 : Shape := ⟨2, ![600000, 1]⟩
abbrev S1x128x128 : Shape := ⟨3, ![1, 128, 128]⟩
abbrev S512 : Shape := ⟨1, ![512]⟩
abbrev S512x1 : Shape := ⟨2, ![512, 1]⟩

abbrev nBuf : Space → Nat
  | .hbm => 328
  | .vmem => 90
  | .smem => 0
  | _ => 0

abbrev hbmTy0_0 (i : Nat) : BufTy := match i % 128 with
  | 0 => ⟨S50000x64, .f32⟩
  | 1 => ⟨S600000x2, .f32⟩
  | 2 => ⟨S64x128, .f32⟩
  | 3 => ⟨S128, .f32⟩
  | 4 => ⟨S2x128, .f32⟩
  | 5 => ⟨S128, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S2x600000, .i32⟩
  | 17 => ⟨S50000, .i32⟩
  | 18 => ⟨S1x600000, .i32⟩
  | 19 => ⟨S600000, .i32⟩
  | 20 => ⟨S1x600000, .i32⟩
  | 21 => ⟨S600000, .i32⟩
  | 22 => ⟨S1x128, .f32⟩
  | 23 => ⟨S50000x128, .f32⟩
  | 24 => ⟨S1x128, .f32⟩
  | 25 => ⟨S600000x128, .f32⟩
  | 26 => ⟨S_, .f32⟩
  | 27 => ⟨S512x128, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S1, .i32⟩
  | 37 => ⟨S_, .i32⟩
  | 38 => ⟨S50000x1, .i32⟩
  | 39 => ⟨S50000x1, .i1⟩
  | 40 => ⟨S1x1, .i32⟩
  | 41 => ⟨S50000x1, .i32⟩
  | 42 => ⟨S50000x1, .i1⟩
  | 43 => ⟨S50000x1, .i1⟩
  | 44 => ⟨S_, .i1⟩
  | 45 => ⟨S50000, .i1⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S50000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S1, .i32⟩
  | 61 => ⟨S_, .i32⟩
  | 62 => ⟨S600000x1, .i32⟩
  | 63 => ⟨S600000x1, .i1⟩
  | 64 => ⟨S1x1, .i32⟩
  | 65 => ⟨S600000x1, .i32⟩
  | 66 => ⟨S600000x1, .i1⟩
  | 67 => ⟨S600000x1, .i1⟩
  | 68 => ⟨S_, .i1⟩
  | 69 => ⟨S600000, .i1⟩
  | 70 => ⟨S600000x128, .f32⟩
  | 71 => ⟨S600000x128, .i1⟩
  | 72 => ⟨S_, .f32⟩
  | 73 => ⟨S600000x128, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S1x128x128, .f32⟩
  | 81 => ⟨S128x128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S1x128, .f32⟩
  | 90 => ⟨S50000x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S128, .f32⟩
  | 102 => ⟨S128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S1x128, .f32⟩
  | 109 => ⟨S1x128, .f32⟩
  | 110 => ⟨S1x128, .f32⟩
  | 111 => ⟨S50000x128, .f32⟩
  | 112 => ⟨S_, .f32⟩
  | 113 => ⟨S512x128, .f32⟩
  | 114 => ⟨S50000x1, .i32⟩
  | 115 => ⟨S512x128, .f32⟩
  | 116 => ⟨S512x128, .f32⟩
  | 117 => ⟨S1x128, .f32⟩
  | 118 => ⟨S512x128, .f32⟩
  | 119 => ⟨S512x128, .f32⟩
  | 120 => ⟨S_, .f32⟩
  | 121 => ⟨S512x128, .f32⟩
  | 122 => ⟨S512x128, .f32⟩
  | 123 => ⟨S512x128, .f32⟩
  | 124 => ⟨S1x128, .f32⟩
  | 125 => ⟨S512x128, .f32⟩
  | 126 => ⟨S512x128, .f32⟩
  | 127 => ⟨S512x128, .f32⟩
  | _ => ⟨S50000x64, .f32⟩

abbrev hbmTy0_1 (i : Nat) : BufTy := match i % 128 with
  | 0 => ⟨S_, .i32⟩
  | 1 => ⟨S50000, .i32⟩
  | 2 => ⟨S50000, .i1⟩
  | 3 => ⟨S_, .i32⟩
  | 4 => ⟨S50000, .i32⟩
  | 5 => ⟨S50000, .i32⟩
  | 6 => ⟨S50000, .i32⟩
  | 7 => ⟨S50000x1, .i32⟩
  | 8 => ⟨S1, .i32⟩
  | 9 => ⟨S_, .i32⟩
  | 10 => ⟨S50000x1, .i32⟩
  | 11 => ⟨S50000x1, .i1⟩
  | 12 => ⟨S1x1, .i32⟩
  | 13 => ⟨S50000x1, .i32⟩
  | 14 => ⟨S50000x1, .i1⟩
  | 15 => ⟨S50000x1, .i1⟩
  | 16 => ⟨S_, .i1⟩
  | 17 => ⟨S50000, .i1⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S1, .i32⟩
  | 33 => ⟨S_, .i32⟩
  | 34 => ⟨S600000x1, .i32⟩
  | 35 => ⟨S600000x1, .i1⟩
  | 36 => ⟨S1x1, .i32⟩
  | 37 => ⟨S600000x1, .i32⟩
  | 38 => ⟨S600000x1, .i1⟩
  | 39 => ⟨S600000x1, .i1⟩
  | 40 => ⟨S_, .i1⟩
  | 41 => ⟨S600000, .i1⟩
  | 42 => ⟨S600000x128, .f32⟩
  | 43 => ⟨S600000x128, .i1⟩
  | 44 => ⟨S_, .f32⟩
  | 45 => ⟨S600000x128, .f32⟩
  | 46 => ⟨S600000x128, .f32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S1x128, .f32⟩
  | 62 => ⟨S50000x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S1x128, .f32⟩
  | 83 => ⟨S50000x128, .f32⟩
  | 84 => ⟨S_, .f32⟩
  | 85 => ⟨S512x128, .f32⟩
  | 86 => ⟨S50000x1, .i32⟩
  | 87 => ⟨S512x128, .f32⟩
  | 88 => ⟨S512x128, .f32⟩
  | 89 => ⟨S1x128, .f32⟩
  | 90 => ⟨S512x128, .f32⟩
  | 91 => ⟨S512x128, .f32⟩
  | 92 => ⟨S_, .f32⟩
  | 93 => ⟨S512x128, .f32⟩
  | 94 => ⟨S512x128, .f32⟩
  | 95 => ⟨S512x128, .f32⟩
  | 96 => ⟨S1x128, .f32⟩
  | 97 => ⟨S512x128, .f32⟩
  | 98 => ⟨S512x128, .f32⟩
  | 99 => ⟨S512x128, .f32⟩
  | 100 => ⟨S_, .i32⟩
  | 101 => ⟨S50000, .i32⟩
  | 102 => ⟨S50000, .i1⟩
  | 103 => ⟨S_, .i32⟩
  | 104 => ⟨S50000, .i32⟩
  | 105 => ⟨S50000, .i32⟩
  | 106 => ⟨S50000, .i32⟩
  | 107 => ⟨S50000x1, .i32⟩
  | 108 => ⟨S1, .i32⟩
  | 109 => ⟨S_, .i32⟩
  | 110 => ⟨S50000x1, .i32⟩
  | 111 => ⟨S50000x1, .i1⟩
  | 112 => ⟨S1x1, .i32⟩
  | 113 => ⟨S50000x1, .i32⟩
  | 114 => ⟨S50000x1, .i1⟩
  | 115 => ⟨S50000x1, .i1⟩
  | 116 => ⟨S_, .i1⟩
  | 117 => ⟨S50000, .i1⟩
  | 118 => ⟨S50000x128, .f32⟩
  | 119 => ⟨S50000x128, .i1⟩
  | 120 => ⟨S_, .f32⟩
  | 121 => ⟨S50000x128, .f32⟩
  | 122 => ⟨S50000x128, .f32⟩
  | 123 => ⟨S50000x128, .f32⟩
  | 124 => ⟨S_, .i32⟩
  | 125 => ⟨S600000, .i32⟩
  | 126 => ⟨S600000, .i1⟩
  | 127 => ⟨S_, .i32⟩
  | _ => ⟨S50000x64, .f32⟩

abbrev hbmTy0_2 (i : Nat) : BufTy := match i % 128 with
  | 0 => ⟨S600000, .i32⟩
  | 1 => ⟨S600000, .i32⟩
  | 2 => ⟨S600000, .i32⟩
  | 3 => ⟨S600000x1, .i32⟩
  | 4 => ⟨S1, .i32⟩
  | 5 => ⟨S_, .i32⟩
  | 6 => ⟨S600000x1, .i32⟩
  | 7 => ⟨S600000x1, .i1⟩
  | 8 => ⟨S1x1, .i32⟩
  | 9 => ⟨S600000x1, .i32⟩
  | 10 => ⟨S600000x1, .i1⟩
  | 11 => ⟨S600000x1, .i1⟩
  | 12 => ⟨S_, .i1⟩
  | 13 => ⟨S600000, .i1⟩
  | 14 => ⟨S600000x128, .f32⟩
  | 15 => ⟨S600000x128, .i1⟩
  | 16 => ⟨S_, .f32⟩
  | 17 => ⟨S600000x128, .f32⟩
  | 18 => ⟨S600000x128, .f32⟩
  | 19 => ⟨S600000x128, .f32⟩
  | 20 => ⟨S_, .f32⟩
  | 21 => ⟨S50000x128, .f32⟩
  | 22 => ⟨S600000x1, .i32⟩
  | 23 => ⟨S50000x128, .f32⟩
  | 24 => ⟨S1x128x128, .f32⟩
  | 25 => ⟨S128x128, .f32⟩
  | 26 => ⟨S1x128, .f32⟩
  | 27 => ⟨S128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S1x128, .f32⟩
  | 34 => ⟨S50000x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S1x128, .f32⟩
  | 53 => ⟨S1x128, .f32⟩
  | 54 => ⟨S1x128, .f32⟩
  | 55 => ⟨S50000x128, .f32⟩
  | 56 => ⟨S_, .f32⟩
  | 57 => ⟨S50000, .f32⟩
  | 58 => ⟨S_, .f32⟩
  | 59 => ⟨S512, .f32⟩
  | 60 => ⟨S50000x1, .i32⟩
  | 61 => ⟨S512, .f32⟩
  | 62 => ⟨S_, .f32⟩
  | 63 => ⟨S512x128, .f32⟩
  | 64 => ⟨S50000x1, .i32⟩
  | 65 => ⟨S512x128, .f32⟩
  | 66 => ⟨S_, .f32⟩
  | 67 => ⟨S512, .f32⟩
  | 68 => ⟨S512, .f32⟩
  | 69 => ⟨S512x1, .f32⟩
  | 70 => ⟨S512x128, .f32⟩
  | 71 => ⟨S512x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S6000x2, .f32⟩
  | .local _ .vmem, ⟨7, _⟩ => ⟨S6000x2, .f32⟩
  | .local _ .vmem, ⟨8, _⟩ => ⟨S2x128, .f32⟩
  | .local _ .vmem, ⟨9, _⟩ => ⟨S1x128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x128, .f32⟩
  | .local _ .vmem, ⟨14, _⟩ => ⟨S6000x128, .f32⟩
  | .local _ .vmem, ⟨15, _⟩ => ⟨S6000x128, .f32⟩
  | .local _ .vmem, ⟨16, _⟩ => ⟨S6000x128, .f32⟩
  | .local _ .vmem, ⟨17, _⟩ => ⟨S6000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S6000x128, .f32⟩
  | .local _ .vmem, ⟨39, _⟩ => ⟨S6000x128, .f32⟩
  | .local _ .vmem, ⟨40, _⟩ => ⟨S6000x128, .f32⟩
  | .local _ .vmem, ⟨41, _⟩ => ⟨S6000x128, .f32⟩
  | .local _ .vmem, ⟨42, _⟩ => ⟨S6000x128, .f32⟩
  | .local _ .vmem, ⟨43, _⟩ => ⟨S6000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S2000x128, .f32⟩
  | .local _ .vmem, ⟨57, _⟩ => ⟨S2000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S6000x128, .f32⟩
  | .local _ .vmem, ⟨65, _⟩ => ⟨S6000x128, .f32⟩
  | .local _ .vmem, ⟨66, _⟩ => ⟨S6000x128, .f32⟩
  | .local _ .vmem, ⟨67, _⟩ => ⟨S6000x128, .f32⟩
  | .local _ .vmem, ⟨68, _⟩ => ⟨S6000x128, .f32⟩
  | .local _ .vmem, ⟨69, _⟩ => ⟨S6000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S2000x128, .f32⟩
  | .local _ .vmem, ⟨89, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v9 : Ref sig .tc := ⟨.hbm, 50, rfl⟩
abbrev main_v10 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v11 : Ref sig .tc := ⟨.hbm, 74, rfl⟩
abbrev main_v12 : Ref sig .tc := ⟨.hbm, 75, rfl⟩
abbrev main_cst_0 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26_0 : Ref sig .tc := ⟨.hbm, 90, rfl⟩
abbrev main_v26_1 : Ref sig .tc := ⟨.hbm, 91, rfl⟩
abbrev main_v26_2 : Ref sig .tc := ⟨.hbm, 92, rfl⟩
abbrev main_cst_1 : Ref sig .tc := ⟨.hbm, 93, rfl⟩
abbrev main_v27 : Ref sig .tc := ⟨.hbm, 94, rfl⟩
abbrev main_v28 : Ref sig .tc := ⟨.hbm, 95, rfl⟩
abbrev main_cst_2 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_cst_3 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_call2_cst : Ref sig .tc := ⟨.hbm, 120, rfl⟩
abbrev main_call2_v0 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v57 : Ref sig .tc := ⟨.hbm, 150, rfl⟩
abbrev main_v58 : Ref sig .tc := ⟨.hbm, 151, rfl⟩
abbrev main_call4_c : Ref sig .tc := ⟨.hbm, 152, rfl⟩
abbrev main_call4_v0 : Ref sig .tc := ⟨.hbm, 153, rfl⟩
abbrev main_call4_v1 : Ref sig .tc := ⟨.hbm, 154, rfl⟩
abbrev main_call4_c_0 : Ref sig .tc := ⟨.hbm, 155, rfl⟩
abbrev main_call4_v2 : Ref sig .tc := ⟨.hbm, 156, rfl⟩
abbrev main_call4_v3 : Ref sig .tc := ⟨.hbm, 157, rfl⟩
abbrev main_call4_v4 : Ref sig .tc := ⟨.hbm, 158, rfl⟩
abbrev main_call4_v5 : Ref sig .tc := ⟨.hbm, 159, rfl⟩
abbrev main_call4_c_1 : Ref sig .tc := ⟨.hbm, 160, rfl⟩
abbrev main_call4_c_2 : Ref sig .tc := ⟨.hbm, 161, rfl⟩
abbrev main_call4_v6 : Ref sig .tc := ⟨.hbm, 162, rfl⟩
abbrev main_call4_v7 : Ref sig .tc := ⟨.hbm, 163, rfl⟩
abbrev main_call4_v8 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_call4_c_3 : Ref sig .tc := ⟨.hbm, 168, rfl⟩
abbrev main_call4_v12 : Ref sig .tc := ⟨.hbm, 169, rfl⟩
abbrev main_call4_v13 : Ref sig .tc := ⟨.hbm, 170, rfl⟩
abbrev main_call4_v14 : Ref sig .tc := ⟨.hbm, 171, rfl⟩
abbrev main_call4_cst : Ref sig .tc := ⟨.hbm, 172, rfl⟩
abbrev main_call4_v15 : Ref sig .tc := ⟨.hbm, 173, rfl⟩
abbrev main_v59 : Ref sig .tc := ⟨.hbm, 174, rfl⟩
abbrev main_v60 : Ref sig .tc := ⟨.hbm, 175, rfl⟩
abbrev main_cst_4 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74_0 : Ref sig .tc := ⟨.hbm, 190, rfl⟩
abbrev main_v74_1 : Ref sig .tc := ⟨.hbm, 191, rfl⟩
abbrev main_v74_2 : Ref sig .tc := ⟨.hbm, 192, rfl⟩
abbrev main_cst_5 : Ref sig .tc := ⟨.hbm, 193, rfl⟩
abbrev main_v75 : Ref sig .tc := ⟨.hbm, 194, rfl⟩
abbrev main_v76 : Ref sig .tc := ⟨.hbm, 195, rfl⟩
abbrev main_cst_6 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_cst_7 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_call5_cst : Ref sig .tc := ⟨.hbm, 220, rfl⟩
abbrev main_call5_v0 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_call6_c : Ref sig .tc := ⟨.hbm, 228, rfl⟩
abbrev main_call6_v0 : Ref sig .tc := ⟨.hbm, 229, rfl⟩
abbrev main_call6_v1 : Ref sig .tc := ⟨.hbm, 230, rfl⟩
abbrev main_call6_c_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_c_1 : Ref sig .tc := ⟨.hbm, 236, rfl⟩
abbrev main_call6_c_2 : Ref sig .tc := ⟨.hbm, 237, rfl⟩
abbrev main_call6_v6 : Ref sig .tc := ⟨.hbm, 238, rfl⟩
abbrev main_call6_v7 : Ref sig .tc := ⟨.hbm, 239, rfl⟩
abbrev main_call6_v8 : Ref sig .tc := ⟨.hbm, 240, rfl⟩
abbrev main_call6_v9 : Ref sig .tc := ⟨.hbm, 241, rfl⟩
abbrev main_call6_v10 : Ref sig .tc := ⟨.hbm, 242, rfl⟩
abbrev main_call6_v11 : Ref sig .tc := ⟨.hbm, 243, rfl⟩
abbrev main_call6_c_3 : Ref sig .tc := ⟨.hbm, 244, rfl⟩
abbrev main_call6_v12 : Ref sig .tc := ⟨.hbm, 245, rfl⟩
abbrev main_call6_v13 : Ref sig .tc := ⟨.hbm, 246, rfl⟩
abbrev main_call6_v14 : Ref sig .tc := ⟨.hbm, 247, rfl⟩
abbrev main_call6_cst : Ref sig .tc := ⟨.hbm, 248, rfl⟩
abbrev main_call6_v15 : Ref sig .tc := ⟨.hbm, 249, rfl⟩
abbrev main_v105 : Ref sig .tc := ⟨.hbm, 250, rfl⟩
abbrev main_v106 : Ref sig .tc := ⟨.hbm, 251, rfl⟩
abbrev main_call7_c : Ref sig .tc := ⟨.hbm, 252, rfl⟩
abbrev main_call7_v0 : Ref sig .tc := ⟨.hbm, 253, rfl⟩
abbrev main_call7_v1 : Ref sig .tc := ⟨.hbm, 254, rfl⟩
abbrev main_call7_c_0 : Ref sig .tc := ⟨.hbm, 255, rfl⟩
abbrev main_call7_v2 : Ref sig .tc := ⟨.hbm, 256, rfl⟩
abbrev main_call7_v3 : Ref sig .tc := ⟨.hbm, 257, rfl⟩
abbrev main_call7_v4 : Ref sig .tc := ⟨.hbm, 258, rfl⟩
abbrev main_call7_v5 : Ref sig .tc := ⟨.hbm, 259, rfl⟩
abbrev main_call7_c_1 : Ref sig .tc := ⟨.hbm, 260, rfl⟩
abbrev main_call7_c_2 : Ref sig .tc := ⟨.hbm, 261, rfl⟩
abbrev main_call7_v6 : Ref sig .tc := ⟨.hbm, 262, rfl⟩
abbrev main_call7_v7 : Ref sig .tc := ⟨.hbm, 263, rfl⟩
abbrev main_call7_v8 : Ref sig .tc := ⟨.hbm, 264, rfl⟩
abbrev main_call7_v9 : Ref sig .tc := ⟨.hbm, 265, rfl⟩
abbrev main_call7_v10 : Ref sig .tc := ⟨.hbm, 266, rfl⟩
abbrev main_call7_v11 : Ref sig .tc := ⟨.hbm, 267, rfl⟩
abbrev main_call7_c_3 : Ref sig .tc := ⟨.hbm, 268, rfl⟩
abbrev main_call7_v12 : Ref sig .tc := ⟨.hbm, 269, rfl⟩
abbrev main_call7_v13 : Ref sig .tc := ⟨.hbm, 270, rfl⟩
abbrev main_call7_v14 : Ref sig .tc := ⟨.hbm, 271, rfl⟩
abbrev main_call7_cst : Ref sig .tc := ⟨.hbm, 272, rfl⟩
abbrev main_call7_v15 : Ref sig .tc := ⟨.hbm, 273, rfl⟩
abbrev main_v107 : Ref sig .tc := ⟨.hbm, 274, rfl⟩
abbrev main_v108 : Ref sig .tc := ⟨.hbm, 275, rfl⟩
abbrev main_cst_8 : Ref sig .tc := ⟨.hbm, 276, rfl⟩
abbrev main_v109 : Ref sig .tc := ⟨.hbm, 277, rfl⟩
abbrev main_v110 : Ref sig .tc := ⟨.hbm, 278, rfl⟩
abbrev main_v111 : Ref sig .tc := ⟨.hbm, 279, rfl⟩
abbrev main_v112 : Ref sig .tc := ⟨.hbm, 280, rfl⟩
abbrev main_v113 : Ref sig .tc := ⟨.hbm, 281, rfl⟩
abbrev main_v114 : Ref sig .tc := ⟨.hbm, 282, rfl⟩
abbrev main_v115 : Ref sig .tc := ⟨.hbm, 283, rfl⟩
abbrev main_v116 : Ref sig .tc := ⟨.hbm, 284, rfl⟩
abbrev main_v117 : Ref sig .tc := ⟨.hbm, 285, rfl⟩
abbrev main_v118 : Ref sig .tc := ⟨.hbm, 286, rfl⟩
abbrev main_v119 : Ref sig .tc := ⟨.hbm, 287, rfl⟩
abbrev main_v120 : Ref sig .tc := ⟨.hbm, 288, rfl⟩
abbrev main_v121 : Ref sig .tc := ⟨.hbm, 289, rfl⟩
abbrev main_v122_0 : Ref sig .tc := ⟨.hbm, 290, rfl⟩
abbrev main_v122_1 : Ref sig .tc := ⟨.hbm, 291, rfl⟩
abbrev main_v122_2 : Ref sig .tc := ⟨.hbm, 292, rfl⟩
abbrev main_cst_9 : Ref sig .tc := ⟨.hbm, 293, rfl⟩
abbrev main_v123 : Ref sig .tc := ⟨.hbm, 294, rfl⟩
abbrev main_v124 : Ref sig .tc := ⟨.hbm, 295, rfl⟩
abbrev main_cst_10 : Ref sig .tc := ⟨.hbm, 296, rfl⟩
abbrev main_v125 : Ref sig .tc := ⟨.hbm, 297, rfl⟩
abbrev main_v126 : Ref sig .tc := ⟨.hbm, 298, rfl⟩
abbrev main_v127 : Ref sig .tc := ⟨.hbm, 299, rfl⟩
abbrev main_v128 : Ref sig .tc := ⟨.hbm, 300, rfl⟩
abbrev main_v129 : Ref sig .tc := ⟨.hbm, 301, rfl⟩
abbrev main_v130 : Ref sig .tc := ⟨.hbm, 302, rfl⟩
abbrev main_v131 : Ref sig .tc := ⟨.hbm, 303, rfl⟩
abbrev main_v132 : Ref sig .tc := ⟨.hbm, 304, rfl⟩
abbrev main_v133 : Ref sig .tc := ⟨.hbm, 305, rfl⟩
abbrev main_v134 : Ref sig .tc := ⟨.hbm, 306, rfl⟩
abbrev main_v135 : Ref sig .tc := ⟨.hbm, 307, rfl⟩
abbrev main_v136 : Ref sig .tc := ⟨.hbm, 308, rfl⟩
abbrev main_v137 : Ref sig .tc := ⟨.hbm, 309, rfl⟩
abbrev main_v138 : Ref sig .tc := ⟨.hbm, 310, rfl⟩
abbrev main_v139 : Ref sig .tc := ⟨.hbm, 311, rfl⟩
abbrev main_cst_11 : Ref sig .tc := ⟨.hbm, 312, rfl⟩
abbrev main_v140 : Ref sig .tc := ⟨.hbm, 313, rfl⟩
abbrev main_cst_12 : Ref sig .tc := ⟨.hbm, 314, rfl⟩
abbrev main_v141 : Ref sig .tc := ⟨.hbm, 315, rfl⟩
abbrev main_v142 : Ref sig .tc := ⟨.hbm, 316, rfl⟩
abbrev main_v143 : Ref sig .tc := ⟨.hbm, 317, rfl⟩
abbrev main_cst_13 : Ref sig .tc := ⟨.hbm, 318, rfl⟩
abbrev main_v144 : Ref sig .tc := ⟨.hbm, 319, rfl⟩
abbrev main_v145 : Ref sig .tc := ⟨.hbm, 320, rfl⟩
abbrev main_v146 : Ref sig .tc := ⟨.hbm, 321, rfl⟩
abbrev main_cst_14 : Ref sig .tc := ⟨.hbm, 322, rfl⟩
abbrev main_v147 : Ref sig .tc := ⟨.hbm, 323, rfl⟩
abbrev main_v148 : Ref sig .tc := ⟨.hbm, 324, rfl⟩
abbrev main_v149 : Ref sig .tc := ⟨.hbm, 325, rfl⟩
abbrev main_v150 : Ref sig .tc := ⟨.hbm, 326, rfl⟩
abbrev main_v151 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg8_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg8_0 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg6_1 : Ref sig .tc := ⟨.vmem, 79, rfl⟩
abbrev cc9_stg7_0 : Ref sig .tc := ⟨.vmem, 80, rfl⟩
abbrev cc9_stg8_0 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc10_stg5_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc3_sem7_0 : DmaSem sig := 28
abbrev cc3_sem8_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc6_sem7_0 : DmaSem sig := 54
abbrev cc6_sem8_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem6_1 : DmaSem sig := 79
abbrev cc9_sem7_0 : DmaSem sig := 80
abbrev cc9_sem8_0 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem5_1 : DmaSem sig := 89

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![100], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S6000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S6000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S6000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S6000x2_S6000x2_0_0 : ∀ a, (![0, 0] : Fin 2 → Nat) a + S6000x2.size a ≤ S6000x2.size a
  h_S6000x2 : 0 < S6000x2.numel
  inb_S2x128_S2x128_0_0 : ∀ a, (![0, 0] : Fin 2 → Nat) a + S2x128.size a ≤ S2x128.size a
  h_S2x128 : 0 < S2x128.numel
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  bcast_S_S512x128 : S_.BroadcastsInDim S512x128 (![] : Fin 0 → Fin S512x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S6000x128_S6000x128 : S6000x128.ShapeCasts S6000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S128 : S2000x128.Reduces [0] S128
  bcast_S_S1x128 : S_.BroadcastsInDim S1x128 (![] : Fin 0 → Fin S1x128.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  dot_S2000x64_S64x128_S2000x128_1_0_0_1_n_n_wf : DotDims.WF S2000x64 S64x128 S2000x128 [1] [0] [0] [1] [] []
  dot_S6000x2_S2x128_S6000x128_1_0_0_1_n_n_wf : DotDims.WF S6000x2 S2x128 S6000x128 [1] [0] [0] [1] [] []
  gather_S512x128_S50000x1_S50000x128_1_0_n_n_0_1_1128_wf : GatherDims.WF S512x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x2.size a ≤ S600000x2.size a
  hwx1_0 : ∀ i : grid1.Coords, EltTy.bits .f32 = 32 ∨ (Rect.block (s := S600000x2) S6000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .f32 = 32 ∨ (Rect.block (s := S600000x128) S6000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S600000x128.size a
  hwx2_2 : ∀ i : grid2.Coords, EltTy.bits .f32 = 32 ∨ (Rect.block (s := S600000x128) S6000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S600000x128.size a
  hwx5_0 : ∀ i : grid5.Coords, EltTy.bits .f32 = 32 ∨ (Rect.block (s := S600000x128) S6000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x128.size a ≤ S600000x128.size a
  hwx5_1 : ∀ i : grid5.Coords, EltTy.bits .f32 = 32 ∨ (Rect.block (s := S600000x128) S6000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x128.size a ≤ S600000x128.size a
  hwx5_2 : ∀ i : grid5.Coords, EltTy.bits .f32 = 32 ∨ (Rect.block (s := S600000x128) S6000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S6000x128.size a ≤ S600000x128.size a
  hwx8_0 : ∀ i : grid8.Coords, EltTy.bits .f32 = 32 ∨ (Rect.block (s := S600000x128) S6000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S6000x128.size a ≤ S600000x128.size a
  hwx8_1 : ∀ i : grid8.Coords, EltTy.bits .f32 = 32 ∨ (Rect.block (s := S600000x128) S6000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S6000x128.size a ≤ S600000x128.size a
  hwx8_2 : ∀ i : grid8.Coords, EltTy.bits .f32 = 32 ∨ (Rect.block (s := S600000x128) S6000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S50000x128.size a
  hwx9_1 : ∀ i : grid9.Coords, EltTy.bits .f32 = 32 ∨ (Rect.block (s := S50000x128) S2000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x128.size a ≤ S50000x128.size a
  hwx9_6 : ∀ i : grid9.Coords, EltTy.bits .f32 = 32 ∨ (Rect.block (s := S50000x128) S2000x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S50000x128.size a
  hwx10_5 : ∀ i : grid10.Coords, EltTy.bits .f32 = 32 ∨ (Rect.block (s := S50000x128) S2000x128.size (cc10_transform_5 i) (hinb10_5 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S6000x2_S2x128_S6000x128_1_0_0_1_n_n : DotDims S6000x2 S2x128 S6000x128 where
  lhsContracting := [1]
  rhsContracting := [0]
  lhsNonContracting := [0]
  rhsNonContracting := [1]
  lhsBatch := []
  rhsBatch := []
  wf := dot_S6000x2_S2x128_S6000x128_1_0_0_1_n_n_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S6000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S6000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26_0) S2000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v26_1) S1x128.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v26_2) S1x128.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v26_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v43) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v59) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S6000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S6000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v58) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v65) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v69) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v73) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v74_0) S2000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v74_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v74_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v74_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v87) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v88) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v90) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v91) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v107) S6000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v7) S6000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v108) S6000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v106) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v111) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v113) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v120) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v117) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v121) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v122_0) S2000x128.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v122_1) S1x128.size cc9_transform_7 reads9_7 true true 1 stage9_7 sem9_7
    hrank9 hreads9_7 hinb9_7 nbuf9_7 (Memref.isWhole_whole _) hwx9_7 hstage9_7

abbrev win9_8 : Pipeline.Window sig grid9 :=
  Pipeline.Window.ofSpec (Memref.whole main_v122_2) S1x128.size cc9_transform_8 reads9_8 true true 1 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v122_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v135) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v136) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v137) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v138) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v139) S2000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x64 : Shape := ⟨2, ![50000, 64]⟩
abbrev S600000x2 : Shape := ⟨2, ![600000, 2]⟩
abbrev S64x128 : Shape := ⟨2, ![64, 128]⟩
abbrev S128 : Shape := ⟨1, ![128]⟩
abbrev S2x128 : Shape := ⟨2, ![2, 128]⟩
abbrev S3x128x128 : Shape := ⟨3, ![3, 128, 128]⟩
abbrev S3x128 : Shape := ⟨2, ![3, 128]⟩
abbrev S128x128 : Shape := ⟨2, ![128, 128]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩
abbrev S512x128 : Shape := ⟨2, ![512, 128]⟩
abbrev S50000x1 : Shape := ⟨2, ![50000, 1]⟩
abbrev S600000x1 : Shape := ⟨2, ![600000, 1]⟩
abbrev S1x128x128 : Shape := ⟨3, ![1, 128, 128]⟩
abbrev S512 : Shape := ⟨1, ![512]⟩
abbrev S512x1 : Shape := ⟨2, ![512, 1]⟩

abbrev nBuf : Space → Nat
  | .hbm => 374
  | .vmem => 0
  | .smem => 0
  | _ => 0

abbrev hbmTy0_0 (i : Nat) : BufTy := match i % 128 with
  | 0 => ⟨S50000x64, .f32⟩
  | 1 => ⟨S600000x2, .f32⟩
  | 2 => ⟨S64x128, .f32⟩
  | 3 => ⟨S128, .f32⟩
  | 4 => ⟨S2x128, .f32⟩
  | 5 => ⟨S128, .f32⟩
  | 6 => ⟨S3x128x128, .f32⟩
  | 7 => ⟨S3x128, .f32⟩
  | 8 => ⟨S3x128x128, .f32⟩
  | 9 => ⟨S3x128, .f32⟩
  | 10 => ⟨S3x128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S2x600000, .i32⟩
  | 17 => ⟨S50000, .i32⟩
  | 18 => ⟨S1x600000, .i32⟩
  | 19 => ⟨S600000, .i32⟩
  | 20 => ⟨S1x600000, .i32⟩
  | 21 => ⟨S600000, .i32⟩
  | 22 => ⟨S50000x128, .f32⟩
  | 23 => ⟨S1x128, .f32⟩
  | 24 => ⟨S50000x128, .f32⟩
  | 25 => ⟨S50000x128, .f32⟩
  | 26 => ⟨S600000x128, .f32⟩
  | 27 => ⟨S1x128, .f32⟩
  | 28 => ⟨S600000x128, .f32⟩
  | 29 => ⟨S600000x128, .f32⟩
  | 30 => ⟨S_, .f32⟩
  | 31 => ⟨S512x128, .f32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x128, .f32⟩
  | 41 => ⟨S50000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x128, .f32⟩
  | 52 => ⟨S_, .f32⟩
  | 53 => ⟨S600000x128, .f32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x64, .f32⟩

abbrev hbmTy0_1 (i : Nat) : BufTy := match i % 128 with
  | 0 => ⟨S50000x128, .f32⟩
  | 1 => ⟨S50000x128, .f32⟩
  | 2 => ⟨S_, .f32⟩
  | 3 => ⟨S512x128, .f32⟩
  | 4 => ⟨S50000x1, .i32⟩
  | 5 => ⟨S512x128, .f32⟩
  | 6 => ⟨S512x128, .f32⟩
  | 7 => ⟨S1x128, .f32⟩
  | 8 => ⟨S512x128, .f32⟩
  | 9 => ⟨S512x128, .f32⟩
  | 10 => ⟨S_, .f32⟩
  | 11 => ⟨S512x128, .f32⟩
  | 12 => ⟨S512x128, .f32⟩
  | 13 => ⟨S512x128, .f32⟩
  | 14 => ⟨S1x128, .f32⟩
  | 15 => ⟨S512x128, .f32⟩
  | 16 => ⟨S512x128, .f32⟩
  | 17 => ⟨S512x128, .f32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S50000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x128, .f32⟩
  | 38 => ⟨S_, .f32⟩
  | 39 => ⟨S600000x128, .f32⟩
  | 40 => ⟨S600000x128, .f32⟩
  | 41 => ⟨S_, .f32⟩
  | 42 => ⟨S50000x128, .f32⟩
  | 43 => ⟨S600000x1, .i32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S50000x128, .f32⟩
  | 78 => ⟨S50000x128, .f32⟩
  | 79 => ⟨S50000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S512x128, .f32⟩
  | 118 => ⟨S50000x1, .i32⟩
  | 119 => ⟨S512x128, .f32⟩
  | 120 => ⟨S512x128, .f32⟩
  | 121 => ⟨S1x128, .f32⟩
  | 122 => ⟨S512x128, .f32⟩
  | 123 => ⟨S512x128, .f32⟩
  | 124 => ⟨S_, .f32⟩
  | 125 => ⟨S512x128, .f32⟩
  | 126 => ⟨S512x128, .f32⟩
  | 127 => ⟨S512x128, .f32⟩
  | _ => ⟨S50000x64, .f32⟩

abbrev hbmTy0_2 (i : Nat) : BufTy := match i % 128 with
  | 0 => ⟨S1x128, .f32⟩
  | 1 => ⟨S512x128, .f32⟩
  | 2 => ⟨S512x128, .f32⟩
  | 3 => ⟨S512x128, .f32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x128, .f32⟩
  | 13 => ⟨S50000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S600000x128, .f32⟩
  | 24 => ⟨S_, .f32⟩
  | 25 => ⟨S600000x128, .f32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S50000, .f32⟩
  | 104 => ⟨S_, .f32⟩
  | 105 => ⟨S512, .f32⟩
  | 106 => ⟨S50000x1, .i32⟩
  | 107 => ⟨S512, .f32⟩
  | 108 => ⟨S_, .f32⟩
  | 109 => ⟨S512x128, .f32⟩
  | 110 => ⟨S50000x1, .i32⟩
  | 111 => ⟨S512x128, .f32⟩
  | 112 => ⟨S_, .f32⟩
  | 113 => ⟨S512, .f32⟩
  | 114 => ⟨S512, .f32⟩
  | 115 => ⟨S512x1, .f32⟩
  | 116 => ⟨S512x128, .f32⟩
  | 117 => ⟨S512x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call1_cst : Ref sig .tc := ⟨.hbm, 68, rfl⟩
abbrev main_call1_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_4 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_c_6 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_7 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_call3_cst : Ref sig .tc := ⟨.hbm, 127, rfl⟩
abbrev main_call3_v0 : Ref sig .tc := ⟨.hbm, 128, rfl⟩
abbrev main_v74 : Ref sig .tc := ⟨.hbm, 129, rfl⟩
abbrev main_cst_8 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call4_cst : Ref sig .tc := ⟨.hbm, 138, rfl⟩
abbrev main_call4_v0 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_c_9 : Ref sig .tc := ⟨.hbm, 146, rfl⟩
abbrev main_v88 : Ref sig .tc := ⟨.hbm, 147, rfl⟩
abbrev main_v89 : Ref sig .tc := ⟨.hbm, 148, rfl⟩
abbrev main_c_10 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_11 : Ref sig .tc := ⟨.hbm, 156, rfl⟩
abbrev main_v96 : Ref sig .tc := ⟨.hbm, 157, rfl⟩
abbrev main_v97 : Ref sig .tc := ⟨.hbm, 158, rfl⟩
abbrev main_c_12 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_call5_cst : Ref sig .tc := ⟨.hbm, 166, rfl⟩
abbrev main_call5_v0 : Ref sig .tc := ⟨.hbm, 167, rfl⟩
abbrev main_v104 : Ref sig .tc := ⟨.hbm, 168, rfl⟩
abbrev main_cst_13 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_call6_cst : Ref sig .tc := ⟨.hbm, 182, rfl⟩
abbrev main_call6_v0 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_14 : Ref sig .tc := ⟨.hbm, 193, rfl⟩
abbrev main_v126 : Ref sig .tc := ⟨.hbm, 194, rfl⟩
abbrev main_cst_15 : Ref sig .tc := ⟨.hbm, 195, rfl⟩
abbrev main_v127 : Ref sig .tc := ⟨.hbm, 196, rfl⟩
abbrev main_v128 : Ref sig .tc := ⟨.hbm, 197, rfl⟩
abbrev main_c_16 : Ref sig .tc := ⟨.hbm, 198, rfl⟩
abbrev main_call7_cst : Ref sig .tc := ⟨.hbm, 199, rfl⟩
abbrev main_call7_v0 : Ref sig .tc := ⟨.hbm, 200, rfl⟩
abbrev main_call7_v1 : Ref sig .tc := ⟨.hbm, 201, rfl⟩
abbrev main_call7_cst_0 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_call7_v5 : Ref sig .tc := ⟨.hbm, 206, rfl⟩
abbrev main_call7_v6 : Ref sig .tc := ⟨.hbm, 207, rfl⟩
abbrev main_call7_v7 : Ref sig .tc := ⟨.hbm, 208, rfl⟩
abbrev main_call7_cst_1 : Ref sig .tc := ⟨.hbm, 209, rfl⟩
abbrev main_call7_v8 : Ref sig .tc := ⟨.hbm, 210, rfl⟩
abbrev main_call7_cst_2 : Ref sig .tc := ⟨.hbm, 211, rfl⟩
abbrev main_call7_v9 : Ref sig .tc := ⟨.hbm, 212, rfl⟩
abbrev main_call7_v10 : Ref sig .tc := ⟨.hbm, 213, rfl⟩
abbrev main_call7_v11 : Ref sig .tc := ⟨.hbm, 214, rfl⟩
abbrev main_call7_cst_3 : Ref sig .tc := ⟨.hbm, 215, rfl⟩
abbrev main_call7_v12 : Ref sig .tc := ⟨.hbm, 216, rfl⟩
abbrev main_call7_cst_4 : Ref sig .tc := ⟨.hbm, 217, rfl⟩
abbrev main_call7_call0_v0 : Ref sig .tc := ⟨.hbm, 218, rfl⟩
abbrev main_call7_call0_v1 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_cst_17 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_call8_cst : Ref sig .tc := ⟨.hbm, 241, rfl⟩
abbrev main_call8_v0 : Ref sig .tc := ⟨.hbm, 242, rfl⟩
abbrev main_v149 : Ref sig .tc := ⟨.hbm, 243, rfl⟩
abbrev main_cst_18 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_call9_cst : Ref sig .tc := ⟨.hbm, 252, rfl⟩
abbrev main_call9_v0 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_c_19 : Ref sig .tc := ⟨.hbm, 260, rfl⟩
abbrev main_v163 : Ref sig .tc := ⟨.hbm, 261, rfl⟩
abbrev main_v164 : Ref sig .tc := ⟨.hbm, 262, rfl⟩
abbrev main_c_20 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_c_21 : Ref sig .tc := ⟨.hbm, 270, rfl⟩
abbrev main_v171 : Ref sig .tc := ⟨.hbm, 271, rfl⟩
abbrev main_v172 : Ref sig .tc := ⟨.hbm, 272, rfl⟩
abbrev main_c_22 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_call10_cst : Ref sig .tc := ⟨.hbm, 280, rfl⟩
abbrev main_call10_v0 : Ref sig .tc := ⟨.hbm, 281, rfl⟩
abbrev main_v179 : Ref sig .tc := ⟨.hbm, 282, rfl⟩
abbrev main_cst_23 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_call11_cst : Ref sig .tc := ⟨.hbm, 296, rfl⟩
abbrev main_call11_v0 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_cst_24 : Ref sig .tc := ⟨.hbm, 307, rfl⟩
abbrev main_v201 : Ref sig .tc := ⟨.hbm, 308, rfl⟩
abbrev main_cst_25 : Ref sig .tc := ⟨.hbm, 309, rfl⟩
abbrev main_v202 : Ref sig .tc := ⟨.hbm, 310, rfl⟩
abbrev main_v203 : Ref sig .tc := ⟨.hbm, 311, rfl⟩
abbrev main_c_26 : Ref sig .tc := ⟨.hbm, 312, rfl⟩
abbrev main_call12_cst : Ref sig .tc := ⟨.hbm, 313, rfl⟩
abbrev main_call12_v0 : Ref sig .tc := ⟨.hbm, 314, rfl⟩
abbrev main_call12_v1 : Ref sig .tc := ⟨.hbm, 315, rfl⟩
abbrev main_call12_cst_0 : Ref sig .tc := ⟨.hbm, 316, rfl⟩
abbrev main_call12_v2 : Ref sig .tc := ⟨.hbm, 317, rfl⟩
abbrev main_call12_v3 : Ref sig .tc := ⟨.hbm, 318, rfl⟩
abbrev main_call12_v4 : Ref sig .tc := ⟨.hbm, 319, rfl⟩
abbrev main_call12_v5 : Ref sig .tc := ⟨.hbm, 320, rfl⟩
abbrev main_call12_v6 : Ref sig .tc := ⟨.hbm, 321, rfl⟩
abbrev main_call12_v7 : Ref sig .tc := ⟨.hbm, 322, rfl⟩
abbrev main_call12_cst_1 : Ref sig .tc := ⟨.hbm, 323, rfl⟩
abbrev main_call12_v8 : Ref sig .tc := ⟨.hbm, 324, rfl⟩
abbrev main_call12_cst_2 : Ref sig .tc := ⟨.hbm, 325, rfl⟩
abbrev main_call12_v9 : Ref sig .tc := ⟨.hbm, 326, rfl⟩
abbrev main_call12_v10 : Ref sig .tc := ⟨.hbm, 327, rfl⟩
abbrev main_call12_v11 : Ref sig .tc := ⟨.hbm, 328, rfl⟩
abbrev main_call12_cst_3 : Ref sig .tc := ⟨.hbm, 329, rfl⟩
abbrev main_call12_v12 : Ref sig .tc := ⟨.hbm, 330, rfl⟩
abbrev main_call12_cst_4 : Ref sig .tc := ⟨.hbm, 331, rfl⟩
abbrev main_call12_call0_v0 : Ref sig .tc := ⟨.hbm, 332, rfl⟩
abbrev main_call12_call0_v1 : Ref sig .tc := ⟨.hbm, 333, rfl⟩
abbrev main_v204 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_27 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_call13_cst : Ref sig .tc := ⟨.hbm, 355, rfl⟩
abbrev main_call13_v0 : Ref sig .tc := ⟨.hbm, 356, rfl⟩
abbrev main_v224 : Ref sig .tc := ⟨.hbm, 357, rfl⟩
abbrev main_cst_28 : Ref sig .tc := ⟨.hbm, 358, rfl⟩
abbrev main_v225 : Ref sig .tc := ⟨.hbm, 359, rfl⟩
abbrev main_cst_29 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_cst_30 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_cst_31 : Ref sig .tc := ⟨.hbm, 368, rfl⟩
abbrev main_v232 : Ref sig .tc := ⟨.hbm, 369, rfl⟩
abbrev main_v233 : Ref sig .tc := ⟨.hbm, 370, rfl⟩
abbrev main_v234 : Ref sig .tc := ⟨.hbm, 371, rfl⟩
abbrev main_v235 : Ref sig .tc := ⟨.hbm, 372, rfl⟩
abbrev main_v236 : Ref sig .tc := ⟨.hbm, 373, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S512x128 : S_.BroadcastsInDim S512x128 (![] : Fin 0 → Fin S512x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S512x128_0_1 : S1x128.BroadcastsInDim S512x128 (![0, 1] : Fin 2 → Fin S512x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  dot_S50000x64_S64x128_S50000x128_1_0_0_1_n_n_wf : DotDims.WF S50000x64 S64x128 S50000x128 [1] [0] [0] [1] [] []
  dot_S600000x2_S2x128_S600000x128_1_0_0_1_n_n_wf : DotDims.WF S600000x2 S2x128 S600000x128 [1] [0] [0] [1] [] []
  gather_S512x128_S50000x1_S50000x128_1_0_n_n_0_1_1128_wf : GatherDims.WF S512x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  scatter_S512_S50000x1_S50000_n_0_0_1_wf : ScatterDims.WF S512 S50000x1 S50000 [] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S600000x2_S2x128_S600000x128_1_0_0_1_n_n : DotDims S600000x2 S2x128 S600000x128 where
  lhsContracting := [1]
  rhsContracting := [0]
  lhsNonContracting := [0]
  rhsNonContracting := [1]
  lhsBatch := []
  rhsBatch := []
  wf := dot_S600000x2_S2x128_S600000x128_1_0_0_1_n_n_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.Spec.lean ====
/-
  The two programs' common mathematics, written once as functions of arrays over the extended reals.

  A graph network of three message-passing layers over N = 50000 nodes, E = 600000 edges, H = 128 features and
  G = 512 graphs.  Node features start as `x · P + p`, edge features as `a · Q + q`.  Each layer adds to every
  node the row of a per-graph table `vn` that its graph index selects, sends along every edge the rectified sum of
  the source node's row and the edge's row, adds up at every node the messages that arrive there, passes
  `h + agg` through a two-layer perceptron, normalises every feature column by its mean and variance over the nodes
  (then scale, shift, rectify), and — except after the last layer — updates `vn` by a perceptron of the per-graph
  sums.  The results are the last node features and their per-graph means.

  Every function below is the composition of the array operations that one stretch of the plain program applies,
  so that the plain program's run is these functions composed; the tiled program is compared with them stage by
  stage.
-/
import proofs.«407958_j39685497815719_1_alg».proof.ReferenceIdeal
import Idealize.ShloMosaic.PureOps.Ideal

noncomputable section

namespace Cert.Spec

open Idealize.ShloMosaic Cert.ReferenceIdeal

variable [Cert.ReferenceIdeal.Facts]
open Cert.ReferenceIdeal.Facts₀ Cert.ReferenceIdeal.Facts

/-- A float array of shape `S` at the ideal instance: one extended real per index. -/
abbrev FA (S : Shape) : Type := FVec Ideal S .f32
/-- A 32-bit integer array of shape `S`. -/
abbrev IA (S : Shape) : Type := IVec S 32

/-! ## Indices -/

/-- Row 0 of the edge list: each edge's source node. -/
def srcOf (ei : IA S2x600000) : IA S600000 :=
  shapeCast S600000 (extractStridedSlice S1x600000 ![0, 0] ei slices_S2x600000_S1x600000_0_0) shapeCasts_S1x600000_S600000
/-- Row 1 of the edge list: each edge's target node. -/
def dstOf (ei : IA S2x600000) : IA S600000 :=
  shapeCast S600000 (extractStridedSlice S1x600000 ![1, 0] ei slices_S2x600000_S1x600000_1_0) shapeCasts_S1x600000_S600000

/-- A graph index counted from the end when negative: `b + 512` where `b < 0`, else `b`. -/
def wrapB (b : IA S50000) : IA S50000 :=
  select (cmpi .slt b (broadcastInDim S50000 ![] bcast_S_S50000 (constantI S_ 32 0#32)))
    (addi b (broadcastInDim S50000 ![] bcast_S_S50000 (constantI S_ 32 512#32))) b
/-- A node index counted from the end when negative: `s + 50000` where `s < 0`, else `s`. -/
def wrapS (s : IA S600000) : IA S600000 :=
  select (cmpi .slt s (broadcastInDim S600000 ![] bcast_S_S600000 (constantI S_ 32 0#32)))
    (addi s (broadcastInDim S600000 ![] bcast_S_S600000 (constantI S_ 32 50000#32))) s

/-- Every node takes the row of the per-graph table that its graph index selects. -/
def gatherVn (vn : FA S512x128) (b : IA S50000) : FA S50000x128 :=
  Host.gather gather_S512x128_S50000x1_S50000x128_1_0_n_n_0_1_1128 vn (broadcastInDim S50000x1 ![0] bcast_S50000_S50000x1_0 (wrapB b))
/-- Every edge takes its source node's row. -/
def gatherH (h : FA S50000x128) (s : IA S600000) : FA S600000x128 :=
  Host.gather gather_S50000x128_S600000x1_S600000x128_1_0_n_n_0_1_1128 h (broadcastInDim S600000x1 ![0] bcast_S600000_S600000x1_0 (wrapS s))

/-! ## Layout helpers and the rectifier -/

/-- A feature vector repeated down N = 50000 rows. -/
def rowsN (b : FA S128) : FA S50000x128 :=
  broadcastInDim S50000x128 ![0, 1] bcast_S1x128_S50000x128_0_1 (broadcastInDim S1x128 ![1] bcast_S128_S1x128_1 b)
/-- A feature vector repeated down G = 512 rows. -/
def rowsG (b : FA S128) : FA S512x128 :=
  broadcastInDim S512x128 ![0, 1] bcast_S1x128_S512x128_0_1 (broadcastInDim S1x128 ![1] bcast_S128_S1x128_1 b)

/-- `max x 0` on an `[E, H]` array. -/
def reluE (x : FA S600000x128) : FA S600000x128 :=
  maximumf x (broadcastInDim S600000x128 ![] bcast_S_S600000x128 (constant (F := Ideal) S_ .f32 0x00000000#32))
/-- `max x 0` on an `[N, H]` array. -/
def reluN (x : FA S50000x128) : FA S50000x128 :=
  maximumf x (broadcastInDim S50000x128 ![] bcast_S_S50000x128 (constant (F := Ideal) S_ .f32 0x00000000#32))
/-- `max x 0` on a `[G, H]` array. -/
def reluG (x : FA S512x128) : FA S512x128 :=
  maximumf x (broadcastInDim S512x128 ![] bcast_S_S512x128 (constant (F := Ideal) S_ .f32 0x00000000#32))

/-- The all-zero per-graph table the first layer starts from. -/
def zeroVn : FA S512x128 :=
  broadcastInDim S512x128 ![] bcast_S_S512x128 (constant (F := Ideal) S_ .f32 0x00000000#32)

/-- Layer 0's first weight matrix: slab 0 of the stacked `[3,128,128]` array. -/
def w1_0 (W : FA S3x128x128) : FA S128x128 :=
  shapeCast S128x128 (extractStridedSlice S1x128x128 ![0, 0, 0] W slices_S3x128x128_S1x128x128_0_0_0) shapeCasts_S1x128x128_S128x128
/-- Layer 0's row of a stacked `[3,128]` parameter (a bias, a scale or a shift). -/
def row_0 (B : FA S3x128) : FA S128 :=
  shapeCast S128 (extractStridedSlice S1x128 ![0, 0] B slices_S3x128_S1x128_0_0) shapeCasts_S1x128_S128

/-- Layer 1's first weight matrix: slab 1 of the stacked `[3,128,128]` array. -/
def w1_1 (W : FA S3x128x128) : FA S128x128 :=
  shapeCast S128x128 (extractStridedSlice S1x128x128 ![1, 0, 0] W slices_S3x128x128_S1x128x128_1_0_0) shapeCasts_S1x128x128_S128x128
/-- Layer 1's row of a stacked `[3,128]` parameter (a bias, a scale or a shift). -/
def row_1 (B : FA S3x128) : FA S128 :=
  shapeCast S128 (extractStridedSlice S1x128 ![1, 0] B slices_S3x128_S1x128_1_0) shapeCasts_S1x128_S128

/-- Layer 2's first weight matrix: slab 2 of the stacked `[3,128,128]` array. -/
def w1_2 (W : FA S3x128x128) : FA S128x128 :=
  shapeCast S128x128 (extractStridedSlice S1x128x128 ![2, 0, 0] W slices_S3x128x128_S1x128x128_2_0_0) shapeCasts_S1x128x128_S128x128
/-- Layer 2's row of a stacked `[3,128]` parameter (a bias, a scale or a shift). -/
def row_2 (B : FA S3x128) : FA S128 :=
  shapeCast S128 (extractStridedSlice S1x128 ![2, 0] B slices_S3x128_S1x128_2_0) shapeCasts_S1x128_S128

/-! ## The encoders -/

/-- Node encoder: `x · P + p`. -/
def lin0 (x : FA S50000x64) (w : FA S64x128) (b : FA S128) : FA S50000x128 :=
  addf (Host.dotGeneral (F := Ideal) dot_S50000x64_S64x128_S50000x128_1_0_0_1_n_n none x w) (rowsN b)
/-- Edge encoder: `a · Q + q`. -/
def lin1 (x : FA S600000x2) (w : FA S2x128) (b : FA S128) : FA S600000x128 :=
  addf (Host.dotGeneral (F := Ideal) dot_S600000x2_S2x128_S600000x128_1_0_0_1_n_n none x w)
    (broadcastInDim S600000x128 ![0, 1] bcast_S1x128_S600000x128_0_1 (broadcastInDim S1x128 ![1] bcast_S128_S1x128_1 b))

/-! ## One layer, stage by stage -/

/-- The message on every edge: `max (h[src] + e) 0`. -/
def msgOf (hsrc e : FA S600000x128) : FA S600000x128 := reluE (addf hsrc e)

/-- At every node, the sum of the messages whose edge points there. -/
def aggOf (msg : FA S600000x128) (d : IA S600000) : FA S50000x128 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 d) msg

/-- The node perceptron: `max (z · W₁ + b₁) 0 · W₂ + b₂`. -/
def mlpOf (z : FA S50000x128) (w1 : FA S128x128) (b1 : FA S128) (w2 : FA S128x128) (b2 : FA S128) : FA S50000x128 :=
  addf (Host.dotGeneral (F := Ideal) dot_S50000x128_S128x128_S50000x128_1_0_0_1_n_n none
      (reluN (addf (Host.dotGeneral (F := Ideal) dot_S50000x128_S128x128_S50000x128_1_0_0_1_n_n none z w1) (rowsN b1))) w2)
    (rowsN b2)

/-- The sum of every feature column over the N nodes. -/
def colSum (z : FA S50000x128) : FA S128 :=
  Host.reduceAdd (F := Ideal) z (constant (F := Ideal) S_ .f32 0x00000000#32) reducesTo_S50000x128_S128_d0 h_S_

/-- The mean of every feature column: its sum over 50000. -/
def meanOf (z : FA S50000x128) : FA S128 :=
  Host.divf (F := Ideal) (colSum z) (broadcastInDim S128 ![] bcast_S_S128 (constant (F := Ideal) S_ .f32 0x47435000#32))

/-- The normaliser of the variance: 50000 less the (zero) degrees of freedom withheld. -/
def varDen : FA S_ :=
  subf (constant (F := Ideal) S_ .f32 0x47435000#32) (sitofp (F := Ideal) .f32 (constantI S_ 32 0#32))

/-- The variance of every feature column: the mean of the squared deviations from the column's mean, kept where the
    normaliser is positive. -/
def varOf (z : FA S50000x128) : FA S128 :=
  select (broadcastInDim S128 ![] bcast_S_S128 (cmpf (F := Ideal) .ogt varDen (constant (F := Ideal) S_ .f32 0x00000000#32)))
    (Host.divf (F := Ideal)
      (Host.reduceAdd (F := Ideal)
        (mulf
          (subf z (broadcastInDim S50000x128 ![0, 1] bcast_S1x128_S50000x128_0_1
            (Host.divf (F := Ideal) (broadcastInDim S1x128 ![1] bcast_S128_S1x128_1 (colSum z))
              (broadcastInDim S1x128 ![] bcast_S_S1x128 (constant (F := Ideal) S_ .f32 0x47435000#32)))))
          (subf z (broadcastInDim S50000x128 ![0, 1] bcast_S1x128_S50000x128_0_1
            (Host.divf (F := Ideal) (broadcastInDim S1x128 ![1] bcast_S128_S1x128_1 (colSum z))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128 varDen))
    (broadcastInDim S128 ![] bcast_S_S128 (id (constant (F := Ideal) S_ .f32 0x7FC00000#32)))

/-- Normalise every column by a mean and a variance, scale, shift and rectify:
    `max ((z − μ) · (v + ε)^(-1/2) · γ + β) 0`. -/
def normOf (z : FA S50000x128) (mu v g b : FA S128) : FA S50000x128 :=
  reluN (addf (mulf (mulf (subf z (rowsN mu))
      (rowsN (Host.rsqrt (F := Ideal) (addf v (broadcastInDim S128 ![] bcast_S_S128 (constant (F := Ideal) S_ .f32 0x3727C5AC#32))))))
      (rowsN g)) (rowsN b))

/-- The per-graph sums of the node rows. -/
def poolOf (h : FA S50000x128) (b : IA S50000) : FA S512x128 :=
  Host.scatterAdd (F := Ideal) scatter_S512x128_S50000x1_S50000x128_1_0_0_1
    (broadcastInDim S512x128 ![] bcast_S_S512x128 (constant (F := Ideal) S_ .f32 0x00000000#32))
    (broadcastInDim S50000x1 ![0] bcast_S50000_S50000x1_0 b) h

/-- The per-graph perceptron's update of the table: `max (p · U₁ + u₁) 0 · U₂ + u₂`. -/
def vnUpd (p : FA S512x128) (u1 : FA S128x128) (c1 : FA S128) (u2 : FA S128x128) (c2 : FA S128) : FA S512x128 :=
  addf (Host.dotGeneral (F := Ideal) dot_S512x128_S128x128_S512x128_1_0_0_1_n_n none
      (reluG (addf (Host.dotGeneral (F := Ideal) dot_S512x128_S128x128_S512x128_1_0_0_1_n_n none p u1) (rowsG c1))) u2)
    (rowsG c2)

/-- How many nodes every graph has. -/
def countsOf (b : IA S50000) : FA S512 :=
  Host.scatterAdd (F := Ideal) scatter_S512_S50000x1_S50000_n_0_0_1
    (broadcastInDim S512 ![] bcast_S_S512 (constant (F := Ideal) S_ .f32 0x00000000#32))
    (broadcastInDim S50000x1 ![0] bcast_S50000_S50000x1_0 b)
    (broadcastInDim S50000 ![] bcast_S_S50000 (constant (F := Ideal) S_ .f32 0x3F800000#32))

/-- The per-graph means: the per-graph sums over `max count 1`. -/
def embOf (h : FA S50000x128) (b : IA S50000) : FA S512x128 :=
  Host.divf (F := Ideal) (poolOf h b)
    (broadcastInDim S512x128 ![0, 1] bcast_S512x1_S512x128_0_1
      (broadcastInDim S512x1 ![0] bcast_S512_S512x1_0
        (maximumf (countsOf b) (broadcastInDim S512 ![] bcast_S_S512 (constant (F := Ideal) S_ .f32 0x3F800000#32)))))

/-! ## The layers composed -/

/-- The pre-normalisation node features of a layer, from the layer's input features `h`, the table `vn` and
    the layer's perceptron: `mlp (hb + agg)` with `hb = h + vn[batch]`. -/
def hbOf (h : FA S50000x128) (vn : FA S512x128) (b : IA S50000) : FA S50000x128 := addf h (gatherVn vn b)

def zOf (hb : FA S50000x128) (e : FA S600000x128) (ei : IA S2x600000)
    (w1 : FA S128x128) (b1 : FA S128) (w2 : FA S128x128) (b2 : FA S128) : FA S50000x128 :=
  mlpOf (addf hb (aggOf (msgOf (gatherH hb (srcOf ei)) e) (dstOf ei))) w1 b1 w2 b2

/-- A layer's output node features. -/
def hNext (z : FA S50000x128) (g b : FA S128) : FA S50000x128 := normOf z (meanOf z) (varOf z) g b

/-- The table after a layer: the old table plus the per-graph perceptron of the per-graph sums. -/
def vnNext (vn : FA S512x128) (h : FA S50000x128) (b : IA S50000)
    (u1 : FA S128x128) (c1 : FA S128) (u2 : FA S128x128) (c2 : FA S128) : FA S512x128 :=
  addf vn (vnUpd (poolOf h b) u1 c1 u2 c2)

/-- All the inputs of the network. -/
structure Inputs where
  x : FA S50000x64
  ea : FA S600000x2
  pw : FA S64x128
  pb : FA S128
  ew : FA S2x128
  eb : FA S128
  cw1 : FA S3x128x128
  cb1 : FA S3x128
  cw2 : FA S3x128x128
  cb2 : FA S3x128
  gam : FA S3x128
  bet : FA S3x128
  vw1 : FA S128x128
  vb1 : FA S128
  vw2 : FA S128x128
  vb2 : FA S128
  ei : IA S2x600000
  bat : IA S50000

namespace Inputs
variable (I : Inputs)

def e : FA S600000x128 := lin1 I.ea I.ew I.eb
def h0 : FA S50000x128 := lin0 I.x I.pw I.pb
def hb0 : FA S50000x128 := hbOf I.h0 zeroVn I.bat
def z0 : FA S50000x128 := zOf I.hb0 I.e I.ei (w1_0 I.cw1) (row_0 I.cb1) (w1_0 I.cw2) (row_0 I.cb2)
def h1 : FA S50000x128 := hNext I.z0 (row_0 I.gam) (row_0 I.bet)
def vn1 : FA S512x128 := vnNext zeroVn I.h1 I.bat I.vw1 I.vb1 I.vw2 I.vb2
def hb1 : FA S50000x128 := hbOf I.h1 I.vn1 I.bat
def z1 : FA S50000x128 := zOf I.hb1 I.e I.ei (w1_1 I.cw1) (row_1 I.cb1) (w1_1 I.cw2) (row_1 I.cb2)
def h2 : FA S50000x128 := hNext I.z1 (row_1 I.gam) (row_1 I.bet)
def vn2 : FA S512x128 := vnNext I.vn1 I.h2 I.bat I.vw1 I.vb1 I.vw2 I.vb2
def hb2 : FA S50000x128 := hbOf I.h2 I.vn2 I.bat
def z2 : FA S50000x128 := zOf I.hb2 I.e I.ei (w1_2 I.cw1) (row_2 I.cb1) (w1_2 I.cw2) (row_2 I.cb2)
/-- The first result: the node features after the third layer. -/
def h3 : FA S50000x128 := hNext I.z2 (row_2 I.gam) (row_2 I.bet)
/-- The second result: their per-graph means. -/
def emb : FA S512x128 := embOf I.h3 I.bat

end Inputs

/-! ## The same stages as the tiled program is handed them: per-feature parameters arrive as `[1, 128]` rows -/

/-- A feature vector as a one-row matrix. -/
def row1 (v : FA S128) : FA S1x128 := broadcastInDim S1x128 ![1] bcast_S128_S1x128_1 v
/-- A one-row matrix repeated down N = 50000 rows. -/
def rowsN1 (r : FA S1x128) : FA S50000x128 := broadcastInDim S50000x128 ![0, 1] bcast_S1x128_S50000x128_0_1 r
/-- A one-row matrix repeated down E = 600000 rows. -/
def rowsE1 (r : FA S1x128) : FA S600000x128 := broadcastInDim S600000x128 ![0, 1] bcast_S1x128_S600000x128_0_1 r

theorem rowsN_eq (b : FA S128) : rowsN b = rowsN1 (row1 b) := rfl

/-- Node encoder with the bias as a row. -/
def linK0 (x : FA S50000x64) (w : FA S64x128) (b : FA S1x128) : FA S50000x128 :=
  addf (Host.dotGeneral (F := Ideal) dot_S50000x64_S64x128_S50000x128_1_0_0_1_n_n none x w) (rowsN1 b)
/-- Edge encoder with the bias as a row. -/
def linK1 (x : FA S600000x2) (w : FA S2x128) (b : FA S1x128) : FA S600000x128 :=
  addf (Host.dotGeneral (F := Ideal) dot_S600000x2_S2x128_S600000x128_1_0_0_1_n_n none x w) (rowsE1 b)

theorem lin0_eq (x : FA S50000x64) (w : FA S64x128) (b : FA S128) : lin0 x w b = linK0 x w (row1 b) := rfl
theorem lin1_eq (x : FA S600000x2) (w : FA S2x128) (b : FA S128) : lin1 x w b = linK1 x w (row1 b) := rfl

/-- The node perceptron of `hb + agg` with the biases as rows. -/
def mlpK (hb agg : FA S50000x128) (w1 : FA S128x128) (b1 : FA S1x128) (w2 : FA S128x128) (b2 : FA S1x128) : FA S50000x128 :=
  addf (Host.dotGeneral (F := Ideal) dot_S50000x128_S128x128_S50000x128_1_0_0_1_n_n none
      (reluN (addf (Host.dotGeneral (F := Ideal) dot_S50000x128_S128x128_S50000x128_1_0_0_1_n_n none (addf hb agg) w1) (rowsN1 b1))) w2)
    (rowsN1 b2)

theorem mlpOf_eq (hb agg : FA S50000x128) (w1 : FA S128x128) (b1 : FA S128) (w2 : FA S128x128) (b2 : FA S128) :
    mlpOf (addf hb agg) w1 b1 w2 b2 = mlpK hb agg w1 (row1 b1) w2 (row1 b2) := rfl

/-- Normalise, scale, shift and rectify with mean, variance, scale and shift as rows:
    `max ((z − μ) · (v + ε)^(-1/2) · γ + β) 0`. -/
def normK (z : FA S50000x128) (mu v g b : FA S1x128) : FA S50000x128 :=
  reluN (addf (mulf (mulf (subf z (rowsN1 mu))
      (rowsN1 (Host.rsqrt (F := Ideal) (addf v (broadcastInDim S1x128 ![] bcast_S_S1x128 (constant (F := Ideal) S_ .f32 0x3727C5AC#32))))))
      (rowsN1 g)) (rowsN1 b))

/-! ## What the precondition says of the inputs -/

/-- Every entry is a real number: neither infinity. -/
def AllReal {S : Shape} (a : FA S) : Prop := ∀ i, ∃ r : ℝ, a i = (r : EReal)

/-- Every entry, read as a signed number, lies in `[0, n)`. -/
def InRange {S : Shape} (n : ℕ) (a : IA S) : Prop := ∀ i, 0 ≤ (a i).toInt ∧ (a i).toInt < (n : ℤ)

/-- The inputs the claim is made for: every float entry a real number, every edge's source a node, every node's
    graph index a graph. -/
structure Inputs.Ok (I : Inputs) : Prop where
  x : AllReal I.x
  ea : AllReal I.ea
  pw : AllReal I.pw
  pb : AllReal I.pb
  ew : AllReal I.ew
  eb : AllReal I.eb
  cw1 : AllReal I.cw1
  cb1 : AllReal I.cb1
  cw2 : AllReal I.cw2
  cb2 : AllReal I.cb2
  gam : AllReal I.gam
  bet : AllReal I.bet
  vw1 : AllReal I.vw1
  vb1 : AllReal I.vb1
  vw2 : AllReal I.vw2
  vb2 : AllReal I.vb2
  src : InRange 50000 (srcOf I.ei)
  bat : InRange 512 I.bat

end Cert.Spec

end
-- ==== Proof.FoldEnv.lean ====
/-
  What the tiled program's buffers hold at four points of its run, as equations with the network's stages.

  The run's buffer contents are known at every boundary between its segments (a stretch of host operations, or a
  tiled region) as a fold from the launch memory.  At the boundary after the two encoders, after the first layer,
  after the second layer and at the end, the buffers that later segments still read hold: the arguments as launched,
  the edges' source and target indices, the edge features, the per-graph table and the node features of that depth.
-/
import proofs.«407958_j39685497815719_1_alg».proof.Proof.Gen.KernelIdeal.Frame
import proofs.«407958_j39685497815719_1_alg».proof.Proof.Spec

noncomputable section

namespace Cert.Fold

open Cert.KernelIdeal Cert.KernelIdeal.Gen
open Idealize.ShloMosaic Idealize.ShloMosaic.TcCoe Idealize.SL.Sem

variable [Cert.KernelIdeal.Facts] [Cert.ReferenceIdeal.Facts]

variable (m : (ℓ : Loc nD τ sig) → Buf (Elt Ideal) ℓ) (ρ : Dev nD → PrngReg) (c : Dev nD)

/-- The network's inputs as core `c`'s launch memory holds them. -/
def kInputs : Cert.Spec.Inputs where
  x := m ((c : Thread nD τ).loc main_arg0)
  ea := m ((c : Thread nD τ).loc main_arg1)
  pw := m ((c : Thread nD τ).loc main_arg2)
  pb := m ((c : Thread nD τ).loc main_arg3)
  ew := m ((c : Thread nD τ).loc main_arg4)
  eb := m ((c : Thread nD τ).loc main_arg5)
  cw1 := m ((c : Thread nD τ).loc main_arg6)
  cb1 := m ((c : Thread nD τ).loc main_arg7)
  cw2 := m ((c : Thread nD τ).loc main_arg8)
  cb2 := m ((c : Thread nD τ).loc main_arg9)
  gam := m ((c : Thread nD τ).loc main_arg10)
  bet := m ((c : Thread nD τ).loc main_arg11)
  vw1 := m ((c : Thread nD τ).loc main_arg12)
  vb1 := m ((c : Thread nD τ).loc main_arg13)
  vw2 := m ((c : Thread nD τ).loc main_arg14)
  vb2 := m ((c : Thread nD τ).loc main_arg15)
  ei := m ((c : Thread nD τ).loc main_arg16)
  bat := m ((c : Thread nD τ).loc main_arg17)

/-- Every argument buffer of a valuation holds what the launch memory held. -/
structure ArgsAt (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)
  a14 : W (Proc.devRef .tc main_arg14) = m ((c : Thread nD τ).loc main_arg14)
  a15 : W (Proc.devRef .tc main_arg15) = m ((c : Thread nD τ).loc main_arg15)
  a16 : W (Proc.devRef .tc main_arg16) = m ((c : Thread nD τ).loc main_arg16)
  a17 : W (Proc.devRef .tc main_arg17) = m ((c : Thread nD τ).loc main_arg17)

/-- After the two encoders (the boundary at the second region's exit). -/
structure Env4 : Prop where
  args : ArgsAt m c (W4 m ρ c)
  src : W4 m ρ c (Proc.devRef .tc main_v1) = Cert.Spec.srcOf (kInputs m c).ei
  dst : W4 m ρ c (Proc.devRef .tc main_v3) = Cert.Spec.dstOf (kInputs m c).ei
  h : W4 m ρ c (Proc.devRef .tc main_v5) = (kInputs m c).h0
  e : W4 m ρ c (Proc.devRef .tc main_v7) = (kInputs m c).e

/-- After the first layer (the boundary at the fifth region's exit): the table is still the zero table. -/
structure Env13 : Prop where
  args : ArgsAt m c (W13 m ρ c)
  src : W13 m ρ c (Proc.devRef .tc main_v1) = Cert.Spec.srcOf (kInputs m c).ei
  dst : W13 m ρ c (Proc.devRef .tc main_v3) = Cert.Spec.dstOf (kInputs m c).ei
  e : W13 m ρ c (Proc.devRef .tc main_v7) = (kInputs m c).e
  vn : W13 m ρ c (Proc.devRef .tc main_v8) = Cert.Spec.zeroVn
  h : W13 m ρ c (Proc.devRef .tc main_v43) = (kInputs m c).h1

/-- After the second layer (the boundary at the eighth region's exit). -/
structure Env24 : Prop where
  args : ArgsAt m c (W24 m ρ c)
  src : W24 m ρ c (Proc.devRef .tc main_v1) = Cert.Spec.srcOf (kInputs m c).ei
  dst : W24 m ρ c (Proc.devRef .tc main_v3) = Cert.Spec.dstOf (kInputs m c).ei
  e : W24 m ρ c (Proc.devRef .tc main_v7) = (kInputs m c).e
  vn : W24 m ρ c (Proc.devRef .tc main_v56) = (kInputs m c).vn1
  h : W24 m ρ c (Proc.devRef .tc main_v91) = (kInputs m c).h2

/-- At the end: the two results. -/
structure Env36 : Prop where
  h : W36 m ρ c (Proc.devRef .tc main_v139) = (kInputs m c).h3
  emb : W36 m ρ c (Proc.devRef .tc main_v151) = (kInputs m c).emb

end Cert.Fold

end
-- ==== Proof.PreFacts.lean ====
/-
  What the precondition says of the inputs, decoded.

  The precondition is one rank-0 bit: the conjunction of twenty "for all entries" tests, each a reduction by
  "and" of an array of bits over all of its axes.  Sixteen of them test a float input, entry by entry, for
  |x| < +∞; the other four test the edges' source indices (row 0 of the edge list) for 0 ≤ s and s < 50000, and the
  nodes' graph indices for 0 ≤ b and b < 512, as signed 32-bit numbers.

  A conjunction of bits is 1 only if each is; a reduction by "and" that comes out 1 met a 1 at every entry.  So the
  bit being 1 gives each test at each entry.  Over the extended reals |x| = max x (−x), and the bit pattern
  0x7F800000 denotes ⊤; max x (−x) < ⊤ rules out x = ⊤ and x = ⊥ (either makes the maximum ⊤), which leaves x a real
  number.  A signed comparison of 32-bit words is the comparison of the integers they denote, and the words 0, 50000
  and 512 denote 0, 50000 and 512.
-/
import proofs.«407958_j39685497815719_1_alg».proof.Defs
import proofs.«407958_j39685497815719_1_alg».proof.Proof.Spec
import proofs.«407958_j39685497815719_1_alg».proof.Proof.FoldEnv
import Idealize.ShloMosaic.Lib.ReduceAll

noncomputable section

namespace Cert.PreFacts

open Idealize.ShloMosaic Idealize.SL.Sem
open Cert.Spec (AllReal InRange)

/-- The scalar shape has exactly one index. -/
instance : Subsingleton (⟨0, ![]⟩ : Shape).Idx := ⟨fun a b => funext fun d => d.elim0⟩

/-! ## One entry -/

/-- An extended real whose absolute value max x (−x) is below ⊤ is a real number: at x = ⊤ the maximum is ⊤,
    and at x = ⊥ it is −⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-! ## One test over a whole array -/

/-- "All entries have |x| < +∞", as a reduction by "and" over every axis that came out 1: every entry is a real. -/
theorem allReal_of_all {S : Shape} {axes : List (Fin S.rank)} (x : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel) (j : (⟨0, ![]⟩ : Shape).Idx)
    (e : Host.reduce IntOp.andi
          (cmpf .olt (Host.absf x) (broadcastInDim S ![] hb (constant (F := Ideal) (⟨0, ![]⟩ : Shape) .f32 0x7F800000#32)))
          (constantI (⟨0, ![]⟩ : Shape) 1 1#1) hr hu j = 1#1) : AllReal x := by
  intro i
  -- the entry's own bit is 1
  have h := Host.reduce_andi_all _ _ hr hu j e i
  -- the pattern 0x7F800000 is +∞
  have htop : Ideal.ofBits .f32 0x7F800000#32 = ⊤ := by simp [Ideal.ofBits, Ideal.ieee]
  -- the bit is the truth value of max x (−x) < +∞
  change Ideal.cmp .olt (max (x i) (-(x i))) (Ideal.ofBits .f32 0x7F800000#32) = 1#1 at h
  rw [htop] at h
  unfold Ideal.cmp at h
  by_cases hlt : max (x i) (-(x i)) < ⊤
  · exact real_of_abs_lt_top _ hlt
  · simp [hlt] at h

/-- "All entries are ≥ 0" and "all entries are < n", each a reduction by "and" that came out 1, where the 32-bit word
    for n denotes n: every entry, read as a signed number, lies in [0, n). -/
theorem inRange_of_all {S : Shape} {axes : List (Fin S.rank)} (a : IVec S 32) (n : ℕ)
    (hn : (BitVec.ofNat 32 n).toInt = (n : ℤ))
    (hb : (⟨0, ![]⟩ : Shape).BroadcastsInDim S (![] : Fin 0 → Fin S.rank))
    (hr : S.ReducesTo axes (⟨0, ![]⟩ : Shape)) (hu : 0 < (⟨0, ![]⟩ : Shape).numel) (j : (⟨0, ![]⟩ : Shape).Idx)
    (e0 : Host.reduce IntOp.andi
          (cmpi .sge a (broadcastInDim S ![] hb (constantI (⟨0, ![]⟩ : Shape) 32 0#32)))
          (constantI (⟨0, ![]⟩ : Shape) 1 1#1) hr hu j = 1#1)
    (e1 : Host.reduce IntOp.andi
          (cmpi .slt a (broadcastInDim S ![] hb (constantI (⟨0, ![]⟩ : Shape) 32 (BitVec.ofNat 32 n))))
          (constantI (⟨0, ![]⟩ : Shape) 1 1#1) hr hu j = 1#1) : InRange n a := by
  intro i
  have h0 := Host.reduce_andi_all _ _ hr hu j e0 i
  have h1 := Host.reduce_andi_all _ _ hr hu j e1 i
  -- each bit is a signed comparison of the entry with the constant word
  change IntOp.cmpi .sge (a i) 0#32 = 1#1 at h0
  change IntOp.cmpi .slt (a i) (BitVec.ofNat 32 n) = 1#1 at h1
  rw [IntOp.cmpi_sge] at h0
  rw [IntOp.cmpi_slt, hn] at h1
  exact ⟨by simpa using h0, h1⟩

/-! ## The twenty tests together -/

section Decode
open Cert.Pre_finite_inputs
open Cert.Pre_finite_inputs.Facts
variable [Cert.ReferenceIdeal.Facts] [Cert.Pre_finite_inputs.Facts]

/-- The precondition's bit is 1 at a family of inputs: every float entry is a real, every source index a node, every
    graph index a graph. -/
theorem ok_of_fn (I : Cert.Spec.Inputs)
    (e : Cert.Pre_finite_inputs.fn (F := Ideal) I.x I.ea I.pw I.pb I.ew I.eb I.cw1 I.cb1 I.cw2 I.cb2 I.gam I.bet
          I.vw1 I.vb1 I.vw2 I.vb2 I.ei I.bat = fun _ => 1#1) : I.Ok := by
  -- the bit at the one index of the scalar shape
  have e0 := congrFun e (fun d => d.elim0)
  -- the printed function is a chain of bindings; unfolded, it is the conjunction of the twenty reductions
  dsimp only [Cert.Pre_finite_inputs.fn, fn_part1, fn_part2, fn_part3, fn_part4, fn_part5] at e0
  simp only [andi, IntOp.andi_eq_one] at e0
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, s0⟩, s1⟩, b0⟩, b1⟩ := e0
  exact
    { x := allReal_of_all _ _ _ _ _ h0
      ea := allReal_of_all _ _ _ _ _ h1
      pw := allReal_of_all _ _ _ _ _ h2
      pb := allReal_of_all _ _ _ _ _ h3
      ew := allReal_of_all _ _ _ _ _ h4
      eb := allReal_of_all _ _ _ _ _ h5
      cw1 := allReal_of_all _ _ _ _ _ h6
      cb1 := allReal_of_all _ _ _ _ _ h7
      cw2 := allReal_of_all _ _ _ _ _ h8
      cb2 := allReal_of_all _ _ _ _ _ h9
      gam := allReal_of_all _ _ _ _ _ h10
      bet := allReal_of_all _ _ _ _ _ h11
      vw1 := allReal_of_all _ _ _ _ _ h12
      vb1 := allReal_of_all _ _ _ _ _ h13
      vw2 := allReal_of_all _ _ _ _ _ h14
      vb2 := allReal_of_all _ _ _ _ _ h15
      -- row 0 of the edge list, reshaped, is the same array whichever module's shape evidence slices it
      src := inRange_of_all _ 50000 (by decide) _ _ _ _ s0 s1
      bat := inRange_of_all _ 512 (by decide) _ _ _ _ b0 b1 }

end Decode

/-! ## At the launch memory -/

/-- Under the precondition, the inputs that core c's launch memory holds are inputs the claim is made for. -/
theorem ok_of_pre [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.Fold.kInputs m c).Ok :=
  ok_of_fn (Cert.Fold.kInputs m c) (h c)

end Cert.PreFacts

end
-- ==== Proof.RefInputs.lean ====
/-
  The network's inputs as the plain program's launch memory holds them.
-/
import proofs.«407958_j39685497815719_1_alg».proof.ReferenceIdeal
import proofs.«407958_j39685497815719_1_alg».proof.Proof.Spec

noncomputable section

namespace Cert.RefInputs

open Cert.ReferenceIdeal
open Idealize.ShloMosaic Idealize.SL.Sem

variable [Cert.ReferenceIdeal.Facts]

/-- The network's inputs as core `c`'s launch memory holds them. -/
def inputsOf (m : (ℓ : Loc nD τ sig) → Buf (Elt Ideal) ℓ) (c : Dev nD) : Cert.Spec.Inputs where
  x := m ((c.tc : Thread nD τ).loc main_arg0)
  ea := m ((c.tc : Thread nD τ).loc main_arg1)
  pw := m ((c.tc : Thread nD τ).loc main_arg2)
  pb := m ((c.tc : Thread nD τ).loc main_arg3)
  ew := m ((c.tc : Thread nD τ).loc main_arg4)
  eb := m ((c.tc : Thread nD τ).loc main_arg5)
  cw1 := m ((c.tc : Thread nD τ).loc main_arg6)
  cb1 := m ((c.tc : Thread nD τ).loc main_arg7)
  cw2 := m ((c.tc : Thread nD τ).loc main_arg8)
  cb2 := m ((c.tc : Thread nD τ).loc main_arg9)
  gam := m ((c.tc : Thread nD τ).loc main_arg10)
  bet := m ((c.tc : Thread nD τ).loc main_arg11)
  vw1 := m ((c.tc : Thread nD τ).loc main_arg12)
  vb1 := m ((c.tc : Thread nD τ).loc main_arg13)
  vw2 := m ((c.tc : Thread nD τ).loc main_arg14)
  vb2 := m ((c.tc : Thread nD τ).loc main_arg15)
  ei := m ((c.tc : Thread nD τ).loc main_arg16)
  bat := m ((c.tc : Thread nD τ).loc main_arg17)

end Cert.RefInputs

end
-- ==== Proof.Assembly.lean ====
/-
  The claims assembled.

  The tiled program's run ends with its two results at what the last segment boundary holds, and the fold through the
  segments identifies those with the network's last node features and their per-graph means, as functions of the
  launch memory's inputs; the plain program's run ends at the same two functions of ITS launch memory's inputs; the two
  memories agree on the inputs.  The three frames are the runs with the results forgotten.
-/
import proofs.«407958_j39685497815719_1_alg».proof.Defs
import proofs.«407958_j39685497815719_1_alg».proof.Proof.Gen.Kernel.Frame
import proofs.«407958_j39685497815719_1_alg».proof.Proof.KernelRun
import proofs.«407958_j39685497815719_1_alg».proof.Proof.FoldEnv
import proofs.«407958_j39685497815719_1_alg».proof.Proof.PreFacts
import proofs.«407958_j39685497815719_1_alg».proof.Proof.RefInputs

noncomputable section

namespace Cert.Assembly

open Idealize.ShloMosaic Idealize.SL.Sem

variable [hK : Cert.Kernel.Facts] [hKI : Cert.KernelIdeal.Facts] [hRI : Cert.ReferenceIdeal.Facts] [hP : Cert.Pre_finite_inputs.Facts]

/-- What the plain program's run is shown to do: both results as the network's functions of the launch memory's
    inputs, the arguments unchanged. -/
def RefRunStatement : Prop :=
  ∀ (m' : (ℓ : Loc Cert.ReferenceIdeal.nD Cert.ReferenceIdeal.τ Cert.ReferenceIdeal.sig) → Buf (Elt Ideal) ℓ)
    (ρ' : Dev Cert.ReferenceIdeal.nD → PrngReg),
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v224) = (Cert.RefInputs.inputsOf m' c).h3
        ∧ r.2.mem ((c.tc : Thread Cert.ReferenceIdeal.nD Cert.ReferenceIdeal.τ).loc Cert.ReferenceIdeal.main_v236) = (Cert.RefInputs.inputsOf m' c).emb
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

/-- The plain program's frame: its run with the two results forgotten. -/
theorem frame_ref (href : RefRunStatement) : Cert.frame_ReferenceIdeal :=
  fun m' ρ' _ => (θ_run _ _ _).mono (fun _ h c => (h c).2.2) (href m' ρ')

/-- Memories that agree on the eighteen arguments hold the same inputs of the network. -/
theorem inputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.RefInputs.inputsOf m' c = Cert.Fold.kInputs m c := by
  obtain ⟨h0, h1, h2, h3, h4, h5, h6, h7, h8, h9, h10, h11, h12, h13, h14, h15, h16, h17⟩ := h
  unfold Cert.RefInputs.inputsOf Cert.Fold.kInputs
  rw [Cert.Spec.Inputs.mk.injEq]
  exact ⟨h0, h1, h2, h3, h4, h5, h6, h7, h8, h9, h10, h11, h12, h13, h14, h15, h16, h17⟩

/-- The two programs end with equal results: both runs, side by side. -/
theorem algebraic_of
    (henv : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      (Cert.Fold.kInputs m c).Ok → Cert.Fold.Env36 m ρ c)
    (href : RefRunStatement) : Cert.algebraic_KernelIdeal_ReferenceIdeal := by
  intro m ρ m' ρ' hpre hagree
  refine ⟨fun c => (Cert.Fold.kInputs m c).h3, fun c => (Cert.Fold.kInputs m c).emb, ?_, ?_⟩
  · refine (θ_run _ _ _).mono (fun r h c => ?_) (Cert.KernelIdeal.RunValues.run (F := Ideal) m ρ)
    have e := henv m ρ c (Cert.PreFacts.ok_of_pre m hpre c)
    exact ⟨(h c).1.trans e.h, (h c).2.1.trans e.emb, (h c).2.2⟩
  · refine (θ_run _ _ _).mono (fun r h c => ?_) (href m' ρ')
    have hI := inputs_agree m m' c (hagree c)
    exact ⟨(h c).1.trans (by rw [hI]), (h c).2.1.trans (by rw [hI]), (h c).2.2⟩

/-- Everything claimed, from the fold's last bundle and the plain program's run. -/
theorem claim_of
    (henv : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      (Cert.Fold.kInputs m c).Ok → Cert.Fold.Env36 m ρ c)
    (href : RefRunStatement) :
    Cert.frame_Kernel ∧ Cert.frame_KernelIdeal ∧ Cert.frame_ReferenceIdeal ∧ Cert.preserves_Kernel_KernelIdeal
      ∧ Cert.algebraic_KernelIdeal_ReferenceIdeal :=
  ⟨fun m ρ _ => Cert.Kernel.Gen.frame m ρ, fun m ρ _ => Cert.KernelIdeal.Gen.frame m ρ, frame_ref href, trivial,
    algebraic_of henv href⟩

end Cert.Assembly

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.LibVariance.lean ====
/-
  The two forms of the variance, in the extended reals.

  For real numbers z_1, …, z_n with mean m = (Σ z_i) / n, the mean of the squared deviations
  (Σ (z_i − m)²) / n equals the mean of the squares less the square of the mean, (Σ z_i²) / n − m².
  Both sides are stated here with the extended reals' operations — a sum of coerced reals, a difference, a
  product, and the quotient by a nonzero real read as the product with its reciprocal — as a program computes
  them when every datum is a real number.  The proofs move every coercion outward, settle the identity among
  the reals, and move back.
-/
import Mathlib.Data.EReal.Inv
import Mathlib.Algebra.BigOperators.Group.Finset.Basic
import Mathlib.Algebra.BigOperators.Ring.Finset
import Mathlib.Algebra.Order.BigOperators.Group.Finset
import Mathlib.Tactic.FieldSimp
import Mathlib.Tactic.Ring
import Mathlib.Tactic.Positivity
import Mathlib.Tactic.NormNum
import Mathlib.Tactic.Choose
import Idealize.ShloMosaic.PureOps.Ideal
import Idealize.ShloMosaic.PureOps.Ideal.Laws
import Idealize.ShloMosaic.Lib.ValueIdx
import Idealize.ShloMosaic.Lib.Pipeline.Value
import proofs.«407958_j39685497815719_1_alg».proof.Proof.Spec
import proofs.«407958_j39685497815719_1_alg».proof.Proof.LibReal

noncomputable section

namespace Cert.LibVariance

open Idealize.ShloMosaic
open scoped BigOperators

variable {ι : Type*}

/-! ## Sums and quotients of coerced reals -/

/-- A finite sum of reals, each read as an extended real, is the real sum read as an extended real. -/
theorem coe_sum (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real, taken in the extended reals, is the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- The mean of finitely many reals, computed in the extended reals, is their real mean. -/
theorem mean_coe_finset (s : Finset ι) (z : ι → ℝ) {n : ℝ} (hn : n ≠ 0) :
    Ideal.div (∑ i ∈ s, (z i : EReal)) (n : EReal) = (((∑ i ∈ s, z i) / n : ℝ) : EReal) := by
  rw [coe_sum, div_coe_coe _ hn]

/-- The mean of the squares, computed in the extended reals, is the real mean of the squares. -/
theorem meanSq_coe_finset (s : Finset ι) (z : ι → ℝ) {n : ℝ} (hn : n ≠ 0) :
    Ideal.div (∑ i ∈ s, (z i : EReal) * (z i : EReal)) (n : EReal)
      = (((∑ i ∈ s, z i * z i) / n : ℝ) : EReal) := by
  simp only [← EReal.coe_mul]
  rw [coe_sum, div_coe_coe _ hn]

/-- The mean of the squared deviations from the mean, computed in the extended reals, is the real one. -/
theorem devSq_coe_finset (s : Finset ι) (z : ι → ℝ) {n : ℝ} (hn : n ≠ 0) :
    Ideal.div (∑ i ∈ s, ((z i : EReal) - Ideal.div (∑ i ∈ s, (z i : EReal)) (n : EReal))
        * ((z i : EReal) - Ideal.div (∑ i ∈ s, (z i : EReal)) (n : EReal))) (n : EReal)
      = (((∑ i ∈ s, (z i - (∑ i ∈ s, z i) / n) * (z i - (∑ i ∈ s, z i) / n)) / n : ℝ) : EReal) := by
  rw [mean_coe_finset s z hn]
  simp only [← EReal.coe_sub, ← EReal.coe_mul]
  rw [coe_sum, div_coe_coe _ hn]

/-! ## The identity among the reals -/

/-- Among the reals: with `m = (Σ z) / n` and `n` the number of terms,
    `(Σ (z − m)²) / n = (Σ z²) / n − m²`.  Expanding the square, the cross term is `−2 m · Σ z = −2 n m²` and the
    constant term sums to `n m²`. -/
theorem real_var_two_forms (s : Finset ι) (z : ι → ℝ) {n : ℝ} (hn : n ≠ 0) (hc : (s.card : ℝ) = n) :
    (∑ i ∈ s, (z i - (∑ i ∈ s, z i) / n) * (z i - (∑ i ∈ s, z i) / n)) / n
      = (∑ i ∈ s, z i * z i) / n - (∑ i ∈ s, z i) / n * ((∑ i ∈ s, z i) / n) := by
  generalize hS : ∑ i ∈ s, z i = S
  have hexp : ∀ i, (z i - S / n) * (z i - S / n) = z i * z i - 2 * (S / n) * z i + S / n * (S / n) :=
    fun i => by ring
  have h1 : ∑ i ∈ s, (z i - S / n) * (z i - S / n)
      = ∑ i ∈ s, z i * z i - 2 * (S / n) * S + n * (S / n * (S / n)) := by
    simp only [hexp]
    rw [Finset.sum_add_distrib, Finset.sum_sub_distrib, ← Finset.mul_sum, hS, Finset.sum_const, nsmul_eq_mul, hc]
  rw [h1]
  field_simp
  ring

/-- Among the reals, a mean of squares over a positive count is not negative. -/
theorem real_devSq_nonneg (s : Finset ι) (w : ι → ℝ) {n : ℝ} (hn : 0 < n) :
    0 ≤ (∑ i ∈ s, w i * w i) / n :=
  div_nonneg (Finset.sum_nonneg fun i _ => mul_self_nonneg (w i)) hn.le

/-! ## The two forms agree, over a finite set of indices -/

/-- **The two forms of the variance agree** on real data, in the extended reals, over a finite set `s` of
    `n` indices: the mean of the squared deviations from the mean is the mean of the squares less the square of
    the mean. -/
theorem var_two_forms_finset (s : Finset ι) (z : ι → ℝ) {n : ℝ} (hn : n ≠ 0) (hc : (s.card : ℝ) = n) :
    Ideal.div (∑ i ∈ s, ((z i : EReal) - Ideal.div (∑ i ∈ s, (z i : EReal)) (n : EReal))
        * ((z i : EReal) - Ideal.div (∑ i ∈ s, (z i : EReal)) (n : EReal))) (n : EReal)
      = Ideal.div (∑ i ∈ s, (z i : EReal) * (z i : EReal)) (n : EReal)
        - Ideal.div (∑ i ∈ s, (z i : EReal)) (n : EReal) * Ideal.div (∑ i ∈ s, (z i : EReal)) (n : EReal) := by
  rw [devSq_coe_finset s z hn, meanSq_coe_finset s z hn, mean_coe_finset s z hn, ← EReal.coe_mul, ← EReal.coe_sub,
    real_var_two_forms s z hn hc]

/-- The first form of the variance of real data is the coercion of a real that is not negative. -/
theorem var_coe_nonneg_finset (s : Finset ι) (z : ι → ℝ) {n : ℝ} (hn : n ≠ 0) (hc : (s.card : ℝ) = n) :
    ∃ v : ℝ, 0 ≤ v ∧
      Ideal.div (∑ i ∈ s, ((z i : EReal) - Ideal.div (∑ i ∈ s, (z i : EReal)) (n : EReal))
        * ((z i : EReal) - Ideal.div (∑ i ∈ s, (z i : EReal)) (n : EReal))) (n : EReal) = (v : EReal) := by
  have hpos : 0 < n := lt_of_le_of_ne (hc ▸ Nat.cast_nonneg s.card) (Ne.symm hn)
  exact ⟨_, real_devSq_nonneg s (fun i => z i - (∑ i ∈ s, z i) / n) hpos, devSq_coe_finset s z hn⟩

/-- The first form of the variance of real data, plus a positive real, is a positive real. -/
theorem var_nonneg_real_finset (s : Finset ι) (z : ι → ℝ) {n : ℝ} (hn : n ≠ 0) (hc : (s.card : ℝ) = n)
    {ε : ℝ} (hε : 0 < ε) :
    ∃ r : ℝ, 0 < r ∧
      Ideal.div (∑ i ∈ s, ((z i : EReal) - Ideal.div (∑ i ∈ s, (z i : EReal)) (n : EReal))
        * ((z i : EReal) - Ideal.div (∑ i ∈ s, (z i : EReal)) (n : EReal))) (n : EReal) + (ε : EReal)
        = (r : EReal) := by
  obtain ⟨v, hv, he⟩ := var_coe_nonneg_finset s z hn hc
  exact ⟨v + ε, by positivity, by rw [he, ← EReal.coe_add]⟩

/-! ## The same over a finite index type -/

variable [Fintype ι]

/-- The mean of real data indexed by a finite type, computed in the extended reals, is the real mean. -/
theorem mean_coe (z : ι → ℝ) {n : ℝ} (hn : n ≠ 0) :
    Ideal.div (∑ i, (z i : EReal)) (n : EReal) = (((∑ i, z i) / n : ℝ) : EReal) :=
  mean_coe_finset Finset.univ z hn

/-- **The two forms of the variance agree** on real data indexed by a finite type of `n` elements. -/
theorem var_two_forms (z : ι → ℝ) {n : ℝ} (hn : n ≠ 0) (hc : (Fintype.card ι : ℝ) = n) :
    Ideal.div (∑ i, ((z i : EReal) - Ideal.div (∑ i, (z i : EReal)) (n : EReal))
        * ((z i : EReal) - Ideal.div (∑ i, (z i : EReal)) (n : EReal))) (n : EReal)
      = Ideal.div (∑ i, (z i : EReal) * (z i : EReal)) (n : EReal)
        - Ideal.div (∑ i, (z i : EReal)) (n : EReal) * Ideal.div (∑ i, (z i : EReal)) (n : EReal) :=
  var_two_forms_finset Finset.univ z hn (by rw [Finset.card_univ]; exact hc)

/-- The first form of the variance of real data indexed by a finite type is a real that is not negative. -/
theorem var_coe_nonneg (z : ι → ℝ) {n : ℝ} (hn : n ≠ 0) (hc : (Fintype.card ι : ℝ) = n) :
    ∃ v : ℝ, 0 ≤ v ∧
      Ideal.div (∑ i, ((z i : EReal) - Ideal.div (∑ i, (z i : EReal)) (n : EReal))
        * ((z i : EReal) - Ideal.div (∑ i, (z i : EReal)) (n : EReal))) (n : EReal) = (v : EReal) :=
  var_coe_nonneg_finset Finset.univ z hn (by rw [Finset.card_univ]; exact hc)

/-- The first form of the variance of real data indexed by a finite type, plus a positive real, is a
    positive real. -/
theorem var_nonneg_real (z : ι → ℝ) {n : ℝ} (hn : n ≠ 0) (hc : (Fintype.card ι : ℝ) = n) {ε : ℝ} (hε : 0 < ε) :
    ∃ r : ℝ, 0 < r ∧
      Ideal.div (∑ i, ((z i : EReal) - Ideal.div (∑ i, (z i : EReal)) (n : EReal))
        * ((z i : EReal) - Ideal.div (∑ i, (z i : EReal)) (n : EReal))) (n : EReal) + (ε : EReal)
        = (r : EReal) :=
  var_nonneg_real_finset Finset.univ z hn (by rw [Finset.card_univ]; exact hc) hε

end Cert.LibVariance

/-! ## The column statistics of the network's normalisation

  Each layer normalises every one of the 128 feature columns of a `[50000, 128]` array by the column's mean and
  variance over the 50000 rows.  Below, the column sum, the mean and the variance that the plain program computes
  are read at a column as sums over the rows, and — when every entry of the array is a real number — the
  variance is given in its second form, shown to be a real that is not negative, and shown to stay a positive
  real when the stabilising constant is added. -/

namespace Cert.LibVariance

open Idealize.ShloMosaic Idealize.ShloMosaic.ValueIdx Cert.ReferenceIdeal
open scoped BigOperators

variable [Cert.ReferenceIdeal.Facts]
open Cert.ReferenceIdeal.Facts₀ Cert.ReferenceIdeal.Facts

/-- The normaliser of the variance is 50000 − 0 = 50000, at its one index. -/
theorem varDen_apply (i : S_.Idx) : Cert.Spec.varDen i = ((50000 : ℝ) : EReal) := by
  show Ideal.ofBits .f32 0x47435000#32 - ((((0#32 : BitVec 32).toInt : ℤ) : ℝ) : EReal) = _
  rw [Cert.LibReal.ofBits_50000]
  simp

/-! ### Sums down the rows -/

/-- The shape fact of a sum down the rows of a `[50000, 128]` array, in the form that names the inserted row. -/
theorem reducesRows : S50000x128.Reduces [0] S128 := by decide

/-- The index over column `c` with row `k` inserted is `(k, c)`. -/
theorem lift_rows (c : Fin 128) (k : Fin 50000) : reducesRows.lift (ix1 c) k = ix2 k c := by
  funext a
  match a with
  | ⟨0, _⟩ => rfl
  | ⟨1, _⟩ => rfl

/-- A sum down the rows from the zero word, read at column `c`: the sum over the 50000 rows of the entries of that
    column. -/
theorem rowsSum_apply (x : Cert.Spec.FA S50000x128) (c : Fin 128) :
    Host.reduceAdd (F := Ideal) x (constant (F := Ideal) S_ .f32 0x00000000#32) reducesTo_S50000x128_S128_d0 h_S_ (ix1 c)
      = ∑ k : Fin 50000, x (ix2 k c) := by
  show Ideal.hostReduceAdd reducesTo_S50000x128_S128_d0 x (Ideal.ofBits .f32 0x00000000#32) (ix1 c) = _
  rw [Ideal.hostReduceAdd_single reducesTo_S50000x128_S128_d0 reducesRows, Ideal.ofBits_zero_f32, zero_add]
  exact Finset.sum_congr rfl fun k _ => congrArg x (lift_rows c k)

/-- The column sum at column `c`. -/
theorem colSum_apply (z : Cert.Spec.FA S50000x128) (c : Fin 128) :
    Cert.Spec.colSum z (ix1 c) = ∑ k : Fin 50000, z (ix2 k c) :=
  rowsSum_apply z c

/-- The column mean at column `c`: the column's sum over 50000. -/
theorem meanOf_apply (z : Cert.Spec.FA S50000x128) (c : Fin 128) :
    Cert.Spec.meanOf z (ix1 c) = Ideal.div (∑ k : Fin 50000, z (ix2 k c)) ((50000 : ℝ) : EReal) := by
  show Ideal.div (Cert.Spec.colSum z (ix1 c)) (Ideal.ofBits .f32 0x47435000#32) = _
  rw [colSum_apply, Cert.LibReal.ofBits_50000]

/-- The row of means, repeated down the 50000 rows as the variance's stretch of the program builds it (the sums as one
    row, divided by a row of 50000s, then repeated), reads at `(k, c)` the mean of column `c`. -/
theorem meanRows_apply (z : Cert.Spec.FA S50000x128) (k : Fin 50000) (c : Fin 128) :
    broadcastInDim S50000x128 ![0, 1] bcast_S1x128_S50000x128_0_1
        (Host.divf (F := Ideal) (broadcastInDim S1x128 ![1] bcast_S128_S1x128_1 (Cert.Spec.colSum z))
          (broadcastInDim S1x128 ![] bcast_S_S1x128 (constant (F := Ideal) S_ .f32 0x47435000#32))) (ix2 k c)
      = Cert.Spec.meanOf z (ix1 c) := by
  rw [broadcastInDim_apply _ _ _ (ix2 k c) (ix2 (0 : Fin 1) c)
    (fun a => match a with | ⟨0, _⟩ => rfl | ⟨1, _⟩ => rfl)]
  show Ideal.div (broadcastInDim S1x128 ![1] bcast_S128_S1x128_1 (Cert.Spec.colSum z) (ix2 (0 : Fin 1) c))
      (Ideal.ofBits .f32 0x47435000#32) = Ideal.div (Cert.Spec.colSum z (ix1 c)) (Ideal.ofBits .f32 0x47435000#32)
  rw [broadcastInDim_apply _ _ _ (ix2 (0 : Fin 1) c) (ix1 c) (fun a => match a with | ⟨0, _⟩ => rfl)]

/-- The variance's guard holds: 50000 − 0 exceeds 0, so the comparison's bit, repeated over the columns, is set. -/
theorem varGuard_apply (j : S128.Idx) :
    broadcastInDim S128 ![] bcast_S_S128
        (cmpf (F := Ideal) .ogt Cert.Spec.varDen (constant (F := Ideal) S_ .f32 0x00000000#32)) j = 1#1 := by
  show Ideal.cmp .ogt (Cert.Spec.varDen _) (Ideal.ofBits .f32 0x00000000#32) = 1#1
  rw [varDen_apply, Ideal.ofBits_zero_f32]
  have h : (0 : EReal) < ((50000 : ℝ) : EReal) := EReal.coe_pos.mpr (by norm_num)
  simp [Ideal.cmp, h]

/-- The column variance at column `c`: the guard passed, it is the sum over the rows of the squared deviations from the
    column's mean, over 50000. -/
theorem varOf_apply (z : Cert.Spec.FA S50000x128) (c : Fin 128) :
    Cert.Spec.varOf z (ix1 c)
      = Ideal.div (∑ k : Fin 50000, (z (ix2 k c) - Cert.Spec.meanOf z (ix1 c)) * (z (ix2 k c) - Cert.Spec.meanOf z (ix1 c)))
          ((50000 : ℝ) : EReal) := by
  unfold Cert.Spec.varOf
  rw [select_apply, varGuard_apply]
  show Ideal.div (Host.reduceAdd (F := Ideal) _ (constant (F := Ideal) S_ .f32 0x00000000#32)
      reducesTo_S50000x128_S128_d0 h_S_ (ix1 c)) (Cert.Spec.varDen _) = _
  rw [rowsSum_apply, varDen_apply]
  refine congrArg (fun s : EReal => Ideal.div s ((50000 : ℝ) : EReal)) ?_
  refine Finset.sum_congr rfl fun k _ => ?_
  exact congrArg (fun m : EReal => (z (ix2 k c) - m) * (z (ix2 k c) - m)) (meanRows_apply z k c)

/-! ### On real data -/

/-- The column means of an array of reals are reals. -/
theorem meanOf_real {z : Cert.Spec.FA S50000x128} (hz : Cert.Spec.AllReal z) : Cert.Spec.AllReal (Cert.Spec.meanOf z) := by
  intro j
  obtain ⟨c, rfl⟩ : ∃ c : Fin 128, j = ix1 c := ⟨j 0, eq_ix1 j⟩
  choose r hr using hz
  refine ⟨(∑ k : Fin 50000, r (ix2 k c)) / 50000, ?_⟩
  rw [meanOf_apply]
  simp only [hr]
  exact mean_coe (fun k : Fin 50000 => r (ix2 k c)) (by norm_num)

/-- **The variance in its second form**: on an array of reals, the variance of column `j` is the mean of the column's
    squares less the square of the column's mean. -/
theorem varOf_eq_two_forms {z : Cert.Spec.FA S50000x128} (hz : Cert.Spec.AllReal z) (j : S128.Idx) :
    Cert.Spec.varOf z j
      = Ideal.div (Cert.Spec.colSum (mulf z z) j) ((50000 : ℝ) : EReal) - Cert.Spec.meanOf z j * Cert.Spec.meanOf z j := by
  obtain ⟨c, rfl⟩ : ∃ c : Fin 128, j = ix1 c := ⟨j 0, eq_ix1 j⟩
  choose r hr using hz
  rw [varOf_apply, colSum_apply, meanOf_apply]
  simp only [mulf_apply, hr]
  exact var_two_forms (fun k : Fin 50000 => r (ix2 k c)) (by norm_num) (by simp)

/-- On an array of reals, the variance of every column is a real that is not negative. -/
theorem varOf_coe_nonneg {z : Cert.Spec.FA S50000x128} (hz : Cert.Spec.AllReal z) (j : S128.Idx) :
    ∃ v : ℝ, 0 ≤ v ∧ Cert.Spec.varOf z j = (v : EReal) := by
  obtain ⟨c, rfl⟩ : ∃ c : Fin 128, j = ix1 c := ⟨j 0, eq_ix1 j⟩
  choose r hr using hz
  rw [varOf_apply, meanOf_apply]
  simp only [hr]
  exact var_coe_nonneg (fun k : Fin 50000 => r (ix2 k c)) (by norm_num) (by simp)

/-- The column variances of an array of reals are reals. -/
theorem varOf_real {z : Cert.Spec.FA S50000x128} (hz : Cert.Spec.AllReal z) : Cert.Spec.AllReal (Cert.Spec.varOf z) :=
  fun j => let ⟨v, _, hv⟩ := varOf_coe_nonneg hz j; ⟨v, hv⟩

/-- On an array of reals, the variance of every column plus the stabilising constant is a positive real: the
    reciprocal square root taken of it next is that of a positive real. -/
theorem varOf_add_eps_pos {z : Cert.Spec.FA S50000x128} (hz : Cert.Spec.AllReal z) (j : S128.Idx) :
    ∃ r : ℝ, 0 < r ∧ Cert.Spec.varOf z j + Ideal.ofBits .f32 0x3727C5AC#32 = (r : EReal) := by
  obtain ⟨v, hv, he⟩ := varOf_coe_nonneg hz j
  exact ⟨v + 10995116 / 2 ^ 40, add_pos_of_nonneg_of_pos hv Cert.LibReal.eps_pos,
    by rw [he, Cert.LibReal.ofBits_eps, ← EReal.coe_add]⟩

end Cert.LibVariance

end
-- ==== Proof.Glue.lean ====
/-
  Small identities between the tiled program's layout of per-feature data and the plain program's.

  The tiled program hands its kernels every per-feature vector as a one-row matrix made by a reshape, and computes
  the mean and the variance on such rows: the running sums over 50000, the second moment less the squared mean,
  each reshaped to a vector and back.  The plain program works on vectors.  On real data the two agree.

  A one-row matrix has the indices `(0, j)`, and the row-major position of `(0, j)` is `j`: so a vector reshaped to
  a row and the vector repeated along a new leading axis of length 1 both read the vector at `j`, and reshaping a row
  to a vector and back changes nothing.  The mean and the variance are then compared entry by entry: both sides
  divide the same column sum by the same constant 50000, and the variance's two forms (the mean of the squared
  deviations; the second moment less the squared mean) agree on real data.
-/
import proofs.«407958_j39685497815719_1_alg».proof.KernelIdeal
import proofs.«407958_j39685497815719_1_alg».proof.Proof.Spec
import proofs.«407958_j39685497815719_1_alg».proof.Proof.LibReal
import proofs.«407958_j39685497815719_1_alg».proof.Proof.LibVariance
import Idealize.ShloMosaic.Lib.Pipeline.Value
import Idealize.ShloMosaic.Lib.ValueIdx
import Idealize.ShloMosaic.Lib.ValueLayout
import Idealize.ShloMosaic.Lib.IdealHost

noncomputable section

namespace Cert.Glue

open Idealize.ShloMosaic Idealize.ShloMosaic.ValueIdx Cert.KernelIdeal

variable [Cert.KernelIdeal.Facts] [Cert.ReferenceIdeal.Facts]
open Cert.KernelIdeal.Facts₀ Cert.KernelIdeal.Facts

/-! ## Reading a one-row matrix -/

/-- Every index of a one-row matrix is `(u, j)`, with `u` the only row and `j` a column. -/
private theorem idx_row (i : S1x128.Idx) : ∃ (u : Fin 1) (j : Fin 128), i = ix2 u j := ⟨i 0, i 1, eq_ix2 i⟩

/-- The one-row form of a vector reads, at `(u, j)`, the vector at `j`. -/
theorem row1_apply (v : FVec Ideal S128 .f32) (u : Fin 1) (j : Fin 128) :
    Cert.Spec.row1 v (ix2 u j) = v (ix1 j) := by
  unfold Cert.Spec.row1
  refine broadcastInDim_apply _ _ v (ix2 u j) (ix1 j) ?_
  intro a
  match a with
  | ⟨0, _⟩ => rfl

/-- A feature vector reshaped to one row is its one-row form. -/
theorem reshape_row (v : FVec Ideal S128 .f32) : shapeCast S1x128 v shapeCasts_S128_S1x128 = Cert.Spec.row1 v := by
  funext i
  obtain ⟨u, j, rfl⟩ := idx_row i
  rw [row1_apply]
  exact shapeCast_a_1a_apply v _ u j

/-- A row reshaped to a vector and back is itself. -/
theorem row_roundtrip (r : FVec Ideal S1x128 .f32) :
    shapeCast S1x128 (shapeCast S128 r shapeCasts_S1x128_S128) shapeCasts_S128_S1x128 = r := by
  funext i
  obtain ⟨u, j, rfl⟩ := idx_row i
  refine (shapeCast_a_1a_apply _ _ u j).trans ?_
  refine (shapeCast_1a_a_apply r _ j).trans ?_
  rw [Subsingleton.elim u 0]

/-! ## The mean and the variance on rows -/

/-- The constant 50000 spread over a row reads 50000 everywhere. -/
private theorem n_row_apply (i : S1x128.Idx) :
    broadcastInDim S1x128 ![] bcast_S_S1x128 (constant (F := Ideal) S_ .f32 0x47435000#32) i = ((50000 : ℝ) : EReal) := by
  rw [← Cert.LibReal.ofBits_50000]; rfl

/-- The mean of column `j` is the column's sum over 50000. -/
private theorem meanOf_apply (z : FVec Ideal S50000x128 .f32) (j : S128.Idx) :
    Cert.Spec.meanOf z j = Ideal.div (Cert.Spec.colSum z j) ((50000 : ℝ) : EReal) := by
  rw [← Cert.LibReal.ofBits_50000]; rfl

/-- The row of column sums over 50000, reshaped to a vector and back, is the row of the column means. -/
theorem mean_row (z : FVec Ideal S50000x128 .f32) :
    shapeCast S1x128 (shapeCast S128
      (Host.divf (F := Ideal) (Cert.Spec.row1 (Cert.Spec.colSum z))
        (broadcastInDim S1x128 ![] bcast_S_S1x128 (constant (F := Ideal) S_ .f32 0x47435000#32)))
      shapeCasts_S1x128_S128) shapeCasts_S128_S1x128
    = Cert.Spec.row1 (Cert.Spec.meanOf z) := by
  rw [row_roundtrip]
  funext i
  obtain ⟨u, j, rfl⟩ := idx_row i
  rw [row1_apply, meanOf_apply, hostDivf_apply, n_row_apply, row1_apply]

/-- On real data the second moment less the squared mean, computed on rows, is the row of the column variances. -/
theorem var_row (z : FVec Ideal S50000x128 .f32) (hz : Cert.Spec.AllReal z) :
    shapeCast S1x128 (shapeCast S128
      (subf
        (Host.divf (F := Ideal) (Cert.Spec.row1 (Cert.Spec.colSum (mulf z z)))
          (broadcastInDim S1x128 ![] bcast_S_S1x128 (constant (F := Ideal) S_ .f32 0x47435000#32)))
        (mulf
          (Host.divf (F := Ideal) (Cert.Spec.row1 (Cert.Spec.colSum z))
            (broadcastInDim S1x128 ![] bcast_S_S1x128 (constant (F := Ideal) S_ .f32 0x47435000#32)))
          (Host.divf (F := Ideal) (Cert.Spec.row1 (Cert.Spec.colSum z))
            (broadcastInDim S1x128 ![] bcast_S_S1x128 (constant (F := Ideal) S_ .f32 0x47435000#32)))))
      shapeCasts_S1x128_S128) shapeCasts_S128_S1x128
    = Cert.Spec.row1 (Cert.Spec.varOf z) := by
  rw [row_roundtrip]
  funext i
  obtain ⟨u, j, rfl⟩ := idx_row i
  have hv : Cert.Spec.varOf z (ix1 j)
      = Ideal.div (Cert.Spec.colSum (mulf z z) (ix1 j)) ((50000 : ℝ) : EReal)
        - Cert.Spec.meanOf z (ix1 j) * Cert.Spec.meanOf z (ix1 j) := Cert.LibVariance.varOf_eq_two_forms (z := z) hz (ix1 j)
  rw [row1_apply, hv, meanOf_apply, subf_apply, mulf_apply, hostDivf_apply, hostDivf_apply,
    n_row_apply, row1_apply, row1_apply]

end Cert.Glue

end
-- ==== Proof.RegionLin.lean ====
/-
  The two encoder regions: after all its grid points a region's output array is the whole product plus the bias row, as one function of the arrays the region was entered with.
-/
import proofs.«407958_j39685497815719_1_alg».proof.Proof.Gen.KernelIdeal.Frame
import proofs.«407958_j39685497815719_1_alg».proof.Proof.Spec
import Idealize.ShloMosaic.Lib.KernelVsHost
import Idealize.ShloMosaic.Lib.ValueIdx
import Idealize.ShloMosaic.Lib.Pipeline.Value
import Idealize.ShloMosaic.PureOps.Ideal.Laws

set_option maxRecDepth 16384

noncomputable section

namespace Cert.RegionLin

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The index maps, decided over the grids -/

/-- The index maps over the 25 points: the row blocks of x and of the output move with the point, the matrix and the
    bias row stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The index maps over the 100 points: the row blocks of a and of the output move with the point, the matrix and
    the bias row stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable [Cert.KernelIdeal.Facts] [Cert.ReferenceIdeal.Facts]

/-! ## The block product and the whole product, entry by entry -/

abbrev dBlk0 := Cert.KernelIdeal.dot_S2000x64_S64x128_S2000x128_1_0_0_1_n_n
abbrev dAll0 := Cert.ReferenceIdeal.dot_S50000x64_S64x128_S50000x128_1_0_0_1_n_n

theorem lhsBlk0_0 (j : S2000x128.Idx) (k : dBlk0.contr.Idx) : (dBlk0.lhsIdx j k 0 : ℕ) = j 0 := by
  simp [DotDims.lhsIdx, dBlk0, Cert.KernelIdeal.dot_S2000x64_S64x128_S2000x128_1_0_0_1_n_n]; rfl
theorem lhsBlk0_1 (j : S2000x128.Idx) (k : Fin 64) :
    (dBlk0.lhsIdx j ((contrEquiv1 dBlk0 64 rfl rfl).symm k) 1 : ℕ) = k :=
  (DotDims.lhsIdx_val_of_single (d := dBlk0) (cl := 1) rfl j _).trans (contrEquiv1_symm_val dBlk0 64 rfl rfl k)
theorem rhsBlk0_0 (j : S2000x128.Idx) (k : Fin 64) :
    (dBlk0.rhsIdx j ((contrEquiv1 dBlk0 64 rfl rfl).symm k) 0 : ℕ) = k :=
  (DotDims.rhsIdx_val_of_single (d := dBlk0) (cr := 0) rfl j _).trans (contrEquiv1_symm_val dBlk0 64 rfl rfl k)
theorem rhsBlk0_1 (j : S2000x128.Idx) (k : dBlk0.contr.Idx) : (dBlk0.rhsIdx j k 1 : ℕ) = j 1 := by
  simp [DotDims.rhsIdx, dBlk0, Cert.KernelIdeal.dot_S2000x64_S64x128_S2000x128_1_0_0_1_n_n]; rfl

/-- Entry (p, q) of a block's product into a zero accumulator: the sum over the 64 inner positions. -/
theorem blkProd0_apply (h : FTy.bits .bf16 < FTy.bits .f32) (x0 : Vec Ideal S2000x64 .f32) (x1 : Vec Ideal S64x128 .f32) (p : Fin 2000) (q : Fin 128) :
    matmul dBlk0 none (truncf .bf16 x0 h) (truncf .bf16 x1 h)
        (constant (F := Ideal) S2000x128 .f32 0x00000000#32) (ix2 p q)
      = ∑ k : Fin 64, x0 (ix2 p k) * x1 (ix2 k q) := by
  show FloatOps.matmul dBlk0 none _ _ (constant (F := Ideal) S2000x128 .f32 0x00000000#32) (ix2 p q) = _
  rw [Ideal.matmul_constant_zero_apply, ← Equiv.sum_comp (contrEquiv1 dBlk0 64 rfl rfl).symm]
  refine Finset.sum_congr rfl fun k _ => ?_
  rw [truncf_apply, truncf_apply]
  congr 2
  · exact Shape.idx_ext₂ (lhsBlk0_0 _ _) (lhsBlk0_1 _ k)
  · exact Shape.idx_ext₂ (rhsBlk0_0 _ k) (rhsBlk0_1 _ _)

theorem lhsAll0_0 (j : Cert.ReferenceIdeal.S50000x128.Idx) (k : dAll0.contr.Idx) : (dAll0.lhsIdx j k 0 : ℕ) = j 0 := by
  simp [DotDims.lhsIdx, dAll0, Cert.ReferenceIdeal.dot_S50000x64_S64x128_S50000x128_1_0_0_1_n_n]; rfl
theorem lhsAll0_1 (j : Cert.ReferenceIdeal.S50000x128.Idx) (k : Fin 64) :
    (dAll0.lhsIdx j ((contrEquiv1 dAll0 64 rfl rfl).symm k) 1 : ℕ) = k :=
  (DotDims.lhsIdx_val_of_single (d := dAll0) (cl := 1) rfl j _).trans (contrEquiv1_symm_val dAll0 64 rfl rfl k)
theorem rhsAll0_0 (j : Cert.ReferenceIdeal.S50000x128.Idx) (k : Fin 64) :
    (dAll0.rhsIdx j ((contrEquiv1 dAll0 64 rfl rfl).symm k) 0 : ℕ) = k :=
  (DotDims.rhsIdx_val_of_single (d := dAll0) (cr := 0) rfl j _).trans (contrEquiv1_symm_val dAll0 64 rfl rfl k)
theorem rhsAll0_1 (j : Cert.ReferenceIdeal.S50000x128.Idx) (k : dAll0.contr.Idx) : (dAll0.rhsIdx j k 1 : ℕ) = j 1 := by
  simp [DotDims.rhsIdx, dAll0, Cert.ReferenceIdeal.dot_S50000x64_S64x128_S50000x128_1_0_0_1_n_n]; rfl

/-- Entry (r, q) of the whole product: the sum over the 64 inner positions. -/
theorem allProd0_apply (X : Cert.Spec.FA Cert.ReferenceIdeal.S50000x64) (P : Cert.Spec.FA Cert.ReferenceIdeal.S64x128)
    (r : Fin 50000) (q : Fin 128) :
    Host.dotGeneral (F := Ideal) dAll0 none X P (ix2 r q) = ∑ k : Fin 64, X (ix2 r k) * P (ix2 k q) := by
  show FloatOps.dotGeneral dAll0 none _ X P (ix2 r q) = _
  rw [Ideal.dotGeneral_apply, ← Equiv.sum_comp (contrEquiv1 dAll0 64 rfl rfl).symm]
  refine Finset.sum_congr rfl fun k _ => ?_
  congr 2
  · exact Shape.idx_ext₂ (lhsAll0_0 _ _) (lhsAll0_1 _ k)
  · exact Shape.idx_ext₂ (rhsAll0_0 _ k) (rhsAll0_1 _ _)

/-- Entry (r, q) of the encoder: the product's entry plus the bias row's entry in column q. -/
theorem linK0_apply (X : Cert.Spec.FA Cert.ReferenceIdeal.S50000x64) (P : Cert.Spec.FA Cert.ReferenceIdeal.S64x128)
    (B : Cert.Spec.FA Cert.ReferenceIdeal.S1x128) (r : Fin 50000) (q : Fin 128) :
    Cert.Spec.linK0 X P B (ix2 r q) = (∑ k : Fin 64, X (ix2 r k) * P (ix2 k q)) + B (ix2 (0 : Fin 1) q) := by
  unfold Cert.Spec.linK0 Cert.Spec.rowsN1
  rw [addf_apply, allProd0_apply, broadcastInDim_oneRow_apply]

/-- A one-row matrix laid down 2000 rows, read at (p, q), is the row's entry in column q. -/
theorem rowDown0_apply (h : S1x128.Broadcasts S2000x128) (y : S1x128.Idx → EReal) (p : Fin 2000) (q : Fin 128) :
    broadcastTo S2000x128 y h (ix2 p q) = y (ix2 (0 : Fin 1) q) := by
  refine broadcastTo_apply y h (ix2 p q) (ix2 (0 : Fin 1) q) ?_
  intro a
  match a with
  | ⟨0, _⟩ => rfl
  | ⟨1, _⟩ => rfl

/-- Entry (p, q) of what one grid point computes from its three blocks. -/
theorem pay0_apply (x0 : Vec Ideal S2000x64 .f32) (x1 : Vec Ideal S64x128 .f32) (x2 : Vec Ideal S1x128 .f32)
    (p : Fin 2000) (q : Fin 128) :
    k0_pay1 x0 x1 x2 (ix2 p q) = (∑ k : Fin 64, x0 (ix2 p k) * x1 (ix2 k q)) + x2 (ix2 (0 : Fin 1) q) := by
  unfold k0_pay1
  rw [addf_apply, blkProd0_apply, shapeCast_self, rowDown0_apply]

/-! ## Region 0: from the blocks to the array -/

-- the buffer contents when the region is entered
variable (V : (c : Dev nD) → (b : Ref sig .tc) → Buf (Elt Ideal) ((c : Thread nD τ).loc b)) (c : Dev nD)

theorem zeroOff : (![0, 0] : Fin 2 → Nat) = fun _ => 0 := funext fun a => by fin_cases a <;> rfl

/-- The block of x at point t is rows 2000 t … 2000 t + 1999. -/
theorem xBlk0_apply (t : Fin cfg0.N) (p : Fin 2000) (k : Fin 64) (r : Fin 50000) (hr : r.val = t.val * 2000 + p.val) :
    (iblk0 (F := Ideal) V c 0 t : Vec Ideal S2000x64 .f32) (ix2 p k) = (V c main_arg0 : S50000x64.Idx → EReal) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- The block of the matrix at any point is the whole matrix. -/
theorem pBlk0_apply (t : Fin cfg0.N) (k : Fin 64) (q : Fin 128) :
    (iblk0 (F := Ideal) V c 1 t : Vec Ideal S64x128 .f32) (ix2 k q) = (V c main_arg2 : S64x128.Idx → EReal) (ix2 k q) := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- The block of the bias row at any point is the whole row. -/
theorem bBlk0_apply (t : Fin cfg0.N) (z : Fin 1) (q : Fin 128) :
    (iblk0 (F := Ideal) V c 2 t : Vec Ideal S1x128 .f32) (ix2 z q) = (V c main_v4 : S1x128.Idx → EReal) (ix2 z q) := by
  obtain ⟨-, -, -, -, e0, e1, -⟩ := idx0 t
  unfold iblk0
  rw [View.read_apply]
  show V c main_v4 _ = V c main_v4 _
  congr 1
  funext a
  apply Fin.ext
  match a with
  | ⟨0, _⟩ => show win0_2.index t (0 : Fin 2) * 1 + 1 * z.val = z.val; rw [e0]; omega
  | ⟨1, _⟩ => show win0_2.index t (1 : Fin 2) * 128 + 1 * q.val = q.val; rw [e1]; omega

/-- The output's block at point t sits at rows 2000 t … 2000 t + 1999 of the array. -/
theorem oBlk0_emb (t : Fin cfg0.N) (p : Fin 2000) (q : Fin 128) (r : Fin 50000) (hr : r.val = t.val * 2000 + p.val) :
    ((cfg0.win 3).blk t).view.emb (ix2 p q : S2000x128.Idx) = (ix2 r q : S50000x128.Idx) := by
  obtain ⟨-, -, -, -, -, -, e0, e1⟩ := idx0 t
  funext a
  apply Fin.ext
  match a with
  | ⟨0, _⟩ => show win0_3.index t (0 : Fin 2) * 2000 + 1 * p.val = r.val; rw [e0, hr]; omega
  | ⟨1, _⟩ => show win0_3.index t (1 : Fin 2) * 128 + 1 * q.val = q.val; rw [e1]; omega

/-- What point t writes back is block t of the encoder's array. -/
theorem flushed0_eq (t : Fin cfg0.N) :
    (dat0 (F := Ideal) V c).flushed 3 t
      = ((cfg0.win 3).blk t).view.read (Elt Ideal) (Cert.Spec.linK0 (V c main_arg0) (V c main_arg2) (V c main_v4)) := by
  show (cfg0.win 3).cut (grid0.coords t) ((dat0 (F := Ideal) V c).after 3 t) = _
  rw [after0_3]
  unfold out0_3
  rw [View.canon_unit_zero zeroOff]
  simp only [View.ld_unit_zero (S := S2000x64) zeroOff, View.ld_unit_zero (S := S64x128) zeroOff, View.ld_unit_zero (S := S1x128) zeroOff]
  have key : ∀ j : S2000x128.Idx,
      k0_pay1 (iblk0 (F := Ideal) V c 0 t) (iblk0 (F := Ideal) V c 1 t) (iblk0 (F := Ideal) V c 2 t) j
        = Cert.Spec.linK0 (V c main_arg0) (V c main_arg2) (V c main_v4) (((cfg0.win 3).blk t).view.emb j) := by
    intro j
    obtain ⟨p, q, rfl⟩ : ∃ (p : Fin 2000) (q : Fin 128), j = ix2 p q := ⟨j 0, j 1, eq_ix2 j⟩
    have ht : t.val < 25 := lt_of_lt_of_eq t.isLt N_0
    have hr : t.val * 2000 + p.val < 50000 := by have := p.isLt; omega
    rw [oBlk0_emb t p q ⟨t.val * 2000 + p.val, hr⟩ rfl, linK0_apply, pay0_apply, bBlk0_apply V c t 0 q]
    congr 1
    refine Finset.sum_congr rfl fun k _ => ?_
    rw [xBlk0_apply V c t p k ⟨t.val * 2000 + p.val, hr⟩ rfl, pBlk0_apply V c t k q]
  exact funext key

/-- An index of the array is in point t's block iff each coordinate is in the block's range on its axis. -/
theorem mem_oBlk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Every row lies in the block of the point its number divided by 2000 names. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e0, e1⟩ := idx0 t
  refine ⟨t, flush0_3 t, ?_⟩
  rw [mem_oBlk0]
  intro a
  match a with
  | ⟨0, _⟩ => show win0_3.index t (0 : Fin 2) * 2000 ≤ (i 0).val ∧ (i 0).val < win0_3.index t (0 : Fin 2) * 2000 + 2000; rw [e0]; show (i 0).val / 2000 * 2000 ≤ (i 0).val ∧ (i 0).val < (i 0).val / 2000 * 2000 + 2000; omega
  | ⟨1, _⟩ => show win0_3.index t (1 : Fin 2) * 128 ≤ (i 1).val ∧ (i 1).val < win0_3.index t (1 : Fin 2) * 128 + 128; rw [e1]; omega

/-- Region 0 (25 blocks of 2000 rows): the output array is `x · P` plus the bias row on every row. -/
theorem value0 : (dat0 (F := Ideal) V c).arrAt 3 cfg0.N = Cert.Spec.linK0 (V c main_arg0) (V c main_arg2) (V c main_v4) :=
  (dat0 (F := Ideal) V c).arrAt_eq_of_cover 3 _ (fun t _ => flushed0_eq V c t) cover0

/-! ## The edge encoder's block product and whole product, entry by entry -/

abbrev dBlk1 := Cert.KernelIdeal.dot_S6000x2_S2x128_S6000x128_1_0_0_1_n_n
abbrev dAll1 := Cert.ReferenceIdeal.dot_S600000x2_S2x128_S600000x128_1_0_0_1_n_n

theorem lhsBlk1_0 (j : S6000x128.Idx) (k : dBlk1.contr.Idx) : (dBlk1.lhsIdx j k 0 : ℕ) = j 0 := by
  simp [DotDims.lhsIdx, dBlk1, Cert.KernelIdeal.dot_S6000x2_S2x128_S6000x128_1_0_0_1_n_n]; rfl
theorem lhsBlk1_1 (j : S6000x128.Idx) (k : Fin 2) :
    (dBlk1.lhsIdx j ((contrEquiv1 dBlk1 2 rfl rfl).symm k) 1 : ℕ) = k :=
  (DotDims.lhsIdx_val_of_single (d := dBlk1) (cl := 1) rfl j _).trans (contrEquiv1_symm_val dBlk1 2 rfl rfl k)
theorem rhsBlk1_0 (j : S6000x128.Idx) (k : Fin 2) :
    (dBlk1.rhsIdx j ((contrEquiv1 dBlk1 2 rfl rfl).symm k) 0 : ℕ) = k :=
  (DotDims.rhsIdx_val_of_single (d := dBlk1) (cr := 0) rfl j _).trans (contrEquiv1_symm_val dBlk1 2 rfl rfl k)
theorem rhsBlk1_1 (j : S6000x128.Idx) (k : dBlk1.contr.Idx) : (dBlk1.rhsIdx j k 1 : ℕ) = j 1 := by
  simp [DotDims.rhsIdx, dBlk1, Cert.KernelIdeal.dot_S6000x2_S2x128_S6000x128_1_0_0_1_n_n]; rfl

/-- Entry (p, q) of a block's product into a zero accumulator: the sum over the 2 inner positions. -/
theorem blkProd1_apply (h : FTy.bits .bf16 < FTy.bits .f32) (x0 : Vec Ideal S6000x2 .f32) (x1 : Vec Ideal S2x128 .f32) (p : Fin 6000) (q : Fin 128) :
    matmul dBlk1 none (truncf .bf16 x0 h) (truncf .bf16 x1 h)
        (constant (F := Ideal) S6000x128 .f32 0x00000000#32) (ix2 p q)
      = ∑ k : Fin 2, x0 (ix2 p k) * x1 (ix2 k q) := by
  show FloatOps.matmul dBlk1 none _ _ (constant (F := Ideal) S6000x128 .f32 0x00000000#32) (ix2 p q) = _
  rw [Ideal.matmul_constant_zero_apply, ← Equiv.sum_comp (contrEquiv1 dBlk1 2 rfl rfl).symm]
  refine Finset.sum_congr rfl fun k _ => ?_
  rw [truncf_apply, truncf_apply]
  congr 2
  · exact Shape.idx_ext₂ (lhsBlk1_0 _ _) (lhsBlk1_1 _ k)
  · exact Shape.idx_ext₂ (rhsBlk1_0 _ k) (rhsBlk1_1 _ _)

theorem lhsAll1_0 (j : Cert.ReferenceIdeal.S600000x128.Idx) (k : dAll1.contr.Idx) : (dAll1.lhsIdx j k 0 : ℕ) = j 0 := by
  simp [DotDims.lhsIdx, dAll1, Cert.ReferenceIdeal.dot_S600000x2_S2x128_S600000x128_1_0_0_1_n_n]; rfl
theorem lhsAll1_1 (j : Cert.ReferenceIdeal.S600000x128.Idx) (k : Fin 2) :
    (dAll1.lhsIdx j ((contrEquiv1 dAll1 2 rfl rfl).symm k) 1 : ℕ) = k :=
  (DotDims.lhsIdx_val_of_single (d := dAll1) (cl := 1) rfl j _).trans (contrEquiv1_symm_val dAll1 2 rfl rfl k)
theorem rhsAll1_0 (j : Cert.ReferenceIdeal.S600000x128.Idx) (k : Fin 2) :
    (dAll1.rhsIdx j ((contrEquiv1 dAll1 2 rfl rfl).symm k) 0 : ℕ) = k :=
  (DotDims.rhsIdx_val_of_single (d := dAll1) (cr := 0) rfl j _).trans (contrEquiv1_symm_val dAll1 2 rfl rfl k)
theorem rhsAll1_1 (j : Cert.ReferenceIdeal.S600000x128.Idx) (k : dAll1.contr.Idx) : (dAll1.rhsIdx j k 1 : ℕ) = j 1 := by
  simp [DotDims.rhsIdx, dAll1, Cert.ReferenceIdeal.dot_S600000x2_S2x128_S600000x128_1_0_0_1_n_n]; rfl

/-- Entry (r, q) of the whole product: the sum over the 2 inner positions. -/
theorem allProd1_apply (X : Cert.Spec.FA Cert.ReferenceIdeal.S600000x2) (P : Cert.Spec.FA Cert.ReferenceIdeal.S2x128)
    (r : Fin 600000) (q : Fin 128) :
    Host.dotGeneral (F := Ideal) dAll1 none X P (ix2 r q) = ∑ k : Fin 2, X (ix2 r k) * P (ix2 k q) := by
  show FloatOps.dotGeneral dAll1 none _ X P (ix2 r q) = _
  rw [Ideal.dotGeneral_apply, ← Equiv.sum_comp (contrEquiv1 dAll1 2 rfl rfl).symm]
  refine Finset.sum_congr rfl fun k _ => ?_
  congr 2
  · exact Shape.idx_ext₂ (lhsAll1_0 _ _) (lhsAll1_1 _ k)
  · exact Shape.idx_ext₂ (rhsAll1_0 _ k) (rhsAll1_1 _ _)

/-- Entry (r, q) of the encoder: the product's entry plus the bias row's entry in column q. -/
theorem linK1_apply (X : Cert.Spec.FA Cert.ReferenceIdeal.S600000x2) (P : Cert.Spec.FA Cert.ReferenceIdeal.S2x128)
    (B : Cert.Spec.FA Cert.ReferenceIdeal.S1x128) (r : Fin 600000) (q : Fin 128) :
    Cert.Spec.linK1 X P B (ix2 r q) = (∑ k : Fin 2, X (ix2 r k) * P (ix2 k q)) + B (ix2 (0 : Fin 1) q) := by
  unfold Cert.Spec.linK1 Cert.Spec.rowsE1
  rw [addf_apply, allProd1_apply, broadcastInDim_oneRow_apply]

/-- A one-row matrix laid down 6000 rows, read at (p, q), is the row's entry in column q. -/
theorem rowDown1_apply (h : S1x128.Broadcasts S6000x128) (y : S1x128.Idx → EReal) (p : Fin 6000) (q : Fin 128) :
    broadcastTo S6000x128 y h (ix2 p q) = y (ix2 (0 : Fin 1) q) := by
  refine broadcastTo_apply y h (ix2 p q) (ix2 (0 : Fin 1) q) ?_
  intro a
  match a with
  | ⟨0, _⟩ => rfl
  | ⟨1, _⟩ => rfl

/-- Entry (p, q) of what one grid point computes from its three blocks. -/
theorem pay1_apply (x0 : Vec Ideal S6000x2 .f32) (x1 : Vec Ideal S2x128 .f32) (x2 : Vec Ideal S1x128 .f32)
    (p : Fin 6000) (q : Fin 128) :
    k1_pay1 x0 x1 x2 (ix2 p q) = (∑ k : Fin 2, x0 (ix2 p k) * x1 (ix2 k q)) + x2 (ix2 (0 : Fin 1) q) := by
  unfold k1_pay1
  rw [addf_apply, blkProd1_apply, shapeCast_self, rowDown1_apply]

/-! ## Region 1: from the blocks to the array -/

/-- The block of a at point t is rows 6000 t … 6000 t + 5999. -/
theorem xBlk1_apply (t : Fin cfg1.N) (p : Fin 6000) (k : Fin 2) (r : Fin 600000) (hr : r.val = t.val * 6000 + p.val) :
    (iblk1 (F := Ideal) V c 0 t : Vec Ideal S6000x2 .f32) (ix2 p k) = (V c main_arg1 : S600000x2.Idx → EReal) (ix2 r k) := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 6000 + 1 * p.val = r.val; rw [e0, hr]; omega
  | ⟨1, _⟩ => show win1_0.index t (1 : Fin 2) * 2 + 1 * k.val = k.val; rw [e1]; omega

/-- The block of the matrix at any point is the whole matrix. -/
theorem pBlk1_apply (t : Fin cfg1.N) (k : Fin 2) (q : Fin 128) :
    (iblk1 (F := Ideal) V c 1 t : Vec Ideal S2x128 .f32) (ix2 k q) = (V c main_arg4 : S2x128.Idx → EReal) (ix2 k q) := by
  obtain ⟨-, -, e0, e1, -⟩ := idx1 t
  unfold iblk1
  rw [View.read_apply]
  show V c main_arg4 _ = V c main_arg4 _
  congr 1
  funext a
  apply Fin.ext
  match a with
  | ⟨0, _⟩ => show win1_1.index t (0 : Fin 2) * 2 + 1 * k.val = k.val; rw [e0]; omega
  | ⟨1, _⟩ => show win1_1.index t (1 : Fin 2) * 128 + 1 * q.val = q.val; rw [e1]; omega

/-- The block of the bias row at any point is the whole row. -/
theorem bBlk1_apply (t : Fin cfg1.N) (z : Fin 1) (q : Fin 128) :
    (iblk1 (F := Ideal) V c 2 t : Vec Ideal S1x128 .f32) (ix2 z q) = (V c main_v6 : S1x128.Idx → EReal) (ix2 z q) := by
  obtain ⟨-, -, -, -, e0, e1, -⟩ := idx1 t
  unfold iblk1
  rw [View.read_apply]
  show V c main_v6 _ = V c main_v6 _
  congr 1
  funext a
  apply Fin.ext
  match a with
  | ⟨0, _⟩ => show win1_2.index t (0 : Fin 2) * 1 + 1 * z.val = z.val; rw [e0]; omega
  | ⟨1, _⟩ => show win1_2.index t (1 : Fin 2) * 128 + 1 * q.val = q.val; rw [e1]; omega

/-- The output's block at point t sits at rows 6000 t … 6000 t + 5999 of the array. -/
theorem oBlk1_emb (t : Fin cfg1.N) (p : Fin 6000) (q : Fin 128) (r : Fin 600000) (hr : r.val = t.val * 6000 + p.val) :
    ((cfg1.win 3).blk t).view.emb (ix2 p q : S6000x128.Idx) = (ix2 r q : S600000x128.Idx) := by
  obtain ⟨-, -, -, -, -, -, e0, e1⟩ := idx1 t
  funext a
  apply Fin.ext
  match a with
  | ⟨0, _⟩ => show win1_3.index t (0 : Fin 2) * 6000 + 1 * p.val = r.val; rw [e0, hr]; omega
  | ⟨1, _⟩ => show win1_3.index t (1 : Fin 2) * 128 + 1 * q.val = q.val; rw [e1]; omega

/-- What point t writes back is block t of the encoder's array. -/
theorem flushed1_eq (t : Fin cfg1.N) :
    (dat1 (F := Ideal) V c).flushed 3 t
      = ((cfg1.win 3).blk t).view.read (Elt Ideal) (Cert.Spec.linK1 (V c main_arg1) (V c main_arg4) (V c main_v6)) := by
  show (cfg1.win 3).cut (grid1.coords t) ((dat1 (F := Ideal) V c).after 3 t) = _
  rw [after1_3]
  unfold out1_3
  rw [View.canon_unit_zero zeroOff]
  simp only [View.ld_unit_zero (S := S6000x2) zeroOff, View.ld_unit_zero (S := S2x128) zeroOff, View.ld_unit_zero (S := S1x128) zeroOff]
  have key : ∀ j : S6000x128.Idx,
      k1_pay1 (iblk1 (F := Ideal) V c 0 t) (iblk1 (F := Ideal) V c 1 t) (iblk1 (F := Ideal) V c 2 t) j
        = Cert.Spec.linK1 (V c main_arg1) (V c main_arg4) (V c main_v6) (((cfg1.win 3).blk t).view.emb j) := by
    intro j
    obtain ⟨p, q, rfl⟩ : ∃ (p : Fin 6000) (q : Fin 128), j = ix2 p q := ⟨j 0, j 1, eq_ix2 j⟩
    have ht : t.val < 100 := lt_of_lt_of_eq t.isLt N_1
    have hr : t.val * 6000 + p.val < 600000 := by have := p.isLt; omega
    rw [oBlk1_emb t p q ⟨t.val * 6000 + p.val, hr⟩ rfl, linK1_apply, pay1_apply, bBlk1_apply V c t 0 q]
    congr 1
    refine Finset.sum_congr rfl fun k _ => ?_
    rw [xBlk1_apply V c t p k ⟨t.val * 6000 + p.val, hr⟩ rfl, pBlk1_apply V c t k q]
  exact funext key

/-- An index of the array is in point t's block iff each coordinate is in the block's range on its axis. -/
theorem mem_oBlk1 (t : Fin cfg1.N) (i : S600000x128.Idx) :
    i ∈ ((cfg1.win 3).blk t).view.set ↔ ∀ a : Fin 2, win1_3.index t a * S6000x128.size a ≤ (i a).val ∧ (i a).val < win1_3.index t a * S6000x128.size a + S6000x128.size a := by
  show i ∈ ((View.whole main_v7).slice (win1_3.rect t)).set ↔ _
  rw [View.set_slice_whole, Rect.mem_set_unit]
  exact Iff.rfl

/-- Every row lies in the block of the point its number divided by 6000 names. -/
theorem cover1 (i : S600000x128.Idx) : ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 100 := N_1
  let t : Fin cfg1.N := ⟨(i 0).val / 6000, by rw [hN]; omega⟩
  obtain ⟨-, -, -, -, -, -, e0, e1⟩ := idx1 t
  refine ⟨t, flush1_3 t, ?_⟩
  rw [mem_oBlk1]
  intro a
  match a with
  | ⟨0, _⟩ => show win1_3.index t (0 : Fin 2) * 6000 ≤ (i 0).val ∧ (i 0).val < win1_3.index t (0 : Fin 2) * 6000 + 6000; rw [e0]; show (i 0).val / 6000 * 6000 ≤ (i 0).val ∧ (i 0).val < (i 0).val / 6000 * 6000 + 6000; omega
  | ⟨1, _⟩ => show win1_3.index t (1 : Fin 2) * 128 ≤ (i 1).val ∧ (i 1).val < win1_3.index t (1 : Fin 2) * 128 + 128; rw [e1]; omega

/-- Region 1 (100 blocks of 6000 rows): the output array is `a · Q` plus the bias row on every row. -/
theorem value1 : (dat1 (F := Ideal) V c).arrAt 3 cfg1.N = Cert.Spec.linK1 (V c main_arg1) (V c main_arg4) (V c main_v6) :=
  (dat1 (F := Ideal) V c).arrAt_eq_of_cover 3 _ (fun t _ => flushed1_eq V c t) cover1

end Cert.RegionLin

end
-- ==== Proof.RegionMsg.lean ====
/-
  The three message regions: block by block `max (hsrc + e) 0`, so the output array is that function of the two whole input arrays.

  Each region runs over 100 points; point `t` reads rows `6000 t … 6000 t + 5999` of the source-row array and of the
  edge array and writes the same rows of the output.  Entry by entry the stored value is the rectified sum of the two
  entries read, which is the message function at that entry; the 100 row blocks fill the 600000 rows, so the output
  array is the message function of the two whole arrays.
-/
import proofs.«407958_j39685497815719_1_alg».proof.Proof.Gen.KernelIdeal.Frame
import proofs.«407958_j39685497815719_1_alg».proof.Proof.Spec
import Idealize.ShloMosaic.Lib.ValueIdx
import Idealize.ShloMosaic.Lib.Pipeline.Value

set_option maxRecDepth 16384

noncomputable section

namespace Cert.RegionMsg

open Cert.KernelIdeal Cert.KernelIdeal.Gen
open Idealize.ShloMosaic Idealize.ShloMosaic.TcCoe Idealize.SL.Sem
open Idealize.ShloMosaic.Pipeline (Dat Cfg Window)

section Blocks

variable [Cert.ReferenceIdeal.Facts]

/-! ## One entry of a message -/

/-- The rectified sum of a source-node entry and an edge entry: `max (a + b) 0`, the zero being the
    extended real the all-zero word encodes. -/
def relu1 (a b : EReal) : EReal := max (a + b) (Ideal.ofBits .f32 0x00000000#32)

/-- The message array, entry by entry. -/
theorem msgOf_apply (hsrc e : S600000x128.Idx → EReal) (i : S600000x128.Idx) :
    Cert.Spec.msgOf hsrc e i = relu1 (hsrc i) (e i) := rfl

/-- The zero offsets of a load or store of a whole block. -/
theorem hz : (![0, 0] : Fin 2 → Nat) = fun _ => 0 := funext fun a => by fin_cases a <;> rfl

/-! ## The first layer's message region -/

/-- What a point stores, entry by entry: the rectified sum of its two blocks' entries. -/
theorem pay2_apply (x0 x1 : Vec Ideal S6000x128 .f32) (y : S6000x128.Idx) :
    k2_pay1 (F := Ideal) x0 x1 y = relu1 (x0 y) (x1 y) := by
  unfold k2_pay1
  simp only [Idealize.ShloMosaic.shapeCast_self]
  rfl

/-- Point `t` takes row block `t`, and the one column block, of each of the three arrays. -/
theorem rows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the message array of the two whole input arrays. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.msgOf (V c main_v11) (V c main_v7)) := by
  show (cfg2.win 2).cut (grid2.coords t) ((dat2 (F := Ideal) V c).after 2 t) = _
  rw [after2_2]
  unfold out2_2
  rw [View.canon_unit_zero hz]
  simp only [View.ld_unit_zero (S := S6000x128) hz]
  obtain ⟨e0, e1, e2, e3, e4, e5⟩ := rows2 t
  refine funext fun (j : S6000x128.Idx) => ?_
  refine (pay2_apply _ _ j).trans ?_
  show relu1 (V c main_v11 (((cfg2.win 0).blk t).view.emb j)) (V c main_v7 (((cfg2.win 1).blk t).view.emb j))
      = relu1 (V c main_v11 (((cfg2.win 2).blk t).view.emb j)) (V c main_v7 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 6000 + 1 * (j 0).val = win2_2.index t (0 : Fin 2) * 6000 + 1 * (j 0).val; omega
    | ⟨1, _⟩ => show win2_1.index t (1 : Fin 2) * 128 + 1 * (j 1).val = win2_2.index t (1 : Fin 2) * 128 + 1 * (j 1).val; omega
  rw [h0, h1]

/-- An entry of the output array lies in point `t`'s block iff each coordinate lies in the block's range on its axis. -/
theorem mem_blk2 (t : Fin cfg2.N) (i : S600000x128.Idx) :
    i ∈ ((cfg2.win 2).blk t).view.set
      ↔ ∀ a : Fin 2, win2_2.index t a * S6000x128.size a ≤ (i a).val ∧ (i a).val < win2_2.index t a * S6000x128.size a + S6000x128.size a := by
  show i ∈ ((View.whole main_v12).slice (win2_2.rect t)).set ↔ _
  rw [View.set_slice_whole, Rect.mem_set_unit]
  exact Iff.rfl

/-- Every entry of the output array is written: row `r` by the point `r / 6000`. -/
theorem cover2 (i : S600000x128.Idx) :
    ∃ t : Fin cfg2.N, (cfg2.win 2).flush t = true ∧ i ∈ ((cfg2.win 2).blk t).view.set := by
  have hi0 : (i 0).val < 600000 := (i 0).isLt
  have hi1 : (i 1).val < 128 := (i 1).isLt
  have hN : cfg2.N = 100 := N_2
  obtain ⟨t, ht⟩ : ∃ t : Fin cfg2.N, t.val = (i 0).val / 6000 := ⟨⟨(i 0).val / 6000, by rw [hN]; omega⟩, rfl⟩
  obtain ⟨e0, e1, e2, e3, e4, e5⟩ := rows2 t
  refine ⟨t, flush2_2 t, ?_⟩
  rw [mem_blk2]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 128 ≤ (i 1).val ∧ (i 1).val < win2_2.index t (1 : Fin 2) * 128 + 128; omega

/-! ## The second layer's message region -/

/-- What a point stores, entry by entry: the rectified sum of its two blocks' entries. -/
theorem pay5_apply (x0 x1 : Vec Ideal S6000x128 .f32) (y : S6000x128.Idx) :
    k5_pay1 (F := Ideal) x0 x1 y = relu1 (x0 y) (x1 y) := by
  unfold k5_pay1
  simp only [Idealize.ShloMosaic.shapeCast_self]
  rfl

/-- Point `t` takes row block `t`, and the one column block, of each of the three arrays. -/
theorem rows5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the message array of the two whole input arrays. -/
theorem flushed5_eq (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (Cert.Spec.msgOf (V c main_v59) (V c main_v7)) := by
  show (cfg5.win 2).cut (grid5.coords t) ((dat5 (F := Ideal) V c).after 2 t) = _
  rw [after5_2]
  unfold out5_2
  rw [View.canon_unit_zero hz]
  simp only [View.ld_unit_zero (S := S6000x128) hz]
  obtain ⟨e0, e1, e2, e3, e4, e5⟩ := rows5 t
  refine funext fun (j : S6000x128.Idx) => ?_
  refine (pay5_apply _ _ j).trans ?_
  show relu1 (V c main_v59 (((cfg5.win 0).blk t).view.emb j)) (V c main_v7 (((cfg5.win 1).blk t).view.emb j))
      = relu1 (V c main_v59 (((cfg5.win 2).blk t).view.emb j)) (V c main_v7 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 6000 + 1 * (j 0).val = win5_2.index t (0 : Fin 2) * 6000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 6000 + 1 * (j 0).val = win5_2.index t (0 : Fin 2) * 6000 + 1 * (j 0).val; omega
    | ⟨1, _⟩ => show win5_1.index t (1 : Fin 2) * 128 + 1 * (j 1).val = win5_2.index t (1 : Fin 2) * 128 + 1 * (j 1).val; omega
  rw [h0, h1]

/-- An entry of the output array lies in point `t`'s block iff each coordinate lies in the block's range on its axis. -/
theorem mem_blk5 (t : Fin cfg5.N) (i : S600000x128.Idx) :
    i ∈ ((cfg5.win 2).blk t).view.set
      ↔ ∀ a : Fin 2, win5_2.index t a * S6000x128.size a ≤ (i a).val ∧ (i a).val < win5_2.index t a * S6000x128.size a + S6000x128.size a := by
  show i ∈ ((View.whole main_v60).slice (win5_2.rect t)).set ↔ _
  rw [View.set_slice_whole, Rect.mem_set_unit]
  exact Iff.rfl

/-- Every entry of the output array is written: row `r` by the point `r / 6000`. -/
theorem cover5 (i : S600000x128.Idx) :
    ∃ t : Fin cfg5.N, (cfg5.win 2).flush t = true ∧ i ∈ ((cfg5.win 2).blk t).view.set := by
  have hi0 : (i 0).val < 600000 := (i 0).isLt
  have hi1 : (i 1).val < 128 := (i 1).isLt
  have hN : cfg5.N = 100 := N_5
  obtain ⟨t, ht⟩ : ∃ t : Fin cfg5.N, t.val = (i 0).val / 6000 := ⟨⟨(i 0).val / 6000, by rw [hN]; omega⟩, rfl⟩
  obtain ⟨e0, e1, e2, e3, e4, e5⟩ := rows5 t
  refine ⟨t, flush5_2 t, ?_⟩
  rw [mem_blk5]
  intro a
  match a with
  | ⟨0, _⟩ => show win5_2.index t (0 : Fin 2) * 6000 ≤ (i 0).val ∧ (i 0).val < win5_2.index t (0 : Fin 2) * 6000 + 6000; omega
  | ⟨1, _⟩ => show win5_2.index t (1 : Fin 2) * 128 ≤ (i 1).val ∧ (i 1).val < win5_2.index t (1 : Fin 2) * 128 + 128; omega

/-! ## The third layer's message region -/

/-- What a point stores, entry by entry: the rectified sum of its two blocks' entries. -/
theorem pay8_apply (x0 x1 : Vec Ideal S6000x128 .f32) (y : S6000x128.Idx) :
    k8_pay1 (F := Ideal) x0 x1 y = relu1 (x0 y) (x1 y) := by
  unfold k8_pay1
  simp only [Idealize.ShloMosaic.shapeCast_self]
  rfl

/-- Point `t` takes row block `t`, and the one column block, of each of the three arrays. -/
theorem rows8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the message array of the two whole input arrays. -/
theorem flushed8_eq (V : (c : Dev nD) → (b : Ref sig .tc) → Buf (Elt Ideal) ((c : Thread nD τ).loc b)) (c : Dev nD) (t : Fin cfg8.N) :
    (dat8 (F := Ideal) V c).flushed 2 t
      = ((cfg8.win 2).blk t).view.read (Elt Ideal) (Cert.Spec.msgOf (V c main_v107) (V c main_v7)) := by
  show (cfg8.win 2).cut (grid8.coords t) ((dat8 (F := Ideal) V c).after 2 t) = _
  rw [after8_2]
  unfold out8_2
  rw [View.canon_unit_zero hz]
  simp only [View.ld_unit_zero (S := S6000x128) hz]
  obtain ⟨e0, e1, e2, e3, e4, e5⟩ := rows8 t
  refine funext fun (j : S6000x128.Idx) => ?_
  refine (pay8_apply _ _ j).trans ?_
  show relu1 (V c main_v107 (((cfg8.win 0).blk t).view.emb j)) (V c main_v7 (((cfg8.win 1).blk t).view.emb j))
      = relu1 (V c main_v107 (((cfg8.win 2).blk t).view.emb j)) (V c main_v7 (((cfg8.win 2).blk t).view.emb j))
  have h0 : ((cfg8.win 0).blk t).view.emb j = ((cfg8.win 2).blk t).view.emb j := by
    funext a; apply Fin.ext
    match a with
    | ⟨0, _⟩ => show win8_0.index t (0 : Fin 2) * 6000 + 1 * (j 0).val = win8_2.index t (0 : Fin 2) * 6000 + 1 * (j 0).val; omega
    | ⟨1, _⟩ => show win8_0.index t (1 : Fin 2) * 128 + 1 * (j 1).val = win8_2.index t (1 : Fin 2) * 128 + 1 * (j 1).val; omega
  have h1 : ((cfg8.win 1).blk t).view.emb j = ((cfg8.win 2).blk t).view.emb j := by
    funext a; apply Fin.ext
    match a with
    | ⟨0, _⟩ => show win8_1.index t (0 : Fin 2) * 6000 + 1 * (j 0).val = win8_2.index t (0 : Fin 2) * 6000 + 1 * (j 0).val; omega
    | ⟨1, _⟩ => show win8_1.index t (1 : Fin 2) * 128 + 1 * (j 1).val = win8_2.index t (1 : Fin 2) * 128 + 1 * (j 1).val; omega
  rw [h0, h1]

/-- An entry of the output array lies in point `t`'s block iff each coordinate lies in the block's range on its axis. -/
theorem mem_blk8 (t : Fin cfg8.N) (i : S600000x128.Idx) :
    i ∈ ((cfg8.win 2).blk t).view.set
      ↔ ∀ a : Fin 2, win8_2.index t a * S6000x128.size a ≤ (i a).val ∧ (i a).val < win8_2.index t a * S6000x128.size a + S6000x128.size a := by
  show i ∈ ((View.whole main_v108).slice (win8_2.rect t)).set ↔ _
  rw [View.set_slice_whole, Rect.mem_set_unit]
  exact Iff.rfl

/-- Every entry of the output array is written: row `r` by the point `r / 6000`. -/
theorem cover8 (i : S600000x128.Idx) :
    ∃ t : Fin cfg8.N, (cfg8.win 2).flush t = true ∧ i ∈ ((cfg8.win 2).blk t).view.set := by
  have hi0 : (i 0).val < 600000 := (i 0).isLt
  have hi1 : (i 1).val < 128 := (i 1).isLt
  have hN : cfg8.N = 100 := N_8
  obtain ⟨t, ht⟩ : ∃ t : Fin cfg8.N, t.val = (i 0).val / 6000 := ⟨⟨(i 0).val / 6000, by rw [hN]; omega⟩, rfl⟩
  obtain ⟨e0, e1, e2, e3, e4, e5⟩ := rows8 t
  refine ⟨t, flush8_2 t, ?_⟩
  rw [mem_blk8]
  intro a
  match a with
  | ⟨0, _⟩ => show win8_2.index t (0 : Fin 2) * 6000 ≤ (i 0).val ∧ (i 0).val < win8_2.index t (0 : Fin 2) * 6000 + 6000; omega
  | ⟨1, _⟩ => show win8_2.index t (1 : Fin 2) * 128 ≤ (i 1).val ∧ (i 1).val < win8_2.index t (1 : Fin 2) * 128 + 128; omega

end Blocks

/-! ## The three output arrays -/

variable [Cert.KernelIdeal.Facts] [Cert.ReferenceIdeal.Facts]

-- the buffer contents when the region is entered
variable (V : (c : Dev nD) → (b : Ref sig .tc) → Buf (Elt Ideal) ((c : Thread nD τ).loc b)) (c : Dev nD)

theorem value2 : (dat2 (F := Ideal) V c).arrAt 2 cfg2.N = Cert.Spec.msgOf (V c main_v11) (V c main_v7) :=
  (dat2 (F := Ideal) V c).arrAt_eq_of_cover 2 (Cert.Spec.msgOf (V c main_v11) (V c main_v7))
    (fun t _ => flushed2_eq V c t) cover2
theorem value5 : (dat5 (F := Ideal) V c).arrAt 2 cfg5.N = Cert.Spec.msgOf (V c main_v59) (V c main_v7) :=
  (dat5 (F := Ideal) V c).arrAt_eq_of_cover 2 (Cert.Spec.msgOf (V c main_v59) (V c main_v7))
    (fun t _ => flushed5_eq V c t) cover5
theorem value8 : (dat8 (F := Ideal) V c).arrAt 2 cfg8.N = Cert.Spec.msgOf (V c main_v107) (V c main_v7) :=
  (dat8 (F := Ideal) V c).arrAt_eq_of_cover 2 (Cert.Spec.msgOf (V c main_v107) (V c main_v7))
    (fun t _ => flushed8_eq V c t) cover8

end Cert.RegionMsg

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.RegionConvLemmas.lean ====
/-
  The perceptron-and-statistics regions' mathematics, apart from the grid.

  One row of the perceptron is a function of that row alone: for a row `z` of 128 entries,
  `max (z · W₁ + b₁) 0 · W₂ + b₂`.  A block of 2000 rows put through the body's arithmetic and the whole array of
  50000 rows put through the plain program's are both this function row by row (the block product into a zero block and
  the plain product are the same sum over the 128 inner coordinates; a change of float format is the identity on the
  extended reals).  The two statistics are column sums: the body adds a block's column sums (of the perceptron's output,
  and of its squares) onto a one-row accumulator, and the plain program sums every column over all rows from zero.
-/
import proofs.«407958_j39685497815719_1_alg».proof.Proof.Gen.KernelIdeal.Skeleton
import proofs.«407958_j39685497815719_1_alg».proof.Proof.Spec
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.RegionConv

open Cert.KernelIdeal Cert.KernelIdeal.Gen
open Idealize.ShloMosaic Idealize.ShloMosaic.ValueIdx

variable [Cert.KernelIdeal.Facts] [Cert.ReferenceIdeal.Facts]

/-! ## The block product's operand indices -/

/-- The left operand's row is the result's row. -/
theorem klhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- The left operand's column is the inner coordinate. -/
theorem klhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the inner coordinate. -/
theorem krhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the result's column. -/
theorem krhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block product into the zero block, at row `p` and column `q`: the sum over the 128 inner coordinates. -/
theorem kmatmul_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact klhs_0 _ _
      | ⟨1, _⟩ => exact (klhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (krhs_0 _ _).trans hk
      | ⟨1, _⟩ => exact krhs_1 _ _)
  rw [el, er]

/-- A one-row matrix repeated down a block's 2000 rows reads, at row `p` and column `q`, the row's entry `q`. -/
theorem rowBlock_apply {α : Type} (x : S1x128.Idx → α) (p : Fin 2000) (q : Fin 128) :
    broadcastTo S2000x128 x broadcasts_S1x128_S2000x128 (ix2 p q) = x (ix2 0 q) :=
  broadcastTo_apply x broadcasts_S1x128_S2000x128 (ix2 p q) (ix2 0 q) fun a => by
    match a with
    | ⟨0, _⟩ => rfl
    | ⟨1, _⟩ => rfl

/-- The perceptron of one row: `max (z · W₁ + b₁) 0 · W₂ + b₂` at column `q`, for a row `z` of 128 entries. -/
def rowMlp (z : Fin 128 → EReal) (w1 : Cert.Spec.FA Cert.ReferenceIdeal.S128x128) (b1 : Cert.Spec.FA Cert.ReferenceIdeal.S1x128)
    (w2 : Cert.Spec.FA Cert.ReferenceIdeal.S128x128) (b2 : Cert.Spec.FA Cert.ReferenceIdeal.S1x128) (q : Fin 128) : EReal :=
  (∑ k : Fin 128, max ((∑ j : Fin 128, z j * w1 (ix2 j k)) + b1 (ix2 0 k)) (Ideal.ofBits .f32 0x00000000#32) * w2 (ix2 k q)) + b2 (ix2 0 q)

/-- The body's perceptron payload at row `p`, column `q` of its block. -/
theorem pay4_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k3_pay4 (F := Ideal) x0 x1 x2 x3 x4 x5 (ix2 p q)
      = rowMlp (fun j => x0 (ix2 p j) + x1 (ix2 p j)) x2 x3 x4 x5 q := by
  unfold k3_pay4 rowMlp
  simp only [shapeCast_self]
  refine congrArg₂ (· + ·) ((kmatmul_apply _ _ p q).trans ?_) (rowBlock_apply x5 p q)
  refine Finset.sum_congr rfl fun k _ => ?_
  refine congrArg₂ (· * ·) ?_ rfl
  refine congrArg₂ max ?_ rfl
  exact congrArg₂ (· + ·) (kmatmul_apply _ _ p k) (rowBlock_apply x3 p k)

/-! ## The whole-array perceptron at a row -/

/-- The left operand's row is the result's row. -/
theorem rlhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil),
    dif_pos (show (0 : Fin Cert.ReferenceIdeal.S50000x128.rank) ∈ Cert.ReferenceIdeal.dot_S50000x128_S128x128_S50000x128_1_0_0_1_n_n.lhsNonContracting from List.mem_singleton.mpr rfl)]
  rfl
/-- The left operand's column is the inner coordinate. -/
theorem rlhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.one_pos⟩).val :=
  Cert.ReferenceIdeal.dot_S50000x128_S128x128_S50000x128_1_0_0_1_n_n.lhsIdx_val_of_single rfl i q
/-- The right operand's row is the inner coordinate. -/
theorem rrhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.one_pos⟩).val :=
  Cert.ReferenceIdeal.dot_S50000x128_S128x128_S50000x128_1_0_0_1_n_n.rhsIdx_val_of_single rfl i q
/-- The right operand's column is the result's column. -/
theorem rrhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil),
    dif_pos (show (1 : Fin Cert.ReferenceIdeal.S128x128.rank) ∈ Cert.ReferenceIdeal.dot_S50000x128_S128x128_S50000x128_1_0_0_1_n_n.rhsNonContracting from List.mem_singleton.mpr rfl)]
  rfl

/-- The whole-array product at row `r` and column `q`: the sum over the 128 inner coordinates. -/
theorem rdot_apply (l : Cert.Spec.FA Cert.ReferenceIdeal.S50000x128) (w : Cert.Spec.FA Cert.ReferenceIdeal.S128x128) (r : Fin 50000) (q : Fin 128) :
    Host.dotGeneral (F := Ideal) Cert.ReferenceIdeal.dot_S50000x128_S128x128_S50000x128_1_0_0_1_n_n none l w (ix2 r q)
      = ∑ k : Fin 128, l (ix2 r k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k :=
    funext fun a => Fin.ext (by
      match a with
      | ⟨0, _⟩ => exact rlhs_0 _ _
      | ⟨1, _⟩ => exact (rlhs_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q :=
    funext fun a => Fin.ext (by
      match a with
      | ⟨0, _⟩ => exact (rrhs_0 _ _).trans hk
      | ⟨1, _⟩ => exact rrhs_1 _ _)
  rw [el, er]

/-- A one-row matrix repeated down the 50000 rows reads, at row `r` and column `q`, the row's entry `q`. -/
theorem rowsN1_apply (b : Cert.Spec.FA Cert.ReferenceIdeal.S1x128) (r : Fin 50000) (q : Fin 128) :
    Cert.Spec.rowsN1 b (ix2 r q) = b (ix2 0 q) :=
  broadcastInDim_apply _ _ b (ix2 r q) (ix2 0 q) fun a => by
    match a with
    | ⟨0, _⟩ => rfl
    | ⟨1, _⟩ => rfl

/-- The whole-array perceptron at row `r`, column `q` is the row perceptron of row `r` of `hb + agg`. -/
theorem mlpK_apply (hb agg : Cert.Spec.FA Cert.ReferenceIdeal.S50000x128) (w1 : Cert.Spec.FA Cert.ReferenceIdeal.S128x128)
    (b1 : Cert.Spec.FA Cert.ReferenceIdeal.S1x128) (w2 : Cert.Spec.FA Cert.ReferenceIdeal.S128x128) (b2 : Cert.Spec.FA Cert.ReferenceIdeal.S1x128)
    (r : Fin 50000) (q : Fin 128) :
    Cert.Spec.mlpK hb agg w1 b1 w2 b2 (ix2 r q) = rowMlp (fun j => hb (ix2 r j) + agg (ix2 r j)) w1 b1 w2 b2 q := by
  unfold Cert.Spec.mlpK rowMlp
  refine congrArg₂ (· + ·) ((rdot_apply _ _ r q).trans ?_) (rowsN1_apply b2 r q)
  refine Finset.sum_congr rfl fun k _ => ?_
  refine congrArg₂ (· * ·) ?_ rfl
  unfold Cert.Spec.reluN
  refine congrArg₂ max ?_ rfl
  exact congrArg₂ (· + ·) (rdot_apply _ _ r k) (rowsN1_apply b1 r k)

/-! ## Column sums -/

/-- The column sums of a block of 2000 rows, laid out as a one-row matrix, at column `q`. -/
theorem blockColSum_apply (v : FVec Ideal S2000x128 .f32) (q : Fin 128) :
    shapeCast S1x128 (multiReduction .add [0] S128 v 0x00000000#32 reduces_S2000x128_S128 (.inl rfl) rfl) shapeCasts_S128_S1x128 (ix2 0 q)
      = ∑ p : Fin 2000, v (ix2 p q) := by
  refine (shapeCast_addUnit_apply ![128] _ shapeCasts_S128_S1x128 (ix2 0 q)).trans ?_
  refine (Ideal.multiReduction_add_single v _ reduces_S2000x128_S128 _ _ _).trans ?_
  refine Finset.sum_congr rfl fun p _ => congrArg v ?_
  funext a; apply Fin.ext
  match a with
  | ⟨0, _⟩ => rfl
  | ⟨1, _⟩ => rfl

/-- The running column sums after a block: what the accumulator held plus the block's column sums of the perceptron. -/
theorem pay5_apply (x0 x1 : Vec Ideal S2000x128 .f32) (x2 : Vec Ideal S128x128 .f32) (x3 : Vec Ideal S1x128 .f32)
    (x4 : Vec Ideal S128x128 .f32) (x5 : Vec Ideal S1x128 .f32) (acc : Vec Ideal S1x128 .f32) (q : Fin 128) :
    k3_pay5 (F := Ideal) x0 x1 x2 x3 x4 x5 acc (ix2 0 q)
      = acc (ix2 0 q) + ∑ p : Fin 2000, k3_pay4 (F := Ideal) x0 x1 x2 x3 x4 x5 (ix2 p q) := by
  unfold k3_pay5
  simp only [shapeCast_self]
  exact congrArg₂ (· + ·) rfl (blockColSum_apply _ q)

/-- The running sums of squares after a block. -/
theorem pay1_apply (z : FVec Ideal S2000x128 .f32) (acc : Vec Ideal S1x128 .f32) (q : Fin 128) :
    k3_pay1 (F := Ideal) z acc (ix2 0 q) = acc (ix2 0 q) + ∑ p : Fin 2000, z (ix2 p q) * z (ix2 p q) := by
  unfold k3_pay1
  simp only [shapeCast_self]
  exact congrArg₂ (· + ·) rfl (blockColSum_apply _ q)

/-- Dropping the row axis of the 50000 × 128 shape leaves the 128 columns. -/
theorem redN : Cert.ReferenceIdeal.S50000x128.Reduces [0] Cert.ReferenceIdeal.S128 := by decide

/-- A column sum over all 50000 rows, laid out as a one-row matrix, at column `q`. -/
theorem row1_colSum_apply (z : Cert.Spec.FA Cert.ReferenceIdeal.S50000x128) (q : Fin 128) :
    Cert.Spec.row1 (Cert.Spec.colSum z) (ix2 0 q) = Ideal.ofBits .f32 0x00000000#32 + ∑ r : Fin 50000, z (ix2 r q) := by
  unfold Cert.Spec.row1 Cert.Spec.colSum
  refine (broadcastInDim_apply _ _ _ (ix2 0 q) (ix1 q) fun a => by match a with | ⟨0, _⟩ => rfl).trans ?_
  rw [hostReduceAdd_apply, Ideal.hostReduceAdd_single _ redN]
  refine congrArg₂ (· + ·) rfl (Finset.sum_congr rfl fun r _ => congrArg z ?_)
  funext a; apply Fin.ext
  match a with
  | ⟨0, _⟩ => rfl
  | ⟨1, _⟩ => rfl

/-! ## Block against array -/

/-- Where row `p` of the two input blocks is row `r` of the two input arrays, the body's perceptron payload at row `p`
    is the whole-array perceptron at row `r`. -/
theorem pay4_eq_mlpK (x0 x1 : Vec Ideal S2000x128 .f32) (hb agg : Cert.Spec.FA Cert.ReferenceIdeal.S50000x128)
    (w1 : Cert.Spec.FA Cert.ReferenceIdeal.S128x128) (b1 : Cert.Spec.FA Cert.ReferenceIdeal.S1x128)
    (w2 : Cert.Spec.FA Cert.ReferenceIdeal.S128x128) (b2 : Cert.Spec.FA Cert.ReferenceIdeal.S1x128)
    (p : Fin 2000) (r : Fin 50000) (q : Fin 128)
    (h0 : ∀ j : Fin 128, x0 (ix2 p j) = hb (ix2 r j)) (h1 : ∀ j : Fin 128, x1 (ix2 p j) = agg (ix2 r j)) :
    k3_pay4 (F := Ideal) x0 x1 w1 b1 w2 b2 (ix2 p q) = Cert.Spec.mlpK hb agg w1 b1 w2 b2 (ix2 r q) := by
  refine (pay4_apply x0 x1 w1 b1 w2 b2 p q).trans (Eq.trans ?_ (mlpK_apply hb agg w1 b1 w2 b2 r q).symm)
  exact congrArg (fun z => rowMlp z w1 b1 w2 b2 q) (funext fun j => by rw [h0, h1])

/-- The zero row the first grid point stores into the accumulator of the column sums. -/
theorem pay2_apply (i : S1x128.Idx) : k3_pay2 (F := Ideal) i = 0 := Ideal.ofBits_zero_f32
/-- The zero row the first grid point stores into the accumulator of the sums of squares. -/
theorem pay3_apply (i : S1x128.Idx) : k3_pay3 (F := Ideal) i = 0 := Ideal.ofBits_zero_f32

/-- An index of a one-row matrix is its column. -/
theorem eq_ix2_zero (i : S1x128.Idx) : i = ix2 0 (i 1) := by
  have h : (i 0).val < 1 := (i 0).isLt
  funext a
  match a with
  | ⟨0, _⟩ => exact Fin.ext (show (i 0).val = 0 by omega)
  | ⟨1, _⟩ => rfl

/-- A column's sum over all 50000 rows, from zero. -/
theorem row1_colSum_eq (z : Cert.Spec.FA Cert.ReferenceIdeal.S50000x128) (q : Fin 128) :
    Cert.Spec.row1 (Cert.Spec.colSum z) (ix2 0 q) = ∑ r : Fin 50000, z (ix2 r q) := by
  rw [row1_colSum_apply, Ideal.ofBits_zero_f32, zero_add]

/-- The same with the four parameter blocks given as equal to the parameter arrays (every grid point's block of a
    parameter is the whole array). -/
theorem pay4_eq_mlpK_of_eq (x0 x1 : Vec Ideal S2000x128 .f32) (x2 : Vec Ideal S128x128 .f32) (x3 : Vec Ideal S1x128 .f32)
    (x4 : Vec Ideal S128x128 .f32) (x5 : Vec Ideal S1x128 .f32) (hb agg : Cert.Spec.FA Cert.ReferenceIdeal.S50000x128)
    (w1 : Cert.Spec.FA Cert.ReferenceIdeal.S128x128) (b1 : Cert.Spec.FA Cert.ReferenceIdeal.S1x128)
    (w2 : Cert.Spec.FA Cert.ReferenceIdeal.S128x128) (b2 : Cert.Spec.FA Cert.ReferenceIdeal.S1x128)
    (p : Fin 2000) (r : Fin 50000) (q : Fin 128)
    (h0 : ∀ j : Fin 128, x0 (ix2 p j) = hb (ix2 r j)) (h1 : ∀ j : Fin 128, x1 (ix2 p j) = agg (ix2 r j))
    (h2 : x2 = w1) (h3 : x3 = b1) (h4 : x4 = w2) (h5 : x5 = b2) :
    k3_pay4 (F := Ideal) x0 x1 x2 x3 x4 x5 (ix2 p q) = Cert.Spec.mlpK hb agg w1 b1 w2 b2 (ix2 r q) := by
  subst h2 h3 h4 h5
  exact pay4_eq_mlpK x0 x1 hb agg x2 x3 x4 x5 p r q h0 h1

/-- The later regions' payloads are the same terms as the first's. -/
theorem k6_pay4_eq : @k6_pay4 = @k3_pay4 := rfl
theorem k6_pay5_eq : @k6_pay5 = @k3_pay5 := rfl
theorem k6_pay1_eq : @k6_pay1 = @k3_pay1 := rfl
theorem k6_pay2_eq : @k6_pay2 = @k3_pay2 := rfl
theorem k6_pay3_eq : @k6_pay3 = @k3_pay3 := rfl
theorem k9_pay4_eq : @k9_pay4 = @k3_pay4 := rfl
theorem k9_pay5_eq : @k9_pay5 = @k3_pay5 := rfl
theorem k9_pay1_eq : @k9_pay1 = @k3_pay1 := rfl
theorem k9_pay2_eq : @k9_pay2 = @k3_pay2 := rfl
theorem k9_pay3_eq : @k9_pay3 = @k3_pay3 := rfl

end Cert.RegionConv

end
-- ==== Proof.RegionConv.lean ====
/-
  The first perceptron-and-statistics region: the perceptron's output array, and the two running sums the grid accumulates.

  The grid has 25 points; point `t` handles rows `2000 t … 2000 t + 1999`.  Its body adds the two input row blocks, applies
  the perceptron, and stores the result as the output's row block `t`; so the output array ends as the whole-array
  perceptron, each row being a function of the same row of the inputs.  Two one-row accumulators, whose block is the same at
  every point and is carried from point to point, are zeroed at the first point and receive at every point the block's
  column sums of the result and of its squares; by induction over the points, after point `n` they hold the column sums over
  the rows below `2000 (n + 1)`, and what is written back after the last point is the column sums over all 50000 rows.
-/
import proofs.«407958_j39685497815719_1_alg».proof.Proof.Gen.KernelIdeal.Frame
import proofs.«407958_j39685497815719_1_alg».proof.Proof.Spec
import proofs.«407958_j39685497815719_1_alg».proof.Proof.LibBlockSum
import proofs.«407958_j39685497815719_1_alg».proof.Proof.RegionConvLemmas
import Idealize.ShloMosaic.Lib.ValueIdx
import Idealize.ShloMosaic.Lib.Pipeline.Value
import Idealize.ShloMosaic.Lib.Tactic

set_option maxRecDepth 16384

noncomputable section

namespace Cert.RegionConv

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The index maps -/

/-- The index maps, decided over the 25 grid points: the two input row blocks and the output row block sit at block row
    `t`; every other window's block index is zero at every point. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

variable [Cert.KernelIdeal.Facts] [Cert.ReferenceIdeal.Facts]

/-- The zero offsets of a store that covers its whole buffer. -/
theorem hz : (![0, 0] : Fin 2 → Nat) = fun _ => 0 := funext fun a => by fin_cases a <;> rfl

/-! ## What each case of the body leaves in each output buffer

At the first point the body zeroes the two accumulators, reads the zero rows back, and adds the block's sums; at a later
point it adds them onto what the accumulators held.  Either way the output block receives the perceptron payload. -/

/-- First point: the output block's buffer holds the perceptron payload of the input blocks. -/
theorem piece3_A_6 {F : FTy → Type} [FloatOps F] (c : Dev nD) (i : grid3.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond3_0 i) (x0 x1 : Vec F S2000x128 .f32) (x2 : Vec F S128x128 .f32) (x3 : Vec F S1x128 .f32) (x4 : Vec F S128x128 .f32) (x5 : Vec F S1x128 .f32) :
    out3_A_6 c i a1 h1 a2 h2 a3 h3 a4 h4 a5 h5 a6 h6 a7 h7 a8 h8 a9 h9 hc x0 x1 x2 x3 x4 x5 = k3_pay4 x0 x1 x2 x3 x4 x5 := by
  unfold out3_A_6
  rw [View.read_writes_eq_canon _ _ _ (cover3_A_6 c i a1 h1 a2 h2 a3 h3 a4 h4 a5 h5 a6 h6 a7 h7 a8 h8 a9 h9 hc x0 x1 x2 x3 x4 x5)]
  unfold kernelRun3_A
  dsimp only
  sl_unfold_words
  rw [View.canon_unit_zero hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- First point: the first accumulator holds the zero row plus the block's column sums. -/
theorem piece3_A_7 {F : FTy → Type} [FloatOps F] (c : Dev nD) (i : grid3.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond3_0 i) (x0 x1 : Vec F S2000x128 .f32) (x2 : Vec F S128x128 .f32) (x3 : Vec F S1x128 .f32) (x4 : Vec F S128x128 .f32) (x5 : Vec F S1x128 .f32) :
    out3_A_7 c i a1 h1 a2 h2 a3 h3 a4 h4 a5 h5 a6 h6 a7 h7 a8 h8 a9 h9 hc x0 x1 x2 x3 x4 x5 = k3_pay5 x0 x1 x2 x3 x4 x5 (k3_pay2 (F := F)) := by
  unfold out3_A_7
  rw [View.read_writes_eq_canon _ _ _ (cover3_A_7 c i a1 h1 a2 h2 a3 h3 a4 h4 a5 h5 a6 h6 a7 h7 a8 h8 a9 h9 hc x0 x1 x2 x3 x4 x5)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- First point: the second accumulator holds the zero row plus the block's column sums of squares. -/
theorem piece3_A_8 {F : FTy → Type} [FloatOps F] (c : Dev nD) (i : grid3.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond3_0 i) (x0 x1 : Vec F S2000x128 .f32) (x2 : Vec F S128x128 .f32) (x3 : Vec F S1x128 .f32) (x4 : Vec F S128x128 .f32) (x5 : Vec F S1x128 .f32) :
    out3_A_8 c i a1 h1 a2 h2 a3 h3 a4 h4 a5 h5 a6 h6 a7 h7 a8 h8 a9 h9 hc x0 x1 x2 x3 x4 x5 = k3_pay1 (k3_pay4 x0 x1 x2 x3 x4 x5) (k3_pay3 (F := F)) := by
  unfold out3_A_8
  rw [View.read_writes_eq_canon _ _ _ (cover3_A_8 c i a1 h1 a2 h2 a3 h3 a4 h4 a5 h5 a6 h6 a7 h7 a8 h8 a9 h9 hc x0 x1 x2 x3 x4 x5)]
  unfold kernelRun3_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- Later point: the output block's buffer holds the perceptron payload of the input blocks. -/
theorem piece3_B_6 {F : FTy → Type} [FloatOps F] (c : Dev nD) (i : grid3.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond3_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out3_B_6 c i a1 h1 a2 h2 a3 h3 a4 h4 a5 h5 a6 h6 a7 h7 a8 h8 a9 h9 hc x0 x1 x2 x3 x4 x5 xo7 xo8 = k3_pay4 x0 x1 x2 x3 x4 x5 := by
  unfold out3_B_6
  rw [View.read_writes_eq_canon _ _ _ (cover3_B_6 c i a1 h1 a2 h2 a3 h3 a4 h4 a5 h5 a6 h6 a7 h7 a8 h8 a9 h9 hc x0 x1 x2 x3 x4 x5 xo7 xo8)]
  unfold kernelRun3_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- Later point: the first accumulator holds what it held plus the block's column sums. -/
theorem piece3_B_7 {F : FTy → Type} [FloatOps F] (c : Dev nD) (i : grid3.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond3_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out3_B_7 c i a1 h1 a2 h2 a3 h3 a4 h4 a5 h5 a6 h6 a7 h7 a8 h8 a9 h9 hc x0 x1 x2 x3 x4 x5 xo7 xo8 = k3_pay5 x0 x1 x2 x3 x4 x5 xo7 := by
  unfold out3_B_7
  rw [View.read_writes_eq_canon _ _ _ (cover3_B_7 c i a1 h1 a2 h2 a3 h3 a4 h4 a5 h5 a6 h6 a7 h7 a8 h8 a9 h9 hc x0 x1 x2 x3 x4 x5 xo7 xo8)]
  unfold kernelRun3_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- Later point: the second accumulator holds what it held plus the block's column sums of squares. -/
theorem piece3_B_8 {F : FTy → Type} [FloatOps F] (c : Dev nD) (i : grid3.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond3_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out3_B_8 c i a1 h1 a2 h2 a3 h3 a4 h4 a5 h5 a6 h6 a7 h7 a8 h8 a9 h9 hc x0 x1 x2 x3 x4 x5 xo7 xo8 = k3_pay1 (k3_pay4 x0 x1 x2 x3 x4 x5) xo8 := by
  unfold out3_B_8
  rw [View.read_writes_eq_canon _ _ _ (cover3_B_8 c i a1 h1 a2 h2 a3 h3 a4 h4 a5 h5 a6 h6 a7 h7 a8 h8 a9 h9 hc x0 x1 x2 x3 x4 x5 xo7 xo8)]
  unfold kernelRun3_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

-- the buffer contents when the region is entered
variable (V : (c : Dev nD) → (b : Ref sig .tc) → Buf (Elt Ideal) ((c : Thread nD τ).loc b)) (c : Dev nD)

/-! ## The windows' blocks as rows of the arrays -/

/-- Row `p` of point `t`'s block of the first input is row `2000 t + p` of its array. -/
theorem blk0_apply (t : Fin cfg3.N) (p : Fin 2000) (j : Fin 128) (h : 2000 * t.val + p.val < 50000) :
    (iblk3 V c 0 t : Vec Ideal S2000x128 .f32) (ix2 p j)
      = (V c main_v10 : Cert.Spec.FA Cert.ReferenceIdeal.S50000x128) (ix2 ⟨2000 * t.val + p.val, h⟩ j) := by
  obtain ⟨e0, e1, -⟩ := idx_facts3 t
  unfold iblk3
  rw [View.read_apply]
  show V c main_v10 (((cfg3.win 0).blk t).view.emb (ix2 p j)) = V c main_v10 _
  congr 1
  funext a; apply Fin.ext
  match a with
  | ⟨0, _⟩ => show win3_0.index t (0 : Fin 2) * 2000 + 1 * p.val = 2000 * t.val + p.val; rw [e0]; omega
  | ⟨1, _⟩ => show win3_0.index t (1 : Fin 2) * 128 + 1 * j.val = j.val; rw [e1]; omega

/-- Row `p` of point `t`'s block of the second input is row `2000 t + p` of its array. -/
theorem blk1_apply (t : Fin cfg3.N) (p : Fin 2000) (j : Fin 128) (h : 2000 * t.val + p.val < 50000) :
    (iblk3 V c 1 t : Vec Ideal S2000x128 .f32) (ix2 p j)
      = (V c main_v15 : Cert.Spec.FA Cert.ReferenceIdeal.S50000x128) (ix2 ⟨2000 * t.val + p.val, h⟩ j) := by
  obtain ⟨-, -, e0, e1, -⟩ := idx_facts3 t
  unfold iblk3
  rw [View.read_apply]
  show V c main_v15 (((cfg3.win 1).blk t).view.emb (ix2 p j)) = V c main_v15 _
  congr 1
  funext a; apply Fin.ext
  match a with
  | ⟨0, _⟩ => show win3_1.index t (0 : Fin 2) * 2000 + 1 * p.val = 2000 * t.val + p.val; rw [e0]; omega
  | ⟨1, _⟩ => show win3_1.index t (1 : Fin 2) * 128 + 1 * j.val = j.val; rw [e1]; omega

/-- Window 2's block is its whole array at every point. -/
theorem blk2_eq (t : Fin cfg3.N) : (iblk3 V c 2 t : Vec Ideal S128x128 .f32) = V c main_v17 := by
  obtain ⟨-, -, -, -, e0, e1, -⟩ := idx_facts3 t
  funext y
  have hy0 : (y 0).val < 128 := (y 0).isLt
  have hy1 : (y 1).val < 128 := (y 1).isLt
  unfold iblk3
  rw [View.read_apply]
  show V c main_v17 (((cfg3.win 2).blk t).view.emb y) = V c main_v17 y
  congr 1
  funext a; apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- Window 3's block is its whole array at every point. -/
theorem blk3_eq (t : Fin cfg3.N) : (iblk3 V c 3 t : Vec Ideal S1x128 .f32) = V c main_v24 := by
  obtain ⟨-, -, -, -, -, -, e0, e1, -⟩ := idx_facts3 t
  funext y
  have hy0 : (y 0).val < 1 := (y 0).isLt
  have hy1 : (y 1).val < 128 := (y 1).isLt
  unfold iblk3
  rw [View.read_apply]
  show V c main_v24 (((cfg3.win 3).blk t).view.emb y) = V c main_v24 y
  congr 1
  funext a; apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- Window 4's block is its whole array at every point. -/
theorem blk4_eq (t : Fin cfg3.N) : (iblk3 V c 4 t : Vec Ideal S128x128 .f32) = V c main_v21 := by
  obtain ⟨-, -, -, -, -, -, -, -, e0, e1, -⟩ := idx_facts3 t
  funext y
  have hy0 : (y 0).val < 128 := (y 0).isLt
  have hy1 : (y 1).val < 128 := (y 1).isLt
  unfold iblk3
  rw [View.read_apply]
  show V c main_v21 (((cfg3.win 4).blk t).view.emb y) = V c main_v21 y
  congr 1
  funext a; apply Fin.ext
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- Window 5's block is its whole array at every point. -/
theorem blk5_eq (t : Fin cfg3.N) : (iblk3 V c 5 t : Vec Ideal S1x128 .f32) = V c main_v25 := by
  obtain ⟨-, -, -, -, -, -, -, -, -, -, e0, e1, -⟩ := idx_facts3 t
  funext y
  have hy0 : (y 0).val < 1 := (y 0).isLt
  have hy1 : (y 1).val < 128 := (y 1).isLt
  unfold iblk3
  rw [View.read_apply]
  show V c main_v25 (((cfg3.win 5).blk t).view.emb y) = V c main_v25 y
  congr 1
  funext a; apply Fin.ext
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-! ## The perceptron's output array -/

/-- The whole-array perceptron of the arrays the region is entered with. -/
abbrev Z3 : Cert.Spec.FA Cert.ReferenceIdeal.S50000x128 :=
  Cert.Spec.mlpK (V c main_v10) (V c main_v15) (V c main_v17) (V c main_v24) (V c main_v21) (V c main_v25)

/-- Point `t`'s perceptron payload at row `p` of its blocks is the whole-array perceptron at row `2000 t + p`. -/
theorem zblk (t : Fin cfg3.N) (p : Fin 2000) (q : Fin 128) (h : 2000 * t.val + p.val < 50000) :
    k3_pay4 (F := Ideal) (iblk3 V c 0 t) (iblk3 V c 1 t) (iblk3 V c 2 t) (iblk3 V c 3 t) (iblk3 V c 4 t) (iblk3 V c 5 t) (ix2 p q) = Z3 V c (ix2 ⟨2000 * t.val + p.val, h⟩ q) :=
  pay4_eq_mlpK_of_eq (iblk3 V c 0 t) (iblk3 V c 1 t) (iblk3 V c 2 t) (iblk3 V c 3 t) (iblk3 V c 4 t) (iblk3 V c 5 t)
    (V c main_v10) (V c main_v15) (V c main_v17) (V c main_v24) (V c main_v21) (V c main_v25) p ⟨2000 * t.val + p.val, h⟩ q
    (fun j => blk0_apply V c t p j h) (fun j => blk1_apply V c t p j h) (blk2_eq V c t) (blk3_eq V c t) (blk4_eq V c t) (blk5_eq V c t)

/-- What the output block's buffer holds after point `t`: the perceptron payload of the point's input blocks, at the
    first point and at the later ones alike. -/
theorem outsAt3_fst (t : Fin cfg3.N) :
    (outsAt3 V c t.val t.isLt).1 = k3_pay4 (F := Ideal) (iblk3 V c 0 t) (iblk3 V c 1 t) (iblk3 V c 2 t) (iblk3 V c 3 t) (iblk3 V c 4 t) (iblk3 V c 5 t) := by
  by_cases h0 : t.val % 25 = 0
  · rw [outsAt3_A V c t h0]
    dsimp only
    exact piece3_A_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t)
  · rw [outsAt3_B V c t h0]
    dsimp only
    exact piece3_B_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) _ _

/-- What point `t` writes back to the output array is block `t` of the whole-array perceptron. -/
theorem flushed6_eq (t : Fin cfg3.N) :
    (dat3 (F := Ideal) V c).flushed 6 t = ((cfg3.win 6).blk t).view.read (Elt Ideal) (Z3 V c) := by
  have hN : t.val < 25 := lt_of_lt_of_eq t.isLt (show cfg3.N = 25 from N_3)
  obtain ⟨-, -, -, -, -, -, -, -, -, -, -, -, e0, e1, -⟩ := idx_facts3 t
  show (cfg3.win 6).cut (grid3.coords t) ((dat3 V c).after 6 t) = _
  rw [after3_6, outsAt3_fst]
  refine funext fun (y : S2000x128.Idx) => ?_
  obtain ⟨p, q, rfl⟩ : ∃ (p : Fin 2000) (q : Fin 128), y = ix2 p q := ⟨y 0, y 1, eq_ix2 y⟩
  show k3_pay4 (F := Ideal) (iblk3 V c 0 t) (iblk3 V c 1 t) (iblk3 V c 2 t) (iblk3 V c 3 t) (iblk3 V c 4 t) (iblk3 V c 5 t) (ix2 p q) = Z3 V c (((cfg3.win 6).blk t).view.emb (ix2 p q))
  refine (zblk V c t p q (by have := p.isLt; omega)).trans ?_
  congr 1
  funext a; apply Fin.ext
  match a with
  | ⟨0, _⟩ => show 2000 * t.val + p.val = win3_6.index t (0 : Fin 2) * 2000 + 1 * p.val; rw [e0]; omega
  | ⟨1, _⟩ => show q.val = win3_6.index t (1 : Fin 2) * 128 + 1 * q.val; rw [e1]; omega

/-- An index of the output array is in point `t`'s block iff each coordinate is in the block's range on its axis. -/
theorem mem_blk6 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v26_0).slice (win3_6.rect t)).set ↔ _
  rw [View.set_slice_whole, Rect.mem_set_unit]
  exact Iff.rfl

/-- Region 3: the perceptron of `hb + agg`, row block by row block. -/
theorem value3_z : (dat3 (F := Ideal) V c).arrAt 6 cfg3.N
    = Cert.Spec.mlpK (V c main_v10) (V c main_v15) (V c main_v17) (V c main_v24) (V c main_v21) (V c main_v25) :=
  (dat3 (F := Ideal) V c).arrAt_eq_of_cover 6 (Z3 V c) (fun t _ => flushed6_eq V c t) fun (i : S50000x128.Idx) => by
    have hi0 : (i 0).val < 50000 := (i 0).isLt
    have hi1 : (i 1).val < 128 := (i 1).isLt
    have hN : cfg3.N = 25 := N_3
    refine ⟨⟨(i 0).val / 2000, by rw [hN]; omega⟩, flush3_6 _, ?_⟩
    obtain ⟨-, -, -, -, -, -, -, -, -, -, -, -, e0, e1, -⟩ := idx_facts3 ⟨(i 0).val / 2000, by rw [hN]; omega⟩
    refine (mem_blk6 _ i).mpr fun a => ?_
    match a with
    | ⟨0, _⟩ => show win3_6.index _ (0 : Fin 2) * 2000 ≤ (i 0).val ∧ (i 0).val < win3_6.index _ (0 : Fin 2) * 2000 + 2000; rw [e0]; dsimp only; omega
    | ⟨1, _⟩ => show win3_6.index _ (1 : Fin 2) * 128 ≤ (i 1).val ∧ (i 1).val < win3_6.index _ (1 : Fin 2) * 128 + 128; rw [e1]; omega

/-! ## The two running sums -/

/-- After point `n` the first accumulator holds, in column `q`, the sum of the perceptron's column `q` over the rows
    below `2000 (n + 1)`, and the second the sum of its squares: zero plus the first block's sums at the first point, and
    one more block's sums at each later point. -/
theorem outsAt3_acc : ∀ (n : ℕ) (h : n < cfg3.N) (q : Fin 128),
    (outsAt3 V c n h).2.1 (ix2 0 q) = Cert.LibBlockSum.acc50000 (fun r => Z3 V c (ix2 r q)) (n + 1)
    ∧ (outsAt3 V c n h).2.2 (ix2 0 q) = Cert.LibBlockSum.acc50000 (fun r => Z3 V c (ix2 r q) * Z3 V c (ix2 r q)) (n + 1)
  | 0, h, q => by
    have h25 : (0 : ℕ) < 25 := by decide
    rw [outsAt3_A V c ⟨0, h⟩ rfl]
    dsimp only
    constructor
    · refine (congrFun (piece3_A_7 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) (ms3_8 ⟨0, h⟩) (hs3_8 ⟨0, h⟩) ((hcond3_0 ⟨0, h⟩).mpr rfl) (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩)) (ix2 0 q)).trans ?_
      refine (pay5_apply (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (k3_pay2 (F := Ideal)) q).trans ?_
      rw [pay2_apply, Cert.LibBlockSum.acc50000_succ _ h25, Cert.LibBlockSum.acc50000_zero]
      exact congrArg (0 + ·) (Finset.sum_congr rfl fun p _ => zblk V c ⟨0, h⟩ p q _)
    · refine (congrFun (piece3_A_8 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) (ms3_6 ⟨0, h⟩) (hs3_6 ⟨0, h⟩) (ms3_7 ⟨0, h⟩) (hs3_7 ⟨0, h⟩) (ms3_8 ⟨0, h⟩) (hs3_8 ⟨0, h⟩) ((hcond3_0 ⟨0, h⟩).mpr rfl) (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩)) (ix2 0 q)).trans ?_
      refine (pay1_apply (k3_pay4 (F := Ideal) (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩)) (k3_pay3 (F := Ideal)) q).trans ?_
      rw [pay3_apply, Cert.LibBlockSum.acc50000_succ _ h25, Cert.LibBlockSum.acc50000_zero]
      exact congrArg (0 + ·) (Finset.sum_congr rfl fun p _ => congrArg₂ (· * ·) (zblk V c ⟨0, h⟩ p q _) (zblk V c ⟨0, h⟩ p q _))
  | n + 1, h, q => by
    have hN : cfg3.N = 25 := N_3
    have hB : ¬(⟨n + 1, h⟩ : Fin cfg3.N).val % 25 = 0 := by dsimp only; omega
    have h25 : n + 1 < 25 := by omega
    obtain ⟨ih7, ih8⟩ := outsAt3_acc n (Nat.lt_of_succ_lt h) q
    rw [outsAt3_B V c ⟨n + 1, h⟩ hB]
    dsimp only
    constructor
    · refine (congrFun (piece3_B_7 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (ms3_8 ⟨n + 1, h⟩) (hs3_8 ⟨n + 1, h⟩) (fun h' => hB ((hcond3_0 ⟨n + 1, h⟩).mp h')) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) _ _) (ix2 0 q)).trans ?_
      refine (pay5_apply (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) _ q).trans ?_
      rw [Cert.LibBlockSum.acc50000_succ _ h25]
      exact congrArg₂ (· + ·) ih7 (Finset.sum_congr rfl fun p _ => zblk V c ⟨n + 1, h⟩ p q _)
    · refine (congrFun (piece3_B_8 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (ms3_7 ⟨n + 1, h⟩) (hs3_7 ⟨n + 1, h⟩) (ms3_8 ⟨n + 1, h⟩) (hs3_8 ⟨n + 1, h⟩) (fun h' => hB ((hcond3_0 ⟨n + 1, h⟩).mp h')) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) _ _) (ix2 0 q)).trans ?_
      refine (pay1_apply (k3_pay4 (F := Ideal) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩)) _ q).trans ?_
      rw [Cert.LibBlockSum.acc50000_succ _ h25]
      exact congrArg₂ (· + ·) ih8 (Finset.sum_congr rfl fun p _ => congrArg₂ (· * ·) (zblk V c ⟨n + 1, h⟩ p q _) (zblk V c ⟨n + 1, h⟩ p q _))

/-- An index of accumulator 7's one-row array is in point `t`'s block iff each coordinate is in the block's range. -/
theorem mem_blk7 (t : Fin cfg3.N) (i : S1x128.Idx) :
    i ∈ ((cfg3.win 7).blk t).view.set ↔ ∀ a : Fin 2, win3_7.index t a * S1x128.size a ≤ (i a).val ∧ (i a).val < win3_7.index t a * S1x128.size a + S1x128.size a := by
  show i ∈ ((View.whole main_v26_1).slice (win3_7.rect t)).set ↔ _
  rw [View.set_slice_whole, Rect.mem_set_unit]
  exact Iff.rfl

/-- The one write-back of accumulator 7, after the last point, writes every column's sum of the perceptron over all 50000 rows. -/
theorem flushed7_eq (t : Fin cfg3.N) (hf : (cfg3.win 7).flush t = true) :
    (dat3 (F := Ideal) V c).flushed 7 t = ((cfg3.win 7).blk t).view.read (Elt Ideal) (Cert.Spec.row1 (Cert.Spec.colSum (Z3 V c))) := by
  have hN : cfg3.N = 25 := N_3
  have h24 : t.val = 24 := by have := (flush3_7 t).mp hf; have := t.isLt; omega
  obtain ⟨-, -, -, -, -, -, -, -, -, -, -, -, -, -, e0, e1, -⟩ := idx_facts3 t
  show (cfg3.win 7).cut (grid3.coords t) ((dat3 V c).after 7 t) = _
  rw [after3_7]
  refine funext fun (y : S1x128.Idx) => ?_
  obtain ⟨q, rfl⟩ : ∃ q : Fin 128, y = ix2 0 q := ⟨y 1, eq_ix2_zero y⟩
  show (outsAt3 V c t.val t.isLt).2.1 (ix2 0 q) = (Cert.Spec.row1 (Cert.Spec.colSum (Z3 V c))) (((cfg3.win 7).blk t).view.emb (ix2 0 q))
  have ee : ((cfg3.win 7).blk t).view.emb (ix2 0 q) = (ix2 0 q : S1x128.Idx) := by
    funext a; apply Fin.ext
    match a with
    | ⟨0, _⟩ => show win3_7.index t (0 : Fin 2) * 1 + 1 * 0 = 0; rw [e0]
    | ⟨1, _⟩ => show win3_7.index t (1 : Fin 2) * 128 + 1 * q.val = q.val; rw [e1]; omega
  rw [ee, row1_colSum_eq, (outsAt3_acc V c t.val t.isLt q).1, h24]
  exact Cert.LibBlockSum.acc50000_last _

/-- An index of accumulator 8's one-row array is in point `t`'s block iff each coordinate is in the block's range. -/
theorem mem_blk8 (t : Fin cfg3.N) (i : S1x128.Idx) :
    i ∈ ((cfg3.win 8).blk t).view.set ↔ ∀ a : Fin 2, win3_8.index t a * S1x128.size a ≤ (i a).val ∧ (i a).val < win3_8.index t a * S1x128.size a + S1x128.size a := by
  show i ∈ ((View.whole main_v26_2).slice (win3_8.rect t)).set ↔ _
  rw [View.set_slice_whole, Rect.mem_set_unit]
  exact Iff.rfl

/-- The one write-back of accumulator 8, after the last point, writes every column's sum of the perceptron's squares over all 50000 rows. -/
theorem flushed8_eq (t : Fin cfg3.N) (hf : (cfg3.win 8).flush t = true) :
    (dat3 (F := Ideal) V c).flushed 8 t = ((cfg3.win 8).blk t).view.read (Elt Ideal) (Cert.Spec.row1 (Cert.Spec.colSum (mulf (Z3 V c) (Z3 V c)))) := by
  have hN : cfg3.N = 25 := N_3
  have h24 : t.val = 24 := by have := (flush3_8 t).mp hf; have := t.isLt; omega
  obtain ⟨-, -, -, -, -, -, -, -, -, -, -, -, -, -, -, -, e0, e1⟩ := idx_facts3 t
  show (cfg3.win 8).cut (grid3.coords t) ((dat3 V c).after 8 t) = _
  rw [after3_8]
  refine funext fun (y : S1x128.Idx) => ?_
  obtain ⟨q, rfl⟩ : ∃ q : Fin 128, y = ix2 0 q := ⟨y 1, eq_ix2_zero y⟩
  show (outsAt3 V c t.val t.isLt).2.2 (ix2 0 q) = (Cert.Spec.row1 (Cert.Spec.colSum (mulf (Z3 V c) (Z3 V c)))) (((cfg3.win 8).blk t).view.emb (ix2 0 q))
  have ee : ((cfg3.win 8).blk t).view.emb (ix2 0 q) = (ix2 0 q : S1x128.Idx) := by
    funext a; apply Fin.ext
    match a with
    | ⟨0, _⟩ => show win3_8.index t (0 : Fin 2) * 1 + 1 * 0 = 0; rw [e0]
    | ⟨1, _⟩ => show win3_8.index t (1 : Fin 2) * 128 + 1 * q.val = q.val; rw [e1]; omega
  rw [ee, row1_colSum_eq, (outsAt3_acc V c t.val t.isLt q).2, h24]
  exact Cert.LibBlockSum.acc50000_last _

/-- Region 3: the accumulator of the column sums, zeroed at the first block and added to at every block, ends at
    the sum of every column over all 50000 rows. -/
theorem value3_s : (dat3 (F := Ideal) V c).arrAt 7 cfg3.N
    = Cert.Spec.row1 (Cert.Spec.colSum (Cert.Spec.mlpK (V c main_v10) (V c main_v15) (V c main_v17) (V c main_v24) (V c main_v21) (V c main_v25))) :=
  (dat3 (F := Ideal) V c).arrAt_eq_of_cover 7 (Cert.Spec.row1 (Cert.Spec.colSum (Cert.Spec.mlpK (V c main_v10) (V c main_v15) (V c main_v17) (V c main_v24) (V c main_v21) (V c main_v25)))) (flushed7_eq V c) fun (i : S1x128.Idx) => by
    have hi0 : (i 0).val < 1 := (i 0).isLt
    have hi1 : (i 1).val < 128 := (i 1).isLt
    have hN : cfg3.N = 25 := N_3
    refine ⟨⟨24, by rw [hN]; decide⟩, (flush3_7 _).mpr rfl, ?_⟩
    obtain ⟨-, -, -, -, -, -, -, -, -, -, -, -, -, -, e0, e1, -⟩ := idx_facts3 ⟨24, by rw [hN]; decide⟩
    refine (mem_blk7 _ i).mpr fun a => ?_
    match a with
    | ⟨0, _⟩ => show win3_7.index _ (0 : Fin 2) * 1 ≤ (i 0).val ∧ (i 0).val < win3_7.index _ (0 : Fin 2) * 1 + 1; rw [e0]; omega
    | ⟨1, _⟩ => show win3_7.index _ (1 : Fin 2) * 128 ≤ (i 1).val ∧ (i 1).val < win3_7.index _ (1 : Fin 2) * 128 + 128; rw [e1]; omega

/-- Region 3: likewise the sums of the squares. -/
theorem value3_ss : (dat3 (F := Ideal) V c).arrAt 8 cfg3.N
    = Cert.Spec.row1 (Cert.Spec.colSum (mulf (Cert.Spec.mlpK (V c main_v10) (V c main_v15) (V c main_v17) (V c main_v24) (V c main_v21) (V c main_v25))
        (Cert.Spec.mlpK (V c main_v10) (V c main_v15) (V c main_v17) (V c main_v24) (V c main_v21) (V c main_v25)))) :=
  (dat3 (F := Ideal) V c).arrAt_eq_of_cover 8 (Cert.Spec.row1 (Cert.Spec.colSum (mulf (Cert.Spec.mlpK (V c main_v10) (V c main_v15) (V c main_v17) (V c main_v24) (V c main_v21) (V c main_v25)) (Cert.Spec.mlpK (V c main_v10) (V c main_v15) (V c main_v17) (V c main_v24) (V c main_v21) (V c main_v25))))) (flushed8_eq V c) fun (i : S1x128.Idx) => by
    have hi0 : (i 0).val < 1 := (i 0).isLt
    have hi1 : (i 1).val < 128 := (i 1).isLt
    have hN : cfg3.N = 25 := N_3
    refine ⟨⟨24, by rw [hN]; decide⟩, (flush3_8 _).mpr rfl, ?_⟩
    obtain ⟨-, -, -, -, -, -, -, -, -, -, -, -, -, -, -, -, e0, e1⟩ := idx_facts3 ⟨24, by rw [hN]; decide⟩
    refine (mem_blk8 _ i).mpr fun a => ?_
    match a with
    | ⟨0, _⟩ => show win3_8.index _ (0 : Fin 2) * 1 ≤ (i 0).val ∧ (i 0).val < win3_8.index _ (0 : Fin 2) * 1 + 1; rw [e0]; omega
    | ⟨1, _⟩ => show win3_8.index _ (1 : Fin 2) * 128 ≤ (i 1).val ∧ (i 1).val < win3_8.index _ (1 : Fin 2) * 128 + 128; rw [e1]; omega

end Cert.RegionConv

end
-- ==== Proof.RegionNorm.lean ====
/-
  The three normalising regions: block by block `max ((z − μ)(v + ε)^(-1/2) γ + β) 0` with the four per-feature rows, so the output array is that function of the whole arrays.
-/
import proofs.«407958_j39685497815719_1_alg».proof.Proof.Gen.KernelIdeal.Frame
import proofs.«407958_j39685497815719_1_alg».proof.Proof.Spec
import Idealize.ShloMosaic.Lib.ValueLayout

set_option maxRecDepth 16384

noncomputable section

namespace Cert.RegionNorm

open Cert.KernelIdeal Cert.KernelIdeal.Gen
open Idealize.ShloMosaic Idealize.ShloMosaic.TcCoe Idealize.SL.Sem
open Idealize.ShloMosaic.Pipeline (Dat Cfg Window)

open Idealize.ShloMosaic.ValueIdx

/-! ## The normalisation, entry by entry

Every entry of the result is one scalar function of the feature entry and of the four per-feature numbers of its column.
The plain program's row form and the block's payload are both read as that function. The lemmas of this section
are stated for the windows as the tiled program lays them out, so that the index maps can be evaluated over the grid. -/

section Blocks

variable [Cert.ReferenceIdeal.Facts]

/-- One entry of the normalisation: max ((z − μ) · (v + ε)^(-1/2) · γ + β) 0. -/
def normAt (z mu v g b : EReal) : EReal :=
  max ((z - mu) * Ideal.rsqrt (v + Ideal.ofBits .f32 0x3727C5AC#32) * g + b) (Ideal.ofBits .f32 0x00000000#32)

/-- A one-row matrix repeated down the N rows reads, at [r, q], the row at [0, q]. -/
theorem rowsN1_apply (r : Cert.Spec.FA Cert.ReferenceIdeal.S1x128) (i : Cert.ReferenceIdeal.S50000x128.Idx) :
    Cert.Spec.rowsN1 r i = r (ix2 (0 : Fin 1) (i 1)) := by
  unfold Cert.Spec.rowsN1
  refine broadcastInDim_apply _ _ r i _ fun a => ?_
  match a with
  | ⟨0, _⟩ => rfl
  | ⟨1, _⟩ => rfl

/-- The row form of the normalisation, entry by entry. -/
theorem normK_apply (z : Cert.Spec.FA Cert.ReferenceIdeal.S50000x128) (mu v g b : Cert.Spec.FA Cert.ReferenceIdeal.S1x128)
    (i : Cert.ReferenceIdeal.S50000x128.Idx) :
    Cert.Spec.normK z mu v g b i
      = normAt (z i) (mu (ix2 (0 : Fin 1) (i 1))) (v (ix2 (0 : Fin 1) (i 1))) (g (ix2 (0 : Fin 1) (i 1))) (b (ix2 (0 : Fin 1) (i 1))) := by
  unfold Cert.Spec.normK Cert.Spec.reluN
  rw [maximumf_apply, addf_apply, mulf_apply, mulf_apply, subf_apply, rowsN1_apply, rowsN1_apply, rowsN1_apply, rowsN1_apply]
  rfl

/-- A one-row matrix repeated down a block's 2000 rows reads, at [p, q], the row at [0, q]. -/
theorem blockRows_apply (r : Vec Ideal S1x128 .f32) (h : S1x128.Broadcasts S2000x128) (j : S2000x128.Idx) :
    broadcastTo S2000x128 r h j = r (ix2 (0 : Fin 1) (j 1)) := by
  refine broadcastTo_apply r h j _ fun a => ?_
  match a with
  | ⟨0, _⟩ => rfl
  | ⟨1, _⟩ => rfl

/-- The block's payload, entry by entry: the reciprocal square root is taken on the variance row, and the four rows
    are repeated down the block. -/
theorem pay4_apply (x0 : Vec Ideal S2000x128 .f32) (xv xm xg xb : Vec Ideal S1x128 .f32) (j : S2000x128.Idx) :
    k4_pay1 (F := Ideal) x0 xv xm xg xb j
      = normAt (x0 j) (xm (ix2 (0 : Fin 1) (j 1))) (xv (ix2 (0 : Fin 1) (j 1))) (xg (ix2 (0 : Fin 1) (j 1))) (xb (ix2 (0 : Fin 1) (j 1))) := by
  unfold k4_pay1
  simp only [shapeCast_self]
  rw [maximumf_apply, addf_apply, mulf_apply, mulf_apply, subf_apply, blockRows_apply, blockRows_apply,
    blockRows_apply, blockRows_apply]
  rfl

theorem pay4_fun (x0 : Vec Ideal S2000x128 .f32) (xv xm xg xb : Vec Ideal S1x128 .f32) :
    k4_pay1 (F := Ideal) x0 xv xm xg xb
      = fun j => normAt (x0 j) (xm (ix2 (0 : Fin 1) (j 1))) (xv (ix2 (0 : Fin 1) (j 1))) (xg (ix2 (0 : Fin 1) (j 1))) (xb (ix2 (0 : Fin 1) (j 1))) :=
  funext (pay4_apply x0 xv xm xg xb)

/-- The second and third normalising bodies are the first one's arithmetic. -/
theorem pay7_fun (x0 : Vec Ideal S2000x128 .f32) (xv xm xg xb : Vec Ideal S1x128 .f32) :
    k7_pay1 (F := Ideal) x0 xv xm xg xb
      = fun j => normAt (x0 j) (xm (ix2 (0 : Fin 1) (j 1))) (xv (ix2 (0 : Fin 1) (j 1))) (xg (ix2 (0 : Fin 1) (j 1))) (xb (ix2 (0 : Fin 1) (j 1))) :=
  pay4_fun x0 xv xm xg xb

theorem pay10_fun (x0 : Vec Ideal S2000x128 .f32) (xv xm xg xb : Vec Ideal S1x128 .f32) :
    k10_pay1 (F := Ideal) x0 xv xm xg xb
      = fun j => normAt (x0 j) (xm (ix2 (0 : Fin 1) (j 1))) (xv (ix2 (0 : Fin 1) (j 1))) (xg (ix2 (0 : Fin 1) (j 1))) (xb (ix2 (0 : Fin 1) (j 1))) :=
  pay4_fun x0 xv xm xg xb

theorem hz : (![0, 0] : Fin 2 → Nat) = fun _ => 0 := funext fun a => by fin_cases a <;> rfl

-- the buffer contents when the region is entered
variable (V : (c : Dev nD) → (b : Ref sig .tc) → Buf (Elt Ideal) ((c : Thread nD τ).loc b)) (c : Dev nD)

/-! ## Region 4 -/

/-- The index maps over the 25 grid points: the feature block and the output block sit at row block t, every
    per-feature row at its one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The feature block and the output block of a point cover the same entries of their arrays. -/
theorem emb4_0 (t : Fin cfg4.N) (j : ((cfg4.win 5).xblock (grid4.coords t)).Idx) :
    ((cfg4.win 0).blk t).view.emb j = ((cfg4.win 5).blk t).view.emb j := by
  obtain ⟨a0, a1, -, -, -, -, -, -, -, -, f0, f1⟩ := idx_facts4 t
  funext a; apply Fin.ext
  match a with
  | ⟨0, _⟩ => show win4_0.index t (0 : Fin 2) * 2000 + 1 * (j 0).val = win4_5.index t (0 : Fin 2) * 2000 + 1 * (j 0).val; rw [a0, f0]
  | ⟨1, _⟩ => show win4_0.index t (1 : Fin 2) * 128 + 1 * (j 1).val = win4_5.index t (1 : Fin 2) * 128 + 1 * (j 1).val; rw [a1, f1]

/-- The mean row's one block, read at [0, q], is the row at [0, q]: in the array's coordinates, the column of the output entry. -/
theorem emb4_1 (t : Fin cfg4.N) (j : ((cfg4.win 5).xblock (grid4.coords t)).Idx) :
    ((cfg4.win 1).blk t).view.emb (ix2 (0 : Fin 1) (j 1)) = ix2 (0 : Fin 1) ((((cfg4.win 5).blk t).view.emb j) 1) := by
  obtain ⟨-, -, b0, b1, c0, c1, d0, d1, e0, e1, -, f1⟩ := idx_facts4 t
  funext a; apply Fin.ext
  match a with
  | ⟨0, _⟩ => show win4_1.index t (0 : Fin 2) * 1 + 1 * 0 = 0; rw [b0]
  | ⟨1, _⟩ => show win4_1.index t (1 : Fin 2) * 128 + 1 * (j 1).val = win4_5.index t (1 : Fin 2) * 128 + 1 * (j 1).val; rw [b1, f1]

/-- The variance row's one block, read at [0, q], is the row at [0, q]: in the array's coordinates, the column of the output entry. -/
theorem emb4_2 (t : Fin cfg4.N) (j : ((cfg4.win 5).xblock (grid4.coords t)).Idx) :
    ((cfg4.win 2).blk t).view.emb (ix2 (0 : Fin 1) (j 1)) = ix2 (0 : Fin 1) ((((cfg4.win 5).blk t).view.emb j) 1) := by
  obtain ⟨-, -, b0, b1, c0, c1, d0, d1, e0, e1, -, f1⟩ := idx_facts4 t
  funext a; apply Fin.ext
  match a with
  | ⟨0, _⟩ => show win4_2.index t (0 : Fin 2) * 1 + 1 * 0 = 0; rw [c0]
  | ⟨1, _⟩ => show win4_2.index t (1 : Fin 2) * 128 + 1 * (j 1).val = win4_5.index t (1 : Fin 2) * 128 + 1 * (j 1).val; rw [c1, f1]

/-- The scale row's one block, read at [0, q], is the row at [0, q]: in the array's coordinates, the column of the output entry. -/
theorem emb4_3 (t : Fin cfg4.N) (j : ((cfg4.win 5).xblock (grid4.coords t)).Idx) :
    ((cfg4.win 3).blk t).view.emb (ix2 (0 : Fin 1) (j 1)) = ix2 (0 : Fin 1) ((((cfg4.win 5).blk t).view.emb j) 1) := by
  obtain ⟨-, -, b0, b1, c0, c1, d0, d1, e0, e1, -, f1⟩ := idx_facts4 t
  funext a; apply Fin.ext
  match a with
  | ⟨0, _⟩ => show win4_3.index t (0 : Fin 2) * 1 + 1 * 0 = 0; rw [d0]
  | ⟨1, _⟩ => show win4_3.index t (1 : Fin 2) * 128 + 1 * (j 1).val = win4_5.index t (1 : Fin 2) * 128 + 1 * (j 1).val; rw [d1, f1]

/-- The shift row's one block, read at [0, q], is the row at [0, q]: in the array's coordinates, the column of the output entry. -/
theorem emb4_4 (t : Fin cfg4.N) (j : ((cfg4.win 5).xblock (grid4.coords t)).Idx) :
    ((cfg4.win 4).blk t).view.emb (ix2 (0 : Fin 1) (j 1)) = ix2 (0 : Fin 1) ((((cfg4.win 5).blk t).view.emb j) 1) := by
  obtain ⟨-, -, b0, b1, c0, c1, d0, d1, e0, e1, -, f1⟩ := idx_facts4 t
  funext a; apply Fin.ext
  match a with
  | ⟨0, _⟩ => show win4_4.index t (0 : Fin 2) * 1 + 1 * 0 = 0; rw [e0]
  | ⟨1, _⟩ => show win4_4.index t (1 : Fin 2) * 128 + 1 * (j 1).val = win4_5.index t (1 : Fin 2) * 128 + 1 * (j 1).val; rw [e1, f1]

/-- What point t writes back is block t of the normalisation of the whole arrays. -/
theorem flushed4_eq (t : Fin cfg4.N) :
    (dat4 (F := Ideal) V c).flushed 5 t
      = ((cfg4.win 5).blk t).view.read (Elt Ideal)
          (Cert.Spec.normK (V c main_v26_0) (V c main_v39) (V c main_v40) (V c main_v41) (V c main_v42)) := by
  show (cfg4.win 5).cut (grid4.coords t) ((dat4 (F := Ideal) V c).after 5 t) = _
  rw [after4_5]
  unfold out4_5
  rw [View.canon_unit_zero hz]
  simp only [View.ld_unit_zero (S := S2000x128) hz, View.ld_unit_zero (S := S1x128) hz]
  rw [pay4_fun]
  funext j
  show normAt (V c main_v26_0 (((cfg4.win 0).blk t).view.emb j))
      (V c main_v39 (((cfg4.win 1).blk t).view.emb (ix2 (0 : Fin 1) (j 1))))
      (V c main_v40 (((cfg4.win 2).blk t).view.emb (ix2 (0 : Fin 1) (j 1))))
      (V c main_v41 (((cfg4.win 3).blk t).view.emb (ix2 (0 : Fin 1) (j 1))))
      (V c main_v42 (((cfg4.win 4).blk t).view.emb (ix2 (0 : Fin 1) (j 1))))
    = Cert.Spec.normK (V c main_v26_0) (V c main_v39) (V c main_v40) (V c main_v41) (V c main_v42) (((cfg4.win 5).blk t).view.emb j)
  rw [normK_apply, emb4_0 t j, emb4_1 t j, emb4_2 t j, emb4_3 t j, emb4_4 t j]
  rfl

/-- An index of the array is in point t's output block iff each coordinate is in the block's range on its axis. -/
theorem mem_blk4 (t : Fin cfg4.N) (i : S50000x128.Idx) :
    i ∈ ((cfg4.win 5).blk t).view.set
      ↔ ∀ a : Fin 2, win4_5.index t a * S2000x128.size a ≤ (i a).val ∧ (i a).val < win4_5.index t a * S2000x128.size a + S2000x128.size a := by
  show i ∈ ((View.whole main_v43).slice (win4_5.rect t)).set ↔ _
  rw [View.set_slice_whole, Rect.mem_set_unit]
  exact Iff.rfl

/-- Row r of the array lies in the block of point r / 2000. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, -, -, -, -, f0, f1⟩ := idx_facts4 t
  refine ⟨t, flush4_5 t, ?_⟩
  rw [mem_blk4]
  intro a
  match a with
  | ⟨0, _⟩ =>
    show win4_5.index t (0 : Fin 2) * 2000 ≤ (i 0).val ∧ (i 0).val < win4_5.index t (0 : Fin 2) * 2000 + 2000
    rw [f0, ht]; omega
  | ⟨1, _⟩ =>
    show win4_5.index t (1 : Fin 2) * 128 ≤ (i 1).val ∧ (i 1).val < win4_5.index t (1 : Fin 2) * 128 + 128
    rw [f1]; omega

/-- The 25 blocks tile the array, so it ends holding the normalisation of the whole arrays. -/
theorem array4 : (dat4 (F := Ideal) V c).arrAt 5 cfg4.N
    = Cert.Spec.normK (V c main_v26_0) (V c main_v39) (V c main_v40) (V c main_v41) (V c main_v42) :=
  (dat4 (F := Ideal) V c).arrAt_eq_of_cover 5 _ (fun t _ => flushed4_eq V c t) cover4

/-! ## Region 7 -/

/-- The index maps over the 25 grid points: the feature block and the output block sit at row block t, every
    per-feature row at its one block. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The feature block and the output block of a point cover the same entries of their arrays. -/
theorem emb7_0 (t : Fin cfg7.N) (j : ((cfg7.win 5).xblock (grid7.coords t)).Idx) :
    ((cfg7.win 0).blk t).view.emb j = ((cfg7.win 5).blk t).view.emb j := by
  obtain ⟨a0, a1, -, -, -, -, -, -, -, -, f0, f1⟩ := idx_facts7 t
  funext a; apply Fin.ext
  match a with
  | ⟨0, _⟩ => show win7_0.index t (0 : Fin 2) * 2000 + 1 * (j 0).val = win7_5.index t (0 : Fin 2) * 2000 + 1 * (j 0).val; rw [a0, f0]
  | ⟨1, _⟩ => show win7_0.index t (1 : Fin 2) * 128 + 1 * (j 1).val = win7_5.index t (1 : Fin 2) * 128 + 1 * (j 1).val; rw [a1, f1]

/-- The mean row's one block, read at [0, q], is the row at [0, q]: in the array's coordinates, the column of the output entry. -/
theorem emb7_1 (t : Fin cfg7.N) (j : ((cfg7.win 5).xblock (grid7.coords t)).Idx) :
    ((cfg7.win 1).blk t).view.emb (ix2 (0 : Fin 1) (j 1)) = ix2 (0 : Fin 1) ((((cfg7.win 5).blk t).view.emb j) 1) := by
  obtain ⟨-, -, b0, b1, c0, c1, d0, d1, e0, e1, -, f1⟩ := idx_facts7 t
  funext a; apply Fin.ext
  match a with
  | ⟨0, _⟩ => show win7_1.index t (0 : Fin 2) * 1 + 1 * 0 = 0; rw [b0]
  | ⟨1, _⟩ => show win7_1.index t (1 : Fin 2) * 128 + 1 * (j 1).val = win7_5.index t (1 : Fin 2) * 128 + 1 * (j 1).val; rw [b1, f1]

/-- The variance row's one block, read at [0, q], is the row at [0, q]: in the array's coordinates, the column of the output entry. -/
theorem emb7_2 (t : Fin cfg7.N) (j : ((cfg7.win 5).xblock (grid7.coords t)).Idx) :
    ((cfg7.win 2).blk t).view.emb (ix2 (0 : Fin 1) (j 1)) = ix2 (0 : Fin 1) ((((cfg7.win 5).blk t).view.emb j) 1) := by
  obtain ⟨-, -, b0, b1, c0, c1, d0, d1, e0, e1, -, f1⟩ := idx_facts7 t
  funext a; apply Fin.ext
  match a with
  | ⟨0, _⟩ => show win7_2.index t (0 : Fin 2) * 1 + 1 * 0 = 0; rw [c0]
  | ⟨1, _⟩ => show win7_2.index t (1 : Fin 2) * 128 + 1 * (j 1).val = win7_5.index t (1 : Fin 2) * 128 + 1 * (j 1).val; rw [c1, f1]

/-- The scale row's one block, read at [0, q], is the row at [0, q]: in the array's coordinates, the column of the output entry. -/
theorem emb7_3 (t : Fin cfg7.N) (j : ((cfg7.win 5).xblock (grid7.coords t)).Idx) :
    ((cfg7.win 3).blk t).view.emb (ix2 (0 : Fin 1) (j 1)) = ix2 (0 : Fin 1) ((((cfg7.win 5).blk t).view.emb j) 1) := by
  obtain ⟨-, -, b0, b1, c0, c1, d0, d1, e0, e1, -, f1⟩ := idx_facts7 t
  funext a; apply Fin.ext
  match a with
  | ⟨0, _⟩ => show win7_3.index t (0 : Fin 2) * 1 + 1 * 0 = 0; rw [d0]
  | ⟨1, _⟩ => show win7_3.index t (1 : Fin 2) * 128 + 1 * (j 1).val = win7_5.index t (1 : Fin 2) * 128 + 1 * (j 1).val; rw [d1, f1]

/-- The shift row's one block, read at [0, q], is the row at [0, q]: in the array's coordinates, the column of the output entry. -/
theorem emb7_4 (t : Fin cfg7.N) (j : ((cfg7.win 5).xblock (grid7.coords t)).Idx) :
    ((cfg7.win 4).blk t).view.emb (ix2 (0 : Fin 1) (j 1)) = ix2 (0 : Fin 1) ((((cfg7.win 5).blk t).view.emb j) 1) := by
  obtain ⟨-, -, b0, b1, c0, c1, d0, d1, e0, e1, -, f1⟩ := idx_facts7 t
  funext a; apply Fin.ext
  match a with
  | ⟨0, _⟩ => show win7_4.index t (0 : Fin 2) * 1 + 1 * 0 = 0; rw [e0]
  | ⟨1, _⟩ => show win7_4.index t (1 : Fin 2) * 128 + 1 * (j 1).val = win7_5.index t (1 : Fin 2) * 128 + 1 * (j 1).val; rw [e1, f1]

/-- What point t writes back is block t of the normalisation of the whole arrays. -/
theorem flushed7_eq (t : Fin cfg7.N) :
    (dat7 (F := Ideal) V c).flushed 5 t
      = ((cfg7.win 5).blk t).view.read (Elt Ideal)
          (Cert.Spec.normK (V c main_v74_0) (V c main_v87) (V c main_v88) (V c main_v89) (V c main_v90)) := by
  show (cfg7.win 5).cut (grid7.coords t) ((dat7 (F := Ideal) V c).after 5 t) = _
  rw [after7_5]
  unfold out7_5
  rw [View.canon_unit_zero hz]
  simp only [View.ld_unit_zero (S := S2000x128) hz, View.ld_unit_zero (S := S1x128) hz]
  rw [pay7_fun]
  funext j
  show normAt (V c main_v74_0 (((cfg7.win 0).blk t).view.emb j))
      (V c main_v87 (((cfg7.win 1).blk t).view.emb (ix2 (0 : Fin 1) (j 1))))
      (V c main_v88 (((cfg7.win 2).blk t).view.emb (ix2 (0 : Fin 1) (j 1))))
      (V c main_v89 (((cfg7.win 3).blk t).view.emb (ix2 (0 : Fin 1) (j 1))))
      (V c main_v90 (((cfg7.win 4).blk t).view.emb (ix2 (0 : Fin 1) (j 1))))
    = Cert.Spec.normK (V c main_v74_0) (V c main_v87) (V c main_v88) (V c main_v89) (V c main_v90) (((cfg7.win 5).blk t).view.emb j)
  rw [normK_apply, emb7_0 t j, emb7_1 t j, emb7_2 t j, emb7_3 t j, emb7_4 t j]
  rfl

/-- An index of the array is in point t's output block iff each coordinate is in the block's range on its axis. -/
theorem mem_blk7 (t : Fin cfg7.N) (i : S50000x128.Idx) :
    i ∈ ((cfg7.win 5).blk t).view.set
      ↔ ∀ a : Fin 2, win7_5.index t a * S2000x128.size a ≤ (i a).val ∧ (i a).val < win7_5.index t a * S2000x128.size a + S2000x128.size a := by
  show i ∈ ((View.whole main_v91).slice (win7_5.rect t)).set ↔ _
  rw [View.set_slice_whole, Rect.mem_set_unit]
  exact Iff.rfl

/-- Row r of the array lies in the block of point r / 2000. -/
theorem cover7 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨-, -, -, -, -, -, -, -, -, -, f0, f1⟩ := idx_facts7 t
  refine ⟨t, flush7_5 t, ?_⟩
  rw [mem_blk7]
  intro a
  match a with
  | ⟨0, _⟩ =>
    show win7_5.index t (0 : Fin 2) * 2000 ≤ (i 0).val ∧ (i 0).val < win7_5.index t (0 : Fin 2) * 2000 + 2000
    rw [f0, ht]; omega
  | ⟨1, _⟩ =>
    show win7_5.index t (1 : Fin 2) * 128 ≤ (i 1).val ∧ (i 1).val < win7_5.index t (1 : Fin 2) * 128 + 128
    rw [f1]; omega

/-- The 25 blocks tile the array, so it ends holding the normalisation of the whole arrays. -/
theorem array7 : (dat7 (F := Ideal) V c).arrAt 5 cfg7.N
    = Cert.Spec.normK (V c main_v74_0) (V c main_v87) (V c main_v88) (V c main_v89) (V c main_v90) :=
  (dat7 (F := Ideal) V c).arrAt_eq_of_cover 5 _ (fun t _ => flushed7_eq V c t) cover7

/-! ## Region 10 -/

/-- The index maps over the 25 grid points: the feature block and the output block sit at row block t, every
    per-feature row at its one block. -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- The feature block and the output block of a point cover the same entries of their arrays. -/
theorem emb10_0 (t : Fin cfg10.N) (j : ((cfg10.win 5).xblock (grid10.coords t)).Idx) :
    ((cfg10.win 0).blk t).view.emb j = ((cfg10.win 5).blk t).view.emb j := by
  obtain ⟨a0, a1, -, -, -, -, -, -, -, -, f0, f1⟩ := idx_facts10 t
  funext a; apply Fin.ext
  match a with
  | ⟨0, _⟩ => show win10_0.index t (0 : Fin 2) * 2000 + 1 * (j 0).val = win10_5.index t (0 : Fin 2) * 2000 + 1 * (j 0).val; rw [a0, f0]
  | ⟨1, _⟩ => show win10_0.index t (1 : Fin 2) * 128 + 1 * (j 1).val = win10_5.index t (1 : Fin 2) * 128 + 1 * (j 1).val; rw [a1, f1]

/-- The mean row's one block, read at [0, q], is the row at [0, q]: in the array's coordinates, the column of the output entry. -/
theorem emb10_1 (t : Fin cfg10.N) (j : ((cfg10.win 5).xblock (grid10.coords t)).Idx) :
    ((cfg10.win 1).blk t).view.emb (ix2 (0 : Fin 1) (j 1)) = ix2 (0 : Fin 1) ((((cfg10.win 5).blk t).view.emb j) 1) := by
  obtain ⟨-, -, b0, b1, c0, c1, d0, d1, e0, e1, -, f1⟩ := idx_facts10 t
  funext a; apply Fin.ext
  match a with
  | ⟨0, _⟩ => show win10_1.index t (0 : Fin 2) * 1 + 1 * 0 = 0; rw [b0]
  | ⟨1, _⟩ => show win10_1.index t (1 : Fin 2) * 128 + 1 * (j 1).val = win10_5.index t (1 : Fin 2) * 128 + 1 * (j 1).val; rw [b1, f1]

/-- The variance row's one block, read at [0, q], is the row at [0, q]: in the array's coordinates, the column of the output entry. -/
theorem emb10_2 (t : Fin cfg10.N) (j : ((cfg10.win 5).xblock (grid10.coords t)).Idx) :
    ((cfg10.win 2).blk t).view.emb (ix2 (0 : Fin 1) (j 1)) = ix2 (0 : Fin 1) ((((cfg10.win 5).blk t).view.emb j) 1) := by
  obtain ⟨-, -, b0, b1, c0, c1, d0, d1, e0, e1, -, f1⟩ := idx_facts10 t
  funext a; apply Fin.ext
  match a with
  | ⟨0, _⟩ => show win10_2.index t (0 : Fin 2) * 1 + 1 * 0 = 0; rw [c0]
  | ⟨1, _⟩ => show win10_2.index t (1 : Fin 2) * 128 + 1 * (j 1).val = win10_5.index t (1 : Fin 2) * 128 + 1 * (j 1).val; rw [c1, f1]

/-- The scale row's one block, read at [0, q], is the row at [0, q]: in the array's coordinates, the column of the output entry. -/
theorem emb10_3 (t : Fin cfg10.N) (j : ((cfg10.win 5).xblock (grid10.coords t)).Idx) :
    ((cfg10.win 3).blk t).view.emb (ix2 (0 : Fin 1) (j 1)) = ix2 (0 : Fin 1) ((((cfg10.win 5).blk t).view.emb j) 1) := by
  obtain ⟨-, -, b0, b1, c0, c1, d0, d1, e0, e1, -, f1⟩ := idx_facts10 t
  funext a; apply Fin.ext
  match a with
  | ⟨0, _⟩ => show win10_3.index t (0 : Fin 2) * 1 + 1 * 0 = 0; rw [d0]
  | ⟨1, _⟩ => show win10_3.index t (1 : Fin 2) * 128 + 1 * (j 1).val = win10_5.index t (1 : Fin 2) * 128 + 1 * (j 1).val; rw [d1, f1]

/-- The shift row's one block, read at [0, q], is the row at [0, q]: in the array's coordinates, the column of the output entry. -/
theorem emb10_4 (t : Fin cfg10.N) (j : ((cfg10.win 5).xblock (grid10.coords t)).Idx) :
    ((cfg10.win 4).blk t).view.emb (ix2 (0 : Fin 1) (j 1)) = ix2 (0 : Fin 1) ((((cfg10.win 5).blk t).view.emb j) 1) := by
  obtain ⟨-, -, b0, b1, c0, c1, d0, d1, e0, e1, -, f1⟩ := idx_facts10 t
  funext a; apply Fin.ext
  match a with
  | ⟨0, _⟩ => show win10_4.index t (0 : Fin 2) * 1 + 1 * 0 = 0; rw [e0]
  | ⟨1, _⟩ => show win10_4.index t (1 : Fin 2) * 128 + 1 * (j 1).val = win10_5.index t (1 : Fin 2) * 128 + 1 * (j 1).val; rw [e1, f1]

/-- What point t writes back is block t of the normalisation of the whole arrays. -/
theorem flushed10_eq (t : Fin cfg10.N) :
    (dat10 (F := Ideal) V c).flushed 5 t
      = ((cfg10.win 5).blk t).view.read (Elt Ideal)
          (Cert.Spec.normK (V c main_v122_0) (V c main_v135) (V c main_v136) (V c main_v137) (V c main_v138)) := by
  show (cfg10.win 5).cut (grid10.coords t) ((dat10 (F := Ideal) V c).after 5 t) = _
  rw [after10_5]
  unfold out10_5
  rw [View.canon_unit_zero hz]
  simp only [View.ld_unit_zero (S := S2000x128) hz, View.ld_unit_zero (S := S1x128) hz]
  rw [pay10_fun]
  funext j
  show normAt (V c main_v122_0 (((cfg10.win 0).blk t).view.emb j))
      (V c main_v135 (((cfg10.win 1).blk t).view.emb (ix2 (0 : Fin 1) (j 1))))
      (V c main_v136 (((cfg10.win 2).blk t).view.emb (ix2 (0 : Fin 1) (j 1))))
      (V c main_v137 (((cfg10.win 3).blk t).view.emb (ix2 (0 : Fin 1) (j 1))))
      (V c main_v138 (((cfg10.win 4).blk t).view.emb (ix2 (0 : Fin 1) (j 1))))
    = Cert.Spec.normK (V c main_v122_0) (V c main_v135) (V c main_v136) (V c main_v137) (V c main_v138) (((cfg10.win 5).blk t).view.emb j)
  rw [normK_apply, emb10_0 t j, emb10_1 t j, emb10_2 t j, emb10_3 t j, emb10_4 t j]
  rfl

/-- An index of the array is in point t's output block iff each coordinate is in the block's range on its axis. -/
theorem mem_blk10 (t : Fin cfg10.N) (i : S50000x128.Idx) :
    i ∈ ((cfg10.win 5).blk t).view.set
      ↔ ∀ a : Fin 2, win10_5.index t a * S2000x128.size a ≤ (i a).val ∧ (i a).val < win10_5.index t a * S2000x128.size a + S2000x128.size a := by
  show i ∈ ((View.whole main_v139).slice (win10_5.rect t)).set ↔ _
  rw [View.set_slice_whole, Rect.mem_set_unit]
  exact Iff.rfl

/-- Row r of the array lies in the block of point r / 2000. -/
theorem cover10 (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  have hN : cfg10.N = 25 := N_10
  obtain ⟨t, ht⟩ : ∃ t : Fin cfg10.N, t.val = (i 0).val / 2000 := ⟨⟨(i 0).val / 2000, by rw [hN]; omega⟩, rfl⟩
  obtain ⟨-, -, -, -, -, -, -, -, -, -, f0, f1⟩ := idx_facts10 t
  refine ⟨t, flush10_5 t, ?_⟩
  rw [mem_blk10]
  intro a
  match a with
  | ⟨0, _⟩ =>
    show win10_5.index t (0 : Fin 2) * 2000 ≤ (i 0).val ∧ (i 0).val < win10_5.index t (0 : Fin 2) * 2000 + 2000
    rw [f0, ht]; omega
  | ⟨1, _⟩ =>
    show win10_5.index t (1 : Fin 2) * 128 ≤ (i 1).val ∧ (i 1).val < win10_5.index t (1 : Fin 2) * 128 + 128
    rw [f1]; omega

/-- The 25 blocks tile the array, so it ends holding the normalisation of the whole arrays. -/
theorem array10 : (dat10 (F := Ideal) V c).arrAt 5 cfg10.N
    = Cert.Spec.normK (V c main_v122_0) (V c main_v135) (V c main_v136) (V c main_v137) (V c main_v138) :=
  (dat10 (F := Ideal) V c).arrAt_eq_of_cover 5 _ (fun t _ => flushed10_eq V c t) cover10

end Blocks

/-! ## The three regions' output arrays -/

variable [Cert.KernelIdeal.Facts] [Cert.ReferenceIdeal.Facts]

-- the buffer contents when the region is entered
variable (V : (c : Dev nD) → (b : Ref sig .tc) → Buf (Elt Ideal) ((c : Thread nD τ).loc b)) (c : Dev nD)

theorem value4 : (dat4 (F := Ideal) V c).arrAt 5 cfg4.N
    = Cert.Spec.normK (V c main_v26_0) (V c main_v39) (V c main_v40) (V c main_v41) (V c main_v42) := by
  exact array4 V c

theorem value7 : (dat7 (F := Ideal) V c).arrAt 5 cfg7.N
    = Cert.Spec.normK (V c main_v74_0) (V c main_v87) (V c main_v88) (V c main_v89) (V c main_v90) := by
  exact array7 V c

theorem value10 : (dat10 (F := Ideal) V c).arrAt 5 cfg10.N
    = Cert.Spec.normK (V c main_v122_0) (V c main_v135) (V c main_v136) (V c main_v137) (V c main_v138) := by
  exact array10 V c

/-- The reciprocal square root of v + ε commutes with writing a vector as one row: both sides read, at [0, j],
    the reciprocal square root of v j + ε. -/
theorem rsqrt_row1 (v : Cert.Spec.FA Cert.ReferenceIdeal.S128) :
    Host.rsqrt (F := Ideal) (addf (Cert.Spec.row1 v)
        (broadcastInDim Cert.ReferenceIdeal.S1x128 ![] Cert.ReferenceIdeal.Facts₀.bcast_S_S1x128
          (constant (F := Ideal) Cert.ReferenceIdeal.S_ .f32 0x3727C5AC#32)))
      = Cert.Spec.row1 (Host.rsqrt (F := Ideal) (addf v
        (broadcastInDim Cert.ReferenceIdeal.S128 ![] Cert.ReferenceIdeal.Facts₀.bcast_S_S128
          (constant (F := Ideal) Cert.ReferenceIdeal.S_ .f32 0x3727C5AC#32)))) := by
  funext j
  rfl

/-- With every per-feature row the one-row form of a vector, the row form of the normalisation is the vector form. -/
theorem normK_rows (z : Cert.Spec.FA Cert.ReferenceIdeal.S50000x128) (mu v g b : Cert.Spec.FA Cert.ReferenceIdeal.S128) :
    Cert.Spec.normK z (Cert.Spec.row1 mu) (Cert.Spec.row1 v) (Cert.Spec.row1 g) (Cert.Spec.row1 b) = Cert.Spec.normOf z mu v g b := by
  unfold Cert.Spec.normK Cert.Spec.normOf
  rw [rsqrt_row1, Cert.Spec.rowsN_eq mu, Cert.Spec.rowsN_eq g, Cert.Spec.rowsN_eq b, Cert.Spec.rowsN_eq]

end Cert.RegionNorm

end
-- ==== Proof.SpecReal.lean ====
/-
  Every stage of the network keeps real data real: from real inputs every intermediate array of every layer has only
  real entries — in particular the three pre-normalisation arrays, on which the two forms of the variance agree.

  The argument is one walk along the network.  Sums, differences, products and maxima of reals are real; a matrix
  product and an accumulation of rows are finite sums of reals; taking rows by an index array, repeating a vector
  down the rows and cutting a slab out of a stack only re-index.  The one place where an infinity could arise is the
  normalisation, which divides by the number of nodes (a nonzero real) and takes the reciprocal square root of the
  variance plus a small positive constant: the variance of real data is a real at least zero, so that sum is a
  positive real and its reciprocal square root is real.
-/
import proofs.«407958_j39685497815719_1_alg».proof.Proof.Spec
import proofs.«407958_j39685497815719_1_alg».proof.Proof.LibReal
import proofs.«407958_j39685497815719_1_alg».proof.Proof.LibVariance

noncomputable section

namespace Cert.SpecReal

open Idealize.ShloMosaic Cert.ReferenceIdeal Cert.Spec

variable [Cert.ReferenceIdeal.Facts]
open Cert.ReferenceIdeal.Facts₀ Cert.ReferenceIdeal.Facts

/-! ## The stages, one by one -/

/-- The zero constant repeated over any shape is an array of reals. -/
theorem zeros_real (S : Shape) (h : S_.BroadcastsInDim S ![]) :
    AllReal (broadcastInDim S ![] h (constant (F := Ideal) S_ .f32 0x00000000#32)) :=
  LibReal.broadcastInDim_allReal _ _ (LibReal.constant_allReal _ _ _ LibReal.ofBits_zero)

/-- A real feature vector repeated down the node rows is real. -/
theorem rowsN_real {b : FA S128} (hb : AllReal b) : AllReal (rowsN b) :=
  LibReal.broadcastInDim_allReal _ _ (LibReal.broadcastInDim_allReal _ _ hb)

/-- A real feature vector repeated down the graph rows is real. -/
theorem rowsG_real {b : FA S128} (hb : AllReal b) : AllReal (rowsG b) :=
  LibReal.broadcastInDim_allReal _ _ (LibReal.broadcastInDim_allReal _ _ hb)

/-- The rectifier `max x 0` of a real edge array is real. -/
theorem reluE_real {x : FA S600000x128} (hx : AllReal x) : AllReal (reluE x) :=
  LibReal.maximumf_allReal hx (zeros_real _ _)

/-- The rectifier of a real node array is real. -/
theorem reluN_real {x : FA S50000x128} (hx : AllReal x) : AllReal (reluN x) :=
  LibReal.maximumf_allReal hx (zeros_real _ _)

/-- The rectifier of a real per-graph array is real. -/
theorem reluG_real {x : FA S512x128} (hx : AllReal x) : AllReal (reluG x) :=
  LibReal.maximumf_allReal hx (zeros_real _ _)

/-- The all-zero per-graph table is real. -/
theorem zeroVn_real : AllReal zeroVn := zeros_real _ _

/-- A slab of a real stack of matrices is real. -/
theorem w1_0_real {W : FA S3x128x128} (h : AllReal W) : AllReal (w1_0 W) :=
  LibReal.shapeCast_allReal _ (LibReal.extractStridedSlice_allReal _ _ h)
theorem w1_1_real {W : FA S3x128x128} (h : AllReal W) : AllReal (w1_1 W) :=
  LibReal.shapeCast_allReal _ (LibReal.extractStridedSlice_allReal _ _ h)
theorem w1_2_real {W : FA S3x128x128} (h : AllReal W) : AllReal (w1_2 W) :=
  LibReal.shapeCast_allReal _ (LibReal.extractStridedSlice_allReal _ _ h)

/-- A row of a real stack of vectors is real. -/
theorem row_0_real {B : FA S3x128} (h : AllReal B) : AllReal (row_0 B) :=
  LibReal.shapeCast_allReal _ (LibReal.extractStridedSlice_allReal _ _ h)
theorem row_1_real {B : FA S3x128} (h : AllReal B) : AllReal (row_1 B) :=
  LibReal.shapeCast_allReal _ (LibReal.extractStridedSlice_allReal _ _ h)
theorem row_2_real {B : FA S3x128} (h : AllReal B) : AllReal (row_2 B) :=
  LibReal.shapeCast_allReal _ (LibReal.extractStridedSlice_allReal _ _ h)

/-- The node encoder `x · P + p` of real data is real. -/
theorem lin0_real {x : FA S50000x64} {w : FA S64x128} {b : FA S128} (hx : AllReal x) (hw : AllReal w) (hb : AllReal b) :
    AllReal (lin0 x w b) :=
  LibReal.addf_allReal (LibReal.dotGeneral_allReal _ _ hx hw) (rowsN_real hb)

/-- The edge encoder `a · Q + q` of real data is real. -/
theorem lin1_real {x : FA S600000x2} {w : FA S2x128} {b : FA S128} (hx : AllReal x) (hw : AllReal w) (hb : AllReal b) :
    AllReal (lin1 x w b) :=
  LibReal.addf_allReal (LibReal.dotGeneral_allReal _ _ hx hw)
    (LibReal.broadcastInDim_allReal _ _ (LibReal.broadcastInDim_allReal _ _ hb))

/-- The rows of a real per-graph table taken by the nodes' graph indices are real, whatever the indices. -/
theorem gatherVn_real {vn : FA S512x128} (b : IA S50000) (h : AllReal vn) : AllReal (gatherVn vn b) :=
  LibReal.gather_allReal _ _ h

/-- The rows of a real node array taken by the edges' source indices are real, whatever the indices. -/
theorem gatherH_real {h : FA S50000x128} (s : IA S600000) (hh : AllReal h) : AllReal (gatherH h s) :=
  LibReal.gather_allReal _ _ hh

/-- The messages `max (h[src] + e) 0` of real data are real. -/
theorem msgOf_real {hsrc e : FA S600000x128} (h1 : AllReal hsrc) (h2 : AllReal e) : AllReal (msgOf hsrc e) :=
  reluE_real (LibReal.addf_allReal h1 h2)

/-- The sums of real messages arriving at each node are real, whatever the target indices. -/
theorem aggOf_real {msg : FA S600000x128} (d : IA S600000) (h : AllReal msg) : AllReal (aggOf msg d) :=
  LibReal.scatterAdd_allReal _ _ (zeros_real _ _) h

/-- The node perceptron of real data with real parameters is real. -/
theorem mlpOf_real {z : FA S50000x128} {w1 w2 : FA S128x128} {b1 b2 : FA S128} (hz : AllReal z) (hw1 : AllReal w1)
    (hb1 : AllReal b1) (hw2 : AllReal w2) (hb2 : AllReal b2) : AllReal (mlpOf z w1 b1 w2 b2) :=
  LibReal.addf_allReal
    (LibReal.dotGeneral_allReal _ _
      (reluN_real (LibReal.addf_allReal (LibReal.dotGeneral_allReal _ _ hz hw1) (rowsN_real hb1))) hw2)
    (rowsN_real hb2)

/-- The column sums of a real node array are real. -/
theorem colSum_real {z : FA S50000x128} (hz : AllReal z) : AllReal (colSum z) :=
  LibReal.reduceAdd_allReal hz (LibReal.constant_allReal _ _ _ LibReal.ofBits_zero) _ _

/-- The normalisation of a real node array by a real mean and a variance whose sum with the small constant is a
    positive real, with real scale and shift, is real. -/
theorem normOf_real {z : FA S50000x128} {mu v g b : FA S128} (hz : AllReal z) (hmu : AllReal mu)
    (hv : ∀ j, ∃ r : ℝ, 0 < r ∧ v j + Ideal.ofBits .f32 0x3727C5AC#32 = (r : EReal)) (hg : AllReal g) (hb : AllReal b) :
    AllReal (normOf z mu v g b) :=
  reluN_real
    (LibReal.addf_allReal
      (LibReal.mulf_allReal
        (LibReal.mulf_allReal (LibReal.subf_allReal hz (rowsN_real hmu))
          (rowsN_real (LibReal.rsqrt_allReal (fun j => hv j))))
        (rowsN_real hg))
      (rowsN_real hb))

/-- The per-graph sums of a real node array are real, whatever the graph indices. -/
theorem poolOf_real {h : FA S50000x128} (b : IA S50000) (hh : AllReal h) : AllReal (poolOf h b) :=
  LibReal.scatterAdd_allReal _ _ (zeros_real _ _) hh

/-- The per-graph perceptron of real data with real parameters is real. -/
theorem vnUpd_real {p : FA S512x128} {u1 u2 : FA S128x128} {c1 c2 : FA S128} (hp : AllReal p) (hu1 : AllReal u1)
    (hc1 : AllReal c1) (hu2 : AllReal u2) (hc2 : AllReal c2) : AllReal (vnUpd p u1 c1 u2 c2) :=
  LibReal.addf_allReal
    (LibReal.dotGeneral_allReal _ _
      (reluG_real (LibReal.addf_allReal (LibReal.dotGeneral_allReal _ _ hp hu1) (rowsG_real hc1))) hu2)
    (rowsG_real hc2)

/-- The table after a layer, from a real table, real node features and real parameters, is real. -/
theorem vnNext_real {vn : FA S512x128} {h : FA S50000x128} (b : IA S50000) {u1 u2 : FA S128x128} {c1 c2 : FA S128}
    (hvn : AllReal vn) (hh : AllReal h) (hu1 : AllReal u1) (hc1 : AllReal c1) (hu2 : AllReal u2) (hc2 : AllReal c2) :
    AllReal (vnNext vn h b u1 c1 u2 c2) :=
  LibReal.addf_allReal hvn (vnUpd_real (poolOf_real b hh) hu1 hc1 hu2 hc2)

/-- Real node features plus the rows of a real table are real. -/
theorem hbOf_real {h : FA S50000x128} {vn : FA S512x128} (b : IA S50000) (hh : AllReal h) (hvn : AllReal vn) :
    AllReal (hbOf h vn b) :=
  LibReal.addf_allReal hh (gatherVn_real b hvn)

/-- A layer's pre-normalisation features, from real node features, real edge features and real parameters, are
    real, whatever the edge list's indices. -/
theorem zOf_real {hb : FA S50000x128} {e : FA S600000x128} (ei : IA S2x600000) {w1 w2 : FA S128x128} {b1 b2 : FA S128}
    (hhb : AllReal hb) (he : AllReal e) (hw1 : AllReal w1) (hb1 : AllReal b1) (hw2 : AllReal w2) (hb2 : AllReal b2) :
    AllReal (zOf hb e ei w1 b1 w2 b2) :=
  mlpOf_real (LibReal.addf_allReal hhb (aggOf_real _ (msgOf_real (gatherH_real _ hhb) he))) hw1 hb1 hw2 hb2

/-- A layer's output features, from real pre-normalisation features and a real scale and shift, are real: the
    variance of real data plus the small constant is a positive real. -/
theorem hNext_real {z : FA S50000x128} {g b : FA S128} (hz : AllReal z) (hg : AllReal g) (hb : AllReal b) :
    AllReal (hNext z g b) :=
  normOf_real hz (LibVariance.meanOf_real hz) (LibVariance.varOf_add_eps_pos hz) hg hb

/-- How many nodes each graph has is a real number: a finite sum of ones. -/
theorem countsOf_real (b : IA S50000) : AllReal (countsOf b) :=
  LibReal.scatterAdd_allReal _ _ (zeros_real _ _)
    (LibReal.broadcastInDim_allReal _ _ (LibReal.constant_allReal _ _ _ LibReal.ofBits_one))

/-- The per-graph means of a real node array are real: real sums over `max count 1`, a positive real. -/
theorem embOf_real {h : FA S50000x128} (b : IA S50000) (hh : AllReal h) : AllReal (embOf h b) :=
  LibReal.divf_allReal (poolOf_real b hh)
    (LibReal.broadcastInDim_allNonzero _ _
      (LibReal.broadcastInDim_allNonzero _ _
        (LibReal.maximumf_allPos_right (countsOf_real b)
          (LibReal.broadcastInDim_allPos _ _ (LibReal.constant_allPos _ _ _ one_pos LibReal.ofBits_one))).allNonzero))

/-! ## The network, layer by layer -/

variable (I : Cert.Spec.Inputs) (hI : I.Ok)
include hI

/-- The edge features are real. -/
theorem e_real : AllReal I.e := lin1_real hI.ea hI.ew hI.eb
/-- The encoded node features are real. -/
theorem h0_real : AllReal I.h0 := lin0_real hI.x hI.pw hI.pb

/-- Layer 0's input features plus the (zero) table's rows are real. -/
theorem hb0_real : AllReal I.hb0 := hbOf_real _ (h0_real I hI) zeroVn_real
/-- Layer 0's pre-normalisation features are real. -/
theorem z0_real : AllReal I.z0 :=
  zOf_real _ (hb0_real I hI) (e_real I hI) (w1_0_real hI.cw1) (row_0_real hI.cb1) (w1_0_real hI.cw2) (row_0_real hI.cb2)
/-- Layer 0's output features are real. -/
theorem h1_real : AllReal I.h1 := hNext_real (z0_real I hI) (row_0_real hI.gam) (row_0_real hI.bet)
/-- The table after layer 0 is real. -/
theorem vn1_real : AllReal I.vn1 := vnNext_real _ zeroVn_real (h1_real I hI) hI.vw1 hI.vb1 hI.vw2 hI.vb2

/-- Layer 1's input features plus the table's rows are real. -/
theorem hb1_real : AllReal I.hb1 := hbOf_real _ (h1_real I hI) (vn1_real I hI)
/-- Layer 1's pre-normalisation features are real. -/
theorem z1_real : AllReal I.z1 :=
  zOf_real _ (hb1_real I hI) (e_real I hI) (w1_1_real hI.cw1) (row_1_real hI.cb1) (w1_1_real hI.cw2) (row_1_real hI.cb2)
/-- Layer 1's output features are real. -/
theorem h2_real : AllReal I.h2 := hNext_real (z1_real I hI) (row_1_real hI.gam) (row_1_real hI.bet)
/-- The table after layer 1 is real. -/
theorem vn2_real : AllReal I.vn2 := vnNext_real _ (vn1_real I hI) (h2_real I hI) hI.vw1 hI.vb1 hI.vw2 hI.vb2

/-- Layer 2's input features plus the table's rows are real. -/
theorem hb2_real : AllReal I.hb2 := hbOf_real _ (h2_real I hI) (vn2_real I hI)
/-- Layer 2's pre-normalisation features are real. -/
theorem z2_real : AllReal I.z2 :=
  zOf_real _ (hb2_real I hI) (e_real I hI) (w1_2_real hI.cw1) (row_2_real hI.cb1) (w1_2_real hI.cw2) (row_2_real hI.cb2)
/-- The network's first result, layer 2's output features, is real. -/
theorem h3_real : AllReal I.h3 := hNext_real (z2_real I hI) (row_2_real hI.gam) (row_2_real hI.bet)

/-- The network's second result, the per-graph means of the last features, is real. -/
theorem emb_real : AllReal I.emb := embOf_real _ (h3_real I hI)

end Cert.SpecReal

end
-- ==== Proof.Take.lean ====
/-
  Looking a row up by an index that may count from the end, with a guard for indices out of range.

  The tiled program looks rows up in two tables: a [512 × 128] table by the 50000 graph indices and a
  [50000 × 128] table by the 600000 source indices.  Each lookup first maps an index `v` to `w = v + n` where
  `v < 0` and to `w = v` otherwise (`n` the number of rows), then gathers row `w`, and finally keeps the gathered
  row where `0 ≤ w ≤ n − 1` and puts a filler (which the extended reals read as `⊥`) elsewhere.  The plain
  program gathers row `w` with no guard.  When every index lies in `[0, n)` the guard holds everywhere — `w = v`,
  `0 ≤ v` and `v ≤ n − 1` — so the guarded lookup is the plain one.

  `takeVn` / `takeH` are the two guarded lookups as array functions; `takeVn_eq` / `takeH_eq` identify them with the
  plain lookups for indices in range; `after_take0` … `after_take7` read each of the six lookups off the tiled
  program's host operations: whatever the buffers hold before, the result buffer afterwards holds the guarded lookup
  of the table buffer by the index buffer.
-/
import proofs.«407958_j39685497815719_1_alg».proof.Proof.Gen.KernelIdeal.Launch
import proofs.«407958_j39685497815719_1_alg».proof.Proof.Spec
import Idealize.ShloMosaic.Lib.StableHlo.Run
import Idealize.ShloMosaic.Lib.StableHlo.Predicate

set_option Elab.async false

noncomputable section

namespace Cert.Take

open Idealize.ShloMosaic Cert.KernelIdeal

variable [Cert.KernelIdeal.Facts] [Cert.ReferenceIdeal.Facts]
open Cert.KernelIdeal.Facts₀ Cert.KernelIdeal.Facts

/-! ## The guarded lookups -/

/-- A graph index counted from the end when negative: `b + 512` where `b < 0`, else `b`. -/
def wrapVn (b : IVec S50000 32) : IVec S50000 32 :=
  select (cmpi .slt b (broadcastInDim S50000 ![] bcast_S_S50000 (constantI S_ 32 0#32)))
    (addi b (broadcastInDim S50000 ![] bcast_S_S50000 (constantI S_ 32 512#32))) b

/-- The wrapped graph indices as a column of start indices. -/
def colVn (b : IVec S50000 32) : IVec S50000x1 32 :=
  broadcastInDim S50000x1 ![0] bcast_S50000_S50000x1_0 (wrapVn b)

/-- The guard: at every node, whether its wrapped graph index lies in `[0, 511]` (the conjunction, over the
    column's one entry, of `0 ≤ w` and `w ≤ 511`). -/
def maskVn (b : IVec S50000 32) : IVec S50000 1 :=
  Host.reduce IntOp.andi
    (andi
      (cmpi .sge (colVn b) (broadcastInDim S50000x1 ![] bcast_S_S50000x1 (constantI S_ 32 0#32)))
      (cmpi .sle (colVn b)
        (broadcastInDim S50000x1 ![0, 1] bcast_S1x1_S50000x1_0_1
          (broadcastInDim S1x1 ![1] bcast_S1_S1x1_1 (constantI S1 32 511#32)))))
    (constantI S_ 1 1#1) reducesTo_S50000x1_S50000_d1 h_S_

/-- The guarded lookup of the per-graph table: the row the wrapped index selects where the guard holds, the
    filler elsewhere. -/
def takeVn (vn : FVec Ideal S512x128 .f32) (b : IVec S50000 32) : FVec Ideal S50000x128 .f32 :=
  select (broadcastInDim S50000x128 ![0] bcast_S50000_S50000x128_0 (maskVn b))
    (Host.gather gather_S512x128_S50000x1_S50000x128_1_0_n_n_0_1_1128 vn (colVn b))
    (broadcastInDim S50000x128 ![] bcast_S_S50000x128 (constant (F := Ideal) S_ .f32 0x7FC00000#32))

/-- A node index counted from the end when negative: `s + 50000` where `s < 0`, else `s`. -/
def wrapH (s : IVec S600000 32) : IVec S600000 32 :=
  select (cmpi .slt s (broadcastInDim S600000 ![] bcast_S_S600000 (constantI S_ 32 0#32)))
    (addi s (broadcastInDim S600000 ![] bcast_S_S600000 (constantI S_ 32 50000#32))) s

/-- The wrapped node indices as a column of start indices. -/
def colH (s : IVec S600000 32) : IVec S600000x1 32 :=
  broadcastInDim S600000x1 ![0] bcast_S600000_S600000x1_0 (wrapH s)

/-- The guard: at every edge, whether its wrapped source index lies in `[0, 49999]`. -/
def maskH (s : IVec S600000 32) : IVec S600000 1 :=
  Host.reduce IntOp.andi
    (andi
      (cmpi .sge (colH s) (broadcastInDim S600000x1 ![] bcast_S_S600000x1 (constantI S_ 32 0#32)))
      (cmpi .sle (colH s)
        (broadcastInDim S600000x1 ![0, 1] bcast_S1x1_S600000x1_0_1
          (broadcastInDim S1x1 ![1] bcast_S1_S1x1_1 (constantI S1 32 49999#32)))))
    (constantI S_ 1 1#1) reducesTo_S600000x1_S600000_d1 h_S_

/-- The guarded lookup of the node features: the row the wrapped index selects where the guard holds, the filler
    elsewhere. -/
def takeH (h : FVec Ideal S50000x128 .f32) (s : IVec S600000 32) : FVec Ideal S600000x128 .f32 :=
  select (broadcastInDim S600000x128 ![0] bcast_S600000_S600000x128_0 (maskH s))
    (Host.gather gather_S50000x128_S600000x1_S600000x128_1_0_n_n_0_1_1128 h (colH s))
    (broadcastInDim S600000x128 ![] bcast_S_S600000x128 (constant (F := Ideal) S_ .f32 0x7FC00000#32))

/-! ## Words

The guard's arithmetic at one index: for a word `v` whose signed value lies in `[0, n)`, the wrapped index is `v`
itself and both comparisons of the guard hold. -/

/-- A left fold of one-bit conjunctions over entries that are all one, from one, is one. -/
theorem foldl_and_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx a]; exact ih

/-- A word that is not negative is left alone by the wrap. -/
theorem wrap_eq (v n : BitVec 32) (h0 : 0 ≤ v.toInt) :
    Scalar.select (IntOp.cmpi .slt v 0#32) (IntOp.addi v n) v = v := by
  have hlt : v.slt 0#32 = false := by
    rw [BitVec.slt]; simp only [BitVec.toInt_zero, decide_eq_false_iff_not, not_lt]; exact h0
  have hc : IntOp.cmpi .slt v 0#32 = 0#1 := by unfold IntOp.cmpi; rw [hlt]; rfl
  rw [hc]; rfl

/-- `0 ≤ v` as the signed comparison computes it. -/
theorem sge_zero (v : BitVec 32) (h0 : 0 ≤ v.toInt) : IntOp.cmpi .sge v 0#32 = 1#1 := by
  have hle : (0#32 : BitVec 32).sle v = true := by
    rw [BitVec.sle]; simp only [BitVec.toInt_zero, decide_eq_true_eq]; exact h0
  unfold IntOp.cmpi; rw [hle]; rfl

/-- `v ≤ m` as the signed comparison computes it, for a small bound `m`. -/
theorem sle_top (v : BitVec 32) (m : ℕ) (hm : m < 2 ^ 31) (h1 : v.toInt ≤ (m : ℤ)) :
    IntOp.cmpi .sle v (BitVec.ofNat 32 m) = 1#1 := by
  have hle : v.sle (BitVec.ofNat 32 m) = true := by
    rw [BitVec.sle, StableHlo.Predicate.toInt_ofNat_small m hm]; simp only [decide_eq_true_eq]; exact h1
  unfold IntOp.cmpi; rw [hle]; rfl

/-- Both comparisons of the guard hold at the wrapped index of a word in `[0, m]`. -/
theorem guard_word {v : BitVec 32} (n : BitVec 32) (m k : ℕ) (hm : m < 2 ^ 31) (hk : k = m + 1)
    (h : 0 ≤ v.toInt ∧ v.toInt < (k : ℤ)) :
    IntOp.andi (IntOp.cmpi .sge (Scalar.select (IntOp.cmpi .slt v 0#32) (IntOp.addi v n) v) 0#32)
      (IntOp.cmpi .sle (Scalar.select (IntOp.cmpi .slt v 0#32) (IntOp.addi v n) v) (BitVec.ofNat 32 m)) = 1#1 := by
  rw [wrap_eq v n h.1, sge_zero v h.1, sle_top v m hm (by have := h.2; omega)]; rfl

/-- Where the condition is one everywhere, the selection is its first branch. -/
theorem select_ones {S : Shape} {α : Type} (c : IVec S 1) (hc : ∀ i, c i = 1#1) (x y : S.Idx → α) :
    select c x y = x := by
  funext i
  show Scalar.select (c i) (x i) (y i) = x i
  rw [hc i]; rfl

/-! ## In range, the guarded lookup is the plain one

The guard at a node is a fold of conjunctions, from one, over the entries of the node's row of the column; every
entry is the conjunction of the two comparisons at one wrapped index, which is one for an index in range. -/

/-- In range, the guard on the graph indices holds at every node. -/
theorem maskVn_one (b : IVec S50000 32) (hb : Cert.Spec.InRange 512 b) : maskVn b = fun _ => 1#1 := by
  funext j
  refine foldl_and_one _ (fun n => ?_) _
  exact guard_word 512#32 511 512 (by norm_num) rfl (hb _)

/-- In range, the guard on the source indices holds at every edge. -/
theorem maskH_one (s : IVec S600000 32) (hs : Cert.Spec.InRange 50000 s) : maskH s = fun _ => 1#1 := by
  funext j
  refine foldl_and_one _ (fun n => ?_) _
  exact guard_word 50000#32 49999 50000 (by norm_num) rfl (hs _)

theorem takeVn_eq (vn : FVec Ideal S512x128 .f32) (b : IVec S50000 32) (hb : Cert.Spec.InRange 512 b) :
    takeVn vn b = Cert.Spec.gatherVn vn b := by
  unfold takeVn
  refine (select_ones _ (fun i => ?_) _ _).trans ?_
  · exact congrFun (maskVn_one b hb) _
  · rfl

theorem takeH_eq (h : FVec Ideal S50000x128 .f32) (s : IVec S600000 32) (hs : Cert.Spec.InRange 50000 s) :
    takeH h s = Cert.Spec.gatherH h s := by
  unfold takeH
  refine (select_ones _ (fun i => ?_) _ _).trans ?_
  · exact congrFun (maskH_one s hs) _
  · rfl

/-! ## The six lookups read off the host operations

Each list is the 23 operations of one lookup.  Unfolding the fold of the list at one buffer gives the operation that
writes it, applied to what the fold leaves at its operands; five such readings — the guard, the gathered rows, the
guard laid over the features, the filler, the final selection — compose to the guarded lookup of what the table
buffer and the index buffer held before. -/

section Call0
variable (V : Valuation τ sig (Elt Ideal))
local notation "A₀" => StableHlo.after (Gen.hostOps2_1 (F := Ideal)) V

theorem mask0 : A₀ (Proc.devRef .tc main_call0_v12) = maskVn (V (Proc.devRef .tc main_arg17)) := by
  chain_rfl
theorem rows0 : A₀ (Proc.devRef .tc main_call0_v13)
    = Host.gather gather_S512x128_S50000x1_S50000x128_1_0_n_n_0_1_1128 (V (Proc.devRef .tc main_v8))
        (colVn (V (Proc.devRef .tc main_arg17))) := by
  chain_rfl
theorem guard0 : A₀ (Proc.devRef .tc main_call0_v14)
    = broadcastInDim S50000x128 ![0] bcast_S50000_S50000x128_0 (A₀ (Proc.devRef .tc main_call0_v12)) := by
  chain_rfl
theorem fill0 : A₀ (Proc.devRef .tc main_call0_v15)
    = broadcastInDim S50000x128 ![] bcast_S_S50000x128 (constant (F := Ideal) S_ .f32 0x7FC00000#32) := by
  chain_rfl
theorem pick0 : A₀ (Proc.devRef .tc main_v9)
    = select (A₀ (Proc.devRef .tc main_call0_v14)) (A₀ (Proc.devRef .tc main_call0_v13))
        (A₀ (Proc.devRef .tc main_call0_v15)) := by
  chain_rfl

theorem after_take0 : A₀ (Proc.devRef .tc main_v9)
    = takeVn (V (Proc.devRef .tc main_v8)) (V (Proc.devRef .tc main_arg17)) := by
  rw [pick0 V, guard0 V, mask0 V, rows0 V, fill0 V]; rfl

end Call0

section Call1
variable (V : Valuation τ sig (Elt Ideal))
local notation "A₁" => StableHlo.after (Gen.hostOps2_3 (F := Ideal)) V

theorem mask1 : A₁ (Proc.devRef .tc main_call1_v12) = maskH (V (Proc.devRef .tc main_v1)) := by
  chain_rfl
theorem rows1 : A₁ (Proc.devRef .tc main_call1_v13)
    = Host.gather gather_S50000x128_S600000x1_S600000x128_1_0_n_n_0_1_1128 (V (Proc.devRef .tc main_v10))
        (colH (V (Proc.devRef .tc main_v1))) := by
  chain_rfl
theorem guard1 : A₁ (Proc.devRef .tc main_call1_v14)
    = broadcastInDim S600000x128 ![0] bcast_S600000_S600000x128_0 (A₁ (Proc.devRef .tc main_call1_v12)) := by
  chain_rfl
theorem fill1 : A₁ (Proc.devRef .tc main_call1_v15)
    = broadcastInDim S600000x128 ![] bcast_S_S600000x128 (constant (F := Ideal) S_ .f32 0x7FC00000#32) := by
  chain_rfl
theorem pick1 : A₁ (Proc.devRef .tc main_v11)
    = select (A₁ (Proc.devRef .tc main_call1_v14)) (A₁ (Proc.devRef .tc main_call1_v13))
        (A₁ (Proc.devRef .tc main_call1_v15)) := by
  chain_rfl

theorem after_take1 : A₁ (Proc.devRef .tc main_v11)
    = takeH (V (Proc.devRef .tc main_v10)) (V (Proc.devRef .tc main_v1)) := by
  rw [pick1 V, guard1 V, mask1 V, rows1 V, fill1 V]; rfl

end Call1

section Call3
variable (V : Valuation τ sig (Elt Ideal))
local notation "A₃" => StableHlo.after (Gen.hostOps5_3 (F := Ideal)) V

theorem mask3 : A₃ (Proc.devRef .tc main_call3_v12) = maskVn (V (Proc.devRef .tc main_arg17)) := by
  chain_rfl
theorem rows3 : A₃ (Proc.devRef .tc main_call3_v13)
    = Host.gather gather_S512x128_S50000x1_S50000x128_1_0_n_n_0_1_1128 (V (Proc.devRef .tc main_v56))
        (colVn (V (Proc.devRef .tc main_arg17))) := by
  chain_rfl
theorem guard3 : A₃ (Proc.devRef .tc main_call3_v14)
    = broadcastInDim S50000x128 ![0] bcast_S50000_S50000x128_0 (A₃ (Proc.devRef .tc main_call3_v12)) := by
  chain_rfl
theorem fill3 : A₃ (Proc.devRef .tc main_call3_v15)
    = broadcastInDim S50000x128 ![] bcast_S_S50000x128 (constant (F := Ideal) S_ .f32 0x7FC00000#32) := by
  chain_rfl
theorem pick3 : A₃ (Proc.devRef .tc main_v57)
    = select (A₃ (Proc.devRef .tc main_call3_v14)) (A₃ (Proc.devRef .tc main_call3_v13))
        (A₃ (Proc.devRef .tc main_call3_v15)) := by
  chain_rfl

theorem after_take3 : A₃ (Proc.devRef .tc main_v57)
    = takeVn (V (Proc.devRef .tc main_v56)) (V (Proc.devRef .tc main_arg17)) := by
  rw [pick3 V, guard3 V, mask3 V, rows3 V, fill3 V]; rfl

end Call3

section Call4
variable (V : Valuation τ sig (Elt Ideal))
local notation "A₄" => StableHlo.after (Gen.hostOps5_5 (F := Ideal)) V

theorem mask4 : A₄ (Proc.devRef .tc main_call4_v12) = maskH (V (Proc.devRef .tc main_v1)) := by
  chain_rfl
theorem rows4 : A₄ (Proc.devRef .tc main_call4_v13)
    = Host.gather gather_S50000x128_S600000x1_S600000x128_1_0_n_n_0_1_1128 (V (Proc.devRef .tc main_v58))
        (colH (V (Proc.devRef .tc main_v1))) := by
  chain_rfl
theorem guard4 : A₄ (Proc.devRef .tc main_call4_v14)
    = broadcastInDim S600000x128 ![0] bcast_S600000_S600000x128_0 (A₄ (Proc.devRef .tc main_call4_v12)) := by
  chain_rfl
theorem fill4 : A₄ (Proc.devRef .tc main_call4_v15)
    = broadcastInDim S600000x128 ![] bcast_S_S600000x128 (constant (F := Ideal) S_ .f32 0x7FC00000#32) := by
  chain_rfl
theorem pick4 : A₄ (Proc.devRef .tc main_v59)
    = select (A₄ (Proc.devRef .tc main_call4_v14)) (A₄ (Proc.devRef .tc main_call4_v13))
        (A₄ (Proc.devRef .tc main_call4_v15)) := by
  chain_rfl

theorem after_take4 : A₄ (Proc.devRef .tc main_v59)
    = takeH (V (Proc.devRef .tc main_v58)) (V (Proc.devRef .tc main_v1)) := by
  rw [pick4 V, guard4 V, mask4 V, rows4 V, fill4 V]; rfl

end Call4

section Call6
variable (V : Valuation τ sig (Elt Ideal))
local notation "A₆" => StableHlo.after (Gen.hostOps8_3 (F := Ideal)) V

theorem mask6 : A₆ (Proc.devRef .tc main_call6_v12) = maskVn (V (Proc.devRef .tc main_arg17)) := by
  chain_rfl
theorem rows6 : A₆ (Proc.devRef .tc main_call6_v13)
    = Host.gather gather_S512x128_S50000x1_S50000x128_1_0_n_n_0_1_1128 (V (Proc.devRef .tc main_v104))
        (colVn (V (Proc.devRef .tc main_arg17))) := by
  chain_rfl
theorem guard6 : A₆ (Proc.devRef .tc main_call6_v14)
    = broadcastInDim S50000x128 ![0] bcast_S50000_S50000x128_0 (A₆ (Proc.devRef .tc main_call6_v12)) := by
  chain_rfl
theorem fill6 : A₆ (Proc.devRef .tc main_call6_v15)
    = broadcastInDim S50000x128 ![] bcast_S_S50000x128 (constant (F := Ideal) S_ .f32 0x7FC00000#32) := by
  chain_rfl
theorem pick6 : A₆ (Proc.devRef .tc main_v105)
    = select (A₆ (Proc.devRef .tc main_call6_v14)) (A₆ (Proc.devRef .tc main_call6_v13))
        (A₆ (Proc.devRef .tc main_call6_v15)) := by
  chain_rfl

theorem after_take6 : A₆ (Proc.devRef .tc main_v105)
    = takeVn (V (Proc.devRef .tc main_v104)) (V (Proc.devRef .tc main_arg17)) := by
  rw [pick6 V, guard6 V, mask6 V, rows6 V, fill6 V]; rfl

end Call6

section Call7
variable (V : Valuation τ sig (Elt Ideal))
local notation "A₇" => StableHlo.after (Gen.hostOps8_5 (F := Ideal)) V

theorem mask7 : A₇ (Proc.devRef .tc main_call7_v12) = maskH (V (Proc.devRef .tc main_v1)) := by
  chain_rfl
theorem rows7 : A₇ (Proc.devRef .tc main_call7_v13)
    = Host.gather gather_S50000x128_S600000x1_S600000x128_1_0_n_n_0_1_1128 (V (Proc.devRef .tc main_v106))
        (colH (V (Proc.devRef .tc main_v1))) := by
  chain_rfl
theorem guard7 : A₇ (Proc.devRef .tc main_call7_v14)
    = broadcastInDim S600000x128 ![0] bcast_S600000_S600000x128_0 (A₇ (Proc.devRef .tc main_call7_v12)) := by
  chain_rfl
theorem fill7 : A₇ (Proc.devRef .tc main_call7_v15)
    = broadcastInDim S600000x128 ![] bcast_S_S600000x128 (constant (F := Ideal) S_ .f32 0x7FC00000#32) := by
  chain_rfl
theorem pick7 : A₇ (Proc.devRef .tc main_v107)
    = select (A₇ (Proc.devRef .tc main_call7_v14)) (A₇ (Proc.devRef .tc main_call7_v13))
        (A₇ (Proc.devRef .tc main_call7_v15)) := by
  chain_rfl

theorem after_take7 : A₇ (Proc.devRef .tc main_v107)
    = takeH (V (Proc.devRef .tc main_v106)) (V (Proc.devRef .tc main_v1)) := by
  rw [pick7 V, guard7 V, mask7 V, rows7 V, fill7 V]; rfl

end Call7

end Cert.Take

end
-- ==== Proof.FoldL0.lean ====
/-
  The tiled program's buffers from the launch to the end of the first layer.

  The buffer contents at every boundary between the run's segments are a fold from the launch memory: a stretch of
  host operations rewrites the buffers its operations write, a tiled region rewrites its output arrays.  Walking
  that fold segment by segment: the two encoder regions leave `x · P + p` and `a · Q + q`; the first layer then adds
  to every node its graph's row of the (zero) table, sends along every edge the rectified sum of the source row and
  the edge row, adds the messages up at their target nodes, applies the node perceptron while accumulating the two
  column sums, turns the sums into the per-feature mean and variance, and normalises.  A buffer that no operation of
  a stretch writes, and that is not an output array of a region, holds after the segment what it held before; so the
  arguments, the edge indices, the edge features and the zero table come through unchanged.
-/
import proofs.«407958_j39685497815719_1_alg».proof.Proof.FoldEnv
import proofs.«407958_j39685497815719_1_alg».proof.Proof.Glue
import proofs.«407958_j39685497815719_1_alg».proof.Proof.RegionLin
import proofs.«407958_j39685497815719_1_alg».proof.Proof.RegionMsg
import proofs.«407958_j39685497815719_1_alg».proof.Proof.RegionConv
import proofs.«407958_j39685497815719_1_alg».proof.Proof.RegionNorm
import proofs.«407958_j39685497815719_1_alg».proof.Proof.SpecReal
import proofs.«407958_j39685497815719_1_alg».proof.Proof.Take
import Idealize.ShloMosaic.Lib.StableHlo.Run

set_option maxRecDepth 16384

noncomputable section

namespace Cert.Fold

open Cert.KernelIdeal Cert.KernelIdeal.Gen
open Idealize.ShloMosaic Idealize.ShloMosaic.TcCoe Idealize.SL.Sem

variable [Cert.KernelIdeal.Facts] [Cert.ReferenceIdeal.Facts]

variable (m : (ℓ : Loc nD τ sig) → Buf (Elt Ideal) ℓ) (ρ : Dev nD → PrngReg) (c : Dev nD)

/-- Splits a statement about every operation of a literal stretch into one membership per operation. -/
local macro "writes_sub" ops:ident : tactic =>
  `(tactic| (simp only [$ops:ident, List.Forall, StableHlo.nullary_writes, StableHlo.unary_writes, StableHlo.binary_writes,
      StableHlo.ternary_writes, StableHlo.quaternary_writes, StableHlo.reshape_writes, StableHlo.binaryIndexed_writes,
      Finset.singleton_subset_iff, List.mem_toFinset]
             repeat' apply And.intro
             all_goals exact List.mem_map_of_mem (by decide)))

/-! ## The launch to the end of the two encoders

### What each segment leaves alone -/

/-- The buffers the first stretch writes. -/
abbrev wr0 : List (Ref sig .tc) := [main_v0, main_v1, main_v2, main_v3, main_v4]
/-- The buffer the second stretch writes. -/
abbrev wr1 : List (Ref sig .tc) := [main_v6]

theorem keep0 (V : Valuation τ sig (Elt Ideal)) (b : Ref sig .tc) (hb : b ∉ wr0) :
    StableHlo.after (hostOps0 (F := Ideal)) V (Proc.devRef .tc b) = V (Proc.devRef .tc b) :=
  StableHlo.after_of_writes_sub _ V (by writes_sub hostOps0) hb

theorem keep1 (V : Valuation τ sig (Elt Ideal)) (b : Ref sig .tc) (hb : b ∉ wr1) :
    StableHlo.after (hostOps1 (F := Ideal)) V (Proc.devRef .tc b) = V (Proc.devRef .tc b) :=
  StableHlo.after_of_writes_sub _ V (by writes_sub hostOps1) hb

/-- The node encoder's region changes its output array only: an input window's array ends as it was entered, and a
    buffer that is no window's array is not touched. -/
theorem keepR0 (b : Ref sig .tc) (hb : b ∉ [main_v5]) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      fin_cases w
      · rfl
      · rfl
      · rfl
      · exact absurd (List.mem_singleton_self _) hb
    exact (W2_arr m ρ c w).trans (((dat0 (V1 m ρ) c).arrAt_in w hin _).trans (A_eq0 (V1 m ρ) c w))
  · exact W2_of_ne m ρ c b fun w e => h ⟨w, e⟩

/-- Likewise the edge encoder's region. -/
theorem keepR1 (b : Ref sig .tc) (hb : b ∉ [main_v7]) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      fin_cases w
      · rfl
      · rfl
      · rfl
      · exact absurd (List.mem_singleton_self _) hb
    exact (W4_arr m ρ c w).trans (((dat1 (V3 m ρ) c).arrAt_in w hin _).trans (A_eq1 (V3 m ρ) c w))
  · exact W4_of_ne m ρ c b fun w e => h ⟨w, e⟩

/-- A buffer none of the first four segments writes holds at the fourth boundary what the launch memory held. -/
theorem keep_0_4 (b : Ref sig .tc) (hb : b ∉ wr0 ++ [main_v5] ++ wr1 ++ [main_v7]) :
    W4 m ρ c (Proc.devRef .tc b) = m ((c : Thread nD τ).loc b) := by
  simp only [List.mem_append, not_or] at hb
  obtain ⟨⟨⟨h0, h1⟩, h2⟩, h3⟩ := hb
  exact (keepR1 m ρ c b h3).trans ((keep1 _ b h2).trans ((keepR0 m ρ c b h1).trans (keep0 _ b h0)))

/-! ### What the two stretches compute -/

theorem src_after0 (V : Valuation τ sig (Elt Ideal)) :
    StableHlo.after (hostOps0 (F := Ideal)) V (Proc.devRef .tc main_v1) = Cert.Spec.srcOf (V (Proc.devRef .tc main_arg16)) := by
  after_results; rfl

theorem dst_after0 (V : Valuation τ sig (Elt Ideal)) :
    StableHlo.after (hostOps0 (F := Ideal)) V (Proc.devRef .tc main_v3) = Cert.Spec.dstOf (V (Proc.devRef .tc main_arg16)) := by
  after_results; rfl

theorem pb_after0 (V : Valuation τ sig (Elt Ideal)) :
    StableHlo.after (hostOps0 (F := Ideal)) V (Proc.devRef .tc main_v4) = Cert.Spec.row1 (V (Proc.devRef .tc main_arg3)) := by
  after_results; exact Cert.Glue.reshape_row _

theorem eb_after1 (V : Valuation τ sig (Elt Ideal)) :
    StableHlo.after (hostOps1 (F := Ideal)) V (Proc.devRef .tc main_v6) = Cert.Spec.row1 (V (Proc.devRef .tc main_arg5)) := by
  after_results; exact Cert.Glue.reshape_row _

/-! ### The two encoders' outputs -/

/-- The node encoder's output array: `x · P + p`. -/
theorem h_W2 : W2 m ρ c (Proc.devRef .tc main_v5) = (kInputs m c).h0 := by
  refine ((W2_arr m ρ c 3).trans (Cert.RegionLin.value0 (V1 m ρ) c)).trans ?_
  have hx : V1 m ρ c main_arg0 = m ((c : Thread nD τ).loc main_arg0) := keep0 _ main_arg0 (by decide)
  have hw : V1 m ρ c main_arg2 = m ((c : Thread nD τ).loc main_arg2) := keep0 _ main_arg2 (by decide)
  have hp : V1 m ρ c main_v4 = Cert.Spec.row1 (m ((c : Thread nD τ).loc main_arg3)) := pb_after0 _
  rw [hx, hw, hp]; rfl

/-- The edge encoder's output array: `a · Q + q`. -/
theorem e_W4 : W4 m ρ c (Proc.devRef .tc main_v7) = (kInputs m c).e := by
  refine ((W4_arr m ρ c 3).trans (Cert.RegionLin.value1 (V3 m ρ) c)).trans ?_
  have hx : V3 m ρ c main_arg1 = m ((c : Thread nD τ).loc main_arg1) :=
    (keep1 _ main_arg1 (by decide)).trans ((keepR0 m ρ c main_arg1 (by decide)).trans (keep0 _ main_arg1 (by decide)))
  have hw : V3 m ρ c main_arg4 = m ((c : Thread nD τ).loc main_arg4) :=
    (keep1 _ main_arg4 (by decide)).trans ((keepR0 m ρ c main_arg4 (by decide)).trans (keep0 _ main_arg4 (by decide)))
  have hq : V3 m ρ c main_v6 = Cert.Spec.row1 (m ((c : Thread nD τ).loc main_arg5)) :=
    (eb_after1 _).trans (congrArg Cert.Spec.row1
      ((keepR0 m ρ c main_arg5 (by decide)).trans (keep0 _ main_arg5 (by decide))))
  rw [hx, hw, hq]; rfl

/-- The buffers after the two encoders. -/
theorem env4 : Env4 m ρ c where
  args :=
    { a0 := keep_0_4 m ρ c main_arg0 (by decide)
      a1 := keep_0_4 m ρ c main_arg1 (by decide)
      a2 := keep_0_4 m ρ c main_arg2 (by decide)
      a3 := keep_0_4 m ρ c main_arg3 (by decide)
      a4 := keep_0_4 m ρ c main_arg4 (by decide)
      a5 := keep_0_4 m ρ c main_arg5 (by decide)
      a6 := keep_0_4 m ρ c main_arg6 (by decide)
      a7 := keep_0_4 m ρ c main_arg7 (by decide)
      a8 := keep_0_4 m ρ c main_arg8 (by decide)
      a9 := keep_0_4 m ρ c main_arg9 (by decide)
      a10 := keep_0_4 m ρ c main_arg10 (by decide)
      a11 := keep_0_4 m ρ c main_arg11 (by decide)
      a12 := keep_0_4 m ρ c main_arg12 (by decide)
      a13 := keep_0_4 m ρ c main_arg13 (by decide)
      a14 := keep_0_4 m ρ c main_arg14 (by decide)
      a15 := keep_0_4 m ρ c main_arg15 (by decide)
      a16 := keep_0_4 m ρ c main_arg16 (by decide)
      a17 := keep_0_4 m ρ c main_arg17 (by decide) }
  src := (keepR1 m ρ c main_v1 (by decide)).trans ((keep1 _ main_v1 (by decide)).trans
    ((keepR0 m ρ c main_v1 (by decide)).trans (src_after0 _)))
  dst := (keepR1 m ρ c main_v3 (by decide)).trans ((keep1 _ main_v3 (by decide)).trans
    ((keepR0 m ρ c main_v3 (by decide)).trans (dst_after0 _)))
  h := (keepR1 m ρ c main_v5 (by decide)).trans ((keep1 _ main_v5 (by decide)).trans (h_W2 m ρ c))
  e := e_W4 m ρ c

/-! ## The first layer

### What each segment leaves alone -/

open Cert.KernelIdeal.Facts₀ Cert.KernelIdeal.Facts

/-- The buffers the stretch that makes the zero table writes. -/
abbrev wr2 : List (Ref sig .tc) := [main_cst, main_v8]
/-- The buffers the lookup of the table by the graph indices writes. -/
abbrev wr2_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v9]
abbrev wr2_2 : List (Ref sig .tc) := [main_v10]
/-- The buffers the lookup of the node rows by the source indices writes. -/
abbrev wr2_3 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v11]
/-- The buffers the stretch between the message region and the perceptron region writes. -/
abbrev wr3 : List (Ref sig .tc) :=
  [main_cst_0, main_v13, main_v14, main_v15, main_v16, main_v17, main_v18, main_v19, main_v20, main_v21, main_v22,
   main_v23, main_v24, main_v25]
/-- The buffers the stretch between the perceptron region and the normalising region writes. -/
abbrev wr4 : List (Ref sig .tc) :=
  [main_cst_1, main_v27, main_v28, main_cst_2, main_v29, main_v30, main_v31, main_v32, main_v33, main_v34, main_v35,
   main_v36, main_v37, main_v38, main_v39, main_v40, main_v41, main_v42]

theorem keep2 (V : Valuation τ sig (Elt Ideal)) (b : Ref sig .tc) (hb : b ∉ wr2) :
    StableHlo.after (hostOps2 (F := Ideal)) V (Proc.devRef .tc b) = V (Proc.devRef .tc b) :=
  StableHlo.after_of_writes_sub _ V (by writes_sub hostOps2) hb
theorem keep2_1 (V : Valuation τ sig (Elt Ideal)) (b : Ref sig .tc) (hb : b ∉ wr2_1) :
    StableHlo.after (hostOps2_1 (F := Ideal)) V (Proc.devRef .tc b) = V (Proc.devRef .tc b) :=
  StableHlo.after_of_writes_sub _ V (by writes_sub hostOps2_1) hb
theorem keep2_2 (V : Valuation τ sig (Elt Ideal)) (b : Ref sig .tc) (hb : b ∉ wr2_2) :
    StableHlo.after (hostOps2_2 (F := Ideal)) V (Proc.devRef .tc b) = V (Proc.devRef .tc b) :=
  StableHlo.after_of_writes_sub _ V (by writes_sub hostOps2_2) hb
theorem keep2_3 (V : Valuation τ sig (Elt Ideal)) (b : Ref sig .tc) (hb : b ∉ wr2_3) :
    StableHlo.after (hostOps2_3 (F := Ideal)) V (Proc.devRef .tc b) = V (Proc.devRef .tc b) :=
  StableHlo.after_of_writes_sub _ V (by writes_sub hostOps2_3) hb
theorem keep3 (V : Valuation τ sig (Elt Ideal)) (b : Ref sig .tc) (hb : b ∉ wr3) :
    StableHlo.after (hostOps3 (F := Ideal)) V (Proc.devRef .tc b) = V (Proc.devRef .tc b) :=
  StableHlo.after_of_writes_sub _ V (by writes_sub hostOps3) hb
theorem keep4 (V : Valuation τ sig (Elt Ideal)) (b : Ref sig .tc) (hb : b ∉ wr4) :
    StableHlo.after (hostOps4 (F := Ideal)) V (Proc.devRef .tc b) = V (Proc.devRef .tc b) :=
  StableHlo.after_of_writes_sub _ V (by writes_sub hostOps4) hb

/-- The message region changes its output array only. -/
theorem keepR2 (b : Ref sig .tc) (hb : b ∉ [main_v12]) :
    W9 m ρ c (Proc.devRef .tc b) = W8 m ρ c (Proc.devRef .tc b) := by
  by_cases h : ∃ w, Pipeline.arrRef spec2 w = b
  · obtain ⟨w, rfl⟩ := h
    have hin : (cfg2.win w).isOut = false := by
      fin_cases w
      · rfl
      · rfl
      · exact absurd (List.mem_singleton_self _) hb
    exact (W9_arr m ρ c w).trans (((dat2 (V8 m ρ) c).arrAt_in w hin _).trans (A_eq2 (V8 m ρ) c w))
  · exact W9_of_ne m ρ c b fun w e => h ⟨w, e⟩

/-- The perceptron region changes its three output arrays only. -/
theorem keepR3 (b : Ref sig .tc) (hb : b ∉ [main_v26_0, main_v26_1, main_v26_2]) :
    W11 m ρ c (Proc.devRef .tc b) = W10 m ρ c (Proc.devRef .tc b) := by
  by_cases h : ∃ w, Pipeline.arrRef spec3 w = b
  · obtain ⟨w, rfl⟩ := h
    have hin : (cfg3.win w).isOut = false := by
      fin_cases w
      · rfl
      · rfl
      · rfl
      · rfl
      · rfl
      · rfl
      · exact absurd (by decide) hb
      · exact absurd (by decide) hb
      · exact absurd (by decide) hb
    exact (W11_arr m ρ c w).trans (((dat3 (V10 m ρ) c).arrAt_in w hin _).trans (A_eq3 (V10 m ρ) c w))
  · exact W11_of_ne m ρ c b fun w e => h ⟨w, e⟩

/-- The normalising region changes its output array only. -/
theorem keepR4 (b : Ref sig .tc) (hb : b ∉ [main_v43]) :
    W13 m ρ c (Proc.devRef .tc b) = W12 m ρ c (Proc.devRef .tc b) := by
  by_cases h : ∃ w, Pipeline.arrRef spec4 w = b
  · obtain ⟨w, rfl⟩ := h
    have hin : (cfg4.win w).isOut = false := by
      fin_cases w
      · rfl
      · rfl
      · rfl
      · rfl
      · rfl
      · exact absurd (List.mem_singleton_self _) hb
    exact (W13_arr m ρ c w).trans (((dat4 (V12 m ρ) c).arrAt_in w hin _).trans (A_eq4 (V12 m ρ) c w))
  · exact W13_of_ne m ρ c b fun w e => h ⟨w, e⟩

/-- From the encoders' exit to the message region's entry. -/
theorem keep_4_8 (b : Ref sig .tc) (hb : b ∉ wr2 ++ wr2_1 ++ wr2_2 ++ wr2_3) :
    W8 m ρ c (Proc.devRef .tc b) = W4 m ρ c (Proc.devRef .tc b) := by
  simp only [List.mem_append, not_or] at hb
  obtain ⟨⟨⟨h0, h1⟩, h2⟩, h3⟩ := hb
  exact (keep2_3 _ b h3).trans ((keep2_2 _ b h2).trans ((keep2_1 _ b h1).trans (keep2 _ b h0)))

/-- From the message region's entry to the perceptron region's exit. -/
theorem keep_8_11 (b : Ref sig .tc) (hb : b ∉ [main_v12] ++ wr3 ++ [main_v26_0, main_v26_1, main_v26_2]) :
    W11 m ρ c (Proc.devRef .tc b) = W8 m ρ c (Proc.devRef .tc b) := by
  simp only [List.mem_append, not_or] at hb
  obtain ⟨⟨h0, h1⟩, h2⟩ := hb
  exact (keepR3 m ρ c b h2).trans ((keep3 _ b h1).trans (keepR2 m ρ c b h0))

/-- From the perceptron region's exit to the normalising region's exit. -/
theorem keep_11_13 (b : Ref sig .tc) (hb : b ∉ wr4 ++ [main_v43]) :
    W13 m ρ c (Proc.devRef .tc b) = W11 m ρ c (Proc.devRef .tc b) := by
  simp only [List.mem_append, not_or] at hb
  obtain ⟨h0, h1⟩ := hb
  exact (keepR4 m ρ c b h1).trans (keep4 _ b h0)

/-- A buffer no segment of the first layer writes. -/
theorem keep_4_13 (b : Ref sig .tc) (h1 : b ∉ wr2 ++ wr2_1 ++ wr2_2 ++ wr2_3)
    (h2 : b ∉ [main_v12] ++ wr3 ++ [main_v26_0, main_v26_1, main_v26_2]) (h3 : b ∉ wr4 ++ [main_v43]) :
    W13 m ρ c (Proc.devRef .tc b) = W4 m ρ c (Proc.devRef .tc b) :=
  (keep_11_13 m ρ c b h3).trans ((keep_8_11 m ρ c b h2).trans (keep_4_8 m ρ c b h1))

/-! ### What the host stretches of the first layer compute

Each lemma reads one result buffer of a stretch as a stage function of what the stretch's input buffers hold. -/

theorem zero_after2 (V : Valuation τ sig (Elt Ideal)) :
    StableHlo.after (hostOps2 (F := Ideal)) V (Proc.devRef .tc main_v8) = Spec.zeroVn := by
  after_results <;> rfl

/-- The lookup of the table by graph indices in range is the plain gather. -/
theorem gatherVn_after2_1 (V : Valuation τ sig (Elt Ideal)) (vn : Spec.FA Cert.ReferenceIdeal.S512x128)
    (b : Spec.IA Cert.ReferenceIdeal.S50000) (hv : V (Proc.devRef .tc main_v8) = vn) (hb : V (Proc.devRef .tc main_arg17) = b)
    (hr : Spec.InRange 512 b) :
    StableHlo.after (hostOps2_1 (F := Ideal)) V (Proc.devRef .tc main_v9) = Spec.gatherVn vn b := by
  subst hv hb
  exact (Take.after_take0 V).trans (Take.takeVn_eq _ _ hr)

theorem hb_after2_2 (V : Valuation τ sig (Elt Ideal)) (h : Spec.FA Cert.ReferenceIdeal.S50000x128)
    (g : Spec.FA Cert.ReferenceIdeal.S50000x128) (hh : V (Proc.devRef .tc main_v5) = h) (hg : V (Proc.devRef .tc main_v9) = g) :
    StableHlo.after (hostOps2_2 (F := Ideal)) V (Proc.devRef .tc main_v10) = addf h g := by
  subst hh hg
  after_results <;> rfl

/-- The lookup of the node rows by source indices in range is the plain gather. -/
theorem gatherH_after2_3 (V : Valuation τ sig (Elt Ideal)) (h : Spec.FA Cert.ReferenceIdeal.S50000x128)
    (s : Spec.IA Cert.ReferenceIdeal.S600000) (hh : V (Proc.devRef .tc main_v10) = h) (hs : V (Proc.devRef .tc main_v1) = s)
    (hr : Spec.InRange 50000 s) :
    StableHlo.after (hostOps2_3 (F := Ideal)) V (Proc.devRef .tc main_v11) = Spec.gatherH h s := by
  subst hh hs
  exact (Take.after_take1 V).trans (Take.takeH_eq _ _ hr)

theorem agg_after3 (V : Valuation τ sig (Elt Ideal)) (msg : Spec.FA Cert.ReferenceIdeal.S600000x128)
    (d : Spec.IA Cert.ReferenceIdeal.S600000) (hm : V (Proc.devRef .tc main_v12) = msg) (hd : V (Proc.devRef .tc main_v3) = d) :
    StableHlo.after (hostOps3 (F := Ideal)) V (Proc.devRef .tc main_v15) = Spec.aggOf msg d := by
  subst hm hd
  after_results <;> rfl

theorem w1_after3 (V : Valuation τ sig (Elt Ideal)) (W : Spec.FA Cert.ReferenceIdeal.S3x128x128)
    (hW : V (Proc.devRef .tc main_arg6) = W) :
    StableHlo.after (hostOps3 (F := Ideal)) V (Proc.devRef .tc main_v17) = Spec.w1_0 W := by
  subst hW
  after_results <;> rfl

theorem w2_after3 (V : Valuation τ sig (Elt Ideal)) (W : Spec.FA Cert.ReferenceIdeal.S3x128x128)
    (hW : V (Proc.devRef .tc main_arg8) = W) :
    StableHlo.after (hostOps3 (F := Ideal)) V (Proc.devRef .tc main_v21) = Spec.w1_0 W := by
  subst hW
  after_results <;> rfl

theorem b1_after3 (V : Valuation τ sig (Elt Ideal)) (B : Spec.FA Cert.ReferenceIdeal.S3x128)
    (hB : V (Proc.devRef .tc main_arg7) = B) :
    StableHlo.after (hostOps3 (F := Ideal)) V (Proc.devRef .tc main_v24) = Spec.row1 (Spec.row_0 B) := by
  subst hB
  after_results
  exact Glue.reshape_row _

theorem b2_after3 (V : Valuation τ sig (Elt Ideal)) (B : Spec.FA Cert.ReferenceIdeal.S3x128)
    (hB : V (Proc.devRef .tc main_arg9) = B) :
    StableHlo.after (hostOps3 (F := Ideal)) V (Proc.devRef .tc main_v25) = Spec.row1 (Spec.row_0 B) := by
  subst hB
  after_results
  exact Glue.reshape_row _

/-- The row of column sums divided by 50000, through a vector and back, is the row of column means. -/
theorem mean_after4 (V : Valuation τ sig (Elt Ideal)) (z : Spec.FA Cert.ReferenceIdeal.S50000x128)
    (hs : V (Proc.devRef .tc main_v26_1) = Spec.row1 (Spec.colSum z)) :
    StableHlo.after (hostOps4 (F := Ideal)) V (Proc.devRef .tc main_v39) = Spec.row1 (Spec.meanOf z) := by
  after_results
  rw [hs]
  exact Glue.mean_row z

/-- The second moment less the squared mean, through a vector and back, is on real data the row of column
    variances. -/
theorem var_after4 (V : Valuation τ sig (Elt Ideal)) (z : Spec.FA Cert.ReferenceIdeal.S50000x128) (hz : Spec.AllReal z)
    (hs : V (Proc.devRef .tc main_v26_1) = Spec.row1 (Spec.colSum z))
    (hss : V (Proc.devRef .tc main_v26_2) = Spec.row1 (Spec.colSum (mulf z z))) :
    StableHlo.after (hostOps4 (F := Ideal)) V (Proc.devRef .tc main_v40) = Spec.row1 (Spec.varOf z) := by
  after_results
  rw [hs, hss]
  exact Glue.var_row z hz

theorem gam_after4 (V : Valuation τ sig (Elt Ideal)) (B : Spec.FA Cert.ReferenceIdeal.S3x128)
    (hB : V (Proc.devRef .tc main_arg10) = B) :
    StableHlo.after (hostOps4 (F := Ideal)) V (Proc.devRef .tc main_v41) = Spec.row1 (Spec.row_0 B) := by
  subst hB
  after_results
  exact Glue.reshape_row _

theorem bet_after4 (V : Valuation τ sig (Elt Ideal)) (B : Spec.FA Cert.ReferenceIdeal.S3x128)
    (hB : V (Proc.devRef .tc main_arg11) = B) :
    StableHlo.after (hostOps4 (F := Ideal)) V (Proc.devRef .tc main_v42) = Spec.row1 (Spec.row_0 B) := by
  subst hB
  after_results
  exact Glue.reshape_row _

/-! ### The first layer's buffers, boundary by boundary -/

/-- The table is the zero table from the stretch that makes it. -/
theorem vn_W5 : W5 m ρ c (Proc.devRef .tc main_v8) = Spec.zeroVn := zero_after2 _

/-- A buffer of the encoders' exit that nothing writes up to the message region's exit. -/
theorem keep_4_9 (b : Ref sig .tc) (h1 : b ∉ wr2 ++ wr2_1 ++ wr2_2 ++ wr2_3) (h2 : b ∉ [main_v12]) :
    W9 m ρ c (Proc.devRef .tc b) = W4 m ρ c (Proc.devRef .tc b) :=
  (keepR2 m ρ c b h2).trans (keep_4_8 m ρ c b h1)

/-- A buffer of the encoders' exit that nothing writes up to the perceptron region's exit. -/
theorem keep_4_11 (b : Ref sig .tc) (h1 : b ∉ wr2 ++ wr2_1 ++ wr2_2 ++ wr2_3)
    (h2 : b ∉ [main_v12] ++ wr3 ++ [main_v26_0, main_v26_1, main_v26_2]) :
    W11 m ρ c (Proc.devRef .tc b) = W4 m ρ c (Proc.devRef .tc b) :=
  (keep_8_11 m ρ c b h2).trans (keep_4_8 m ρ c b h1)

section Layer0

variable (hok : (kInputs m c).Ok) (e4 : Env4 m ρ c)
include hok e4

/-- Every node's row of the table. -/
theorem g_W6 : W6 m ρ c (Proc.devRef .tc main_v9) = Spec.gatherVn Spec.zeroVn (kInputs m c).bat :=
  gatherVn_after2_1 (W5 m ρ c) _ _ (vn_W5 m ρ c) ((keep2 _ main_arg17 (by decide)).trans e4.args.a17) hok.bat

/-- The node features plus the table rows. -/
theorem hb_W7 : W7 m ρ c (Proc.devRef .tc main_v10) = (kInputs m c).hb0 :=
  hb_after2_2 (W6 m ρ c) _ _
    ((keep2_1 _ main_v5 (by decide)).trans ((keep2 _ main_v5 (by decide)).trans e4.h)) (g_W6 m ρ c hok e4)

/-- Every edge's source row. -/
theorem hs_W8 : W8 m ρ c (Proc.devRef .tc main_v11) = Spec.gatherH (kInputs m c).hb0 (Spec.srcOf (kInputs m c).ei) :=
  gatherH_after2_3 (W7 m ρ c) _ _ (hb_W7 m ρ c hok e4)
    ((keep2_2 _ main_v1 (by decide)).trans ((keep2_1 _ main_v1 (by decide)).trans ((keep2 _ main_v1 (by decide)).trans e4.src)))
    hok.src

/-- The messages: the message region's output array. -/
theorem msg_W9 : W9 m ρ c (Proc.devRef .tc main_v12)
    = Spec.msgOf (Spec.gatherH (kInputs m c).hb0 (Spec.srcOf (kInputs m c).ei)) (kInputs m c).e :=
  (W9_arr m ρ c 2).trans ((RegionMsg.value2 (V8 m ρ) c).trans
    (congrArg₂ Spec.msgOf (hs_W8 m ρ c hok e4) ((keep_4_8 m ρ c main_v7 (by decide)).trans e4.e)))

/-- The messages added up at their target nodes. -/
theorem agg_W10 : W10 m ρ c (Proc.devRef .tc main_v15)
    = Spec.aggOf (Spec.msgOf (Spec.gatherH (kInputs m c).hb0 (Spec.srcOf (kInputs m c).ei)) (kInputs m c).e)
        (Spec.dstOf (kInputs m c).ei) :=
  agg_after3 (W9 m ρ c) _ _ (msg_W9 m ρ c hok e4) ((keep_4_9 m ρ c main_v3 (by decide) (by decide)).trans e4.dst)

/-- The perceptron of `hb + agg` with the layer's parameters, as the perceptron region is handed them, is the
    layer's pre-normalisation array. -/
theorem mlp_W10 :
    Spec.mlpK (V10 m ρ c main_v10) (V10 m ρ c main_v15) (V10 m ρ c main_v17) (V10 m ρ c main_v24) (V10 m ρ c main_v21)
      (V10 m ρ c main_v25) = (kInputs m c).z0 := by
  have h1 : V10 m ρ c main_v10 = (kInputs m c).hb0 :=
    (keep3 _ main_v10 (by decide)).trans ((keepR2 m ρ c main_v10 (by decide)).trans
      ((keep2_3 _ main_v10 (by decide)).trans (hb_W7 m ρ c hok e4)))
  have h2 : V10 m ρ c main_v15 = _ := agg_W10 m ρ c hok e4
  have h3 : V10 m ρ c main_v17 = Spec.w1_0 (kInputs m c).cw1 :=
    w1_after3 (W9 m ρ c) _ ((keep_4_9 m ρ c main_arg6 (by decide) (by decide)).trans e4.args.a6)
  have h4 : V10 m ρ c main_v24 = Spec.row1 (Spec.row_0 (kInputs m c).cb1) :=
    b1_after3 (W9 m ρ c) _ ((keep_4_9 m ρ c main_arg7 (by decide) (by decide)).trans e4.args.a7)
  have h5 : V10 m ρ c main_v21 = Spec.w1_0 (kInputs m c).cw2 :=
    w2_after3 (W9 m ρ c) _ ((keep_4_9 m ρ c main_arg8 (by decide) (by decide)).trans e4.args.a8)
  have h6 : V10 m ρ c main_v25 = Spec.row1 (Spec.row_0 (kInputs m c).cb2) :=
    b2_after3 (W9 m ρ c) _ ((keep_4_9 m ρ c main_arg9 (by decide) (by decide)).trans e4.args.a9)
  rw [h1, h2, h3, h4, h5, h6]
  rfl

/-- The perceptron region's first output array. -/
theorem z_W11 : W11 m ρ c (Proc.devRef .tc main_v26_0) = (kInputs m c).z0 :=
  (W11_arr m ρ c 6).trans ((RegionConv.value3_z (V10 m ρ) c).trans (mlp_W10 m ρ c hok e4))

/-- Its running column sums. -/
theorem s_W11 : W11 m ρ c (Proc.devRef .tc main_v26_1) = Spec.row1 (Spec.colSum (kInputs m c).z0) :=
  (W11_arr m ρ c 7).trans ((RegionConv.value3_s (V10 m ρ) c).trans
    (congrArg (fun z => Spec.row1 (Spec.colSum z)) (mlp_W10 m ρ c hok e4)))

/-- Its running column sums of squares. -/
theorem ss_W11 : W11 m ρ c (Proc.devRef .tc main_v26_2)
    = Spec.row1 (Spec.colSum (mulf (kInputs m c).z0 (kInputs m c).z0)) :=
  (W11_arr m ρ c 8).trans ((RegionConv.value3_ss (V10 m ρ) c).trans
    (congrArg (fun z => Spec.row1 (Spec.colSum (mulf z z))) (mlp_W10 m ρ c hok e4)))

/-- The first layer's output node features: the normalising region's output array. -/
theorem h_W13 : W13 m ρ c (Proc.devRef .tc main_v43) = (kInputs m c).h1 := by
  refine (W13_arr m ρ c 5).trans ((RegionNorm.value4 (V12 m ρ) c).trans ?_)
  have h1 : V12 m ρ c main_v26_0 = (kInputs m c).z0 := (keep4 _ main_v26_0 (by decide)).trans (z_W11 m ρ c hok e4)
  have h2 : V12 m ρ c main_v39 = Spec.row1 (Spec.meanOf (kInputs m c).z0) :=
    mean_after4 (W11 m ρ c) _ (s_W11 m ρ c hok e4)
  have h3 : V12 m ρ c main_v40 = Spec.row1 (Spec.varOf (kInputs m c).z0) :=
    var_after4 (W11 m ρ c) _ (SpecReal.z0_real _ hok) (s_W11 m ρ c hok e4) (ss_W11 m ρ c hok e4)
  have h4 : V12 m ρ c main_v41 = Spec.row1 (Spec.row_0 (kInputs m c).gam) :=
    gam_after4 (W11 m ρ c) _ ((keep_4_11 m ρ c main_arg10 (by decide) (by decide)).trans e4.args.a10)
  have h5 : V12 m ρ c main_v42 = Spec.row1 (Spec.row_0 (kInputs m c).bet) :=
    bet_after4 (W11 m ρ c) _ ((keep_4_11 m ρ c main_arg11 (by decide) (by decide)).trans e4.args.a11)
  rw [h1, h2, h3, h4, h5]
  exact RegionNorm.normK_rows _ _ _ _ _

/-- The buffers after the first layer. -/
theorem env13 : Env13 m ρ c where
  args :=
    { a0 := (keep_4_13 m ρ c main_arg0 (by decide) (by decide) (by decide)).trans e4.args.a0
      a1 := (keep_4_13 m ρ c main_arg1 (by decide) (by decide) (by decide)).trans e4.args.a1
      a2 := (keep_4_13 m ρ c main_arg2 (by decide) (by decide) (by decide)).trans e4.args.a2
      a3 := (keep_4_13 m ρ c main_arg3 (by decide) (by decide) (by decide)).trans e4.args.a3
      a4 := (keep_4_13 m ρ c main_arg4 (by decide) (by decide) (by decide)).trans e4.args.a4
      a5 := (keep_4_13 m ρ c main_arg5 (by decide) (by decide) (by decide)).trans e4.args.a5
      a6 := (keep_4_13 m ρ c main_arg6 (by decide) (by decide) (by decide)).trans e4.args.a6
      a7 := (keep_4_13 m ρ c main_arg7 (by decide) (by decide) (by decide)).trans e4.args.a7
      a8 := (keep_4_13 m ρ c main_arg8 (by decide) (by decide) (by decide)).trans e4.args.a8
      a9 := (keep_4_13 m ρ c main_arg9 (by decide) (by decide) (by decide)).trans e4.args.a9
      a10 := (keep_4_13 m ρ c main_arg10 (by decide) (by decide) (by decide)).trans e4.args.a10
      a11 := (keep_4_13 m ρ c main_arg11 (by decide) (by decide) (by decide)).trans e4.args.a11
      a12 := (keep_4_13 m ρ c main_arg12 (by decide) (by decide) (by decide)).trans e4.args.a12
      a13 := (keep_4_13 m ρ c main_arg13 (by decide) (by decide) (by decide)).trans e4.args.a13
      a14 := (keep_4_13 m ρ c main_arg14 (by decide) (by decide) (by decide)).trans e4.args.a14
      a15 := (keep_4_13 m ρ c main_arg15 (by decide) (by decide) (by decide)).trans e4.args.a15
      a16 := (keep_4_13 m ρ c main_arg16 (by decide) (by decide) (by decide)).trans e4.args.a16
      a17 := (keep_4_13 m ρ c main_arg17 (by decide) (by decide) (by decide)).trans e4.args.a17 }
  src := (keep_4_13 m ρ c main_v1 (by decide) (by decide) (by decide)).trans e4.src
  dst := (keep_4_13 m ρ c main_v3 (by decide) (by decide) (by decide)).trans e4.dst
  e := (keep_4_13 m ρ c main_v7 (by decide) (by decide) (by decide)).trans e4.e
  vn := (keep_11_13 m ρ c main_v8 (by decide)).trans ((keep_8_11 m ρ c main_v8 (by decide)).trans
    ((keep2_3 _ main_v8 (by decide)).trans ((keep2_2 _ main_v8 (by decide)).trans
      ((keep2_1 _ main_v8 (by decide)).trans (vn_W5 m ρ c)))))
  h := h_W13 m ρ c hok e4

end Layer0

end Cert.Fold

end
-- ==== Proof.RegionConv6.lean ====
/-
  The second layer's perceptron-and-statistics region: the perceptron's output array, and the two running sums the grid accumulates.

  The grid has 25 points; point `t` reads rows `2000 t … 2000 t + 1999` of `hb` and of `agg`, and the whole of the two
  weight matrices and the two bias rows.  It writes the same rows of the perceptron `max ((hb + agg) · W₁ + b₁) 0 · W₂ + b₂`
  (a row of the perceptron depends on that row of `hb + agg` alone, so a block of the output is the perceptron of the
  blocks), and it adds the block's column sums, and the column sums of the block's squares, onto two one-row accumulators
  that start from zero at the first point and are written back after the last.  After point `n` an accumulator holds the
  column sums over the rows below `2000 (n + 1)`; after the last point, over all 50000 rows.
-/
import proofs.«407958_j39685497815719_1_alg».proof.Proof.Gen.KernelIdeal.Frame
import proofs.«407958_j39685497815719_1_alg».proof.Proof.Spec
import proofs.«407958_j39685497815719_1_alg».proof.Proof.LibBlockSum
import proofs.«407958_j39685497815719_1_alg».proof.Proof.RegionConvLemmas
import Idealize.ShloMosaic.Lib.ValueIdx
import Idealize.ShloMosaic.Lib.Pipeline.Value
import Idealize.ShloMosaic.Lib.Tactic

set_option maxRecDepth 16384

noncomputable section

namespace Cert.RegionConv6

open Cert.KernelIdeal Cert.KernelIdeal.Gen
open Idealize.ShloMosaic Idealize.ShloMosaic.TcCoe Idealize.SL.Sem
open Idealize.ShloMosaic.Pipeline (Dat Cfg Window)
open Idealize.ShloMosaic.ValueIdx

section Blocks

variable [Cert.ReferenceIdeal.Facts]

/-! ## What each case of the body leaves in the three outputs' buffers -/

/-- The zero offsets of a load or store of a whole block. -/
theorem hz : (![0, 0] : Fin 2 → Nat) = fun _ => 0 := funext fun a => by fin_cases a <;> rfl

/-- At the first point the block of the perceptron's output is the perceptron of the point's input blocks. -/
theorem piece6_A_6 {F : FTy → Type} [FloatOps F] (c : Dev nD) (i : grid6.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond6_0 i) (x0 x1 : Vec F S2000x128 .f32) (x2 : Vec F S128x128 .f32) (x3 : Vec F S1x128 .f32) (x4 : Vec F S128x128 .f32) (x5 : Vec F S1x128 .f32) :
    out6_A_6 c i a1 h1 a2 h2 a3 h3 a4 h4 a5 h5 a6 h6 a7 h7 a8 h8 a9 h9 hc x0 x1 x2 x3 x4 x5 = k6_pay4 x0 x1 x2 x3 x4 x5 := by
  unfold out6_A_6
  rw [View.read_writes_eq_canon _ _ _ (cover6_A_6 c i a1 h1 a2 h2 a3 h3 a4 h4 a5 h5 a6 h6 a7 h7 a8 h8 a9 h9 hc x0 x1 x2 x3 x4 x5)]
  unfold kernelRun6_A
  dsimp only
  sl_unfold_words
  rw [View.canon_unit_zero hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- At the first point the column sums start from the zero row and take the block's column sums. -/
theorem piece6_A_7 {F : FTy → Type} [FloatOps F] (c : Dev nD) (i : grid6.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond6_0 i) (x0 x1 : Vec F S2000x128 .f32) (x2 : Vec F S128x128 .f32) (x3 : Vec F S1x128 .f32) (x4 : Vec F S128x128 .f32) (x5 : Vec F S1x128 .f32) :
    out6_A_7 c i a1 h1 a2 h2 a3 h3 a4 h4 a5 h5 a6 h6 a7 h7 a8 h8 a9 h9 hc x0 x1 x2 x3 x4 x5 = k6_pay5 x0 x1 x2 x3 x4 x5 (k6_pay2 (F := F)) := by
  unfold out6_A_7
  rw [View.read_writes_eq_canon _ _ _ (cover6_A_7 c i a1 h1 a2 h2 a3 h3 a4 h4 a5 h5 a6 h6 a7 h7 a8 h8 a9 h9 hc x0 x1 x2 x3 x4 x5)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- At the first point the sums of squares start from the zero row and take the block's column sums of squares. -/
theorem piece6_A_8 {F : FTy → Type} [FloatOps F] (c : Dev nD) (i : grid6.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond6_0 i) (x0 x1 : Vec F S2000x128 .f32) (x2 : Vec F S128x128 .f32) (x3 : Vec F S1x128 .f32) (x4 : Vec F S128x128 .f32) (x5 : Vec F S1x128 .f32) :
    out6_A_8 c i a1 h1 a2 h2 a3 h3 a4 h4 a5 h5 a6 h6 a7 h7 a8 h8 a9 h9 hc x0 x1 x2 x3 x4 x5 = k6_pay1 (k6_pay4 x0 x1 x2 x3 x4 x5) (k6_pay3 (F := F)) := by
  unfold out6_A_8
  rw [View.read_writes_eq_canon _ _ _ (cover6_A_8 c i a1 h1 a2 h2 a3 h3 a4 h4 a5 h5 a6 h6 a7 h7 a8 h8 a9 h9 hc x0 x1 x2 x3 x4 x5)]
  unfold kernelRun6_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- At a later point the block of the perceptron's output is again the perceptron of the point's input blocks. -/
theorem piece6_B_6 {F : FTy → Type} [FloatOps F] (c : Dev nD) (i : grid6.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond6_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out6_B_6 c i a1 h1 a2 h2 a3 h3 a4 h4 a5 h5 a6 h6 a7 h7 a8 h8 a9 h9 hc x0 x1 x2 x3 x4 x5 xo7 xo8 = k6_pay4 x0 x1 x2 x3 x4 x5 := by
  unfold out6_B_6
  rw [View.read_writes_eq_canon _ _ _ (cover6_B_6 c i a1 h1 a2 h2 a3 h3 a4 h4 a5 h5 a6 h6 a7 h7 a8 h8 a9 h9 hc x0 x1 x2 x3 x4 x5 xo7 xo8)]
  unfold kernelRun6_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- At a later point the column sums are what the point before left plus the block's column sums. -/
theorem piece6_B_7 {F : FTy → Type} [FloatOps F] (c : Dev nD) (i : grid6.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond6_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out6_B_7 c i a1 h1 a2 h2 a3 h3 a4 h4 a5 h5 a6 h6 a7 h7 a8 h8 a9 h9 hc x0 x1 x2 x3 x4 x5 xo7 xo8 = k6_pay5 x0 x1 x2 x3 x4 x5 xo7 := by
  unfold out6_B_7
  rw [View.read_writes_eq_canon _ _ _ (cover6_B_7 c i a1 h1 a2 h2 a3 h3 a4 h4 a5 h5 a6 h6 a7 h7 a8 h8 a9 h9 hc x0 x1 x2 x3 x4 x5 xo7 xo8)]
  unfold kernelRun6_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-- At a later point the sums of squares are what the point before left plus the block's column sums of squares. -/
theorem piece6_B_8 {F : FTy → Type} [FloatOps F] (c : Dev nD) (i : grid6.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond6_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out6_B_8 c i a1 h1 a2 h2 a3 h3 a4 h4 a5 h5 a6 h6 a7 h7 a8 h8 a9 h9 hc x0 x1 x2 x3 x4 x5 xo7 xo8 = k6_pay1 (k6_pay4 x0 x1 x2 x3 x4 x5) xo8 := by
  unfold out6_B_8
  rw [View.read_writes_eq_canon _ _ _ (cover6_B_8 c i a1 h1 a2 h2 a3 h3 a4 h4 a5 h5 a6 h6 a7 h7 a8 h8 a9 h9 hc x0 x1 x2 x3 x4 x5 xo7 xo8)]
  unfold kernelRun6_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S2000x128) hz, View.ld_unit_zero (S := S128x128) hz, View.ld_unit_zero (S := S1x128) hz]

/-! ## Where the blocks lie -/

/-- Point `t` takes row block `t`, and the one column block, of the two input arrays and of the perceptron's output. -/
theorem rows6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_6.index t (0 : Fin 2) = t.val ∧ win6_6.index t (1 : Fin 2) = 0 :=
  (by decide +kernel : ∀ t : Fin grid6.N, _)

/-- Every point takes the whole of each parameter array and of each accumulator. -/
theorem whole6 : ∀ t : Fin cfg6.N,
    win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

variable (V : (c : Dev nD) → (b : Ref sig .tc) → Buf (Elt Ideal) ((c : Thread nD τ).loc b)) (c : Dev nD)

/-- Row `p` of point `t`'s block of `hb` is row `2000 t + p` of `hb`. -/
theorem hbBlk_apply (t : Fin cfg6.N) (p : Fin 2000) (j : Fin 128) (r : Fin 50000) (hr : r.val = 2000 * t.val + p.val) :
    (iblk6 V c 0 t : Vec Ideal S2000x128 .f32) (ix2 p j) = (V c main_v58 : S50000x128.Idx → EReal) (ix2 r j) := by
  obtain ⟨e0, e1, -⟩ := rows6 t
  unfold iblk6
  rw [View.read_apply]
  show V c main_v58 _ = V c main_v58 _
  congr 1
  funext a; apply Fin.ext
  match a with
  | ⟨0, _⟩ => show win6_0.index t (0 : Fin 2) * 2000 + 1 * p.val = r.val; omega
  | ⟨1, _⟩ => show win6_0.index t (1 : Fin 2) * 128 + 1 * j.val = j.val; omega

/-- Row `p` of point `t`'s block of `agg` is row `2000 t + p` of `agg`. -/
theorem aggBlk_apply (t : Fin cfg6.N) (p : Fin 2000) (j : Fin 128) (r : Fin 50000) (hr : r.val = 2000 * t.val + p.val) :
    (iblk6 V c 1 t : Vec Ideal S2000x128 .f32) (ix2 p j) = (V c main_v63 : S50000x128.Idx → EReal) (ix2 r j) := by
  obtain ⟨-, -, e2, e3, -⟩ := rows6 t
  unfold iblk6
  rw [View.read_apply]
  show V c main_v63 _ = V c main_v63 _
  congr 1
  funext a; apply Fin.ext
  match a with
  | ⟨0, _⟩ => show win6_1.index t (0 : Fin 2) * 2000 + 1 * p.val = r.val; omega
  | ⟨1, _⟩ => show win6_1.index t (1 : Fin 2) * 128 + 1 * j.val = j.val; omega

/-- Every point's block of the first weight matrix is the matrix. -/
theorem w1Blk_eq (t : Fin cfg6.N) : (iblk6 V c 2 t : Vec Ideal S128x128 .f32) = (V c main_v65 : S128x128.Idx → EReal) := by
  obtain ⟨e0, e1, -⟩ := whole6 t
  funext y
  unfold iblk6
  rw [View.read_apply]
  show V c main_v65 _ = V c main_v65 y
  congr 1
  funext a; apply Fin.ext
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- Every point's block of the first bias row is the row. -/
theorem b1Blk_eq (t : Fin cfg6.N) : (iblk6 V c 3 t : Vec Ideal S1x128 .f32) = (V c main_v72 : S1x128.Idx → EReal) := by
  obtain ⟨-, -, e2, e3, -⟩ := whole6 t
  funext y
  unfold iblk6
  rw [View.read_apply]
  show V c main_v72 _ = V c main_v72 y
  congr 1
  funext a; apply Fin.ext
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Every point's block of the second weight matrix is the matrix. -/
theorem w2Blk_eq (t : Fin cfg6.N) : (iblk6 V c 4 t : Vec Ideal S128x128 .f32) = (V c main_v69 : S128x128.Idx → EReal) := by
  obtain ⟨-, -, -, -, e4, e5, -⟩ := whole6 t
  funext y
  unfold iblk6
  rw [View.read_apply]
  show V c main_v69 _ = V c main_v69 y
  congr 1
  funext a; apply Fin.ext
  match a with
  | ⟨0, _⟩ => show win6_4.index t (0 : Fin 2) * 128 + 1 * (y 0).val = (y 0).val; omega
  | ⟨1, _⟩ => show win6_4.index t (1 : Fin 2) * 128 + 1 * (y 1).val = (y 1).val; omega

/-- Every point's block of the second bias row is the row. -/
theorem b2Blk_eq (t : Fin cfg6.N) : (iblk6 V c 5 t : Vec Ideal S1x128 .f32) = (V c main_v73 : S1x128.Idx → EReal) := by
  obtain ⟨-, -, -, -, -, -, e6, e7, -⟩ := whole6 t
  funext y
  unfold iblk6
  rw [View.read_apply]
  show V c main_v73 _ = V c main_v73 y
  congr 1
  funext a; apply Fin.ext
  match a with
  | ⟨0, _⟩ => show win6_5.index t (0 : Fin 2) * 1 + 1 * (y 0).val = (y 0).val; omega
  | ⟨1, _⟩ => show win6_5.index t (1 : Fin 2) * 128 + 1 * (y 1).val = (y 1).val; omega

/-! ## The perceptron's output array -/

/-- After every point the first output's buffer holds the perceptron of the point's input blocks. -/
theorem outs6_z (t : Fin cfg6.N) :
    (outsAt6 (F := Ideal) V c t.val t.isLt).1
      = k6_pay4 (F := Ideal) (iblk6 V c 0 t) (iblk6 V c 1 t) (iblk6 V c 2 t) (iblk6 V c 3 t) (iblk6 V c 4 t) (iblk6 V c 5 t) := by
  by_cases h : t.val % 25 = 0
  · rw [outsAt6_A V c t h]
    dsimp only
    exact piece6_A_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h) (iblk6 V c 0 t) (iblk6 V c 1 t) (iblk6 V c 2 t) (iblk6 V c 3 t) (iblk6 V c 4 t) (iblk6 V c 5 t)
  · rw [outsAt6_B V c t h]
    dsimp only
    exact piece6_B_6 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h' => h ((hcond6_0 t).mp h')) (iblk6 V c 0 t) (iblk6 V c 1 t) (iblk6 V c 2 t) (iblk6 V c 3 t) (iblk6 V c 4 t) (iblk6 V c 5 t)
      (outsAt6 V c (t.val - 1) (Nat.lt_of_le_of_lt (Nat.sub_le _ _) t.isLt)).2.1 (outsAt6 V c (t.val - 1) (Nat.lt_of_le_of_lt (Nat.sub_le _ _) t.isLt)).2.2

/-- The perceptron of point `t`'s blocks at row `p` is the whole-array perceptron at row `2000 t + p`. -/
theorem blockMlp6 (t : Fin cfg6.N) (p : Fin 2000) (q : Fin 128) (r : Fin 50000) (hr : r.val = 2000 * t.val + p.val) :
    k6_pay4 (F := Ideal) (iblk6 V c 0 t) (iblk6 V c 1 t) (iblk6 V c 2 t) (iblk6 V c 3 t) (iblk6 V c 4 t) (iblk6 V c 5 t) (ix2 p q)
      = (Cert.Spec.mlpK (V c main_v58) (V c main_v63) (V c main_v65) (V c main_v72) (V c main_v69) (V c main_v73)) (ix2 r q) :=
  Cert.RegionConv.pay4_eq_mlpK_of_eq (iblk6 V c 0 t) (iblk6 V c 1 t) (iblk6 V c 2 t) (iblk6 V c 3 t) (iblk6 V c 4 t) (iblk6 V c 5 t)
    (V c main_v58) (V c main_v63) (V c main_v65) (V c main_v72) (V c main_v69) (V c main_v73) p r q
    (fun j => hbBlk_apply V c t p j r hr) (fun j => aggBlk_apply V c t p j r hr)
    (w1Blk_eq V c t) (b1Blk_eq V c t) (w2Blk_eq V c t) (b2Blk_eq V c t)

/-- What point `t` writes back to the first output is block `t` of the whole-array perceptron. -/
theorem flushed6_z_eq (t : Fin cfg6.N) :
    (dat6 (F := Ideal) V c).flushed 6 t
      = ((cfg6.win 6).blk t).view.read (Elt Ideal) (Cert.Spec.mlpK (V c main_v58) (V c main_v63) (V c main_v65) (V c main_v72) (V c main_v69) (V c main_v73)) := by
  show (cfg6.win 6).cut (grid6.coords t) ((dat6 (F := Ideal) V c).after 6 t) = _
  rw [after6_6, outs6_z]
  obtain ⟨-, -, -, -, e4, e5⟩ := rows6 t
  have hN : t.val < 25 := lt_of_lt_of_eq t.isLt (show cfg6.N = 25 from N_6)
  refine funext fun (j : S2000x128.Idx) => ?_
  obtain ⟨p, q, rfl⟩ : ∃ (p : Fin 2000) (q : Fin 128), j = ix2 p q := ⟨j 0, j 1, eq_ix2 j⟩
  have hr : 2000 * t.val + p.val < 50000 := by have := p.isLt; omega
  refine (blockMlp6 V c t p q ⟨2000 * t.val + p.val, hr⟩ rfl).trans ?_
  show (Cert.Spec.mlpK (V c main_v58) (V c main_v63) (V c main_v65) (V c main_v72) (V c main_v69) (V c main_v73)) (ix2 ⟨2000 * t.val + p.val, hr⟩ q) = (Cert.Spec.mlpK (V c main_v58) (V c main_v63) (V c main_v65) (V c main_v72) (V c main_v69) (V c main_v73)) (((cfg6.win 6).blk t).view.emb (ix2 p q))
  congr 1
  funext a; apply Fin.ext
  match a with
  | ⟨0, _⟩ => show 2000 * t.val + p.val = win6_6.index t (0 : Fin 2) * 2000 + 1 * p.val; omega
  | ⟨1, _⟩ => show q.val = win6_6.index t (1 : Fin 2) * 128 + 1 * q.val; omega

/-- An entry of the first output's array lies in point `t`'s block iff each coordinate lies in the block's range on its axis. -/
theorem mem_blk6_z (t : Fin cfg6.N) (i : S50000x128.Idx) :
    i ∈ ((cfg6.win 6).blk t).view.set
      ↔ ∀ a : Fin 2, win6_6.index t a * S2000x128.size a ≤ (i a).val ∧ (i a).val < win6_6.index t a * S2000x128.size a + S2000x128.size a := by
  show i ∈ ((View.whole main_v74_0).slice (win6_6.rect t)).set ↔ _
  rw [View.set_slice_whole, Rect.mem_set_unit]
  exact Iff.rfl

/-- Every entry of the first output's array is written: row `r` by the point `r / 2000`. -/
theorem cover6_z (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, e4, e5⟩ := rows6 t
  refine ⟨t, flush6_6 t, ?_⟩
  rw [mem_blk6_z]
  intro a
  match a with
  | ⟨0, _⟩ => show win6_6.index t (0 : Fin 2) * 2000 ≤ (i 0).val ∧ (i 0).val < win6_6.index t (0 : Fin 2) * 2000 + 2000; omega
  | ⟨1, _⟩ => show win6_6.index t (1 : Fin 2) * 128 ≤ (i 1).val ∧ (i 1).val < win6_6.index t (1 : Fin 2) * 128 + 128; omega

/-- The first output's array ends as the whole-array perceptron. -/
theorem final6_z : (dat6 (F := Ideal) V c).arrAt 6 cfg6.N = (Cert.Spec.mlpK (V c main_v58) (V c main_v63) (V c main_v65) (V c main_v72) (V c main_v69) (V c main_v73)) :=
  (dat6 (F := Ideal) V c).arrAt_eq_of_cover 6 (Cert.Spec.mlpK (V c main_v58) (V c main_v63) (V c main_v65) (V c main_v72) (V c main_v69) (V c main_v73)) (fun t _ => flushed6_z_eq V c t) cover6_z

/-! ## The two running sums -/

/-- The column sums of the perceptron of point `t`'s blocks are the sums of the whole-array perceptron over the rows
    `2000 t, …, 2000 t + 1999`. -/
theorem blockSum6 (t : Fin cfg6.N) (ht : t.val < 25) (q : Fin 128) :
    ∑ p : Fin 2000, k6_pay4 (F := Ideal) (iblk6 V c 0 t) (iblk6 V c 1 t) (iblk6 V c 2 t) (iblk6 V c 3 t) (iblk6 V c 4 t) (iblk6 V c 5 t) (ix2 p q)
      = ∑ p : Fin 2000, (Cert.Spec.mlpK (V c main_v58) (V c main_v63) (V c main_v65) (V c main_v72) (V c main_v69) (V c main_v73)) (ix2 ⟨2000 * t.val + p.val, Cert.LibBlockSum.block_lt_50000 ht p.isLt⟩ q) :=
  Finset.sum_congr rfl fun p _ => blockMlp6 V c t p q ⟨2000 * t.val + p.val, Cert.LibBlockSum.block_lt_50000 ht p.isLt⟩ rfl

/-- Likewise the column sums of the squares. -/
theorem blockSumSq6 (t : Fin cfg6.N) (ht : t.val < 25) (q : Fin 128) :
    ∑ p : Fin 2000, k6_pay4 (F := Ideal) (iblk6 V c 0 t) (iblk6 V c 1 t) (iblk6 V c 2 t) (iblk6 V c 3 t) (iblk6 V c 4 t) (iblk6 V c 5 t) (ix2 p q)
        * k6_pay4 (F := Ideal) (iblk6 V c 0 t) (iblk6 V c 1 t) (iblk6 V c 2 t) (iblk6 V c 3 t) (iblk6 V c 4 t) (iblk6 V c 5 t) (ix2 p q)
      = ∑ p : Fin 2000, (Cert.Spec.mlpK (V c main_v58) (V c main_v63) (V c main_v65) (V c main_v72) (V c main_v69) (V c main_v73)) (ix2 ⟨2000 * t.val + p.val, Cert.LibBlockSum.block_lt_50000 ht p.isLt⟩ q)
        * (Cert.Spec.mlpK (V c main_v58) (V c main_v63) (V c main_v65) (V c main_v72) (V c main_v69) (V c main_v73)) (ix2 ⟨2000 * t.val + p.val, Cert.LibBlockSum.block_lt_50000 ht p.isLt⟩ q) :=
  Finset.sum_congr rfl fun p _ => by
    rw [blockMlp6 V c t p q ⟨2000 * t.val + p.val, Cert.LibBlockSum.block_lt_50000 ht p.isLt⟩ rfl]

/-- At the first point the accumulator of the column sums holds zero plus the first block's column sums. -/
theorem first6_s (t : Fin cfg6.N) (h : t.val % 25 = 0) (ht : t.val < 25) (q : Fin 128) :
    (outsAt6 (F := Ideal) V c t.val t.isLt).2.1 (ix2 0 q)
      = 0 + ∑ p : Fin 2000, (Cert.Spec.mlpK (V c main_v58) (V c main_v63) (V c main_v65) (V c main_v72) (V c main_v69) (V c main_v73)) (ix2 ⟨2000 * t.val + p.val, Cert.LibBlockSum.block_lt_50000 ht p.isLt⟩ q) := by
  rw [outsAt6_A V c t h]
  dsimp only
  refine (congrFun (piece6_A_7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h) (iblk6 V c 0 t) (iblk6 V c 1 t) (iblk6 V c 2 t) (iblk6 V c 3 t) (iblk6 V c 4 t) (iblk6 V c 5 t)) (ix2 0 q)).trans ?_
  refine (Cert.RegionConv.pay5_apply (iblk6 V c 0 t) (iblk6 V c 1 t) (iblk6 V c 2 t) (iblk6 V c 3 t) (iblk6 V c 4 t) (iblk6 V c 5 t) (k6_pay2 (F := Ideal)) q).trans ?_
  exact congrArg₂ (· + ·) (Cert.RegionConv.pay2_apply (ix2 0 q)) (blockSum6 V c t ht q)

/-- At a later point it holds what the point before left plus the block's column sums. -/
theorem step6_s (t : Fin cfg6.N) (h : ¬t.val % 25 = 0) (ht : t.val < 25) (q : Fin 128) :
    (outsAt6 (F := Ideal) V c t.val t.isLt).2.1 (ix2 0 q)
      = (outsAt6 V c (t.val - 1) (Nat.lt_of_le_of_lt (Nat.sub_le _ _) t.isLt)).2.1 (ix2 0 q)
        + ∑ p : Fin 2000, (Cert.Spec.mlpK (V c main_v58) (V c main_v63) (V c main_v65) (V c main_v72) (V c main_v69) (V c main_v73)) (ix2 ⟨2000 * t.val + p.val, Cert.LibBlockSum.block_lt_50000 ht p.isLt⟩ q) := by
  rw [outsAt6_B V c t h]
  dsimp only
  refine (congrFun (piece6_B_7 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h' => h ((hcond6_0 t).mp h')) (iblk6 V c 0 t) (iblk6 V c 1 t) (iblk6 V c 2 t) (iblk6 V c 3 t) (iblk6 V c 4 t) (iblk6 V c 5 t)
    (outsAt6 V c (t.val - 1) (Nat.lt_of_le_of_lt (Nat.sub_le _ _) t.isLt)).2.1 (outsAt6 V c (t.val - 1) (Nat.lt_of_le_of_lt (Nat.sub_le _ _) t.isLt)).2.2) (ix2 0 q)).trans ?_
  refine (Cert.RegionConv.pay5_apply (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 q).trans ?_
  exact congrArg₂ (· + ·) rfl (blockSum6 V c t ht q)

/-- At the first point the accumulator of the sums of squares holds zero plus the first block's. -/
theorem first6_ss (t : Fin cfg6.N) (h : t.val % 25 = 0) (ht : t.val < 25) (q : Fin 128) :
    (outsAt6 (F := Ideal) V c t.val t.isLt).2.2 (ix2 0 q)
      = 0 + ∑ p : Fin 2000, (Cert.Spec.mlpK (V c main_v58) (V c main_v63) (V c main_v65) (V c main_v72) (V c main_v69) (V c main_v73)) (ix2 ⟨2000 * t.val + p.val, Cert.LibBlockSum.block_lt_50000 ht p.isLt⟩ q)
        * (Cert.Spec.mlpK (V c main_v58) (V c main_v63) (V c main_v65) (V c main_v72) (V c main_v69) (V c main_v73)) (ix2 ⟨2000 * t.val + p.val, Cert.LibBlockSum.block_lt_50000 ht p.isLt⟩ q) := by
  rw [outsAt6_A V c t h]
  dsimp only
  refine (congrFun (piece6_A_8 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h) (iblk6 V c 0 t) (iblk6 V c 1 t) (iblk6 V c 2 t) (iblk6 V c 3 t) (iblk6 V c 4 t) (iblk6 V c 5 t)) (ix2 0 q)).trans ?_
  refine (Cert.RegionConv.pay1_apply (k6_pay4 (F := Ideal) (iblk6 V c 0 t) (iblk6 V c 1 t) (iblk6 V c 2 t) (iblk6 V c 3 t) (iblk6 V c 4 t) (iblk6 V c 5 t)) (k6_pay3 (F := Ideal)) q).trans ?_
  exact congrArg₂ (· + ·) (Cert.RegionConv.pay3_apply (ix2 0 q)) (blockSumSq6 V c t ht q)

/-- At a later point it holds what the point before left plus the block's. -/
theorem step6_ss (t : Fin cfg6.N) (h : ¬t.val % 25 = 0) (ht : t.val < 25) (q : Fin 128) :
    (outsAt6 (F := Ideal) V c t.val t.isLt).2.2 (ix2 0 q)
      = (outsAt6 V c (t.val - 1) (Nat.lt_of_le_of_lt (Nat.sub_le _ _) t.isLt)).2.2 (ix2 0 q)
        + ∑ p : Fin 2000, (Cert.Spec.mlpK (V c main_v58) (V c main_v63) (V c main_v65) (V c main_v72) (V c main_v69) (V c main_v73)) (ix2 ⟨2000 * t.val + p.val, Cert.LibBlockSum.block_lt_50000 ht p.isLt⟩ q)
          * (Cert.Spec.mlpK (V c main_v58) (V c main_v63) (V c main_v65) (V c main_v72) (V c main_v69) (V c main_v73)) (ix2 ⟨2000 * t.val + p.val, Cert.LibBlockSum.block_lt_50000 ht p.isLt⟩ q) := by
  rw [outsAt6_B V c t h]
  dsimp only
  refine (congrFun (piece6_B_8 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h' => h ((hcond6_0 t).mp h')) (iblk6 V c 0 t) (iblk6 V c 1 t) (iblk6 V c 2 t) (iblk6 V c 3 t) (iblk6 V c 4 t) (iblk6 V c 5 t)
    (outsAt6 V c (t.val - 1) (Nat.lt_of_le_of_lt (Nat.sub_le _ _) t.isLt)).2.1 (outsAt6 V c (t.val - 1) (Nat.lt_of_le_of_lt (Nat.sub_le _ _) t.isLt)).2.2) (ix2 0 q)).trans ?_
  refine (Cert.RegionConv.pay1_apply (k6_pay4 (F := Ideal) (iblk6 V c 0 t) (iblk6 V c 1 t) (iblk6 V c 2 t) (iblk6 V c 3 t) (iblk6 V c 4 t) (iblk6 V c 5 t)) (outsAt6 V c (t.val - 1) (Nat.lt_of_le_of_lt (Nat.sub_le _ _) t.isLt)).2.2 q).trans ?_
  exact congrArg₂ (· + ·) rfl (blockSumSq6 V c t ht q)

/-- After point `n` the accumulator of the column sums holds, in column `q`, the sum of the whole-array perceptron's
    column `q` over the rows below `2000 (n + 1)`. -/
theorem outs6_s : ∀ (n : ℕ) (hn : n < cfg6.N) (q : Fin 128),
    (outsAt6 (F := Ideal) V c n hn).2.1 (ix2 0 q)
      = Cert.LibBlockSum.acc50000 (fun r : Fin 50000 => (Cert.Spec.mlpK (V c main_v58) (V c main_v63) (V c main_v65) (V c main_v72) (V c main_v69) (V c main_v73)) (ix2 r q)) (n + 1)
  | 0, hn, q => by
    rw [Cert.LibBlockSum.acc50000_succ _ (by decide : 0 < 25), Cert.LibBlockSum.acc50000_zero]
    exact first6_s V c ⟨0, hn⟩ rfl (show (0 : ℕ) < 25 by decide) q
  | n + 1, hn, q => by
    have hN : n + 1 < 25 := lt_of_lt_of_eq hn (show cfg6.N = 25 from N_6)
    have hB : ¬(⟨n + 1, hn⟩ : Fin cfg6.N).val % 25 = 0 := by dsimp only; omega
    rw [Cert.LibBlockSum.acc50000_succ _ hN]
    refine (step6_s V c ⟨n + 1, hn⟩ hB hN q).trans ?_
    exact congrArg₂ (· + ·) (outs6_s n (Nat.lt_of_succ_lt hn) q) rfl

/-- Likewise the accumulator of the sums of squares. -/
theorem outs6_ss : ∀ (n : ℕ) (hn : n < cfg6.N) (q : Fin 128),
    (outsAt6 (F := Ideal) V c n hn).2.2 (ix2 0 q)
      = Cert.LibBlockSum.acc50000 (fun r : Fin 50000 => (Cert.Spec.mlpK (V c main_v58) (V c main_v63) (V c main_v65) (V c main_v72) (V c main_v69) (V c main_v73)) (ix2 r q) * (Cert.Spec.mlpK (V c main_v58) (V c main_v63) (V c main_v65) (V c main_v72) (V c main_v69) (V c main_v73)) (ix2 r q)) (n + 1)
  | 0, hn, q => by
    rw [Cert.LibBlockSum.acc50000_succ _ (by decide : 0 < 25), Cert.LibBlockSum.acc50000_zero]
    exact first6_ss V c ⟨0, hn⟩ rfl (show (0 : ℕ) < 25 by decide) q
  | n + 1, hn, q => by
    have hN : n + 1 < 25 := lt_of_lt_of_eq hn (show cfg6.N = 25 from N_6)
    have hB : ¬(⟨n + 1, hn⟩ : Fin cfg6.N).val % 25 = 0 := by dsimp only; omega
    rw [Cert.LibBlockSum.acc50000_succ _ hN]
    refine (step6_ss V c ⟨n + 1, hn⟩ hB hN q).trans ?_
    exact congrArg₂ (· + ·) (outs6_ss n (Nat.lt_of_succ_lt hn) q) rfl

/-! ## The two accumulators' arrays -/

/-- The one write-back of the column sums, at the last point, writes the sums over all 50000 rows. -/
theorem flushed6_s_eq (t : Fin cfg6.N) (hf : (cfg6.win 7).flush t = true) :
    (dat6 (F := Ideal) V c).flushed 7 t
      = ((cfg6.win 7).blk t).view.read (Elt Ideal) (Cert.Spec.row1 (Cert.Spec.colSum (Cert.Spec.mlpK (V c main_v58) (V c main_v63) (V c main_v65) (V c main_v72) (V c main_v69) (V c main_v73)))) := by
  have hN : t.val < 25 := lt_of_lt_of_eq t.isLt (show cfg6.N = 25 from N_6)
  have h24 : t.val = 24 := by have := (flush6_7 t).mp hf; omega
  obtain ⟨-, -, -, -, -, -, -, -, e8, e9, e10, e11⟩ := whole6 t
  show (cfg6.win 7).cut (grid6.coords t) ((dat6 (F := Ideal) V c).after 7 t) = _
  rw [after6_7]
  refine funext fun (j : S1x128.Idx) => ?_
  obtain ⟨q, rfl⟩ : ∃ q : Fin 128, j = ix2 0 q := ⟨j 1, Cert.RegionConv.eq_ix2_zero j⟩
  show (outsAt6 (F := Ideal) V c t.val t.isLt).2.1 (ix2 0 q)
      = (Cert.Spec.row1 (Cert.Spec.colSum (Cert.Spec.mlpK (V c main_v58) (V c main_v63) (V c main_v65) (V c main_v72) (V c main_v69) (V c main_v73)))) (((cfg6.win 7).blk t).view.emb (ix2 0 q))
  have hemb : ((cfg6.win 7).blk t).view.emb (ix2 0 q) = ix2 0 q := by
    funext a; apply Fin.ext
    match a with
    | ⟨0, _⟩ => show win6_7.index t (0 : Fin 2) * 1 + 1 * 0 = 0; omega
    | ⟨1, _⟩ => show win6_7.index t (1 : Fin 2) * 128 + 1 * q.val = q.val; omega
  rw [hemb]
  refine (outs6_s V c t.val t.isLt q).trans ?_
  refine Eq.trans ?_ (Cert.RegionConv.row1_colSum_eq (Cert.Spec.mlpK (V c main_v58) (V c main_v63) (V c main_v65) (V c main_v72) (V c main_v69) (V c main_v73)) q).symm
  rw [h24]
  exact Cert.LibBlockSum.acc50000_last (fun r : Fin 50000 => (Cert.Spec.mlpK (V c main_v58) (V c main_v63) (V c main_v65) (V c main_v72) (V c main_v69) (V c main_v73)) (ix2 r q))

/-- Every entry of the one-row array lies in the last point's block, which is the whole array. -/
theorem cover6_s (i : S1x128.Idx) :
    ∃ t : Fin cfg6.N, (cfg6.win 7).flush t = true ∧ i ∈ ((cfg6.win 7).blk t).view.set := by
  have hi0 : (i 0).val < 1 := (i 0).isLt
  have hi1 : (i 1).val < 128 := (i 1).isLt
  have hN : cfg6.N = 25 := N_6
  obtain ⟨t, ht⟩ : ∃ t : Fin cfg6.N, t.val = 24 := ⟨⟨24, by rw [hN]; decide⟩, rfl⟩
  obtain ⟨-, -, -, -, -, -, -, -, e8, e9, e10, e11⟩ := whole6 t
  refine ⟨t, (flush6_7 t).mpr (by rw [ht]), ?_⟩
  show i ∈ ((View.whole main_v74_1).slice (win6_7.rect t)).set
  rw [View.set_slice_whole, Rect.mem_set_unit]
  intro a
  match a with
  | ⟨0, _⟩ => show win6_7.index t (0 : Fin 2) * 1 ≤ (i 0).val ∧ (i 0).val < win6_7.index t (0 : Fin 2) * 1 + 1; omega
  | ⟨1, _⟩ => show win6_7.index t (1 : Fin 2) * 128 ≤ (i 1).val ∧ (i 1).val < win6_7.index t (1 : Fin 2) * 128 + 128; omega

/-- The one write-back of the sums of squares, at the last point, writes the sums over all 50000 rows. -/
theorem flushed6_ss_eq (t : Fin cfg6.N) (hf : (cfg6.win 8).flush t = true) :
    (dat6 (F := Ideal) V c).flushed 8 t
      = ((cfg6.win 8).blk t).view.read (Elt Ideal) (Cert.Spec.row1 (Cert.Spec.colSum (mulf (Cert.Spec.mlpK (V c main_v58) (V c main_v63) (V c main_v65) (V c main_v72) (V c main_v69) (V c main_v73)) (Cert.Spec.mlpK (V c main_v58) (V c main_v63) (V c main_v65) (V c main_v72) (V c main_v69) (V c main_v73))))) := by
  have hN : t.val < 25 := lt_of_lt_of_eq t.isLt (show cfg6.N = 25 from N_6)
  have h24 : t.val = 24 := by have := (flush6_8 t).mp hf; omega
  obtain ⟨-, -, -, -, -, -, -, -, e8, e9, e10, e11⟩ := whole6 t
  show (cfg6.win 8).cut (grid6.coords t) ((dat6 (F := Ideal) V c).after 8 t) = _
  rw [after6_8]
  refine funext fun (j : S1x128.Idx) => ?_
  obtain ⟨q, rfl⟩ : ∃ q : Fin 128, j = ix2 0 q := ⟨j 1, Cert.RegionConv.eq_ix2_zero j⟩
  show (outsAt6 (F := Ideal) V c t.val t.isLt).2.2 (ix2 0 q)
      = (Cert.Spec.row1 (Cert.Spec.colSum (mulf (Cert.Spec.mlpK (V c main_v58) (V c main_v63) (V c main_v65) (V c main_v72) (V c main_v69) (V c main_v73)) (Cert.Spec.mlpK (V c main_v58) (V c main_v63) (V c main_v65) (V c main_v72) (V c main_v69) (V c main_v73))))) (((cfg6.win 8).blk t).view.emb (ix2 0 q))
  have hemb : ((cfg6.win 8).blk t).view.emb (ix2 0 q) = ix2 0 q := by
    funext a; apply Fin.ext
    match a with
    | ⟨0, _⟩ => show win6_8.index t (0 : Fin 2) * 1 + 1 * 0 = 0; omega
    | ⟨1, _⟩ => show win6_8.index t (1 : Fin 2) * 128 + 1 * q.val = q.val; omega
  rw [hemb]
  refine (outs6_ss V c t.val t.isLt q).trans ?_
  refine Eq.trans ?_ (Cert.RegionConv.row1_colSum_eq (mulf (Cert.Spec.mlpK (V c main_v58) (V c main_v63) (V c main_v65) (V c main_v72) (V c main_v69) (V c main_v73)) (Cert.Spec.mlpK (V c main_v58) (V c main_v63) (V c main_v65) (V c main_v72) (V c main_v69) (V c main_v73))) q).symm
  rw [h24]
  exact Cert.LibBlockSum.acc50000_last (fun r : Fin 50000 => (Cert.Spec.mlpK (V c main_v58) (V c main_v63) (V c main_v65) (V c main_v72) (V c main_v69) (V c main_v73)) (ix2 r q) * (Cert.Spec.mlpK (V c main_v58) (V c main_v63) (V c main_v65) (V c main_v72) (V c main_v69) (V c main_v73)) (ix2 r q))

/-- Every entry of the one-row array lies in the last point's block, which is the whole array. -/
theorem cover6_ss (i : S1x128.Idx) :
    ∃ t : Fin cfg6.N, (cfg6.win 8).flush t = true ∧ i ∈ ((cfg6.win 8).blk t).view.set := by
  have hi0 : (i 0).val < 1 := (i 0).isLt
  have hi1 : (i 1).val < 128 := (i 1).isLt
  have hN : cfg6.N = 25 := N_6
  obtain ⟨t, ht⟩ : ∃ t : Fin cfg6.N, t.val = 24 := ⟨⟨24, by rw [hN]; decide⟩, rfl⟩
  obtain ⟨-, -, -, -, -, -, -, -, e8, e9, e10, e11⟩ := whole6 t
  refine ⟨t, (flush6_8 t).mpr (by rw [ht]), ?_⟩
  show i ∈ ((View.whole main_v74_2).slice (win6_8.rect t)).set
  rw [View.set_slice_whole, Rect.mem_set_unit]
  intro a
  match a with
  | ⟨0, _⟩ => show win6_8.index t (0 : Fin 2) * 1 ≤ (i 0).val ∧ (i 0).val < win6_8.index t (0 : Fin 2) * 1 + 1; omega
  | ⟨1, _⟩ => show win6_8.index t (1 : Fin 2) * 128 ≤ (i 1).val ∧ (i 1).val < win6_8.index t (1 : Fin 2) * 128 + 128; omega

end Blocks

variable [Cert.KernelIdeal.Facts] [Cert.ReferenceIdeal.Facts]

-- the buffer contents when the region is entered
variable (V : (c : Dev nD) → (b : Ref sig .tc) → Buf (Elt Ideal) ((c : Thread nD τ).loc b)) (c : Dev nD)

/-- Region 6: the perceptron of `hb + agg`, row block by row block. -/
theorem value6_z : (dat6 (F := Ideal) V c).arrAt 6 cfg6.N
    = Cert.Spec.mlpK (V c main_v58) (V c main_v63) (V c main_v65) (V c main_v72) (V c main_v69) (V c main_v73) :=
  (dat6 (F := Ideal) V c).arrAt_eq_of_cover 6 (Cert.Spec.mlpK (V c main_v58) (V c main_v63) (V c main_v65) (V c main_v72) (V c main_v69) (V c main_v73)) (fun t _ => flushed6_z_eq V c t) cover6_z
/-- Region 6: the accumulator of the column sums, zeroed at the first block and added to at every block, ends at
    the sum of every column over all 50000 rows. -/
theorem value6_s : (dat6 (F := Ideal) V c).arrAt 7 cfg6.N
    = Cert.Spec.row1 (Cert.Spec.colSum (Cert.Spec.mlpK (V c main_v58) (V c main_v63) (V c main_v65) (V c main_v72) (V c main_v69) (V c main_v73))) :=
  (dat6 (F := Ideal) V c).arrAt_eq_of_cover 7 (Cert.Spec.row1 (Cert.Spec.colSum (Cert.Spec.mlpK (V c main_v58) (V c main_v63) (V c main_v65) (V c main_v72) (V c main_v69) (V c main_v73)))) (flushed6_s_eq V c) cover6_s
/-- Region 6: likewise the sums of the squares. -/
theorem value6_ss : (dat6 (F := Ideal) V c).arrAt 8 cfg6.N
    = Cert.Spec.row1 (Cert.Spec.colSum (mulf (Cert.Spec.mlpK (V c main_v58) (V c main_v63) (V c main_v65) (V c main_v72) (V c main_v69) (V c main_v73))
        (Cert.Spec.mlpK (V c main_v58) (V c main_v63) (V c main_v65) (V c main_v72) (V c main_v69) (V c main_v73)))) :=
  (dat6 (F := Ideal) V c).arrAt_eq_of_cover 8 (Cert.Spec.row1 (Cert.Spec.colSum (mulf (Cert.Spec.mlpK (V c main_v58) (V c main_v63) (V c main_v65) (V c main_v72) (V c main_v69) (V c main_v73)) (Cert.Spec.mlpK (V c main_v58) (V c main_v63) (V c main_v65) (V c main_v72) (V c main_v69) (V c main_v73))))) (flushed6_ss_eq V c) cover6_ss

end Cert.RegionConv6

end
-- ==== Proof.FoldL1.lean ====
/-
  The second layer of the network, read off the tiled program's run boundary by boundary.

  Between the exit of the first layer's normalising region and the exit of the second layer's, the run is eight
  stretches of host operations and three tiled regions.  In order they compute: the per-graph sums of the node
  features `h₁`; the per-graph perceptron of those sums, added to the (zero) table, which gives the table `vn₁`;
  every node's row of that table, added to `h₁`, which gives `hb₁`; every edge's source row of `hb₁`; the messages
  `max (hb₁[src] + e) 0`; their sums at the target nodes; the layer's weight slabs and bias rows; the node
  perceptron `z₁` of `hb₁ + agg` together with the column sums of `z₁` and of `z₁²`; from these the rows of column
  means and variances (the second moment less the squared mean, which on real data is the variance); and the
  normalised, scaled, shifted and rectified features `h₂`.

  Each step below states what one buffer holds after one stretch or region, as a function of what the buffers it
  reads held before; the facts are then chained from the first layer's boundary to the second layer's.  The
  arguments, the edge indices and the edge features are written by none of these segments and are carried along.
-/
import proofs.«407958_j39685497815719_1_alg».proof.Proof.FoldEnv
import proofs.«407958_j39685497815719_1_alg».proof.Proof.Glue
import proofs.«407958_j39685497815719_1_alg».proof.Proof.SpecReal
import proofs.«407958_j39685497815719_1_alg».proof.Proof.RegionMsg
import proofs.«407958_j39685497815719_1_alg».proof.Proof.RegionConv6
import proofs.«407958_j39685497815719_1_alg».proof.Proof.RegionNorm
import proofs.«407958_j39685497815719_1_alg».proof.Proof.Take
import Idealize.ShloMosaic.Lib.StableHlo.Run

noncomputable section

namespace Cert.Fold

open Cert.KernelIdeal Cert.KernelIdeal.Gen
open Idealize.ShloMosaic Idealize.ShloMosaic.TcCoe Idealize.SL.Sem

variable [Cert.KernelIdeal.Facts] [Cert.ReferenceIdeal.Facts]

variable (m : (ℓ : Loc nD τ sig) → Buf (Elt Ideal) ℓ) (ρ : Dev nD → PrngReg) (c : Dev nD)

namespace L1

/-! ## What each stretch of host operations writes

A buffer outside a stretch's list of written buffers holds after the stretch what it held before. -/

/-- Written by the stretch that sums the node rows per graph and starts the per-graph perceptron. -/
def wr5 : List (Ref sig .tc) :=
  [main_cst_3, main_v44, main_v45, main_v46, main_v47, main_v48, main_v49, main_v50]
/-- Written by the rectifier of the per-graph perceptron. -/
def wr5_1 : List (Ref sig .tc) := [main_call2_cst, main_call2_v0, main_v51]
/-- Written by the stretch that ends the per-graph perceptron and updates the table. -/
def wr5_2 : List (Ref sig .tc) := [main_v52, main_v53, main_v54, main_v55, main_v56]
/-- Written by the lookup of the table's rows by graph index. -/
def wr5_3 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v57]
/-- Written by the addition of the looked-up rows to the node features. -/
def wr5_4 : List (Ref sig .tc) := [main_v58]
/-- Written by the lookup of the node rows by source index. -/
def wr5_5 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v59]
/-- Written by the stretch that sums the messages at their targets and cuts the layer's parameters out. -/
def wr6 : List (Ref sig .tc) :=
  [main_cst_4, main_v61, main_v62, main_v63, main_v64, main_v65, main_v66, main_v67, main_v68, main_v69, main_v70,
   main_v71, main_v72, main_v73]
/-- Written by the stretch that turns the running sums into the rows of means and variances. -/
def wr7 : List (Ref sig .tc) :=
  [main_cst_5, main_v75, main_v76, main_cst_6, main_v77, main_v78, main_v79, main_v80, main_v81, main_v82, main_v83,
   main_v84, main_v85, main_v86, main_v87, main_v88, main_v89, main_v90]

/-- Every operation of a literal list writes one buffer, and that buffer is in the literal list of written ones. -/
macro "writes_listed" ops:ident wr:ident : tactic =>
  `(tactic| simp only [$ops:ident, $wr:ident, List.Forall, StableHlo.nullary_writes, StableHlo.unary_writes,
      StableHlo.binary_writes, StableHlo.ternary_writes, StableHlo.quaternary_writes, StableHlo.reshape_writes,
      StableHlo.binaryIndexed_writes, Finset.singleton_subset_iff, List.mem_toFinset, List.map_cons, List.map_nil,
      List.mem_cons, true_or, or_true, and_self])

theorem hw5 : (hostOps5 (F := Ideal)).Forall fun op => op.writes ⊆ (wr5.map (Proc.devRef (τ := τ) .tc)).toFinset := by
  writes_listed hostOps5 wr5
theorem hw5_1 : (hostOps5_1 (F := Ideal)).Forall fun op => op.writes ⊆ (wr5_1.map (Proc.devRef (τ := τ) .tc)).toFinset := by
  writes_listed hostOps5_1 wr5_1
theorem hw5_2 : (hostOps5_2 (F := Ideal)).Forall fun op => op.writes ⊆ (wr5_2.map (Proc.devRef (τ := τ) .tc)).toFinset := by
  writes_listed hostOps5_2 wr5_2
theorem hw5_3 : (hostOps5_3 (F := Ideal)).Forall fun op => op.writes ⊆ (wr5_3.map (Proc.devRef (τ := τ) .tc)).toFinset := by
  writes_listed hostOps5_3 wr5_3
theorem hw5_4 : (hostOps5_4 (F := Ideal)).Forall fun op => op.writes ⊆ (wr5_4.map (Proc.devRef (τ := τ) .tc)).toFinset := by
  writes_listed hostOps5_4 wr5_4
theorem hw5_5 : (hostOps5_5 (F := Ideal)).Forall fun op => op.writes ⊆ (wr5_5.map (Proc.devRef (τ := τ) .tc)).toFinset := by
  writes_listed hostOps5_5 wr5_5
theorem hw6 : (hostOps6 (F := Ideal)).Forall fun op => op.writes ⊆ (wr6.map (Proc.devRef (τ := τ) .tc)).toFinset := by
  writes_listed hostOps6 wr6
theorem hw7 : (hostOps7 (F := Ideal)).Forall fun op => op.writes ⊆ (wr7.map (Proc.devRef (τ := τ) .tc)).toFinset := by
  writes_listed hostOps7 wr7

/-! ## The buffers carried along

The eighteen arguments, the edges' source and target indices and the edge features are written by none of the
segments of this layer. -/

/-- The references carried unchanged across the layer. -/
def carried : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17,
   main_v1, main_v3, main_v7]

/-- What the carried buffers hold: the arguments as launched, the two index rows of the edge list, the edge features. -/
structure Carry (W : Valuation τ sig (Elt Ideal)) : Prop where
  args : ArgsAt m c W
  src : W (Proc.devRef .tc main_v1) = Cert.Spec.srcOf (kInputs m c).ei
  dst : W (Proc.devRef .tc main_v3) = Cert.Spec.dstOf (kInputs m c).ei
  e : W (Proc.devRef .tc main_v7) = (kInputs m c).e

variable {m c} in
/-- A valuation that agrees with another on the carried references holds there what the other holds. -/
theorem Carry.mono {W W' : Valuation τ sig (Elt Ideal)} (h : Carry m c W)
    (hk : ∀ r ∈ carried, W' (Proc.devRef .tc r) = W (Proc.devRef .tc r)) : Carry m c W' where
  args :=
    { a0 := (hk main_arg0 (by decide)).trans h.args.a0
      a1 := (hk main_arg1 (by decide)).trans h.args.a1
      a2 := (hk main_arg2 (by decide)).trans h.args.a2
      a3 := (hk main_arg3 (by decide)).trans h.args.a3
      a4 := (hk main_arg4 (by decide)).trans h.args.a4
      a5 := (hk main_arg5 (by decide)).trans h.args.a5
      a6 := (hk main_arg6 (by decide)).trans h.args.a6
      a7 := (hk main_arg7 (by decide)).trans h.args.a7
      a8 := (hk main_arg8 (by decide)).trans h.args.a8
      a9 := (hk main_arg9 (by decide)).trans h.args.a9
      a10 := (hk main_arg10 (by decide)).trans h.args.a10
      a11 := (hk main_arg11 (by decide)).trans h.args.a11
      a12 := (hk main_arg12 (by decide)).trans h.args.a12
      a13 := (hk main_arg13 (by decide)).trans h.args.a13
      a14 := (hk main_arg14 (by decide)).trans h.args.a14
      a15 := (hk main_arg15 (by decide)).trans h.args.a15
      a16 := (hk main_arg16 (by decide)).trans h.args.a16
      a17 := (hk main_arg17 (by decide)).trans h.args.a17 }
  src := (hk main_v1 (by decide)).trans h.src
  dst := (hk main_v3 (by decide)).trans h.dst
  e := (hk main_v7 (by decide)).trans h.e

variable {m c} in
/-- Across a stretch of host operations that writes none of the carried references. -/
theorem Carry.host {W : Valuation τ sig (Elt Ideal)} (h : Carry m c W) (ops : List (HloOp τ sig (Elt Ideal)))
    (wr : List (Ref sig .tc))
    (hw : ops.Forall fun op => op.writes ⊆ (wr.map (Proc.devRef (τ := τ) .tc)).toFinset)
    (hd : ∀ r ∈ carried, r ∉ wr) : Carry m c (StableHlo.after ops W) :=
  h.mono fun r hr => StableHlo.after_of_writes_sub ops W hw (hd r hr)

/-! ## What each stretch computes, from any contents -/

/-- One layer of a per-graph perceptron before its rectifier: `p · U + u` with the bias on every row. -/
def affG (p : Cert.Spec.FA Cert.ReferenceIdeal.S512x128) (u : Cert.Spec.FA Cert.ReferenceIdeal.S128x128)
    (b : Cert.Spec.FA Cert.ReferenceIdeal.S128) : Cert.Spec.FA Cert.ReferenceIdeal.S512x128 :=
  addf (Host.dotGeneral (F := Ideal) Cert.ReferenceIdeal.dot_S512x128_S128x128_S512x128_1_0_0_1_n_n none p u) (Cert.Spec.rowsG b)

/-- The per-graph perceptron is two such layers with the rectifier between. -/
theorem vnUpd_eq (p : Cert.Spec.FA Cert.ReferenceIdeal.S512x128) (u1 : Cert.Spec.FA Cert.ReferenceIdeal.S128x128)
    (c1 : Cert.Spec.FA Cert.ReferenceIdeal.S128) (u2 : Cert.Spec.FA Cert.ReferenceIdeal.S128x128)
    (c2 : Cert.Spec.FA Cert.ReferenceIdeal.S128) :
    Cert.Spec.vnUpd p u1 c1 u2 c2 = affG (Cert.Spec.reluG (affG p u1 c1)) u2 c2 := rfl

/-- The first stretch: the per-graph sums of the node rows, through the perceptron's first layer. -/
theorem v50_at (V : Valuation τ sig (Elt Ideal)) :
    StableHlo.after (hostOps5 (F := Ideal)) V (Proc.devRef .tc main_v50)
      = affG (Cert.Spec.poolOf (V (Proc.devRef .tc main_v43)) (V (Proc.devRef .tc main_arg17)))
          (V (Proc.devRef .tc main_arg12)) (V (Proc.devRef .tc main_arg13)) := by
  after_results
  rfl

/-- The rectifier. -/
theorem v51_at (V : Valuation τ sig (Elt Ideal)) :
    StableHlo.after (hostOps5_1 (F := Ideal)) V (Proc.devRef .tc main_v51)
      = Cert.Spec.reluG (V (Proc.devRef .tc main_v50)) := by
  after_results
  rfl

/-- The perceptron's second layer, added to the old table. -/
theorem v56_at (V : Valuation τ sig (Elt Ideal)) :
    StableHlo.after (hostOps5_2 (F := Ideal)) V (Proc.devRef .tc main_v56)
      = addf ((V (Proc.devRef .tc main_v8)) : Cert.Spec.FA Cert.ReferenceIdeal.S512x128)
          (affG (V (Proc.devRef .tc main_v51)) (V (Proc.devRef .tc main_arg14)) (V (Proc.devRef .tc main_arg15))) := by
  after_results
  rfl

/-- Every node's row of the table: for graph indices in range the guarded lookup is the plain one. -/
theorem v57_at (V : Valuation τ sig (Elt Ideal)) (hb : Cert.Spec.InRange 512 (V (Proc.devRef .tc main_arg17))) :
    StableHlo.after (hostOps5_3 (F := Ideal)) V (Proc.devRef .tc main_v57)
      = Cert.Spec.gatherVn (V (Proc.devRef .tc main_v56)) (V (Proc.devRef .tc main_arg17)) :=
  (Cert.Take.after_take3 V).trans (Cert.Take.takeVn_eq _ _ hb)

/-- The node features plus the looked-up rows. -/
theorem v58_at (V : Valuation τ sig (Elt Ideal)) :
    StableHlo.after (hostOps5_4 (F := Ideal)) V (Proc.devRef .tc main_v58)
      = (addf (V (Proc.devRef .tc main_v43)) (V (Proc.devRef .tc main_v57)) : Cert.Spec.FA Cert.ReferenceIdeal.S50000x128) := by
  after_results

/-- Every edge's source row: for source indices in range the guarded lookup is the plain one. -/
theorem v59_at (V : Valuation τ sig (Elt Ideal)) (hs : Cert.Spec.InRange 50000 (V (Proc.devRef .tc main_v1))) :
    StableHlo.after (hostOps5_5 (F := Ideal)) V (Proc.devRef .tc main_v59)
      = Cert.Spec.gatherH (V (Proc.devRef .tc main_v58)) (V (Proc.devRef .tc main_v1)) :=
  (Cert.Take.after_take4 V).trans (Cert.Take.takeH_eq _ _ hs)

/-- The messages summed at their target nodes. -/
theorem v63_at (V : Valuation τ sig (Elt Ideal)) :
    StableHlo.after (hostOps6 (F := Ideal)) V (Proc.devRef .tc main_v63)
      = Cert.Spec.aggOf (V (Proc.devRef .tc main_v60)) (V (Proc.devRef .tc main_v3)) := by
  after_results
  rfl

/-- The layer's first weight slab. -/
theorem v65_at (V : Valuation τ sig (Elt Ideal)) :
    StableHlo.after (hostOps6 (F := Ideal)) V (Proc.devRef .tc main_v65)
      = Cert.Spec.w1_1 (V (Proc.devRef .tc main_arg6)) := by
  after_results
  rfl

/-- The layer's first bias, as a row. -/
theorem v72_at (V : Valuation τ sig (Elt Ideal)) :
    StableHlo.after (hostOps6 (F := Ideal)) V (Proc.devRef .tc main_v72)
      = Cert.Spec.row1 (Cert.Spec.row_1 (V (Proc.devRef .tc main_arg7))) := by
  refine Eq.trans ?_ (Cert.Glue.reshape_row _)
  after_results
  rfl

/-- The layer's second weight slab. -/
theorem v69_at (V : Valuation τ sig (Elt Ideal)) :
    StableHlo.after (hostOps6 (F := Ideal)) V (Proc.devRef .tc main_v69)
      = Cert.Spec.w1_1 (V (Proc.devRef .tc main_arg8)) := by
  after_results
  rfl

/-- The layer's second bias, as a row. -/
theorem v73_at (V : Valuation τ sig (Elt Ideal)) :
    StableHlo.after (hostOps6 (F := Ideal)) V (Proc.devRef .tc main_v73)
      = Cert.Spec.row1 (Cert.Spec.row_1 (V (Proc.devRef .tc main_arg9))) := by
  refine Eq.trans ?_ (Cert.Glue.reshape_row _)
  after_results
  rfl

/-- The row of column sums over 50000, reshaped to a vector and back, is the row of the column means. -/
theorem v87_at (V : Valuation τ sig (Elt Ideal)) (z : Cert.Spec.FA Cert.ReferenceIdeal.S50000x128)
    (hs : (V (Proc.devRef .tc main_v74_1)) = Cert.Spec.row1 (Cert.Spec.colSum z)) :
    StableHlo.after (hostOps7 (F := Ideal)) V (Proc.devRef .tc main_v87) = Cert.Spec.row1 (Cert.Spec.meanOf z) := by
  refine Eq.trans ?_ (Cert.Glue.mean_row z)
  rw [← hs]
  after_results
  rfl

/-- The second moment less the squared mean, computed on rows from the two running sums of real data and reshaped
    to a vector and back, is the row of the column variances. -/
theorem v88_at (V : Valuation τ sig (Elt Ideal)) (z : Cert.Spec.FA Cert.ReferenceIdeal.S50000x128) (hz : Cert.Spec.AllReal z)
    (hs : (V (Proc.devRef .tc main_v74_1)) = Cert.Spec.row1 (Cert.Spec.colSum z))
    (hss : (V (Proc.devRef .tc main_v74_2)) = Cert.Spec.row1 (Cert.Spec.colSum (mulf z z))) :
    StableHlo.after (hostOps7 (F := Ideal)) V (Proc.devRef .tc main_v88) = Cert.Spec.row1 (Cert.Spec.varOf z) := by
  refine Eq.trans ?_ (Cert.Glue.var_row z hz)
  rw [← hs, ← hss]
  after_results
  rfl

/-- The layer's scale, as a row. -/
theorem v89_at (V : Valuation τ sig (Elt Ideal)) :
    StableHlo.after (hostOps7 (F := Ideal)) V (Proc.devRef .tc main_v89)
      = Cert.Spec.row1 (Cert.Spec.row_1 (V (Proc.devRef .tc main_arg10))) := by
  refine Eq.trans ?_ (Cert.Glue.reshape_row _)
  after_results
  rfl

/-- The layer's shift, as a row. -/
theorem v90_at (V : Valuation τ sig (Elt Ideal)) :
    StableHlo.after (hostOps7 (F := Ideal)) V (Proc.devRef .tc main_v90)
      = Cert.Spec.row1 (Cert.Spec.row_1 (V (Proc.devRef .tc main_arg11))) := by
  refine Eq.trans ?_ (Cert.Glue.reshape_row _)
  after_results
  rfl

/-! ## Congruence of the stages in their arguments -/

theorem msgOf_congr {a a' b b' : Cert.Spec.FA Cert.ReferenceIdeal.S600000x128} (h1 : a = a') (h2 : b = b') :
    Cert.Spec.msgOf a b = Cert.Spec.msgOf a' b' := by rw [h1, h2]

theorem mlpK_congr {hb hb' agg agg' : Cert.Spec.FA Cert.ReferenceIdeal.S50000x128} {w1 w1' w2 w2' : Cert.Spec.FA Cert.ReferenceIdeal.S128x128}
    {b1 b1' b2 b2' : Cert.Spec.FA Cert.ReferenceIdeal.S1x128} (h1 : hb = hb') (h2 : agg = agg') (h3 : w1 = w1') (h4 : b1 = b1')
    (h5 : w2 = w2') (h6 : b2 = b2') :
    Cert.Spec.mlpK hb agg w1 b1 w2 b2 = Cert.Spec.mlpK hb' agg' w1' b1' w2' b2' := by rw [h1, h2, h3, h4, h5, h6]

theorem normK_congr {z z' : Cert.Spec.FA Cert.ReferenceIdeal.S50000x128} {mu mu' v v' g g' b b' : Cert.Spec.FA Cert.ReferenceIdeal.S1x128}
    (h1 : z = z') (h2 : mu = mu') (h3 : v = v') (h4 : g = g') (h5 : b = b') :
    Cert.Spec.normK z mu v g b = Cert.Spec.normK z' mu' v' g' b' := by rw [h1, h2, h3, h4, h5]

/-! ## The carried buffers, boundary by boundary

A tiled region rewrites its own arrays only.  Of the carried references only the edge features are an array of a
region of this layer: the message region reads them through an input window, and an input's array leaves a region
as it entered. -/

theorem ne5 : ∀ r ∈ carried, r ≠ main_v7 → ∀ w, Pipeline.arrRef spec5 w ≠ r := by decide
theorem ne6 : ∀ r ∈ carried, ∀ w, Pipeline.arrRef spec6 w ≠ r := by decide
theorem ne7 : ∀ r ∈ carried, ∀ w, Pipeline.arrRef spec7 w ≠ r := by decide

theorem keep_r5 (r : Ref sig .tc) (hr : r ∈ carried) : W20 m ρ c (Proc.devRef .tc r) = W19 m ρ c (Proc.devRef .tc r) := by
  by_cases h7 : r = main_v7
  · subst h7
    exact (W20_arr m ρ c 1).trans (((dat5 (V19 m ρ) c).arrAt_in 1 rfl _).trans (A_eq5 (V19 m ρ) c 1))
  · exact W20_of_ne m ρ c r (ne5 r hr h7)

section Chain

variable (hok : (kInputs m c).Ok) (e13 : Env13 m ρ c)
include e13

theorem c13 : Carry m c (W13 m ρ c) := ⟨e13.args, e13.src, e13.dst, e13.e⟩
theorem c14 : Carry m c (W14 m ρ c) := (c13 m ρ c e13).host _ wr5 hw5 (by decide)
theorem c15 : Carry m c (W15 m ρ c) := (c14 m ρ c e13).host _ wr5_1 hw5_1 (by decide)
theorem c16 : Carry m c (W16 m ρ c) := (c15 m ρ c e13).host _ wr5_2 hw5_2 (by decide)
theorem c17 : Carry m c (W17 m ρ c) := (c16 m ρ c e13).host _ wr5_3 hw5_3 (by decide)
theorem c18 : Carry m c (W18 m ρ c) := (c17 m ρ c e13).host _ wr5_4 hw5_4 (by decide)
theorem c19 : Carry m c (W19 m ρ c) := (c18 m ρ c e13).host _ wr5_5 hw5_5 (by decide)
theorem c20 : Carry m c (W20 m ρ c) := (c19 m ρ c e13).mono (keep_r5 m ρ c)
theorem c21 : Carry m c (W21 m ρ c) := (c20 m ρ c e13).host _ wr6 hw6 (by decide)
theorem c22 : Carry m c (W22 m ρ c) := (c21 m ρ c e13).mono fun r hr => W22_of_ne m ρ c r (ne6 r hr)
theorem c23 : Carry m c (W23 m ρ c) := (c22 m ρ c e13).host _ wr7 hw7 (by decide)
theorem c24 : Carry m c (W24 m ρ c) := (c23 m ρ c e13).mono fun r hr => W24_of_ne m ρ c r (ne7 r hr)

/-! ## The table -/

/-- The first layer's node features are still in place when the per-graph sums and, three stretches later, the
    addition of the table's rows read them. -/
theorem h14 : W14 m ρ c (Proc.devRef .tc main_v43) = (kInputs m c).h1 :=
  (StableHlo.after_of_writes_sub _ _ hw5 (by decide)).trans e13.h
theorem h15 : W15 m ρ c (Proc.devRef .tc main_v43) = (kInputs m c).h1 :=
  (StableHlo.after_of_writes_sub _ _ hw5_1 (by decide)).trans (h14 m ρ c e13)
theorem h16 : W16 m ρ c (Proc.devRef .tc main_v43) = (kInputs m c).h1 :=
  (StableHlo.after_of_writes_sub _ _ hw5_2 (by decide)).trans (h15 m ρ c e13)
theorem h17 : W17 m ρ c (Proc.devRef .tc main_v43) = (kInputs m c).h1 :=
  (StableHlo.after_of_writes_sub _ _ hw5_3 (by decide)).trans (h16 m ρ c e13)

/-- The old table is still the zero table when the update is added to it. -/
theorem z14 : W14 m ρ c (Proc.devRef .tc main_v8) = Cert.Spec.zeroVn :=
  (StableHlo.after_of_writes_sub _ _ hw5 (by decide)).trans e13.vn
theorem z15 : W15 m ρ c (Proc.devRef .tc main_v8) = Cert.Spec.zeroVn :=
  (StableHlo.after_of_writes_sub _ _ hw5_1 (by decide)).trans (z14 m ρ c e13)

/-- The perceptron's first layer of the per-graph sums of `h₁`. -/
theorem p14 : W14 m ρ c (Proc.devRef .tc main_v50)
    = affG (Cert.Spec.poolOf (kInputs m c).h1 (kInputs m c).bat) (kInputs m c).vw1 (kInputs m c).vb1 :=
  (v50_at (W13 m ρ c)).trans (by rw [e13.h, e13.args.a17, e13.args.a12, e13.args.a13]; rfl)

theorem r15 : W15 m ρ c (Proc.devRef .tc main_v51)
    = Cert.Spec.reluG (affG (Cert.Spec.poolOf (kInputs m c).h1 (kInputs m c).bat) (kInputs m c).vw1 (kInputs m c).vb1) :=
  (v51_at (W14 m ρ c)).trans (congrArg Cert.Spec.reluG (p14 m ρ c e13))

/-- The table after the first layer. -/
theorem vn16 : W16 m ρ c (Proc.devRef .tc main_v56) = (kInputs m c).vn1 :=
  (v56_at (W15 m ρ c)).trans (by
    rw [z15 m ρ c e13, r15 m ρ c e13, (c15 m ρ c e13).args.a14, (c15 m ρ c e13).args.a15]; rfl)
theorem vn17 : W17 m ρ c (Proc.devRef .tc main_v56) = (kInputs m c).vn1 :=
  (StableHlo.after_of_writes_sub _ _ hw5_3 (by decide)).trans (vn16 m ρ c e13)
theorem vn18 : W18 m ρ c (Proc.devRef .tc main_v56) = (kInputs m c).vn1 :=
  (StableHlo.after_of_writes_sub _ _ hw5_4 (by decide)).trans (vn17 m ρ c e13)
theorem vn19 : W19 m ρ c (Proc.devRef .tc main_v56) = (kInputs m c).vn1 :=
  (StableHlo.after_of_writes_sub _ _ hw5_5 (by decide)).trans (vn18 m ρ c e13)
theorem vn20 : W20 m ρ c (Proc.devRef .tc main_v56) = (kInputs m c).vn1 :=
  (W20_of_ne m ρ c main_v56 (by decide)).trans (vn19 m ρ c e13)
theorem vn21 : W21 m ρ c (Proc.devRef .tc main_v56) = (kInputs m c).vn1 :=
  (StableHlo.after_of_writes_sub _ _ hw6 (by decide)).trans (vn20 m ρ c e13)
theorem vn22 : W22 m ρ c (Proc.devRef .tc main_v56) = (kInputs m c).vn1 :=
  (W22_of_ne m ρ c main_v56 (by decide)).trans (vn21 m ρ c e13)
theorem vn23 : W23 m ρ c (Proc.devRef .tc main_v56) = (kInputs m c).vn1 :=
  (StableHlo.after_of_writes_sub _ _ hw7 (by decide)).trans (vn22 m ρ c e13)
theorem vn24 : W24 m ρ c (Proc.devRef .tc main_v56) = (kInputs m c).vn1 :=
  (W24_of_ne m ρ c main_v56 (by decide)).trans (vn23 m ρ c e13)

/-! ## The layer's input features, the messages and their sums -/

include hok in
theorem g17 : W17 m ρ c (Proc.devRef .tc main_v57) = Cert.Spec.gatherVn (kInputs m c).vn1 (kInputs m c).bat :=
  (v57_at (W16 m ρ c) (by rw [(c16 m ρ c e13).args.a17]; exact hok.bat)).trans (by
    rw [vn16 m ρ c e13, (c16 m ρ c e13).args.a17]; rfl)

include hok in
theorem hb18 : W18 m ρ c (Proc.devRef .tc main_v58) = (kInputs m c).hb1 :=
  (v58_at (W17 m ρ c)).trans (by rw [h17 m ρ c e13, g17 m ρ c hok e13]; rfl)
include hok in
theorem hb19 : W19 m ρ c (Proc.devRef .tc main_v58) = (kInputs m c).hb1 :=
  (StableHlo.after_of_writes_sub _ _ hw5_5 (by decide)).trans (hb18 m ρ c hok e13)
include hok in
theorem hb20 : W20 m ρ c (Proc.devRef .tc main_v58) = (kInputs m c).hb1 :=
  (W20_of_ne m ρ c main_v58 (by decide)).trans (hb19 m ρ c hok e13)
include hok in
theorem hb21 : W21 m ρ c (Proc.devRef .tc main_v58) = (kInputs m c).hb1 :=
  (StableHlo.after_of_writes_sub _ _ hw6 (by decide)).trans (hb20 m ρ c hok e13)

include hok in
theorem s19 : W19 m ρ c (Proc.devRef .tc main_v59) = Cert.Spec.gatherH (kInputs m c).hb1 (Cert.Spec.srcOf (kInputs m c).ei) :=
  (v59_at (W18 m ρ c) (by rw [(c18 m ρ c e13).src]; exact hok.src)).trans (by
    rw [hb18 m ρ c hok e13, (c18 m ρ c e13).src])

include hok in
theorem msg20 : W20 m ρ c (Proc.devRef .tc main_v60)
    = Cert.Spec.msgOf (Cert.Spec.gatherH (kInputs m c).hb1 (Cert.Spec.srcOf (kInputs m c).ei)) (kInputs m c).e :=
  (W20_arr m ρ c 2).trans ((Cert.RegionMsg.value5 (V19 m ρ) c).trans
    (msgOf_congr (s19 m ρ c hok e13) (c19 m ρ c e13).e))

include hok in
theorem agg21 : W21 m ρ c (Proc.devRef .tc main_v63)
    = Cert.Spec.aggOf (Cert.Spec.msgOf (Cert.Spec.gatherH (kInputs m c).hb1 (Cert.Spec.srcOf (kInputs m c).ei)) (kInputs m c).e)
        (Cert.Spec.dstOf (kInputs m c).ei) :=
  (v63_at (W20 m ρ c)).trans (by rw [msg20 m ρ c hok e13, (c20 m ρ c e13).dst])

/-! ## The layer's parameters -/

theorem w21a : W21 m ρ c (Proc.devRef .tc main_v65) = Cert.Spec.w1_1 (kInputs m c).cw1 :=
  (v65_at (W20 m ρ c)).trans (congrArg Cert.Spec.w1_1 (c20 m ρ c e13).args.a6)
theorem b21a : W21 m ρ c (Proc.devRef .tc main_v72) = Cert.Spec.row1 (Cert.Spec.row_1 (kInputs m c).cb1) :=
  (v72_at (W20 m ρ c)).trans (congrArg (fun x => Cert.Spec.row1 (Cert.Spec.row_1 x)) (c20 m ρ c e13).args.a7)
theorem w21b : W21 m ρ c (Proc.devRef .tc main_v69) = Cert.Spec.w1_1 (kInputs m c).cw2 :=
  (v69_at (W20 m ρ c)).trans (congrArg Cert.Spec.w1_1 (c20 m ρ c e13).args.a8)
theorem b21b : W21 m ρ c (Proc.devRef .tc main_v73) = Cert.Spec.row1 (Cert.Spec.row_1 (kInputs m c).cb2) :=
  (v73_at (W20 m ρ c)).trans (congrArg (fun x => Cert.Spec.row1 (Cert.Spec.row_1 x)) (c20 m ρ c e13).args.a9)

/-! ## The node perceptron and its column sums -/

include hok in
/-- The perceptron of what the region is entered with is the layer's pre-normalisation array. -/
theorem zK : Cert.Spec.mlpK (V21 m ρ c main_v58) (V21 m ρ c main_v63) (V21 m ρ c main_v65) (V21 m ρ c main_v72)
      (V21 m ρ c main_v69) (V21 m ρ c main_v73) = (kInputs m c).z1 :=
  (mlpK_congr (hb21 m ρ c hok e13) (agg21 m ρ c hok e13) (w21a m ρ c e13) (b21a m ρ c e13) (w21b m ρ c e13)
    (b21b m ρ c e13)).trans (Cert.Spec.mlpOf_eq _ _ _ _ _ _).symm

include hok in
theorem z22 : W22 m ρ c (Proc.devRef .tc main_v74_0) = (kInputs m c).z1 :=
  (W22_arr m ρ c 6).trans ((Cert.RegionConv6.value6_z (V21 m ρ) c).trans (zK m ρ c hok e13))
include hok in
theorem s22 : W22 m ρ c (Proc.devRef .tc main_v74_1) = Cert.Spec.row1 (Cert.Spec.colSum (kInputs m c).z1) :=
  (W22_arr m ρ c 7).trans ((Cert.RegionConv6.value6_s (V21 m ρ) c).trans
    (congrArg (fun z => Cert.Spec.row1 (Cert.Spec.colSum z)) (zK m ρ c hok e13)))
include hok in
theorem ss22 : W22 m ρ c (Proc.devRef .tc main_v74_2) = Cert.Spec.row1 (Cert.Spec.colSum (mulf (kInputs m c).z1 (kInputs m c).z1)) :=
  (W22_arr m ρ c 8).trans ((Cert.RegionConv6.value6_ss (V21 m ρ) c).trans
    (congrArg (fun z => Cert.Spec.row1 (Cert.Spec.colSum (mulf z z))) (zK m ρ c hok e13)))

/-! ## The normalisation -/

include hok in
theorem z23 : W23 m ρ c (Proc.devRef .tc main_v74_0) = (kInputs m c).z1 :=
  (StableHlo.after_of_writes_sub _ _ hw7 (by decide)).trans (z22 m ρ c hok e13)
include hok in
theorem mu23 : W23 m ρ c (Proc.devRef .tc main_v87) = Cert.Spec.row1 (Cert.Spec.meanOf (kInputs m c).z1) :=
  v87_at (W22 m ρ c) _ (s22 m ρ c hok e13)
include hok in
theorem var23 : W23 m ρ c (Proc.devRef .tc main_v88) = Cert.Spec.row1 (Cert.Spec.varOf (kInputs m c).z1) :=
  v88_at (W22 m ρ c) _ (Cert.SpecReal.z1_real _ hok) (s22 m ρ c hok e13) (ss22 m ρ c hok e13)
theorem g23 : W23 m ρ c (Proc.devRef .tc main_v89) = Cert.Spec.row1 (Cert.Spec.row_1 (kInputs m c).gam) :=
  (v89_at (W22 m ρ c)).trans (congrArg (fun x => Cert.Spec.row1 (Cert.Spec.row_1 x)) (c22 m ρ c e13).args.a10)
theorem b23 : W23 m ρ c (Proc.devRef .tc main_v90) = Cert.Spec.row1 (Cert.Spec.row_1 (kInputs m c).bet) :=
  (v90_at (W22 m ρ c)).trans (congrArg (fun x => Cert.Spec.row1 (Cert.Spec.row_1 x)) (c22 m ρ c e13).args.a11)

include hok in
/-- The second layer's output features. -/
theorem h24 : W24 m ρ c (Proc.devRef .tc main_v91) = (kInputs m c).h2 :=
  (W24_arr m ρ c 5).trans ((Cert.RegionNorm.value7 (V23 m ρ) c).trans
    ((normK_congr (z23 m ρ c hok e13) (mu23 m ρ c hok e13) (var23 m ρ c hok e13) (g23 m ρ c e13)
      (b23 m ρ c e13)).trans (Cert.RegionNorm.normK_rows _ _ _ _ _)))

end Chain

end L1

/-- From the boundary after the first layer to the boundary after the second. -/
theorem env24 (hok : (kInputs m c).Ok) (e13 : Env13 m ρ c) : Env24 m ρ c where
  args := (L1.c24 m ρ c e13).args
  src := (L1.c24 m ρ c e13).src
  dst := (L1.c24 m ρ c e13).dst
  e := (L1.c24 m ρ c e13).e
  vn := L1.vn24 m ρ c e13
  h := L1.h24 m ρ c hok e13

end Cert.Fold

end
-- ==== Proof.RegionConv9.lean ====
/-
  The third layer's perceptron-and-statistics region: the perceptron's output array, and the two running sums the grid accumulates.
-/
import proofs.«407958_j39685497815719_1_alg».proof.Proof.Gen.KernelIdeal.Frame
import proofs.«407958_j39685497815719_1_alg».proof.Proof.Spec
import proofs.«407958_j39685497815719_1_alg».proof.Proof.LibBlockSum
import proofs.«407958_j39685497815719_1_alg».proof.Proof.RegionConvLemmas
import Idealize.ShloMosaic.Lib.ValueIdx
import Idealize.ShloMosaic.Lib.Pipeline.Value
import Idealize.ShloMosaic.Lib.Tactic

set_option maxRecDepth 16384

noncomputable section

namespace Cert.RegionConv9

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The index maps, decided over the grid -/

/-- Over the 25 points: the row blocks of the two inputs and of the perceptron's output move with the point; the two
    matrices, the two bias rows and the two accumulators stay at block (0, 0). -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0 :=
  (by decide +kernel : ∀ t : Fin grid9.N, _)

variable [Cert.KernelIdeal.Facts] [Cert.ReferenceIdeal.Facts]

/-! ## What each case of the body leaves in each output block -/

theorem zeroOff : (![0, 0] : Fin 2 → Nat) = fun _ => 0 := funext fun a => by fin_cases a <;> rfl

/-- At the first point the output block holds the perceptron of the two input blocks' sum. -/
theorem piece9_A_6 {F : FTy → Type} [FloatOps F] (c : Dev nD) (i : grid9.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond9_0 i) (x0 x1 : Vec F S2000x128 .f32) (x2 : Vec F S128x128 .f32) (x3 : Vec F S1x128 .f32) (x4 : Vec F S128x128 .f32) (x5 : Vec F S1x128 .f32) :
    out9_A_6 c i a1 h1 a2 h2 a3 h3 a4 h4 a5 h5 a6 h6 a7 h7 a8 h8 a9 h9 hc x0 x1 x2 x3 x4 x5 = k9_pay4 x0 x1 x2 x3 x4 x5 := by
  unfold out9_A_6
  rw [View.read_writes_eq_canon _ _ _ (cover9_A_6 c i a1 h1 a2 h2 a3 h3 a4 h4 a5 h5 a6 h6 a7 h7 a8 h8 a9 h9 hc x0 x1 x2 x3 x4 x5)]
  unfold kernelRun9_A
  dsimp only
  sl_unfold_words
  rw [View.canon_unit_zero zeroOff]
  simp only [View.readAt_eq_ld, h1.read_unread, h2.read_unread, h3.read_unread, h4.read_unread, h5.read_unread, h6.read_unread, View.ld_unit_zero (S := S2000x128) zeroOff, View.ld_unit_zero (S := S128x128) zeroOff, View.ld_unit_zero (S := S1x128) zeroOff]

/-- At the first point the accumulator of the column sums is zeroed and then holds the block's column sums. -/
theorem piece9_A_7 {F : FTy → Type} [FloatOps F] (c : Dev nD) (i : grid9.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond9_0 i) (x0 x1 : Vec F S2000x128 .f32) (x2 : Vec F S128x128 .f32) (x3 : Vec F S1x128 .f32) (x4 : Vec F S128x128 .f32) (x5 : Vec F S1x128 .f32) :
    out9_A_7 c i a1 h1 a2 h2 a3 h3 a4 h4 a5 h5 a6 h6 a7 h7 a8 h8 a9 h9 hc x0 x1 x2 x3 x4 x5 = k9_pay5 x0 x1 x2 x3 x4 x5 (k9_pay2 (F := F)) := by
  unfold out9_A_7
  rw [View.read_writes_eq_canon _ _ _ (cover9_A_7 c i a1 h1 a2 h2 a3 h3 a4 h4 a5 h5 a6 h6 a7 h7 a8 h8 a9 h9 hc x0 x1 x2 x3 x4 x5)]
  unfold kernelRun9_A
  dsimp only
  sl_unfold_words
  rw [View.canon_cons_unit_zero (S := S1x128) zeroOff, View.readCov_unit_zero (S := S1x128) _ zeroOff]
  simp only [View.readAt_eq_ld, h1.read_unread, h2.read_unread, h3.read_unread, h4.read_unread, h5.read_unread, h6.read_unread, View.ld_unit_zero (S := S2000x128) zeroOff, View.ld_unit_zero (S := S128x128) zeroOff, View.ld_unit_zero (S := S1x128) zeroOff]

/-- At the first point the accumulator of the sums of squares is zeroed and then holds the block's. -/
theorem piece9_A_8 {F : FTy → Type} [FloatOps F] (c : Dev nD) (i : grid9.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : cond9_0 i) (x0 x1 : Vec F S2000x128 .f32) (x2 : Vec F S128x128 .f32) (x3 : Vec F S1x128 .f32) (x4 : Vec F S128x128 .f32) (x5 : Vec F S1x128 .f32) :
    out9_A_8 c i a1 h1 a2 h2 a3 h3 a4 h4 a5 h5 a6 h6 a7 h7 a8 h8 a9 h9 hc x0 x1 x2 x3 x4 x5 = k9_pay1 (k9_pay4 x0 x1 x2 x3 x4 x5) (k9_pay3 (F := F)) := by
  unfold out9_A_8
  rw [View.read_writes_eq_canon _ _ _ (cover9_A_8 c i a1 h1 a2 h2 a3 h3 a4 h4 a5 h5 a6 h6 a7 h7 a8 h8 a9 h9 hc x0 x1 x2 x3 x4 x5)]
  unfold kernelRun9_A
  dsimp only
  sl_unfold_words
  rw [View.canon_cons_unit_zero (S := S1x128) zeroOff, View.readCov_unit_zero (S := S1x128) _ zeroOff]
  simp only [View.readAt_eq_ld, h1.read_unread, h2.read_unread, h3.read_unread, h4.read_unread, h5.read_unread, h6.read_unread, View.ld_unit_zero (S := S2000x128) zeroOff, View.ld_unit_zero (S := S128x128) zeroOff, View.ld_unit_zero (S := S1x128) zeroOff]

/-- At a later point the output block holds the perceptron of the two input blocks' sum. -/
theorem piece9_B_6 {F : FTy → Type} [FloatOps F] (c : Dev nD) (i : grid9.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond9_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out9_B_6 c i a1 h1 a2 h2 a3 h3 a4 h4 a5 h5 a6 h6 a7 h7 a8 h8 a9 h9 hc x0 x1 x2 x3 x4 x5 xo7 xo8 = k9_pay4 x0 x1 x2 x3 x4 x5 := by
  unfold out9_B_6
  rw [View.read_writes_eq_canon _ _ _ (cover9_B_6 c i a1 h1 a2 h2 a3 h3 a4 h4 a5 h5 a6 h6 a7 h7 a8 h8 a9 h9 hc x0 x1 x2 x3 x4 x5 xo7 xo8)]
  unfold kernelRun9_B
  dsimp only
  sl_unfold_words
  rw [View.canon_unit_zero zeroOff]
  simp only [View.readAt_eq_ld, h1.read_unread, h2.read_unread, h3.read_unread, h4.read_unread, h5.read_unread, h6.read_unread, h8.read_unread, h9.read_unread, View.ld_unit_zero (S := S2000x128) zeroOff, View.ld_unit_zero (S := S128x128) zeroOff, View.ld_unit_zero (S := S1x128) zeroOff]

/-- At a later point the block's column sums are added onto what the accumulator held. -/
theorem piece9_B_7 {F : FTy → Type} [FloatOps F] (c : Dev nD) (i : grid9.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond9_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out9_B_7 c i a1 h1 a2 h2 a3 h3 a4 h4 a5 h5 a6 h6 a7 h7 a8 h8 a9 h9 hc x0 x1 x2 x3 x4 x5 xo7 xo8 = k9_pay5 x0 x1 x2 x3 x4 x5 xo7 := by
  unfold out9_B_7
  rw [View.read_writes_eq_canon _ _ _ (cover9_B_7 c i a1 h1 a2 h2 a3 h3 a4 h4 a5 h5 a6 h6 a7 h7 a8 h8 a9 h9 hc x0 x1 x2 x3 x4 x5 xo7 xo8)]
  unfold kernelRun9_B
  dsimp only
  sl_unfold_words
  rw [View.canon_unit_zero zeroOff]
  simp only [View.readAt_eq_ld, h1.read_unread, h2.read_unread, h3.read_unread, h4.read_unread, h5.read_unread, h6.read_unread, h8.read_unread, h9.read_unread, View.ld_unit_zero (S := S2000x128) zeroOff, View.ld_unit_zero (S := S128x128) zeroOff, View.ld_unit_zero (S := S1x128) zeroOff]

/-- At a later point the block's column sums of squares are added onto what the accumulator held. -/
theorem piece9_B_8 {F : FTy → Type} [FloatOps F] (c : Dev nD) (i : grid9.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole)
    (hc : ¬cond9_0 i) (x0 x1 : Vec F S2000x128 .f32) (x2 : Vec F S128x128 .f32) (x3 : Vec F S1x128 .f32) (x4 : Vec F S128x128 .f32) (x5 : Vec F S1x128 .f32) (xo7 xo8 : Vec F S1x128 .f32) :
    out9_B_8 c i a1 h1 a2 h2 a3 h3 a4 h4 a5 h5 a6 h6 a7 h7 a8 h8 a9 h9 hc x0 x1 x2 x3 x4 x5 xo7 xo8 = k9_pay1 (k9_pay4 x0 x1 x2 x3 x4 x5) xo8 := by
  unfold out9_B_8
  rw [View.read_writes_eq_canon _ _ _ (cover9_B_8 c i a1 h1 a2 h2 a3 h3 a4 h4 a5 h5 a6 h6 a7 h7 a8 h8 a9 h9 hc x0 x1 x2 x3 x4 x5 xo7 xo8)]
  unfold kernelRun9_B
  dsimp only
  sl_unfold_words
  rw [View.canon_unit_zero zeroOff]
  simp only [View.readAt_eq_ld, h1.read_unread, h2.read_unread, h3.read_unread, h4.read_unread, h5.read_unread, h6.read_unread, h8.read_unread, h9.read_unread, View.ld_unit_zero (S := S2000x128) zeroOff, View.ld_unit_zero (S := S128x128) zeroOff, View.ld_unit_zero (S := S1x128) zeroOff]

/-- Where row p of the two input blocks is row r of the two input arrays and the other four blocks are the whole
    matrices and bias rows, the block's perceptron at row p is the whole-array perceptron at row r. -/
theorem zpay_eq_mlpK (x0 x1 : Vec Ideal S2000x128 .f32) (x2 : Vec Ideal S128x128 .f32) (x3 : Vec Ideal S1x128 .f32)
    (x4 : Vec Ideal S128x128 .f32) (x5 : Vec Ideal S1x128 .f32)
    (hb agg : Cert.Spec.FA Cert.ReferenceIdeal.S50000x128) (w1 : Cert.Spec.FA Cert.ReferenceIdeal.S128x128)
    (b1 : Cert.Spec.FA Cert.ReferenceIdeal.S1x128) (w2 : Cert.Spec.FA Cert.ReferenceIdeal.S128x128)
    (b2 : Cert.Spec.FA Cert.ReferenceIdeal.S1x128) (p : Fin 2000) (r : Fin 50000) (q : Fin 128)
    (h0 : ∀ j : Fin 128, x0 (ix2 p j) = hb (ix2 r j)) (h1 : ∀ j : Fin 128, x1 (ix2 p j) = agg (ix2 r j))
    (h2 : ∀ j k : Fin 128, x2 (ix2 j k) = w1 (ix2 j k)) (h3 : ∀ k : Fin 128, x3 (ix2 (0 : Fin 1) k) = b1 (ix2 (0 : Fin 1) k))
    (h4 : ∀ j k : Fin 128, x4 (ix2 j k) = w2 (ix2 j k)) (h5 : ∀ k : Fin 128, x5 (ix2 (0 : Fin 1) k) = b2 (ix2 (0 : Fin 1) k)) :
    k9_pay4 (F := Ideal) x0 x1 x2 x3 x4 x5 (ix2 p q) = Cert.Spec.mlpK hb agg w1 b1 w2 b2 (ix2 r q) := by
  have e2 : x2 = w1 := funext fun i => by
    obtain ⟨j, k, rfl⟩ : ∃ (j : Fin 128) (k : Fin 128), i = ix2 j k := ⟨i 0, i 1, eq_ix2 i⟩
    exact h2 j k
  have e3 : x3 = b1 := funext fun i => by rw [Cert.RegionConv.eq_ix2_zero i]; exact h3 _
  have e4 : x4 = w2 := funext fun i => by
    obtain ⟨j, k, rfl⟩ : ∃ (j : Fin 128) (k : Fin 128), i = ix2 j k := ⟨i 0, i 1, eq_ix2 i⟩
    exact h4 j k
  have e5 : x5 = b2 := funext fun i => by rw [Cert.RegionConv.eq_ix2_zero i]; exact h5 _
  show k3_pay4 (F := Ideal) x0 x1 x2 x3 x4 x5 (ix2 p q) = _
  exact Cert.RegionConv.pay4_eq_mlpK_of_eq x0 x1 x2 x3 x4 x5 hb agg w1 b1 w2 b2 p r q h0 h1 e2 e3 e4 e5

/-- The running column sums after a block: what the accumulator held plus the block's column sums of the perceptron. -/
theorem spay_apply (x0 x1 : Vec Ideal S2000x128 .f32) (x2 : Vec Ideal S128x128 .f32) (x3 : Vec Ideal S1x128 .f32)
    (x4 : Vec Ideal S128x128 .f32) (x5 : Vec Ideal S1x128 .f32) (acc : Vec Ideal S1x128 .f32) (q : Fin 128) :
    k9_pay5 (F := Ideal) x0 x1 x2 x3 x4 x5 acc (ix2 (0 : Fin 1) q)
      = acc (ix2 (0 : Fin 1) q) + ∑ p : Fin 2000, k9_pay4 (F := Ideal) x0 x1 x2 x3 x4 x5 (ix2 p q) :=
  Cert.RegionConv.pay5_apply x0 x1 x2 x3 x4 x5 acc q

/-- The running sums of squares after a block. -/
theorem sspay_apply (z : FVec Ideal S2000x128 .f32) (acc : Vec Ideal S1x128 .f32) (q : Fin 128) :
    k9_pay1 (F := Ideal) z acc (ix2 (0 : Fin 1) q) = acc (ix2 (0 : Fin 1) q) + ∑ p : Fin 2000, z (ix2 p q) * z (ix2 p q) :=
  Cert.RegionConv.pay1_apply z acc q

/-! ## The perceptron's output: from the blocks to the array -/

-- the buffer contents when the region is entered
variable (V : (c : Dev nD) → (b : Ref sig .tc) → Buf (Elt Ideal) ((c : Thread nD τ).loc b)) (c : Dev nD)

/-- The block of `hb` at point t is rows 2000 t … 2000 t + 1999. -/
theorem hbBlk_apply (t : Fin cfg9.N) (p : Fin 2000) (j : Fin 128) (r : Fin 50000) (hr : r.val = t.val * 2000 + p.val) :
    (iblk9 (F := Ideal) V c 0 t : Vec Ideal S2000x128 .f32) (ix2 p j) = (V c main_v106 : S50000x128.Idx → EReal) (ix2 r j) := by
  obtain ⟨e00, e01, e10, e11, e20, e21, e30, e31, e40, e41, e50, e51, e60, e61, e70, e71, e80, e81⟩ := idx9 t
  unfold iblk9
  rw [View.read_apply]
  show V c main_v106 _ = V c main_v106 _
  congr 1
  funext a
  apply Fin.ext
  match a with
  | ⟨0, _⟩ => show win9_0.index t (0 : Fin 2) * 2000 + 1 * p.val = r.val; rw [e00, hr]; omega
  | ⟨1, _⟩ => show win9_0.index t (1 : Fin 2) * 128 + 1 * j.val = j.val; rw [e01]; omega

/-- The block of `agg` at point t is rows 2000 t … 2000 t + 1999. -/
theorem aggBlk_apply (t : Fin cfg9.N) (p : Fin 2000) (j : Fin 128) (r : Fin 50000) (hr : r.val = t.val * 2000 + p.val) :
    (iblk9 (F := Ideal) V c 1 t : Vec Ideal S2000x128 .f32) (ix2 p j) = (V c main_v111 : S50000x128.Idx → EReal) (ix2 r j) := by
  obtain ⟨e00, e01, e10, e11, e20, e21, e30, e31, e40, e41, e50, e51, e60, e61, e70, e71, e80, e81⟩ := idx9 t
  unfold iblk9
  rw [View.read_apply]
  show V c main_v111 _ = V c main_v111 _
  congr 1
  funext a
  apply Fin.ext
  match a with
  | ⟨0, _⟩ => show win9_1.index t (0 : Fin 2) * 2000 + 1 * p.val = r.val; rw [e10, hr]; omega
  | ⟨1, _⟩ => show win9_1.index t (1 : Fin 2) * 128 + 1 * j.val = j.val; rw [e11]; omega

/-- The block of the first matrix at any point is the whole matrix. -/
theorem w1Blk_apply (t : Fin cfg9.N) (j : Fin 128) (k : Fin 128) :
    (iblk9 (F := Ideal) V c 2 t : Vec Ideal S128x128 .f32) (ix2 j k) = (V c main_v113 : S128x128.Idx → EReal) (ix2 j k) := by
  obtain ⟨e00, e01, e10, e11, e20, e21, e30, e31, e40, e41, e50, e51, e60, e61, e70, e71, e80, e81⟩ := idx9 t
  unfold iblk9
  rw [View.read_apply]
  show V c main_v113 _ = V c main_v113 _
  congr 1
  funext a
  apply Fin.ext
  match a with
  | ⟨0, _⟩ => show win9_2.index t (0 : Fin 2) * 128 + 1 * j.val = j.val; rw [e20]; omega
  | ⟨1, _⟩ => show win9_2.index t (1 : Fin 2) * 128 + 1 * k.val = k.val; rw [e21]; omega

/-- The block of the first bias row at any point is the whole row. -/
theorem b1Blk_apply (t : Fin cfg9.N) (j : Fin 1) (k : Fin 128) :
    (iblk9 (F := Ideal) V c 3 t : Vec Ideal S1x128 .f32) (ix2 j k) = (V c main_v120 : S1x128.Idx → EReal) (ix2 j k) := by
  obtain ⟨e00, e01, e10, e11, e20, e21, e30, e31, e40, e41, e50, e51, e60, e61, e70, e71, e80, e81⟩ := idx9 t
  unfold iblk9
  rw [View.read_apply]
  show V c main_v120 _ = V c main_v120 _
  congr 1
  funext a
  apply Fin.ext
  match a with
  | ⟨0, _⟩ => show win9_3.index t (0 : Fin 2) * 1 + 1 * j.val = j.val; rw [e30]; omega
  | ⟨1, _⟩ => show win9_3.index t (1 : Fin 2) * 128 + 1 * k.val = k.val; rw [e31]; omega

/-- The block of the second matrix at any point is the whole matrix. -/
theorem w2Blk_apply (t : Fin cfg9.N) (j : Fin 128) (k : Fin 128) :
    (iblk9 (F := Ideal) V c 4 t : Vec Ideal S128x128 .f32) (ix2 j k) = (V c main_v117 : S128x128.Idx → EReal) (ix2 j k) := by
  obtain ⟨e00, e01, e10, e11, e20, e21, e30, e31, e40, e41, e50, e51, e60, e61, e70, e71, e80, e81⟩ := idx9 t
  unfold iblk9
  rw [View.read_apply]
  show V c main_v117 _ = V c main_v117 _
  congr 1
  funext a
  apply Fin.ext
  match a with
  | ⟨0, _⟩ => show win9_4.index t (0 : Fin 2) * 128 + 1 * j.val = j.val; rw [e40]; omega
  | ⟨1, _⟩ => show win9_4.index t (1 : Fin 2) * 128 + 1 * k.val = k.val; rw [e41]; omega

/-- The block of the second bias row at any point is the whole row. -/
theorem b2Blk_apply (t : Fin cfg9.N) (j : Fin 1) (k : Fin 128) :
    (iblk9 (F := Ideal) V c 5 t : Vec Ideal S1x128 .f32) (ix2 j k) = (V c main_v121 : S1x128.Idx → EReal) (ix2 j k) := by
  obtain ⟨e00, e01, e10, e11, e20, e21, e30, e31, e40, e41, e50, e51, e60, e61, e70, e71, e80, e81⟩ := idx9 t
  unfold iblk9
  rw [View.read_apply]
  show V c main_v121 _ = V c main_v121 _
  congr 1
  funext a
  apply Fin.ext
  match a with
  | ⟨0, _⟩ => show win9_5.index t (0 : Fin 2) * 1 + 1 * j.val = j.val; rw [e50]; omega
  | ⟨1, _⟩ => show win9_5.index t (1 : Fin 2) * 128 + 1 * k.val = k.val; rw [e51]; omega

/-- The output's block at point t sits at rows 2000 t … 2000 t + 1999 of the array. -/
theorem zBlk_emb (t : Fin cfg9.N) (p : Fin 2000) (q : Fin 128) (r : Fin 50000) (hr : r.val = t.val * 2000 + p.val) :
    ((cfg9.win 6).blk t).view.emb (ix2 p q : S2000x128.Idx) = (ix2 r q : S50000x128.Idx) := by
  obtain ⟨e00, e01, e10, e11, e20, e21, e30, e31, e40, e41, e50, e51, e60, e61, e70, e71, e80, e81⟩ := idx9 t
  funext a
  apply Fin.ext
  match a with
  | ⟨0, _⟩ => show win9_6.index t (0 : Fin 2) * 2000 + 1 * p.val = r.val; rw [e60, hr]; omega
  | ⟨1, _⟩ => show win9_6.index t (1 : Fin 2) * 128 + 1 * q.val = q.val; rw [e61]; omega

/-- Entry (p, q) of point t's perceptron block is entry (2000 t + p, q) of the whole-array perceptron. -/
theorem zpay_at (t : Fin cfg9.N) (p : Fin 2000) (q : Fin 128) (r : Fin 50000) (hr : r.val = 2000 * t.val + p.val) :
    k9_pay4 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) (ix2 p q)
      = Cert.Spec.mlpK (V c main_v106) (V c main_v111) (V c main_v113) (V c main_v120) (V c main_v117) (V c main_v121) (ix2 r q) :=
  zpay_eq_mlpK (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t)
    (V c main_v106) (V c main_v111) (V c main_v113) (V c main_v120) (V c main_v117) (V c main_v121) p r q
    (fun j => hbBlk_apply V c t p j r (by omega)) (fun j => aggBlk_apply V c t p j r (by omega))
    (fun j k => w1Blk_apply V c t j k) (fun k => b1Blk_apply V c t 0 k)
    (fun j k => w2Blk_apply V c t j k) (fun k => b2Blk_apply V c t 0 k)

/-- At every point the output's buffer holds the perceptron of the point's blocks. -/
theorem after6_eq (t : Fin cfg9.N) :
    (dat9 (F := Ideal) V c).after 6 t = k9_pay4 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) := by
  rw [after9_6]
  by_cases h0 : t.val % 25 = 0
  · rw [outsAt9_A V c t h0]
    dsimp only
    exact piece9_A_6 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) ((hcond9_0 t).mpr h0) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t)
  · rw [outsAt9_B V c t h0]
    dsimp only
    exact piece9_B_6 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (fun h => h0 ((hcond9_0 t).mp h)) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) (outsAt9 (F := Ideal) V c (t.val - 1) (Nat.lt_of_le_of_lt (Nat.sub_le _ _) t.isLt)).2.1 (outsAt9 (F := Ideal) V c (t.val - 1) (Nat.lt_of_le_of_lt (Nat.sub_le _ _) t.isLt)).2.2

/-- What point t writes back is block t of the whole-array perceptron. -/
theorem flushed6_eq (t : Fin cfg9.N) :
    (dat9 (F := Ideal) V c).flushed 6 t = ((cfg9.win 6).blk t).view.read (Elt Ideal) (Cert.Spec.mlpK (V c main_v106) (V c main_v111) (V c main_v113) (V c main_v120) (V c main_v117) (V c main_v121)) := by
  show (cfg9.win 6).cut (grid9.coords t) ((dat9 (F := Ideal) V c).after 6 t) = _
  rw [after6_eq]
  have key : ∀ j : S2000x128.Idx,
      k9_pay4 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) j
        = Cert.Spec.mlpK (V c main_v106) (V c main_v111) (V c main_v113) (V c main_v120) (V c main_v117) (V c main_v121) (((cfg9.win 6).blk t).view.emb j) := by
    intro j
    obtain ⟨p, q, rfl⟩ : ∃ (p : Fin 2000) (q : Fin 128), j = ix2 p q := ⟨j 0, j 1, eq_ix2 j⟩
    have ht : t.val < 25 := lt_of_lt_of_eq t.isLt N_9
    have hr : t.val * 2000 + p.val < 50000 := by have := p.isLt; omega
    rw [zBlk_emb t p q ⟨t.val * 2000 + p.val, hr⟩ rfl]
    exact zpay_at V c t p q ⟨t.val * 2000 + p.val, hr⟩ (by show t.val * 2000 + p.val = 2000 * t.val + p.val; omega)
  exact funext key

/-- An index of the array is in point t's block iff each coordinate is in the block's range on its axis. -/
theorem mem_zBlk (t : Fin cfg9.N) (i : S50000x128.Idx) :
    i ∈ ((cfg9.win 6).blk t).view.set ↔ ∀ a : Fin 2, win9_6.index t a * S2000x128.size a ≤ (i a).val ∧ (i a).val < win9_6.index t a * S2000x128.size a + S2000x128.size a := by
  show i ∈ ((View.whole main_v122_0).slice (win9_6.rect t)).set ↔ _
  rw [View.set_slice_whole, Rect.mem_set_unit]
  exact Iff.rfl

/-- Every row lies in the block of the point its number divided by 2000 names. -/
theorem cover6 (i : S50000x128.Idx) : ∃ t : Fin cfg9.N, (cfg9.win 6).flush t = true ∧ i ∈ ((cfg9.win 6).blk t).view.set := by
  have hi0 : (i 0).val < 50000 := (i 0).isLt
  have hi1 : (i 1).val < 128 := (i 1).isLt
  have hN : cfg9.N = 25 := N_9
  let t : Fin cfg9.N := ⟨(i 0).val / 2000, by rw [hN]; omega⟩
  obtain ⟨e00, e01, e10, e11, e20, e21, e30, e31, e40, e41, e50, e51, e60, e61, e70, e71, e80, e81⟩ := idx9 t
  refine ⟨t, flush9_6 t, ?_⟩
  rw [mem_zBlk]
  intro a
  match a with
  | ⟨0, _⟩ => show win9_6.index t (0 : Fin 2) * 2000 ≤ (i 0).val ∧ (i 0).val < win9_6.index t (0 : Fin 2) * 2000 + 2000; rw [e60]; show (i 0).val / 2000 * 2000 ≤ (i 0).val ∧ (i 0).val < (i 0).val / 2000 * 2000 + 2000; omega
  | ⟨1, _⟩ => show win9_6.index t (1 : Fin 2) * 128 ≤ (i 1).val ∧ (i 1).val < win9_6.index t (1 : Fin 2) * 128 + 128; rw [e61]; omega

/-- Region 9: the perceptron of `hb + agg`, row block by row block. -/
theorem value9_z : (dat9 (F := Ideal) V c).arrAt 6 cfg9.N
    = Cert.Spec.mlpK (V c main_v106) (V c main_v111) (V c main_v113) (V c main_v120) (V c main_v117) (V c main_v121) :=
  (dat9 (F := Ideal) V c).arrAt_eq_of_cover 6 _ (fun t _ => flushed6_eq V c t) cover6

/-! ## The two accumulators -/

/-- At the first point the accumulator of the column sums is zero plus the block's column sums. -/
theorem after7_A (t : Fin cfg9.N) (h0 : t.val % 25 = 0) :
    (outsAt9 (F := Ideal) V c t.val t.isLt).2.1
      = k9_pay5 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) (k9_pay2 (F := Ideal)) := by
  rw [outsAt9_A V c t h0]
  dsimp only
  exact piece9_A_7 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) ((hcond9_0 t).mpr h0) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t)

/-- At a later point it is what the point before left plus the block's column sums. -/
theorem after7_B (t : Fin cfg9.N) (h0 : ¬t.val % 25 = 0) :
    (outsAt9 (F := Ideal) V c t.val t.isLt).2.1
      = k9_pay5 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) (outsAt9 (F := Ideal) V c (t.val - 1) (Nat.lt_of_le_of_lt (Nat.sub_le _ _) t.isLt)).2.1 := by
  rw [outsAt9_B V c t h0]
  dsimp only
  exact piece9_B_7 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (fun h => h0 ((hcond9_0 t).mp h)) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) (outsAt9 (F := Ideal) V c (t.val - 1) (Nat.lt_of_le_of_lt (Nat.sub_le _ _) t.isLt)).2.1 (outsAt9 (F := Ideal) V c (t.val - 1) (Nat.lt_of_le_of_lt (Nat.sub_le _ _) t.isLt)).2.2

/-- At the first point the accumulator of the sums of squares is zero plus the block's column sums of squares. -/
theorem after8_A (t : Fin cfg9.N) (h0 : t.val % 25 = 0) :
    (outsAt9 (F := Ideal) V c t.val t.isLt).2.2
      = k9_pay1 (F := Ideal) (k9_pay4 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t)) (k9_pay3 (F := Ideal)) := by
  rw [outsAt9_A V c t h0]
  dsimp only
  exact piece9_A_8 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) ((hcond9_0 t).mpr h0) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t)

/-- At a later point it is what the point before left plus the block's column sums of squares. -/
theorem after8_B (t : Fin cfg9.N) (h0 : ¬t.val % 25 = 0) :
    (outsAt9 (F := Ideal) V c t.val t.isLt).2.2
      = k9_pay1 (F := Ideal) (k9_pay4 (F := Ideal) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t)) (outsAt9 (F := Ideal) V c (t.val - 1) (Nat.lt_of_le_of_lt (Nat.sub_le _ _) t.isLt)).2.2 := by
  rw [outsAt9_B V c t h0]
  dsimp only
  exact piece9_B_8 (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (fun h => h0 ((hcond9_0 t).mp h)) (iblk9 (F := Ideal) V c 0 t) (iblk9 (F := Ideal) V c 1 t) (iblk9 (F := Ideal) V c 2 t) (iblk9 (F := Ideal) V c 3 t) (iblk9 (F := Ideal) V c 4 t) (iblk9 (F := Ideal) V c 5 t) (outsAt9 (F := Ideal) V c (t.val - 1) (Nat.lt_of_le_of_lt (Nat.sub_le _ _) t.isLt)).2.1 (outsAt9 (F := Ideal) V c (t.val - 1) (Nat.lt_of_le_of_lt (Nat.sub_le _ _) t.isLt)).2.2

/-- After point n the accumulator of the column sums holds, in column q, the column's sum over the rows of the first
    n + 1 blocks. -/
theorem sAcc (q : Fin 128) : ∀ (n : ℕ) (hn : n < cfg9.N),
    (outsAt9 (F := Ideal) V c n hn).2.1 (ix2 (0 : Fin 1) q)
      = Cert.LibBlockSum.acc50000 (fun r : Fin 50000 => Cert.Spec.mlpK (V c main_v106) (V c main_v111) (V c main_v113) (V c main_v120) (V c main_v117) (V c main_v121) (ix2 r q)) (n + 1) := by
  intro n
  induction n with
  | zero =>
    intro hn
    refine (congrFun (after7_A V c ⟨0, hn⟩ (Nat.zero_mod 25)) (ix2 (0 : Fin 1) q)).trans ?_
    rw [spay_apply, Cert.LibBlockSum.acc50000_succ _ (by norm_num : 0 < 25), Cert.LibBlockSum.acc50000_zero]
    refine congrArg₂ (· + ·) (Cert.RegionConv.pay2_apply _) (Finset.sum_congr rfl fun p _ => ?_)
    exact zpay_at V c ⟨0, hn⟩ p q ⟨2000 * 0 + p.val, _⟩ rfl
  | succ n ih =>
    intro hn
    have hN : n + 1 < 25 := lt_of_lt_of_eq hn N_9
    refine (congrFun (after7_B V c ⟨n + 1, hn⟩ (by show ¬(n + 1) % 25 = 0; omega)) (ix2 (0 : Fin 1) q)).trans ?_
    rw [spay_apply, Cert.LibBlockSum.acc50000_succ _ hN]
    refine congrArg₂ (· + ·) (ih (Nat.lt_of_succ_lt hn)) (Finset.sum_congr rfl fun p _ => ?_)
    exact zpay_at V c ⟨n + 1, hn⟩ p q ⟨2000 * (n + 1) + p.val, _⟩ rfl

/-- Likewise the accumulator of the sums of squares. -/
theorem ssAcc (q : Fin 128) : ∀ (n : ℕ) (hn : n < cfg9.N),
    (outsAt9 (F := Ideal) V c n hn).2.2 (ix2 (0 : Fin 1) q)
      = Cert.LibBlockSum.acc50000 (fun r : Fin 50000 => Cert.Spec.mlpK (V c main_v106) (V c main_v111) (V c main_v113) (V c main_v120) (V c main_v117) (V c main_v121) (ix2 r q)
          * Cert.Spec.mlpK (V c main_v106) (V c main_v111) (V c main_v113) (V c main_v120) (V c main_v117) (V c main_v121) (ix2 r q)) (n + 1) := by
  intro n
  induction n with
  | zero =>
    intro hn
    refine (congrFun (after8_A V c ⟨0, hn⟩ (Nat.zero_mod 25)) (ix2 (0 : Fin 1) q)).trans ?_
    rw [sspay_apply, Cert.LibBlockSum.acc50000_succ _ (by norm_num : 0 < 25), Cert.LibBlockSum.acc50000_zero]
    refine congrArg₂ (· + ·) (Cert.RegionConv.pay3_apply _) (Finset.sum_congr rfl fun p _ => ?_)
    exact congrArg₂ (· * ·) (zpay_at V c ⟨0, hn⟩ p q ⟨2000 * 0 + p.val, _⟩ rfl) (zpay_at V c ⟨0, hn⟩ p q ⟨2000 * 0 + p.val, _⟩ rfl)
  | succ n ih =>
    intro hn
    have hN : n + 1 < 25 := lt_of_lt_of_eq hn N_9
    refine (congrFun (after8_B V c ⟨n + 1, hn⟩ (by show ¬(n + 1) % 25 = 0; omega)) (ix2 (0 : Fin 1) q)).trans ?_
    rw [sspay_apply, Cert.LibBlockSum.acc50000_succ _ hN]
    refine congrArg₂ (· + ·) (ih (Nat.lt_of_succ_lt hn)) (Finset.sum_congr rfl fun p _ => ?_)
    exact congrArg₂ (· * ·) (zpay_at V c ⟨n + 1, hn⟩ p q ⟨2000 * (n + 1) + p.val, _⟩ rfl) (zpay_at V c ⟨n + 1, hn⟩ p q ⟨2000 * (n + 1) + p.val, _⟩ rfl)

/-- The one write-back of the column sums, after the last point, writes every column's sum over all 50000 rows. -/
theorem flushed7_eq (t : Fin cfg9.N) (hf : (cfg9.win 7).flush t = true) :
    (dat9 (F := Ideal) V c).flushed 7 t
      = ((cfg9.win 7).blk t).view.read (Elt Ideal) (Cert.Spec.row1 (Cert.Spec.colSum (Cert.Spec.mlpK (V c main_v106) (V c main_v111) (V c main_v113) (V c main_v120) (V c main_v117) (V c main_v121)))) := by
  have ht : t.val < 25 := lt_of_lt_of_eq t.isLt N_9
  have h24 : t.val = 24 := by have := (flush9_7 t).mp hf; omega
  obtain ⟨e00, e01, e10, e11, e20, e21, e30, e31, e40, e41, e50, e51, e60, e61, e70, e71, e80, e81⟩ := idx9 t
  show (cfg9.win 7).cut (grid9.coords t) ((dat9 (F := Ideal) V c).after 7 t) = _
  rw [after9_7]
  have key : ∀ j : S1x128.Idx, (outsAt9 (F := Ideal) V c t.val t.isLt).2.1 j
      = Cert.Spec.row1 (Cert.Spec.colSum (Cert.Spec.mlpK (V c main_v106) (V c main_v111) (V c main_v113) (V c main_v120) (V c main_v117) (V c main_v121))) (((cfg9.win 7).blk t).view.emb j) := by
    intro j
    obtain ⟨q, rfl⟩ : ∃ q : Fin 128, j = ix2 (0 : Fin 1) q := ⟨j 1, Cert.RegionConv.eq_ix2_zero j⟩
    have hemb : ((cfg9.win 7).blk t).view.emb (ix2 (0 : Fin 1) q : S1x128.Idx) = (ix2 (0 : Fin 1) q : S1x128.Idx) := by
      funext a
      apply Fin.ext
      match a with
      | ⟨0, _⟩ => show win9_7.index t (0 : Fin 2) * 1 + 1 * 0 = 0; rw [e70]
      | ⟨1, _⟩ => show win9_7.index t (1 : Fin 2) * 128 + 1 * q.val = q.val; rw [e71]; omega
    rw [hemb, Cert.RegionConv.row1_colSum_eq, sAcc V c q t.val t.isLt, h24]
    exact Cert.LibBlockSum.acc50000_last _
  exact funext key

/-- The one write-back of the sums of squares likewise. -/
theorem flushed8_eq (t : Fin cfg9.N) (hf : (cfg9.win 8).flush t = true) :
    (dat9 (F := Ideal) V c).flushed 8 t
      = ((cfg9.win 8).blk t).view.read (Elt Ideal) (Cert.Spec.row1 (Cert.Spec.colSum (mulf (Cert.Spec.mlpK (V c main_v106) (V c main_v111) (V c main_v113) (V c main_v120) (V c main_v117) (V c main_v121))
          (Cert.Spec.mlpK (V c main_v106) (V c main_v111) (V c main_v113) (V c main_v120) (V c main_v117) (V c main_v121))))) := by
  have ht : t.val < 25 := lt_of_lt_of_eq t.isLt N_9
  have h24 : t.val = 24 := by have := (flush9_8 t).mp hf; omega
  obtain ⟨e00, e01, e10, e11, e20, e21, e30, e31, e40, e41, e50, e51, e60, e61, e70, e71, e80, e81⟩ := idx9 t
  show (cfg9.win 8).cut (grid9.coords t) ((dat9 (F := Ideal) V c).after 8 t) = _
  rw [after9_8]
  have key : ∀ j : S1x128.Idx, (outsAt9 (F := Ideal) V c t.val t.isLt).2.2 j
      = Cert.Spec.row1 (Cert.Spec.colSum (mulf (Cert.Spec.mlpK (V c main_v106) (V c main_v111) (V c main_v113) (V c main_v120) (V c main_v117) (V c main_v121))
          (Cert.Spec.mlpK (V c main_v106) (V c main_v111) (V c main_v113) (V c main_v120) (V c main_v117) (V c main_v121)))) (((cfg9.win 8).blk t).view.emb j) := by
    intro j
    obtain ⟨q, rfl⟩ : ∃ q : Fin 128, j = ix2 (0 : Fin 1) q := ⟨j 1, Cert.RegionConv.eq_ix2_zero j⟩
    have hemb : ((cfg9.win 8).blk t).view.emb (ix2 (0 : Fin 1) q : S1x128.Idx) = (ix2 (0 : Fin 1) q : S1x128.Idx) := by
      funext a
      apply Fin.ext
      match a with
      | ⟨0, _⟩ => show win9_8.index t (0 : Fin 2) * 1 + 1 * 0 = 0; rw [e80]
      | ⟨1, _⟩ => show win9_8.index t (1 : Fin 2) * 128 + 1 * q.val = q.val; rw [e81]; omega
    rw [hemb, Cert.RegionConv.row1_colSum_eq, ssAcc V c q t.val t.isLt, h24]
    exact Cert.LibBlockSum.acc50000_last _
  exact funext key

/-- The last point's block of a one-row accumulator is the whole row. -/
theorem cover7 (i : S1x128.Idx) : ∃ t : Fin cfg9.N, (cfg9.win 7).flush t = true ∧ i ∈ ((cfg9.win 7).blk t).view.set := by
  have hi0 : (i 0).val < 1 := (i 0).isLt
  have hi1 : (i 1).val < 128 := (i 1).isLt
  have hN : cfg9.N = 25 := N_9
  let t : Fin cfg9.N := ⟨24, by rw [hN]; norm_num⟩
  obtain ⟨e00, e01, e10, e11, e20, e21, e30, e31, e40, e41, e50, e51, e60, e61, e70, e71, e80, e81⟩ := idx9 t
  refine ⟨t, (flush9_7 t).mpr rfl, ?_⟩
  show i ∈ ((View.whole main_v122_1).slice (win9_7.rect t)).set
  rw [View.set_slice_whole, Rect.mem_set_unit]
  intro a
  match a with
  | ⟨0, _⟩ => show win9_7.index t (0 : Fin 2) * 1 ≤ (i 0).val ∧ (i 0).val < win9_7.index t (0 : Fin 2) * 1 + 1; rw [e70]; omega
  | ⟨1, _⟩ => show win9_7.index t (1 : Fin 2) * 128 ≤ (i 1).val ∧ (i 1).val < win9_7.index t (1 : Fin 2) * 128 + 128; rw [e71]; omega

theorem cover8 (i : S1x128.Idx) : ∃ t : Fin cfg9.N, (cfg9.win 8).flush t = true ∧ i ∈ ((cfg9.win 8).blk t).view.set := by
  have hi0 : (i 0).val < 1 := (i 0).isLt
  have hi1 : (i 1).val < 128 := (i 1).isLt
  have hN : cfg9.N = 25 := N_9
  let t : Fin cfg9.N := ⟨24, by rw [hN]; norm_num⟩
  obtain ⟨e00, e01, e10, e11, e20, e21, e30, e31, e40, e41, e50, e51, e60, e61, e70, e71, e80, e81⟩ := idx9 t
  refine ⟨t, (flush9_8 t).mpr rfl, ?_⟩
  show i ∈ ((View.whole main_v122_2).slice (win9_8.rect t)).set
  rw [View.set_slice_whole, Rect.mem_set_unit]
  intro a
  match a with
  | ⟨0, _⟩ => show win9_8.index t (0 : Fin 2) * 1 ≤ (i 0).val ∧ (i 0).val < win9_8.index t (0 : Fin 2) * 1 + 1; rw [e80]; omega
  | ⟨1, _⟩ => show win9_8.index t (1 : Fin 2) * 128 ≤ (i 1).val ∧ (i 1).val < win9_8.index t (1 : Fin 2) * 128 + 128; rw [e81]; omega

/-- Region 9: the accumulator of the column sums, zeroed at the first block and added to at every block, ends at
    the sum of every column over all 50000 rows. -/
theorem value9_s : (dat9 (F := Ideal) V c).arrAt 7 cfg9.N
    = Cert.Spec.row1 (Cert.Spec.colSum (Cert.Spec.mlpK (V c main_v106) (V c main_v111) (V c main_v113) (V c main_v120) (V c main_v117) (V c main_v121))) :=
  (dat9 (F := Ideal) V c).arrAt_eq_of_cover 7 _ (fun t hf => flushed7_eq V c t hf) cover7

/-- Region 9: likewise the sums of the squares. -/
theorem value9_ss : (dat9 (F := Ideal) V c).arrAt 8 cfg9.N
    = Cert.Spec.row1 (Cert.Spec.colSum (mulf (Cert.Spec.mlpK (V c main_v106) (V c main_v111) (V c main_v113) (V c main_v120) (V c main_v117) (V c main_v121))
        (Cert.Spec.mlpK (V c main_v106) (V c main_v111) (V c main_v113) (V c main_v120) (V c main_v117) (V c main_v121)))) :=
  (dat9 (F := Ideal) V c).arrAt_eq_of_cover 8 _ (fun t hf => flushed8_eq V c t hf) cover8

end Cert.RegionConv9

end
-- ==== Proof.FoldL2.lean ====
/-
  The third layer and the final pooling, read off the tiled program's run.

  From the boundary after the second layer (the table `vn₁`, the node features `h₂`, the edge features and the
  indices in place) the run goes on: the per-graph sums of `h₂` pass through the table's perceptron and are added
  to the table (`vn₂`); every node takes its graph's row (`hb₂ = h₂ + vn₂[batch]`); every edge takes its source's
  row and sends `max (hb₂[src] + e) 0`; the messages are added up at their targets; the node perceptron gives
  `z₂` together with the column sums of `z₂` and of `z₂²`; from those two rows the column means and variances
  are formed, and the normalisation gives `h₃`; finally the per-graph sums of `h₃` over the per-graph counts give
  the per-graph means.  Each buffer is followed from one boundary to the next: a buffer that a stretch does not
  write keeps its contents, a buffer that a stretch computes holds the stretch's operations applied to the
  stretch's inputs, and a region's output holds the region's function of its input arrays.
-/
import proofs.«407958_j39685497815719_1_alg».proof.Proof.FoldEnv
import proofs.«407958_j39685497815719_1_alg».proof.Proof.Take
import proofs.«407958_j39685497815719_1_alg».proof.Proof.RegionMsg
import proofs.«407958_j39685497815719_1_alg».proof.Proof.RegionConv9
import proofs.«407958_j39685497815719_1_alg».proof.Proof.RegionNorm
import proofs.«407958_j39685497815719_1_alg».proof.Proof.Glue
import proofs.«407958_j39685497815719_1_alg».proof.Proof.SpecReal
import Idealize.ShloMosaic.Lib.StableHlo.Run

set_option maxRecDepth 16384

noncomputable section

namespace Cert.Fold

open Cert.KernelIdeal Cert.KernelIdeal.Gen
open Idealize.ShloMosaic Idealize.ShloMosaic.TcCoe Idealize.SL.Sem

variable [Cert.KernelIdeal.Facts] [Cert.ReferenceIdeal.Facts]

/-- One step back along the run at a buffer that the stretch of host operations just before does not write:
    every operation of the stretch writes a buffer other than this one. -/
local macro "keep_host" : tactic => `(tactic|
  refine Eq.trans (StableHlo.after_of_forall_not_mem _ _ (List.forall_iff_forall_mem.mp (by
    simp only [hostOps8, hostOps8_1, hostOps8_2, hostOps8_3, hostOps8_4, hostOps8_5, hostOps9, hostOps10, hostOps11,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))) ?_)

/-! ## The pieces of the per-graph perceptron and of the row statistics -/

/-- The hidden layer of the per-graph perceptron before its rectifier: `p · U₁ + u₁`. -/
def updHid (p : Cert.Spec.FA Cert.ReferenceIdeal.S512x128) (u1 : Cert.Spec.FA Cert.ReferenceIdeal.S128x128)
    (c1 : Cert.Spec.FA Cert.ReferenceIdeal.S128) : Cert.Spec.FA Cert.ReferenceIdeal.S512x128 :=
  addf (Host.dotGeneral (F := Ideal) Cert.ReferenceIdeal.dot_S512x128_S128x128_S512x128_1_0_0_1_n_n none p u1) (Cert.Spec.rowsG c1)

/-- The output layer of the per-graph perceptron from its rectified hidden layer: `r · U₂ + u₂`. -/
def updOut (r : Cert.Spec.FA Cert.ReferenceIdeal.S512x128) (u2 : Cert.Spec.FA Cert.ReferenceIdeal.S128x128)
    (c2 : Cert.Spec.FA Cert.ReferenceIdeal.S128) : Cert.Spec.FA Cert.ReferenceIdeal.S512x128 :=
  addf (Host.dotGeneral (F := Ideal) Cert.ReferenceIdeal.dot_S512x128_S128x128_S512x128_1_0_0_1_n_n none r u2) (Cert.Spec.rowsG c2)

/-- The row of column means as it is formed from the row of column sums: the sums over 50000, reshaped to a vector
    and back to a row. -/
def meanRow (s : FVec Ideal S1x128 .f32) : FVec Ideal S1x128 .f32 :=
  shapeCast S1x128 (shapeCast S128
    (Host.divf (F := Ideal) s (broadcastInDim S1x128 ![] bcast_S_S1x128 (constant (F := Ideal) S_ .f32 0x47435000#32)))
    shapeCasts_S1x128_S128) shapeCasts_S128_S1x128

/-- The row of column variances as it is formed from the rows of the column sums `s` and of the sums of squares
    `q`: the second moment `q / 50000` less the squared mean `(s / 50000)²`, reshaped to a vector and back. -/
def varRow (s q : FVec Ideal S1x128 .f32) : FVec Ideal S1x128 .f32 :=
  shapeCast S1x128 (shapeCast S128
    (subf
      (Host.divf (F := Ideal) q (broadcastInDim S1x128 ![] bcast_S_S1x128 (constant (F := Ideal) S_ .f32 0x47435000#32)))
      (mulf
        (Host.divf (F := Ideal) s (broadcastInDim S1x128 ![] bcast_S_S1x128 (constant (F := Ideal) S_ .f32 0x47435000#32)))
        (Host.divf (F := Ideal) s (broadcastInDim S1x128 ![] bcast_S_S1x128 (constant (F := Ideal) S_ .f32 0x47435000#32)))))
    shapeCasts_S1x128_S128) shapeCasts_S128_S1x128

/-! ## Each stretch of host operations, read at the buffers it computes

Whatever the buffers hold before a stretch, a buffer the stretch computes holds afterwards the stretch's operations
applied to what its input buffers held. -/

section Stretch
variable (V : Valuation τ sig (Elt Ideal))

/-- The per-graph sums of the node features through the first layer of the table's perceptron. -/
theorem host8_v98 : StableHlo.after (hostOps8 (F := Ideal)) V (Proc.devRef .tc main_v98)
    = updHid (Cert.Spec.poolOf (V (Proc.devRef .tc main_v91)) (V (Proc.devRef .tc main_arg17)))
        (V (Proc.devRef .tc main_arg12)) (V (Proc.devRef .tc main_arg13)) := by
  after_results
  rfl

/-- The rectifier of the hidden layer. -/
theorem host8_1_v99 : StableHlo.after (hostOps8_1 (F := Ideal)) V (Proc.devRef .tc main_v99)
    = Cert.Spec.reluG (V (Proc.devRef .tc main_v98)) := by
  after_results
  simp only [StableHlo.TRef.ofBuf, StableHlo.TRef.toBuf, cast_eq]
  rfl

/-- The second layer of the table's perceptron, added to the table. -/
theorem host8_2_v104 : StableHlo.after (hostOps8_2 (F := Ideal)) V (Proc.devRef .tc main_v104)
    = addf (V (Proc.devRef .tc main_v56) : Cert.Spec.FA Cert.ReferenceIdeal.S512x128)
        (updOut (V (Proc.devRef .tc main_v99)) (V (Proc.devRef .tc main_arg14)) (V (Proc.devRef .tc main_arg15))) := by
  after_results
  rfl

/-- Every node's features plus its graph's row of the table. -/
theorem host8_4_v106 : StableHlo.after (hostOps8_4 (F := Ideal)) V (Proc.devRef .tc main_v106)
    = (addf (V (Proc.devRef .tc main_v91) : Cert.Spec.FA Cert.ReferenceIdeal.S50000x128) (V (Proc.devRef .tc main_v105))
        : Cert.Spec.FA Cert.ReferenceIdeal.S50000x128) := by
  after_results

/-- The messages added up at their target nodes. -/
theorem host9_v111 : StableHlo.after (hostOps9 (F := Ideal)) V (Proc.devRef .tc main_v111)
    = Cert.Spec.aggOf (V (Proc.devRef .tc main_v108)) (V (Proc.devRef .tc main_v3)) := by
  after_results; rfl
/-- The third layer's first weight matrix. -/
theorem host9_v113 : StableHlo.after (hostOps9 (F := Ideal)) V (Proc.devRef .tc main_v113)
    = Cert.Spec.w1_2 (V (Proc.devRef .tc main_arg6)) := by
  after_results; rfl
/-- The third layer's second weight matrix. -/
theorem host9_v117 : StableHlo.after (hostOps9 (F := Ideal)) V (Proc.devRef .tc main_v117)
    = Cert.Spec.w1_2 (V (Proc.devRef .tc main_arg8)) := by
  after_results; rfl
/-- The third layer's first bias, as a row. -/
theorem host9_v120 : StableHlo.after (hostOps9 (F := Ideal)) V (Proc.devRef .tc main_v120)
    = Cert.Spec.row1 (Cert.Spec.row_2 (V (Proc.devRef .tc main_arg7))) := by
  after_results
  exact Cert.Glue.reshape_row _
/-- The third layer's second bias, as a row. -/
theorem host9_v121 : StableHlo.after (hostOps9 (F := Ideal)) V (Proc.devRef .tc main_v121)
    = Cert.Spec.row1 (Cert.Spec.row_2 (V (Proc.devRef .tc main_arg9))) := by
  after_results
  exact Cert.Glue.reshape_row _

/-- The row of means from the row of column sums. -/
theorem host10_v135 : StableHlo.after (hostOps10 (F := Ideal)) V (Proc.devRef .tc main_v135)
    = meanRow (V (Proc.devRef .tc main_v122_1)) := by
  after_results_simp
  rfl
/-- The row of variances from the two rows of sums. -/
theorem host10_v136 : StableHlo.after (hostOps10 (F := Ideal)) V (Proc.devRef .tc main_v136)
    = varRow (V (Proc.devRef .tc main_v122_1)) (V (Proc.devRef .tc main_v122_2)) := by
  after_results_simp
  rfl
/-- The third layer's scale, as a row. -/
theorem host10_v137 : StableHlo.after (hostOps10 (F := Ideal)) V (Proc.devRef .tc main_v137)
    = Cert.Spec.row1 (Cert.Spec.row_2 (V (Proc.devRef .tc main_arg10))) := by
  after_results_simp
  exact Cert.Glue.reshape_row _
/-- The third layer's shift, as a row. -/
theorem host10_v138 : StableHlo.after (hostOps10 (F := Ideal)) V (Proc.devRef .tc main_v138)
    = Cert.Spec.row1 (Cert.Spec.row_2 (V (Proc.devRef .tc main_arg11))) := by
  after_results_simp
  exact Cert.Glue.reshape_row _

/-- The per-graph sums over the per-graph counts (at least one). -/
theorem host11_v151 : StableHlo.after (hostOps11 (F := Ideal)) V (Proc.devRef .tc main_v151)
    = Cert.Spec.embOf (V (Proc.devRef .tc main_v139)) (V (Proc.devRef .tc main_arg17)) := by
  after_results_simp
  rfl

end Stretch

/-! ## The fold from the boundary after the second layer to the end -/

section Fold

variable (m : (ℓ : Loc nD τ sig) → Buf (Elt Ideal) ℓ) (ρ : Dev nD → PrngReg) (c : Dev nD)
variable (hok : (kInputs m c).Ok) (e24 : Env24 m ρ c)
include hok e24

/-! ### The update of the per-graph table -/

theorem W25_v98 : W25 m ρ c (Proc.devRef .tc main_v98)
    = updHid (Cert.Spec.poolOf (kInputs m c).h2 (kInputs m c).bat) (kInputs m c).vw1 (kInputs m c).vb1 := by
  refine (host8_v98 (W24 m ρ c)).trans ?_
  rw [e24.h, e24.args.a17, e24.args.a12, e24.args.a13]
  rfl

theorem W26_v99 : W26 m ρ c (Proc.devRef .tc main_v99)
    = Cert.Spec.reluG (updHid (Cert.Spec.poolOf (kInputs m c).h2 (kInputs m c).bat) (kInputs m c).vw1 (kInputs m c).vb1) := by
  refine (host8_1_v99 (W25 m ρ c)).trans ?_
  rw [W25_v98 m ρ c hok e24]

theorem W26_v56 : W26 m ρ c (Proc.devRef .tc main_v56) = (kInputs m c).vn1 := by
  keep_host; keep_host
  exact e24.vn
theorem W26_arg14 : W26 m ρ c (Proc.devRef .tc main_arg14) = (kInputs m c).vw2 := by
  keep_host; keep_host
  exact e24.args.a14
theorem W26_arg15 : W26 m ρ c (Proc.devRef .tc main_arg15) = (kInputs m c).vb2 := by
  keep_host; keep_host
  exact e24.args.a15

/-- The table after the second layer's update. -/
theorem W27_v104 : W27 m ρ c (Proc.devRef .tc main_v104) = (kInputs m c).vn2 := by
  refine (host8_2_v104 (W26 m ρ c)).trans ?_
  rw [W26_v56 m ρ c hok e24, W26_v99 m ρ c hok e24, W26_arg14 m ρ c hok e24, W26_arg15 m ρ c hok e24]
  rfl

theorem W27_arg17 : W27 m ρ c (Proc.devRef .tc main_arg17) = (kInputs m c).bat := by
  keep_host; keep_host; keep_host
  exact e24.args.a17

/-! ### The node features with their graph's row, and the rows the edges take -/

/-- Every node's row of the updated table: the graph indices are in range, so the guarded lookup is the plain one. -/
theorem W28_v105 : W28 m ρ c (Proc.devRef .tc main_v105) = Cert.Spec.gatherVn (kInputs m c).vn2 (kInputs m c).bat := by
  refine (Cert.Take.after_take6 (W27 m ρ c)).trans ?_
  rw [W27_v104 m ρ c hok e24, W27_arg17 m ρ c hok e24]
  exact Cert.Take.takeVn_eq _ _ hok.bat

theorem W28_v91 : W28 m ρ c (Proc.devRef .tc main_v91) = (kInputs m c).h2 := by
  keep_host; keep_host; keep_host; keep_host
  exact e24.h

theorem W29_v106 : W29 m ρ c (Proc.devRef .tc main_v106) = (kInputs m c).hb2 := by
  refine (host8_4_v106 (W28 m ρ c)).trans ?_
  rw [W28_v91 m ρ c hok e24, W28_v105 m ρ c hok e24]
  rfl

theorem W29_v1 : W29 m ρ c (Proc.devRef .tc main_v1) = Cert.Spec.srcOf (kInputs m c).ei := by
  keep_host; keep_host; keep_host; keep_host; keep_host
  exact e24.src

/-- Every edge's source row: the source indices are in range, so the guarded lookup is the plain one. -/
theorem W30_v107 : W30 m ρ c (Proc.devRef .tc main_v107)
    = Cert.Spec.gatherH (kInputs m c).hb2 (Cert.Spec.srcOf (kInputs m c).ei) := by
  refine (Cert.Take.after_take7 (W29 m ρ c)).trans ?_
  rw [W29_v106 m ρ c hok e24, W29_v1 m ρ c hok e24]
  exact Cert.Take.takeH_eq _ _ hok.src

theorem W30_v7 : W30 m ρ c (Proc.devRef .tc main_v7) = (kInputs m c).e := by
  keep_host; keep_host; keep_host; keep_host; keep_host; keep_host
  exact e24.e

/-! ### The messages and their sums at the targets -/

/-- The third layer's messages. -/
theorem W31_v108 : W31 m ρ c (Proc.devRef .tc main_v108)
    = Cert.Spec.msgOf (Cert.Spec.gatherH (kInputs m c).hb2 (Cert.Spec.srcOf (kInputs m c).ei)) (kInputs m c).e := by
  refine (W31_arr m ρ c 2).trans ((Cert.RegionMsg.value8 (V30 m ρ) c).trans ?_)
  show Cert.Spec.msgOf (W30 m ρ c (Proc.devRef .tc main_v107)) (W30 m ρ c (Proc.devRef .tc main_v7)) = _
  rw [W30_v107 m ρ c hok e24, W30_v7 m ρ c hok e24]

theorem W31_v3 : W31 m ρ c (Proc.devRef .tc main_v3) = Cert.Spec.dstOf (kInputs m c).ei := by
  refine (W31_of_ne m ρ c main_v3 (by decide)).trans ?_
  keep_host; keep_host; keep_host; keep_host; keep_host; keep_host
  exact e24.dst
theorem W31_arg6 : W31 m ρ c (Proc.devRef .tc main_arg6) = (kInputs m c).cw1 := by
  refine (W31_of_ne m ρ c main_arg6 (by decide)).trans ?_
  keep_host; keep_host; keep_host; keep_host; keep_host; keep_host
  exact e24.args.a6
theorem W31_arg7 : W31 m ρ c (Proc.devRef .tc main_arg7) = (kInputs m c).cb1 := by
  refine (W31_of_ne m ρ c main_arg7 (by decide)).trans ?_
  keep_host; keep_host; keep_host; keep_host; keep_host; keep_host
  exact e24.args.a7
theorem W31_arg8 : W31 m ρ c (Proc.devRef .tc main_arg8) = (kInputs m c).cw2 := by
  refine (W31_of_ne m ρ c main_arg8 (by decide)).trans ?_
  keep_host; keep_host; keep_host; keep_host; keep_host; keep_host
  exact e24.args.a8
theorem W31_arg9 : W31 m ρ c (Proc.devRef .tc main_arg9) = (kInputs m c).cb2 := by
  refine (W31_of_ne m ρ c main_arg9 (by decide)).trans ?_
  keep_host; keep_host; keep_host; keep_host; keep_host; keep_host
  exact e24.args.a9

theorem W32_v106 : W32 m ρ c (Proc.devRef .tc main_v106) = (kInputs m c).hb2 := by
  keep_host
  refine (W31_of_ne m ρ c main_v106 (by decide)).trans ?_
  keep_host
  exact W29_v106 m ρ c hok e24

theorem W32_v111 : W32 m ρ c (Proc.devRef .tc main_v111)
    = Cert.Spec.aggOf (Cert.Spec.msgOf (Cert.Spec.gatherH (kInputs m c).hb2 (Cert.Spec.srcOf (kInputs m c).ei)) (kInputs m c).e)
        (Cert.Spec.dstOf (kInputs m c).ei) := by
  refine (host9_v111 (W31 m ρ c)).trans ?_
  rw [W31_v108 m ρ c hok e24, W31_v3 m ρ c hok e24]
theorem W32_v113 : W32 m ρ c (Proc.devRef .tc main_v113) = Cert.Spec.w1_2 (kInputs m c).cw1 := by
  refine (host9_v113 (W31 m ρ c)).trans ?_
  rw [W31_arg6 m ρ c hok e24]
theorem W32_v117 : W32 m ρ c (Proc.devRef .tc main_v117) = Cert.Spec.w1_2 (kInputs m c).cw2 := by
  refine (host9_v117 (W31 m ρ c)).trans ?_
  rw [W31_arg8 m ρ c hok e24]
theorem W32_v120 : W32 m ρ c (Proc.devRef .tc main_v120) = Cert.Spec.row1 (Cert.Spec.row_2 (kInputs m c).cb1) := by
  refine (host9_v120 (W31 m ρ c)).trans ?_
  rw [W31_arg7 m ρ c hok e24]
theorem W32_v121 : W32 m ρ c (Proc.devRef .tc main_v121) = Cert.Spec.row1 (Cert.Spec.row_2 (kInputs m c).cb2) := by
  refine (host9_v121 (W31 m ρ c)).trans ?_
  rw [W31_arg9 m ρ c hok e24]

/-! ### The node perceptron and its column sums -/

/-- The perceptron of `hb₂ + agg` with the biases as rows is the third layer's pre-normalisation array. -/
theorem W32_mlp : Cert.Spec.mlpK (W32 m ρ c (Proc.devRef .tc main_v106)) (W32 m ρ c (Proc.devRef .tc main_v111))
      (W32 m ρ c (Proc.devRef .tc main_v113)) (W32 m ρ c (Proc.devRef .tc main_v120))
      (W32 m ρ c (Proc.devRef .tc main_v117)) (W32 m ρ c (Proc.devRef .tc main_v121))
    = (kInputs m c).z2 := by
  rw [W32_v106 m ρ c hok e24, W32_v111 m ρ c hok e24, W32_v113 m ρ c hok e24, W32_v120 m ρ c hok e24,
    W32_v117 m ρ c hok e24, W32_v121 m ρ c hok e24]
  rfl

theorem W33_v122_0 : W33 m ρ c (Proc.devRef .tc main_v122_0) = (kInputs m c).z2 :=
  (W33_arr m ρ c 6).trans ((Cert.RegionConv9.value9_z (V32 m ρ) c).trans (W32_mlp m ρ c hok e24))
theorem W33_v122_1 : W33 m ρ c (Proc.devRef .tc main_v122_1) = Cert.Spec.row1 (Cert.Spec.colSum (kInputs m c).z2) :=
  (W33_arr m ρ c 7).trans ((Cert.RegionConv9.value9_s (V32 m ρ) c).trans
    (congrArg (fun z => Cert.Spec.row1 (Cert.Spec.colSum z)) (W32_mlp m ρ c hok e24)))
theorem W33_v122_2 : W33 m ρ c (Proc.devRef .tc main_v122_2)
    = Cert.Spec.row1 (Cert.Spec.colSum (mulf (kInputs m c).z2 (kInputs m c).z2)) :=
  (W33_arr m ρ c 8).trans ((Cert.RegionConv9.value9_ss (V32 m ρ) c).trans
    (congrArg (fun z => Cert.Spec.row1 (Cert.Spec.colSum (mulf z z))) (W32_mlp m ρ c hok e24)))

theorem W33_arg10 : W33 m ρ c (Proc.devRef .tc main_arg10) = (kInputs m c).gam := by
  refine (W33_of_ne m ρ c main_arg10 (by decide)).trans ?_
  keep_host
  refine (W31_of_ne m ρ c main_arg10 (by decide)).trans ?_
  keep_host; keep_host; keep_host; keep_host; keep_host; keep_host
  exact e24.args.a10
theorem W33_arg11 : W33 m ρ c (Proc.devRef .tc main_arg11) = (kInputs m c).bet := by
  refine (W33_of_ne m ρ c main_arg11 (by decide)).trans ?_
  keep_host
  refine (W31_of_ne m ρ c main_arg11 (by decide)).trans ?_
  keep_host; keep_host; keep_host; keep_host; keep_host; keep_host
  exact e24.args.a11

/-! ### The statistics rows and the normalisation -/

theorem W34_v122_0 : W34 m ρ c (Proc.devRef .tc main_v122_0) = (kInputs m c).z2 := by
  keep_host
  exact W33_v122_0 m ρ c hok e24

/-- The row of column means of `z₂`. -/
theorem W34_v135 : W34 m ρ c (Proc.devRef .tc main_v135) = Cert.Spec.row1 (Cert.Spec.meanOf (kInputs m c).z2) := by
  refine (host10_v135 (W33 m ρ c)).trans ?_
  rw [W33_v122_1 m ρ c hok e24]
  exact Cert.Glue.mean_row _
/-- The row of column variances of `z₂`: its entries are real, so the second moment less the squared mean is the
    mean of the squared deviations. -/
theorem W34_v136 : W34 m ρ c (Proc.devRef .tc main_v136) = Cert.Spec.row1 (Cert.Spec.varOf (kInputs m c).z2) := by
  refine (host10_v136 (W33 m ρ c)).trans ?_
  rw [W33_v122_1 m ρ c hok e24, W33_v122_2 m ρ c hok e24]
  exact Cert.Glue.var_row _ (Cert.SpecReal.z2_real (kInputs m c) hok)
theorem W34_v137 : W34 m ρ c (Proc.devRef .tc main_v137) = Cert.Spec.row1 (Cert.Spec.row_2 (kInputs m c).gam) := by
  refine (host10_v137 (W33 m ρ c)).trans ?_
  rw [W33_arg10 m ρ c hok e24]
theorem W34_v138 : W34 m ρ c (Proc.devRef .tc main_v138) = Cert.Spec.row1 (Cert.Spec.row_2 (kInputs m c).bet) := by
  refine (host10_v138 (W33 m ρ c)).trans ?_
  rw [W33_arg11 m ρ c hok e24]

/-- The normalisation with the four rows is the third layer's output. -/
theorem W34_norm : Cert.Spec.normK (W34 m ρ c (Proc.devRef .tc main_v122_0)) (W34 m ρ c (Proc.devRef .tc main_v135))
      (W34 m ρ c (Proc.devRef .tc main_v136)) (W34 m ρ c (Proc.devRef .tc main_v137)) (W34 m ρ c (Proc.devRef .tc main_v138))
    = (kInputs m c).h3 := by
  rw [W34_v122_0 m ρ c hok e24, W34_v135 m ρ c hok e24, W34_v136 m ρ c hok e24, W34_v137 m ρ c hok e24,
    W34_v138 m ρ c hok e24]
  exact (Cert.RegionNorm.normK_rows _ _ _ _ _).trans rfl

/-- The node features after the third layer. -/
theorem W35_v139 : W35 m ρ c (Proc.devRef .tc main_v139) = (kInputs m c).h3 :=
  (W35_arr m ρ c 5).trans ((Cert.RegionNorm.value10 (V34 m ρ) c).trans (W34_norm m ρ c hok e24))

theorem W35_arg17 : W35 m ρ c (Proc.devRef .tc main_arg17) = (kInputs m c).bat := by
  refine (W35_of_ne m ρ c main_arg17 (by decide)).trans ?_
  keep_host
  refine (W33_of_ne m ρ c main_arg17 (by decide)).trans ?_
  keep_host
  refine (W31_of_ne m ρ c main_arg17 (by decide)).trans ?_
  keep_host; keep_host; keep_host
  exact W27_arg17 m ρ c hok e24

/-! ### The end -/

theorem W36_v139 : W36 m ρ c (Proc.devRef .tc main_v139) = (kInputs m c).h3 := by
  keep_host
  exact W35_v139 m ρ c hok e24

/-- The per-graph means of the last node features. -/
theorem W36_v151 : W36 m ρ c (Proc.devRef .tc main_v151) = (kInputs m c).emb := by
  refine (host11_v151 (W35 m ρ c)).trans ?_
  rw [W35_v139 m ρ c hok e24, W35_arg17 m ρ c hok e24]
  rfl

/-- From the boundary after the second layer to the end of the run: the two results are the third layer's node
    features and their per-graph means. -/
theorem env36 : Env36 m ρ c :=
  ⟨W36_v139 m ρ c hok e24, W36_v151 m ρ c hok e24⟩

end Fold

end Cert.Fold

end
-- ==== Proof.RefRun.Ops.lean ====
import proofs.«407958_j39685497815719_1_alg».proof.ReferenceIdeal
import Idealize.ShloMosaic.Lib.StableHlo.Run

noncomputable section

namespace Cert.RefRun

open Cert.ReferenceIdeal Idealize.ShloMosaic Idealize.ShloMosaic.StableHlo

variable [Cert.ReferenceIdeal.Facts]
open Cert.ReferenceIdeal.Facts₀ Cert.ReferenceIdeal.Facts

variable {F : FTy → Type} [FloatOps F]

/-- The operations of window 0 of @main, in order, every call's operations in its place (64 operations). -/
abbrev ops0 : List (HloOp τ sig (Elt F)) :=
  [ StableHlo.unary main_arg16 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg16 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg2 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg3 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.binary main_arg1 main_arg4 main_v8 ((fun l r => Host.dotGeneral dot_S600000x2_S2x128_S600000x128_1_0_0_1_n_n none l r) : (⟨S600000x2, .f32⟩ : BufTy).Contents (Elt F) → (⟨S2x128, .f32⟩ : BufTy).Contents (Elt F) → (⟨S600000x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S600000x128 ![0, 1] bcast_S1x128_S600000x128_0_1 : (⟨S1x128, .f32⟩ : BufTy).Contents (Elt F) → (⟨S600000x128, .f32⟩ : BufTy).Contents (Elt F)),
    StableHlo.binary main_v8 main_v10 main_v11 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v12 (broadcastInDim S512x128 ![] bcast_S_S512x128 : (⟨S_, .f32⟩ : BufTy).Contents (Elt F) → (⟨S512x128, .f32⟩ : BufTy).Contents (Elt F)),
    StableHlo.nullary main_c (constantI S_ 32 0#32),
    StableHlo.unary main_c main_v13 (broadcastInDim S50000 ![] bcast_S_S50000 : (⟨S_, .i32⟩ : BufTy).Contents (Elt F) → (⟨S50000, .i32⟩ : BufTy).Contents (Elt F)),
    StableHlo.binary main_arg17 main_v13 main_v14 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 512#32),
    StableHlo.unary main_c_0 main_v15 (broadcastInDim S50000 ![] bcast_S_S50000 : (⟨S_, .i32⟩ : BufTy).Contents (Elt F) → (⟨S50000, .i32⟩ : BufTy).Contents (Elt F)),
    StableHlo.binary main_arg17 main_v15 main_v16 (addi : (⟨S50000, .i32⟩ : BufTy).Contents (Elt F) → (⟨S50000, .i32⟩ : BufTy).Contents (Elt F) → (⟨S50000, .i32⟩ : BufTy).Contents (Elt F)),
    StableHlo.ternary main_v14 main_v16 main_arg17 main_v17 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v17 main_v18 (broadcastInDim S50000x1 ![0] bcast_S50000_S50000x1_0 : (⟨S50000, .i32⟩ : BufTy).Contents (Elt F) → (⟨S50000x1, .i32⟩ : BufTy).Contents (Elt F)),
    StableHlo.binary main_v12 main_v18 main_v19 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    StableHlo.binary main_v7 main_v19 main_v20 (addf : (⟨S50000x128, .f32⟩ : BufTy).Contents (Elt F) → (⟨S50000x128, .f32⟩ : BufTy).Contents (Elt F) → (⟨S50000x128, .f32⟩ : BufTy).Contents (Elt F)),
    StableHlo.nullary main_c_1 (constantI S_ 32 0#32),
    StableHlo.unary main_c_1 main_v21 (broadcastInDim S600000 ![] bcast_S_S600000 : (⟨S_, .i32⟩ : BufTy).Contents (Elt F) → (⟨S600000, .i32⟩ : BufTy).Contents (Elt F)),
    StableHlo.binary main_v1 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v23 (broadcastInDim S600000 ![] bcast_S_S600000 : (⟨S_, .i32⟩ : BufTy).Contents (Elt F) → (⟨S600000, .i32⟩ : BufTy).Contents (Elt F)),
    StableHlo.binary main_v1 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v1 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_v20 main_v26 main_v27 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v27 main_v11 main_v28 (addf : (⟨S600000x128, .f32⟩ : BufTy).Contents (Elt F) → (⟨S600000x128, .f32⟩ : BufTy).Contents (Elt F) → (⟨S600000x128, .f32⟩ : BufTy).Contents (Elt F)),
    StableHlo.nullary main_call0_cst ((constant S_ .f32 0x00000000#32) : (⟨S_, .f32⟩ : BufTy).Contents (Elt F)),
    StableHlo.unary main_call0_cst main_call0_v0 ((broadcastInDim S600000x128 ![] bcast_S_S600000x128) : (⟨S_, .f32⟩ : BufTy).Contents (Elt F) → (⟨S600000x128, .f32⟩ : BufTy).Contents (Elt F)),
    StableHlo.binary main_v28 main_call0_v0 main_v29 (maximumf : (⟨S600000x128, .f32⟩ : BufTy).Contents (Elt F) → (⟨S600000x128, .f32⟩ : BufTy).Contents (Elt F) → (⟨S600000x128, .f32⟩ : BufTy).Contents (Elt F)),
    StableHlo.nullary main_cst_3 (constant S_ .f32 0x00000000#32),
    StableHlo.unary main_cst_3 main_v30 (broadcastInDim S50000x128 ![] bcast_S_S50000x128 : (⟨S_, .f32⟩ : BufTy).Contents (Elt F) → (⟨S50000x128, .f32⟩ : BufTy).Contents (Elt F)),
    StableHlo.unary main_v3 main_v31 (broadcastInDim S600000x1 ![0] bcast_S600000_S600000x1_0 : (⟨S600000, .i32⟩ : BufTy).Contents (Elt F) → (⟨S600000x1, .i32⟩ : BufTy).Contents (Elt F)),
    StableHlo.ternary main_v30 main_v31 main_v29 main_v32 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v20 main_v32 main_v33 (addf : (⟨S50000x128, .f32⟩ : BufTy).Contents (Elt F) → (⟨S50000x128, .f32⟩ : BufTy).Contents (Elt F) → (⟨S50000x128, .f32⟩ : BufTy).Contents (Elt F)),
    StableHlo.unary main_arg6 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v34 main_v35 rfl shapeCasts_S1x128x128_S128x128,
    StableHlo.binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v40 main_v41 (addf : (⟨S50000x128, .f32⟩ : BufTy).Contents (Elt F) → (⟨S50000x128, .f32⟩ : BufTy).Contents (Elt F) → (⟨S50000x128, .f32⟩ : BufTy).Contents (Elt F)),
    StableHlo.nullary main_call1_cst ((constant S_ .f32 0x00000000#32) : (⟨S_, .f32⟩ : BufTy).Contents (Elt F)),
    StableHlo.unary main_call1_cst main_call1_v0 ((broadcastInDim S50000x128 ![] bcast_S_S50000x128) : (⟨S_, .f32⟩ : BufTy).Contents (Elt F) → (⟨S50000x128, .f32⟩ : BufTy).Contents (Elt F)),
    StableHlo.binary main_v41 main_call1_v0 main_v42 (maximumf : (⟨S50000x128, .f32⟩ : BufTy).Contents (Elt F) → (⟨S50000x128, .f32⟩ : BufTy).Contents (Elt F) → (⟨S50000x128, .f32⟩ : BufTy).Contents (Elt F)),
    StableHlo.unary main_arg8 main_v43 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v43 main_v44 rfl shapeCasts_S1x128x128_S128x128,
    StableHlo.binary main_v42 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v46 ((extractStridedSlice S1x128 ![0, 0] · slices_S3x128_S1x128_0_0) : (⟨S3x128, .f32⟩ : BufTy).Contents (Elt F) → (⟨S1x128, .f32⟩ : BufTy).Contents (Elt F)),
    StableHlo.reshape main_v46 main_v47 rfl shapeCasts_S1x128_S128,
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v49 main_v50 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v50 main_cst_4 main_v51 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32) ]

/-- The operations of window 1 of @main, in order, every call's operations in its place (87 operations). -/
abbrev ops1 : List (HloOp τ sig (Elt F)) :=
  [ StableHlo.unary main_cst_5 main_v52 (broadcastInDim S128 ![] bcast_S_S128 : (⟨S_, .f32⟩ : BufTy).Contents (Elt F) → (⟨S128, .f32⟩ : BufTy).Contents (Elt F)),
    StableHlo.binary main_v51 main_v52 main_v53 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.nullary main_call2_cst ((constant S_ .f32 0x00000000#32) : (⟨S_, .f32⟩ : BufTy).Contents (Elt F)),
    StableHlo.binary main_v50 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v0 main_call2_v1 ((broadcastInDim S1x128 ![1] bcast_S128_S1x128_1) : (⟨S128, .f32⟩ : BufTy).Contents (Elt F) → (⟨S1x128, .f32⟩ : BufTy).Contents (Elt F)),
    StableHlo.nullary main_call2_cst_0 ((constant S_ .f32 0x47435000#32) : (⟨S_, .f32⟩ : BufTy).Contents (Elt F)),
    StableHlo.unary main_call2_cst_0 main_call2_v2 ((broadcastInDim S1x128 ![] bcast_S_S1x128) : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 ((broadcastInDim S50000x128 ![0, 1] bcast_S1x128_S50000x128_0_1) : (⟨S1x128, .f32⟩ : BufTy).Contents (Elt F) → (⟨S50000x128, .f32⟩ : BufTy).Contents (Elt F)),
    StableHlo.binary main_v50 main_call2_v4 main_call2_v5 (subf : (⟨S50000x128, .f32⟩ : BufTy).Contents (Elt F) → (⟨S50000x128, .f32⟩ : BufTy).Contents (Elt F) → (⟨S50000x128, .f32⟩ : BufTy).Contents (Elt F)),
    StableHlo.binary main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)),
    StableHlo.unary main_c_6 main_call2_v7 ((sitofp .f32) : (⟨S_, .i32⟩ : BufTy).Contents (Elt F) → (⟨S_, .f32⟩ : BufTy).Contents (Elt F)),
    StableHlo.nullary main_call2_cst_1 ((constant S_ .f32 0x47435000#32) : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 ((constant S_ .f32 0x00000000#32) : (⟨S_, .f32⟩ : BufTy).Contents (Elt F)),
    StableHlo.binary main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call2_v8 main_call2_v10 ((broadcastInDim S128 ![] bcast_S_S128) : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 ((constant S_ .f32 0x00000000#32) : (⟨S_, .f32⟩ : BufTy).Contents (Elt F)),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 ((constant S_ .f32 0x7FC00000#32) : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S128 ![] bcast_S_S128) : (⟨S_, .f32⟩ : BufTy).Contents (Elt F) → (⟨S128, .f32⟩ : BufTy).Contents (Elt F)),
    StableHlo.ternary main_call2_v12 main_call2_v11 main_call2_call0_v1 main_v54 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v53 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v56 main_v57 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v58 (broadcastInDim S128 ![] bcast_S_S128 : (⟨S_, .f32⟩ : BufTy).Contents (Elt F) → (⟨S128, .f32⟩ : BufTy).Contents (Elt F)),
    StableHlo.binary main_v54 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg10 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg11 main_v69 ((extractStridedSlice S1x128 ![0, 0] · slices_S3x128_S1x128_0_0) : (⟨S3x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v72 main_v73 (addf : (⟨S50000x128, .f32⟩ : BufTy).Contents (Elt F) → (⟨S50000x128, .f32⟩ : BufTy).Contents (Elt F) → (⟨S50000x128, .f32⟩ : BufTy).Contents (Elt F)),
    StableHlo.nullary main_call3_cst ((constant S_ .f32 0x00000000#32) : (⟨S_, .f32⟩ : BufTy).Contents (Elt F)),
    StableHlo.unary main_call3_cst main_call3_v0 ((broadcastInDim S50000x128 ![] bcast_S_S50000x128) : (⟨S_, .f32⟩ : BufTy).Contents (Elt F) → (⟨S50000x128, .f32⟩ : BufTy).Contents (Elt F)),
    StableHlo.binary main_v73 main_call3_v0 main_v74 (maximumf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.unary main_cst_8 main_v75 (broadcastInDim S512x128 ![] bcast_S_S512x128 : (⟨S_, .f32⟩ : BufTy).Contents (Elt F) → (⟨S512x128, .f32⟩ : BufTy).Contents (Elt F)),
    StableHlo.unary main_arg17 main_v76 (broadcastInDim S50000x1 ![0] bcast_S50000_S50000x1_0 : (⟨S50000, .i32⟩ : BufTy).Contents (Elt F) → (⟨S50000x1, .i32⟩ : BufTy).Contents (Elt F)),
    StableHlo.ternary main_v75 main_v76 main_v74 main_v77 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.binary main_v77 main_arg12 main_v78 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg13 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S512x128 ![0, 1] bcast_S1x128_S512x128_0_1 : (⟨S1x128, .f32⟩ : BufTy).Contents (Elt F) → (⟨S512x128, .f32⟩ : BufTy).Contents (Elt F)),
    StableHlo.binary main_v78 main_v80 main_v81 (addf : (⟨S512x128, .f32⟩ : BufTy).Contents (Elt F) → (⟨S512x128, .f32⟩ : BufTy).Contents (Elt F) → (⟨S512x128, .f32⟩ : BufTy).Contents (Elt F)),
    StableHlo.nullary main_call4_cst ((constant S_ .f32 0x00000000#32) : (⟨S_, .f32⟩ : BufTy).Contents (Elt F)),
    StableHlo.unary main_call4_cst main_call4_v0 ((broadcastInDim S512x128 ![] bcast_S_S512x128) : (⟨S_, .f32⟩ : BufTy).Contents (Elt F) → (⟨S512x128, .f32⟩ : BufTy).Contents (Elt F)),
    StableHlo.binary main_v81 main_call4_v0 main_v82 (maximumf : (⟨S512x128, .f32⟩ : BufTy).Contents (Elt F) → (⟨S512x128, .f32⟩ : BufTy).Contents (Elt F) → (⟨S512x128, .f32⟩ : BufTy).Contents (Elt F)),
    StableHlo.binary main_v82 main_arg14 main_v83 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg15 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S512x128 ![0, 1] bcast_S1x128_S512x128_0_1 : (⟨S1x128, .f32⟩ : BufTy).Contents (Elt F) → (⟨S512x128, .f32⟩ : BufTy).Contents (Elt F)),
    StableHlo.binary main_v83 main_v85 main_v86 (addf : (⟨S512x128, .f32⟩ : BufTy).Contents (Elt F) → (⟨S512x128, .f32⟩ : BufTy).Contents (Elt F) → (⟨S512x128, .f32⟩ : BufTy).Contents (Elt F)),
    StableHlo.binary main_v12 main_v86 main_v87 (addf : (⟨S512x128, .f32⟩ : BufTy).Contents (Elt F) → (⟨S512x128, .f32⟩ : BufTy).Contents (Elt F) → (⟨S512x128, .f32⟩ : BufTy).Contents (Elt F)),
    StableHlo.nullary main_c_9 (constantI S_ 32 0#32),
    StableHlo.unary main_c_9 main_v88 (broadcastInDim S50000 ![] bcast_S_S50000 : (⟨S_, .i32⟩ : BufTy).Contents (Elt F) → (⟨S50000, .i32⟩ : BufTy).Contents (Elt F)),
    StableHlo.binary main_arg17 main_v88 main_v89 (cmpi .slt : (⟨S50000, .i32⟩ : BufTy).Contents (Elt F) → (⟨S50000, .i32⟩ : BufTy).Contents (Elt F) → (⟨S50000, .i1⟩ : BufTy).Contents (Elt F)),
    StableHlo.nullary main_c_10 (constantI S_ 32 512#32),
    StableHlo.unary main_c_10 main_v90 (broadcastInDim S50000 ![] bcast_S_S50000 : (⟨S_, .i32⟩ : BufTy).Contents (Elt F) → (⟨S50000, .i32⟩ : BufTy).Contents (Elt F)),
    StableHlo.binary main_arg17 main_v90 main_v91 (addi : (⟨S50000, .i32⟩ : BufTy).Contents (Elt F) → (⟨S50000, .i32⟩ : BufTy).Contents (Elt F) → (⟨S50000, .i32⟩ : BufTy).Contents (Elt F)),
    StableHlo.ternary main_v89 main_v91 main_arg17 main_v92 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v92 main_v93 (broadcastInDim S50000x1 ![0] bcast_S50000_S50000x1_0 : (⟨S50000, .i32⟩ : BufTy).Contents (Elt F) → (⟨S50000x1, .i32⟩ : BufTy).Contents (Elt F)),
    StableHlo.binary main_v87 main_v93 main_v94 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    StableHlo.binary main_v74 main_v94 main_v95 (addf : (⟨S50000x128, .f32⟩ : BufTy).Contents (Elt F) → (⟨S50000x128, .f32⟩ : BufTy).Contents (Elt F) → (⟨S50000x128, .f32⟩ : BufTy).Contents (Elt F)),
    StableHlo.nullary main_c_11 (constantI S_ 32 0#32),
    StableHlo.unary main_c_11 main_v96 (broadcastInDim S600000 ![] bcast_S_S600000 : (⟨S_, .i32⟩ : BufTy).Contents (Elt F) → (⟨S600000, .i32⟩ : BufTy).Contents (Elt F)),
    StableHlo.binary main_v1 main_v96 main_v97 (cmpi .slt : (⟨S600000, .i32⟩ : BufTy).Contents (Elt F) → (⟨S600000, .i32⟩ : BufTy).Contents (Elt F) → (⟨S600000, .i1⟩ : BufTy).Contents (Elt F)),
    StableHlo.nullary main_c_12 (constantI S_ 32 50000#32),
    StableHlo.unary main_c_12 main_v98 (broadcastInDim S600000 ![] bcast_S_S600000 : (⟨S_, .i32⟩ : BufTy).Contents (Elt F) → (⟨S600000, .i32⟩ : BufTy).Contents (Elt F)),
    StableHlo.binary main_v1 main_v98 main_v99 (addi : (⟨S600000, .i32⟩ : BufTy).Contents (Elt F) → (⟨S600000, .i32⟩ : BufTy).Contents (Elt F) → (⟨S600000, .i32⟩ : BufTy).Contents (Elt F)),
    StableHlo.ternary main_v97 main_v99 main_v1 main_v100 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v100 main_v101 (broadcastInDim S600000x1 ![0] bcast_S600000_S600000x1_0 : (⟨S600000, .i32⟩ : BufTy).Contents (Elt F) → (⟨S600000x1, .i32⟩ : BufTy).Contents (Elt F)),
    StableHlo.binary main_v95 main_v101 main_v102 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v102 main_v11 main_v103 (addf : (⟨S600000x128, .f32⟩ : BufTy).Contents (Elt F) → (⟨S600000x128, .f32⟩ : BufTy).Contents (Elt F) → (⟨S600000x128, .f32⟩ : BufTy).Contents (Elt F)),
    StableHlo.nullary main_call5_cst ((constant S_ .f32 0x00000000#32) : (⟨S_, .f32⟩ : BufTy).Contents (Elt F)),
    StableHlo.unary main_call5_cst main_call5_v0 ((broadcastInDim S600000x128 ![] bcast_S_S600000x128) : (⟨S_, .f32⟩ : BufTy).Contents (Elt F) → (⟨S600000x128, .f32⟩ : BufTy).Contents (Elt F)),
    StableHlo.binary main_v103 main_call5_v0 main_v104 (maximumf : (⟨S600000x128, .f32⟩ : BufTy).Contents (Elt F) → (⟨S600000x128, .f32⟩ : BufTy).Contents (Elt F) → (⟨S600000x128, .f32⟩ : BufTy).Contents (Elt F)) ]

/-- The operations of window 2 of @main, in order, every call's operations in its place (87 operations). -/
abbrev ops2 : List (HloOp τ sig (Elt F)) :=
  [ StableHlo.nullary main_cst_13 (constant S_ .f32 0x00000000#32),
    StableHlo.unary main_cst_13 main_v105 (broadcastInDim S50000x128 ![] bcast_S_S50000x128 : (⟨S_, .f32⟩ : BufTy).Contents (Elt F) → (⟨S50000x128, .f32⟩ : BufTy).Contents (Elt F)),
    StableHlo.unary main_v3 main_v106 (broadcastInDim S600000x1 ![0] bcast_S600000_S600000x1_0 : (⟨S600000, .i32⟩ : BufTy).Contents (Elt F) → (⟨S600000x1, .i32⟩ : BufTy).Contents (Elt F)),
    StableHlo.ternary main_v105 main_v106 main_v104 main_v107 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v95 main_v107 main_v108 (addf : (⟨S50000x128, .f32⟩ : BufTy).Contents (Elt F) → (⟨S50000x128, .f32⟩ : BufTy).Contents (Elt F) → (⟨S50000x128, .f32⟩ : BufTy).Contents (Elt F)),
    StableHlo.unary main_arg6 main_v109 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v109 main_v110 rfl shapeCasts_S1x128x128_S128x128,
    StableHlo.binary main_v108 main_v110 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v112 ((extractStridedSlice S1x128 ![1, 0] · slices_S3x128_S1x128_1_0) : (⟨S3x128, .f32⟩ : BufTy).Contents (Elt F) → (⟨S1x128, .f32⟩ : BufTy).Contents (Elt F)),
    StableHlo.reshape main_v112 main_v113 rfl shapeCasts_S1x128_S128,
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v115 main_v116 (addf : (⟨S50000x128, .f32⟩ : BufTy).Contents (Elt F) → (⟨S50000x128, .f32⟩ : BufTy).Contents (Elt F) → (⟨S50000x128, .f32⟩ : BufTy).Contents (Elt F)),
    StableHlo.nullary main_call6_cst ((constant S_ .f32 0x00000000#32) : (⟨S_, .f32⟩ : BufTy).Contents (Elt F)),
    StableHlo.unary main_call6_cst main_call6_v0 ((broadcastInDim S50000x128 ![] bcast_S_S50000x128) : (⟨S_, .f32⟩ : BufTy).Contents (Elt F) → (⟨S50000x128, .f32⟩ : BufTy).Contents (Elt F)),
    StableHlo.binary main_v116 main_call6_v0 main_v117 (maximumf : (⟨S50000x128, .f32⟩ : BufTy).Contents (Elt F) → (⟨S50000x128, .f32⟩ : BufTy).Contents (Elt F) → (⟨S50000x128, .f32⟩ : BufTy).Contents (Elt F)),
    StableHlo.unary main_arg8 main_v118 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v118 main_v119 rfl shapeCasts_S1x128x128_S128x128,
    StableHlo.binary main_v117 main_v119 main_v120 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v121 ((extractStridedSlice S1x128 ![1, 0] · slices_S3x128_S1x128_1_0) : (⟨S3x128, .f32⟩ : BufTy).Contents (Elt F) → (⟨S1x128, .f32⟩ : BufTy).Contents (Elt F)),
    StableHlo.reshape main_v121 main_v122 rfl shapeCasts_S1x128_S128,
    StableHlo.unary main_v122 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v124 main_v125 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v125 main_cst_14 main_v126 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v127 (broadcastInDim S128 ![] bcast_S_S128 : (⟨S_, .f32⟩ : BufTy).Contents (Elt F) → (⟨S128, .f32⟩ : BufTy).Contents (Elt F)),
    StableHlo.binary main_v126 main_v127 main_v128 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.nullary main_call7_cst ((constant S_ .f32 0x00000000#32) : (⟨S_, .f32⟩ : BufTy).Contents (Elt F)),
    StableHlo.binary main_v125 main_call7_cst main_call7_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call7_v0 main_call7_v1 ((broadcastInDim S1x128 ![1] bcast_S128_S1x128_1) : (⟨S128, .f32⟩ : BufTy).Contents (Elt F) → (⟨S1x128, .f32⟩ : BufTy).Contents (Elt F)),
    StableHlo.nullary main_call7_cst_0 ((constant S_ .f32 0x47435000#32) : (⟨S_, .f32⟩ : BufTy).Contents (Elt F)),
    StableHlo.unary main_call7_cst_0 main_call7_v2 ((broadcastInDim S1x128 ![] bcast_S_S1x128) : (⟨S_, .f32⟩ : BufTy).Contents (Elt F) → (⟨S1x128, .f32⟩ : BufTy).Contents (Elt F)),
    StableHlo.binary main_call7_v1 main_call7_v2 main_call7_v3 (Host.divf : (⟨S1x128, .f32⟩ : BufTy).Contents (Elt F) → (⟨S1x128, .f32⟩ : BufTy).Contents (Elt F) → (⟨S1x128, .f32⟩ : BufTy).Contents (Elt F)),
    StableHlo.unary main_call7_v3 main_call7_v4 ((broadcastInDim S50000x128 ![0, 1] bcast_S1x128_S50000x128_0_1) : (⟨S1x128, .f32⟩ : BufTy).Contents (Elt F) → (⟨S50000x128, .f32⟩ : BufTy).Contents (Elt F)),
    StableHlo.binary main_v125 main_call7_v4 main_call7_v5 (subf : (⟨S50000x128, .f32⟩ : BufTy).Contents (Elt F) → (⟨S50000x128, .f32⟩ : BufTy).Contents (Elt F) → (⟨S50000x128, .f32⟩ : BufTy).Contents (Elt F)),
    StableHlo.binary main_call7_v5 main_call7_v5 main_call7_v6 (mulf : (⟨S50000x128, .f32⟩ : BufTy).Contents (Elt F) → (⟨S50000x128, .f32⟩ : BufTy).Contents (Elt F) → (⟨S50000x128, .f32⟩ : BufTy).Contents (Elt F)),
    StableHlo.unary main_c_16 main_call7_v7 ((sitofp .f32) : (⟨S_, .i32⟩ : BufTy).Contents (Elt F) → (⟨S_, .f32⟩ : BufTy).Contents (Elt F)),
    StableHlo.nullary main_call7_cst_1 ((constant S_ .f32 0x47435000#32) : (⟨S_, .f32⟩ : BufTy).Contents (Elt F)),
    StableHlo.binary main_call7_cst_1 main_call7_v7 main_call7_v8 (subf : (⟨S_, .f32⟩ : BufTy).Contents (Elt F) → (⟨S_, .f32⟩ : BufTy).Contents (Elt F) → (⟨S_, .f32⟩ : BufTy).Contents (Elt F)),
    StableHlo.nullary main_call7_cst_2 ((constant S_ .f32 0x00000000#32) : (⟨S_, .f32⟩ : BufTy).Contents (Elt F)),
    StableHlo.binary main_call7_v6 main_call7_cst_2 main_call7_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call7_v8 main_call7_v10 ((broadcastInDim S128 ![] bcast_S_S128) : (⟨S_, .f32⟩ : BufTy).Contents (Elt F) → (⟨S128, .f32⟩ : BufTy).Contents (Elt F)),
    StableHlo.binary main_call7_v9 main_call7_v10 main_call7_v11 (Host.divf : (⟨S128, .f32⟩ : BufTy).Contents (Elt F) → (⟨S128, .f32⟩ : BufTy).Contents (Elt F) → (⟨S128, .f32⟩ : BufTy).Contents (Elt F)),
    StableHlo.nullary main_call7_cst_3 ((constant S_ .f32 0x00000000#32) : (⟨S_, .f32⟩ : BufTy).Contents (Elt F)),
    StableHlo.binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    StableHlo.nullary main_call7_cst_4 ((constant S_ .f32 0x7FC00000#32) : (⟨S_, .f32⟩ : BufTy).Contents (Elt F)),
    StableHlo.unary main_call7_cst_4 main_call7_call0_v0 (id : (⟨S_, .f32⟩ : BufTy).Contents (Elt F) → (⟨S_, .f32⟩ : BufTy).Contents (Elt F)),
    StableHlo.unary main_call7_call0_v0 main_call7_call0_v1 ((broadcastInDim S128 ![] bcast_S_S128) : (⟨S_, .f32⟩ : BufTy).Contents (Elt F) → (⟨S128, .f32⟩ : BufTy).Contents (Elt F)),
    StableHlo.ternary main_call7_v12 main_call7_v11 main_call7_call0_v1 main_v129 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v128 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v131 main_v132 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v133 (broadcastInDim S128 ![] bcast_S_S128 : (⟨S_, .f32⟩ : BufTy).Contents (Elt F) → (⟨S128, .f32⟩ : BufTy).Contents (Elt F)),
    StableHlo.binary main_v129 main_v133 main_v134 (addf : (⟨S128, .f32⟩ : BufTy).Contents (Elt F) → (⟨S128, .f32⟩ : BufTy).Contents (Elt F) → (⟨S128, .f32⟩ : BufTy).Contents (Elt F)),
    StableHlo.unary main_v134 main_v135 (Host.rsqrt : (⟨S128, .f32⟩ : BufTy).Contents (Elt F) → (⟨S128, .f32⟩ : BufTy).Contents (Elt F)),
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v137 main_v138 (mulf : (⟨S50000x128, .f32⟩ : BufTy).Contents (Elt F) → (⟨S50000x128, .f32⟩ : BufTy).Contents (Elt F) → (⟨S50000x128, .f32⟩ : BufTy).Contents (Elt F)),
    StableHlo.unary main_arg10 main_v139 ((extractStridedSlice S1x128 ![1, 0] · slices_S3x128_S1x128_1_0) : (⟨S3x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v142 main_v143 (mulf : (⟨S50000x128, .f32⟩ : BufTy).Contents (Elt F) → (⟨S50000x128, .f32⟩ : BufTy).Contents (Elt F) → (⟨S50000x128, .f32⟩ : BufTy).Contents (Elt F)),
    StableHlo.unary main_arg11 main_v144 ((extractStridedSlice S1x128 ![1, 0] · slices_S3x128_S1x128_1_0) : (⟨S3x128, .f32⟩ : BufTy).Contents (Elt F) → (⟨S1x128, .f32⟩ : BufTy).Contents (Elt F)),
    StableHlo.reshape main_v144 main_v145 rfl shapeCasts_S1x128_S128,
    StableHlo.unary main_v145 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v147 main_v148 (addf : (⟨S50000x128, .f32⟩ : BufTy).Contents (Elt F) → (⟨S50000x128, .f32⟩ : BufTy).Contents (Elt F) → (⟨S50000x128, .f32⟩ : BufTy).Contents (Elt F)),
    StableHlo.nullary main_call8_cst ((constant S_ .f32 0x00000000#32) : (⟨S_, .f32⟩ : BufTy).Contents (Elt F)),
    StableHlo.unary main_call8_cst main_call8_v0 ((broadcastInDim S50000x128 ![] bcast_S_S50000x128) : (⟨S_, .f32⟩ : BufTy).Contents (Elt F) → (⟨S50000x128, .f32⟩ : BufTy).Contents (Elt F)),
    StableHlo.binary main_v148 main_call8_v0 main_v149 (maximumf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.unary main_cst_18 main_v150 (broadcastInDim S512x128 ![] bcast_S_S512x128 : (⟨S_, .f32⟩ : BufTy).Contents (Elt F) → (⟨S512x128, .f32⟩ : BufTy).Contents (Elt F)),
    StableHlo.unary main_arg17 main_v151 (broadcastInDim S50000x1 ![0] bcast_S50000_S50000x1_0 : (⟨S50000, .i32⟩ : BufTy).Contents (Elt F) → (⟨S50000x1, .i32⟩ : BufTy).Contents (Elt F)),
    StableHlo.ternary main_v150 main_v151 main_v149 main_v152 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.binary main_v152 main_arg12 main_v153 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg13 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S512x128 ![0, 1] bcast_S1x128_S512x128_0_1 : (⟨S1x128, .f32⟩ : BufTy).Contents (Elt F) → (⟨S512x128, .f32⟩ : BufTy).Contents (Elt F)),
    StableHlo.binary main_v153 main_v155 main_v156 (addf : (⟨S512x128, .f32⟩ : BufTy).Contents (Elt F) → (⟨S512x128, .f32⟩ : BufTy).Contents (Elt F) → (⟨S512x128, .f32⟩ : BufTy).Contents (Elt F)),
    StableHlo.nullary main_call9_cst ((constant S_ .f32 0x00000000#32) : (⟨S_, .f32⟩ : BufTy).Contents (Elt F)),
    StableHlo.unary main_call9_cst main_call9_v0 ((broadcastInDim S512x128 ![] bcast_S_S512x128) : (⟨S_, .f32⟩ : BufTy).Contents (Elt F) → (⟨S512x128, .f32⟩ : BufTy).Contents (Elt F)),
    StableHlo.binary main_v156 main_call9_v0 main_v157 (maximumf : (⟨S512x128, .f32⟩ : BufTy).Contents (Elt F) → (⟨S512x128, .f32⟩ : BufTy).Contents (Elt F) → (⟨S512x128, .f32⟩ : BufTy).Contents (Elt F)),
    StableHlo.binary main_v157 main_arg14 main_v158 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)) ]

/-- The operations of window 3 of @main, in order, every call's operations in its place (85 operations). -/
abbrev ops3 : List (HloOp τ sig (Elt F)) :=
  [ StableHlo.unary main_arg15 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S512x128 ![0, 1] bcast_S1x128_S512x128_0_1 : (⟨S1x128, .f32⟩ : BufTy).Contents (Elt F) → (⟨S512x128, .f32⟩ : BufTy).Contents (Elt F)),
    StableHlo.binary main_v158 main_v160 main_v161 (addf : (⟨S512x128, .f32⟩ : BufTy).Contents (Elt F) → (⟨S512x128, .f32⟩ : BufTy).Contents (Elt F) → (⟨S512x128, .f32⟩ : BufTy).Contents (Elt F)),
    StableHlo.binary main_v87 main_v161 main_v162 (addf : (⟨S512x128, .f32⟩ : BufTy).Contents (Elt F) → (⟨S512x128, .f32⟩ : BufTy).Contents (Elt F) → (⟨S512x128, .f32⟩ : BufTy).Contents (Elt F)),
    StableHlo.nullary main_c_19 (constantI S_ 32 0#32),
    StableHlo.unary main_c_19 main_v163 (broadcastInDim S50000 ![] bcast_S_S50000 : (⟨S_, .i32⟩ : BufTy).Contents (Elt F) → (⟨S50000, .i32⟩ : BufTy).Contents (Elt F)),
    StableHlo.binary main_arg17 main_v163 main_v164 (cmpi .slt : (⟨S50000, .i32⟩ : BufTy).Contents (Elt F) → (⟨S50000, .i32⟩ : BufTy).Contents (Elt F) → (⟨S50000, .i1⟩ : BufTy).Contents (Elt F)),
    StableHlo.nullary main_c_20 (constantI S_ 32 512#32),
    StableHlo.unary main_c_20 main_v165 (broadcastInDim S50000 ![] bcast_S_S50000 : (⟨S_, .i32⟩ : BufTy).Contents (Elt F) → (⟨S50000, .i32⟩ : BufTy).Contents (Elt F)),
    StableHlo.binary main_arg17 main_v165 main_v166 (addi : (⟨S50000, .i32⟩ : BufTy).Contents (Elt F) → (⟨S50000, .i32⟩ : BufTy).Contents (Elt F) → (⟨S50000, .i32⟩ : BufTy).Contents (Elt F)),
    StableHlo.ternary main_v164 main_v166 main_arg17 main_v167 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v167 main_v168 (broadcastInDim S50000x1 ![0] bcast_S50000_S50000x1_0 : (⟨S50000, .i32⟩ : BufTy).Contents (Elt F) → (⟨S50000x1, .i32⟩ : BufTy).Contents (Elt F)),
    StableHlo.binary main_v162 main_v168 main_v169 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),
    StableHlo.binary main_v149 main_v169 main_v170 (addf : (⟨S50000x128, .f32⟩ : BufTy).Contents (Elt F) → (⟨S50000x128, .f32⟩ : BufTy).Contents (Elt F) → (⟨S50000x128, .f32⟩ : BufTy).Contents (Elt F)),
    StableHlo.nullary main_c_21 (constantI S_ 32 0#32),
    StableHlo.unary main_c_21 main_v171 (broadcastInDim S600000 ![] bcast_S_S600000 : (⟨S_, .i32⟩ : BufTy).Contents (Elt F) → (⟨S600000, .i32⟩ : BufTy).Contents (Elt F)),
    StableHlo.binary main_v1 main_v171 main_v172 (cmpi .slt : (⟨S600000, .i32⟩ : BufTy).Contents (Elt F) → (⟨S600000, .i32⟩ : BufTy).Contents (Elt F) → (⟨S600000, .i1⟩ : BufTy).Contents (Elt F)),
    StableHlo.nullary main_c_22 (constantI S_ 32 50000#32),
    StableHlo.unary main_c_22 main_v173 (broadcastInDim S600000 ![] bcast_S_S600000 : (⟨S_, .i32⟩ : BufTy).Contents (Elt F) → (⟨S600000, .i32⟩ : BufTy).Contents (Elt F)),
    StableHlo.binary main_v1 main_v173 main_v174 (addi : (⟨S600000, .i32⟩ : BufTy).Contents (Elt F) → (⟨S600000, .i32⟩ : BufTy).Contents (Elt F) → (⟨S600000, .i32⟩ : BufTy).Contents (Elt F)),
    StableHlo.ternary main_v172 main_v174 main_v1 main_v175 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v175 main_v176 (broadcastInDim S600000x1 ![0] bcast_S600000_S600000x1_0 : (⟨S600000, .i32⟩ : BufTy).Contents (Elt F) → (⟨S600000x1, .i32⟩ : BufTy).Contents (Elt F)),
    StableHlo.binary main_v170 main_v176 main_v177 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v177 main_v11 main_v178 (addf : (⟨S600000x128, .f32⟩ : BufTy).Contents (Elt F) → (⟨S600000x128, .f32⟩ : BufTy).Contents (Elt F) → (⟨S600000x128, .f32⟩ : BufTy).Contents (Elt F)),
    StableHlo.nullary main_call10_cst ((constant S_ .f32 0x00000000#32) : (⟨S_, .f32⟩ : BufTy).Contents (Elt F)),
    StableHlo.unary main_call10_cst main_call10_v0 ((broadcastInDim S600000x128 ![] bcast_S_S600000x128) : (⟨S_, .f32⟩ : BufTy).Contents (Elt F) → (⟨S600000x128, .f32⟩ : BufTy).Contents (Elt F)),
    StableHlo.binary main_v178 main_call10_v0 main_v179 (maximumf : (⟨S600000x128, .f32⟩ : BufTy).Contents (Elt F) → (⟨S600000x128, .f32⟩ : BufTy).Contents (Elt F) → (⟨S600000x128, .f32⟩ : BufTy).Contents (Elt F)),
    StableHlo.nullary main_cst_23 (constant S_ .f32 0x00000000#32),
    StableHlo.unary main_cst_23 main_v180 (broadcastInDim S50000x128 ![] bcast_S_S50000x128 : (⟨S_, .f32⟩ : BufTy).Contents (Elt F) → (⟨S50000x128, .f32⟩ : BufTy).Contents (Elt F)),
    StableHlo.unary main_v3 main_v181 (broadcastInDim S600000x1 ![0] bcast_S600000_S600000x1_0 : (⟨S600000, .i32⟩ : BufTy).Contents (Elt F) → (⟨S600000x1, .i32⟩ : BufTy).Contents (Elt F)),
    StableHlo.ternary main_v180 main_v181 main_v179 main_v182 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v170 main_v182 main_v183 (addf : (⟨S50000x128, .f32⟩ : BufTy).Contents (Elt F) → (⟨S50000x128, .f32⟩ : BufTy).Contents (Elt F) → (⟨S50000x128, .f32⟩ : BufTy).Contents (Elt F)),
    StableHlo.unary main_arg6 main_v184 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v184 main_v185 rfl shapeCasts_S1x128x128_S128x128,
    StableHlo.binary main_v183 main_v185 main_v186 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v187 ((extractStridedSlice S1x128 ![2, 0] · slices_S3x128_S1x128_2_0) : (⟨S3x128, .f32⟩ : BufTy).Contents (Elt F) → (⟨S1x128, .f32⟩ : BufTy).Contents (Elt F)),
    StableHlo.reshape main_v187 main_v188 rfl shapeCasts_S1x128_S128,
    StableHlo.unary main_v188 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S50000x128 ![0, 1] bcast_S1x128_S50000x128_0_1 : (⟨S1x128, .f32⟩ : BufTy).Contents (Elt F) → (⟨S50000x128, .f32⟩ : BufTy).Contents (Elt F)),
    StableHlo.binary main_v186 main_v190 main_v191 (addf : (⟨S50000x128, .f32⟩ : BufTy).Contents (Elt F) → (⟨S50000x128, .f32⟩ : BufTy).Contents (Elt F) → (⟨S50000x128, .f32⟩ : BufTy).Contents (Elt F)),
    StableHlo.nullary main_call11_cst ((constant S_ .f32 0x00000000#32) : (⟨S_, .f32⟩ : BufTy).Contents (Elt F)),
    StableHlo.unary main_call11_cst main_call11_v0 ((broadcastInDim S50000x128 ![] bcast_S_S50000x128) : (⟨S_, .f32⟩ : BufTy).Contents (Elt F) → (⟨S50000x128, .f32⟩ : BufTy).Contents (Elt F)),
    StableHlo.binary main_v191 main_call11_v0 main_v192 (maximumf : (⟨S50000x128, .f32⟩ : BufTy).Contents (Elt F) → (⟨S50000x128, .f32⟩ : BufTy).Contents (Elt F) → (⟨S50000x128, .f32⟩ : BufTy).Contents (Elt F)),
    StableHlo.unary main_arg8 main_v193 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v193 main_v194 rfl shapeCasts_S1x128x128_S128x128,
    StableHlo.binary main_v192 main_v194 main_v195 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v196 ((extractStridedSlice S1x128 ![2, 0] · slices_S3x128_S1x128_2_0) : (⟨S3x128, .f32⟩ : BufTy).Contents (Elt F) → (⟨S1x128, .f32⟩ : BufTy).Contents (Elt F)),
    StableHlo.reshape main_v196 main_v197 rfl shapeCasts_S1x128_S128,
    StableHlo.unary main_v197 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S50000x128 ![0, 1] bcast_S1x128_S50000x128_0_1 : (⟨S1x128, .f32⟩ : BufTy).Contents (Elt F) → (⟨S50000x128, .f32⟩ : BufTy).Contents (Elt F)),
    StableHlo.binary main_v195 main_v199 main_v200 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.binary main_v200 main_cst_24 main_v201 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v202 (broadcastInDim S128 ![] bcast_S_S128 : (⟨S_, .f32⟩ : BufTy).Contents (Elt F) → (⟨S128, .f32⟩ : BufTy).Contents (Elt F)),
    StableHlo.binary main_v201 main_v202 main_v203 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.nullary main_call12_cst ((constant S_ .f32 0x00000000#32) : (⟨S_, .f32⟩ : BufTy).Contents (Elt F)),
    StableHlo.binary main_v200 main_call12_cst main_call12_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call12_v0 main_call12_v1 ((broadcastInDim S1x128 ![1] bcast_S128_S1x128_1) : (⟨S128, .f32⟩ : BufTy).Contents (Elt F) → (⟨S1x128, .f32⟩ : BufTy).Contents (Elt F)),
    StableHlo.nullary main_call12_cst_0 ((constant S_ .f32 0x47435000#32) : (⟨S_, .f32⟩ : BufTy).Contents (Elt F)),
    StableHlo.unary main_call12_cst_0 main_call12_v2 ((broadcastInDim S1x128 ![] bcast_S_S1x128) : (⟨S_, .f32⟩ : BufTy).Contents (Elt F) → (⟨S1x128, .f32⟩ : BufTy).Contents (Elt F)),
    StableHlo.binary main_call12_v1 main_call12_v2 main_call12_v3 (Host.divf : (⟨S1x128, .f32⟩ : BufTy).Contents (Elt F) → (⟨S1x128, .f32⟩ : BufTy).Contents (Elt F) → (⟨S1x128, .f32⟩ : BufTy).Contents (Elt F)),
    StableHlo.unary main_call12_v3 main_call12_v4 ((broadcastInDim S50000x128 ![0, 1] bcast_S1x128_S50000x128_0_1) : (⟨S1x128, .f32⟩ : BufTy).Contents (Elt F) → (⟨S50000x128, .f32⟩ : BufTy).Contents (Elt F)),
    StableHlo.binary main_v200 main_call12_v4 main_call12_v5 (subf : (⟨S50000x128, .f32⟩ : BufTy).Contents (Elt F) → (⟨S50000x128, .f32⟩ : BufTy).Contents (Elt F) → (⟨S50000x128, .f32⟩ : BufTy).Contents (Elt F)),
    StableHlo.binary main_call12_v5 main_call12_v5 main_call12_v6 (mulf : (⟨S50000x128, .f32⟩ : BufTy).Contents (Elt F) → (⟨S50000x128, .f32⟩ : BufTy).Contents (Elt F) → (⟨S50000x128, .f32⟩ : BufTy).Contents (Elt F)),
    StableHlo.unary main_c_26 main_call12_v7 ((sitofp .f32) : (⟨S_, .i32⟩ : BufTy).Contents (Elt F) → (⟨S_, .f32⟩ : BufTy).Contents (Elt F)),
    StableHlo.nullary main_call12_cst_1 ((constant S_ .f32 0x47435000#32) : (⟨S_, .f32⟩ : BufTy).Contents (Elt F)),
    StableHlo.binary main_call12_cst_1 main_call12_v7 main_call12_v8 (subf : (⟨S_, .f32⟩ : BufTy).Contents (Elt F) → (⟨S_, .f32⟩ : BufTy).Contents (Elt F) → (⟨S_, .f32⟩ : BufTy).Contents (Elt F)),
    StableHlo.nullary main_call12_cst_2 ((constant S_ .f32 0x00000000#32) : (⟨S_, .f32⟩ : BufTy).Contents (Elt F)),
    StableHlo.binary main_call12_v6 main_call12_cst_2 main_call12_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call12_v8 main_call12_v10 ((broadcastInDim S128 ![] bcast_S_S128) : (⟨S_, .f32⟩ : BufTy).Contents (Elt F) → (⟨S128, .f32⟩ : BufTy).Contents (Elt F)),
    StableHlo.binary main_call12_v9 main_call12_v10 main_call12_v11 (Host.divf : (⟨S128, .f32⟩ : BufTy).Contents (Elt F) → (⟨S128, .f32⟩ : BufTy).Contents (Elt F) → (⟨S128, .f32⟩ : BufTy).Contents (Elt F)),
    StableHlo.nullary main_call12_cst_3 ((constant S_ .f32 0x00000000#32) : (⟨S_, .f32⟩ : BufTy).Contents (Elt F)),
    StableHlo.binary main_call12_v8 main_call12_cst_3 main_call12_v12 ((cmpf .ogt) : (⟨S_, .f32⟩ : BufTy).Contents (Elt F) → (⟨S_, .f32⟩ : BufTy).Contents (Elt F) → (⟨S_, .i1⟩ : BufTy).Contents (Elt F)),
    StableHlo.nullary main_call12_cst_4 ((constant S_ .f32 0x7FC00000#32) : (⟨S_, .f32⟩ : BufTy).Contents (Elt F)),
    StableHlo.unary main_call12_cst_4 main_call12_call0_v0 (id : (⟨S_, .f32⟩ : BufTy).Contents (Elt F) → (⟨S_, .f32⟩ : BufTy).Contents (Elt F)),
    StableHlo.unary main_call12_call0_v0 main_call12_call0_v1 ((broadcastInDim S128 ![] bcast_S_S128) : (⟨S_, .f32⟩ : BufTy).Contents (Elt F) → (⟨S128, .f32⟩ : BufTy).Contents (Elt F)),
    StableHlo.ternary main_call12_v12 main_call12_v11 main_call12_call0_v1 main_v204 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v203 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S50000x128 ![0, 1] bcast_S1x128_S50000x128_0_1 : (⟨S1x128, .f32⟩ : BufTy).Contents (Elt F) → (⟨S50000x128, .f32⟩ : BufTy).Contents (Elt F)),
    StableHlo.binary main_v200 main_v206 main_v207 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v208 (broadcastInDim S128 ![] bcast_S_S128 : (⟨S_, .f32⟩ : BufTy).Contents (Elt F) → (⟨S128, .f32⟩ : BufTy).Contents (Elt F)),
    StableHlo.binary main_v204 main_v208 main_v209 (addf : (⟨S128, .f32⟩ : BufTy).Contents (Elt F) → (⟨S128, .f32⟩ : BufTy).Contents (Elt F) → (⟨S128, .f32⟩ : BufTy).Contents (Elt F)) ]

/-- The operations of window 4 of @main, in order, every call's operations in its place (33 operations). -/
abbrev ops4 : List (HloOp τ sig (Elt F)) :=
  [ StableHlo.unary main_v209 main_v210 (Host.rsqrt : (⟨S128, .f32⟩ : BufTy).Contents (Elt F) → (⟨S128, .f32⟩ : BufTy).Contents (Elt F)),
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v207 main_v212 main_v213 (mulf : (⟨S50000x128, .f32⟩ : BufTy).Contents (Elt F) → (⟨S50000x128, .f32⟩ : BufTy).Contents (Elt F) → (⟨S50000x128, .f32⟩ : BufTy).Contents (Elt F)),
    StableHlo.unary main_arg10 main_v214 ((extractStridedSlice S1x128 ![2, 0] · slices_S3x128_S1x128_2_0) : (⟨S3x128, .f32⟩ : BufTy).Contents (Elt F) → (⟨S1x128, .f32⟩ : BufTy).Contents (Elt F)),
    StableHlo.reshape main_v214 main_v215 rfl shapeCasts_S1x128_S128,
    StableHlo.unary main_v215 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v213 main_v217 main_v218 (mulf : (⟨S50000x128, .f32⟩ : BufTy).Contents (Elt F) → (⟨S50000x128, .f32⟩ : BufTy).Contents (Elt F) → (⟨S50000x128, .f32⟩ : BufTy).Contents (Elt F)),
    StableHlo.unary main_arg11 main_v219 ((extractStridedSlice S1x128 ![2, 0] · slices_S3x128_S1x128_2_0) : (⟨S3x128, .f32⟩ : BufTy).Contents (Elt F) → (⟨S1x128, .f32⟩ : BufTy).Contents (Elt F)),
    StableHlo.reshape main_v219 main_v220 rfl shapeCasts_S1x128_S128,
    StableHlo.unary main_v220 main_v221 (broadcastInDim S1x128 ![1] bcast_S128_S1x128_1 : (⟨S128, .f32⟩ : BufTy).Contents (Elt F) → (⟨S1x128, .f32⟩ : BufTy).Contents (Elt F)),
    StableHlo.unary main_v221 main_v222 (broadcastInDim S50000x128 ![0, 1] bcast_S1x128_S50000x128_0_1 : (⟨S1x128, .f32⟩ : BufTy).Contents (Elt F) → (⟨S50000x128, .f32⟩ : BufTy).Contents (Elt F)),
    StableHlo.binary main_v218 main_v222 main_v223 (addf : (⟨S50000x128, .f32⟩ : BufTy).Contents (Elt F) → (⟨S50000x128, .f32⟩ : BufTy).Contents (Elt F) → (⟨S50000x128, .f32⟩ : BufTy).Contents (Elt F)),
    StableHlo.nullary main_call13_cst ((constant S_ .f32 0x00000000#32) : (⟨S_, .f32⟩ : BufTy).Contents (Elt F)),
    StableHlo.unary main_call13_cst main_call13_v0 ((broadcastInDim S50000x128 ![] bcast_S_S50000x128) : (⟨S_, .f32⟩ : BufTy).Contents (Elt F) → (⟨S50000x128, .f32⟩ : BufTy).Contents (Elt F)),
    StableHlo.binary main_v223 main_call13_v0 main_v224 (maximumf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x3F800000#32),
    StableHlo.unary main_cst_28 main_v225 (broadcastInDim S50000 ![] bcast_S_S50000 : (⟨S_, .f32⟩ : BufTy).Contents (Elt F) → (⟨S50000, .f32⟩ : BufTy).Contents (Elt F)),
    StableHlo.nullary main_cst_29 (constant S_ .f32 0x00000000#32),
    StableHlo.unary main_cst_29 main_v226 (broadcastInDim S512 ![] bcast_S_S512 : (⟨S_, .f32⟩ : BufTy).Contents (Elt F) → (⟨S512, .f32⟩ : BufTy).Contents (Elt F)),
    StableHlo.unary main_arg17 main_v227 (broadcastInDim S50000x1 ![0] bcast_S50000_S50000x1_0 : (⟨S50000, .i32⟩ : BufTy).Contents (Elt F) → (⟨S50000x1, .i32⟩ : BufTy).Contents (Elt F)),
    StableHlo.ternary main_v226 main_v227 main_v225 main_v228 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_30 (constant S_ .f32 0x00000000#32),
    StableHlo.unary main_cst_30 main_v229 (broadcastInDim S512x128 ![] bcast_S_S512x128 : (⟨S_, .f32⟩ : BufTy).Contents (Elt F) → (⟨S512x128, .f32⟩ : BufTy).Contents (Elt F)),
    StableHlo.unary main_arg17 main_v230 (broadcastInDim S50000x1 ![0] bcast_S50000_S50000x1_0 : (⟨S50000, .i32⟩ : BufTy).Contents (Elt F) → (⟨S50000x1, .i32⟩ : BufTy).Contents (Elt F)),
    StableHlo.ternary main_v229 main_v230 main_v224 main_v231 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_31 (constant S_ .f32 0x3F800000#32),
    StableHlo.unary main_cst_31 main_v232 (broadcastInDim S512 ![] bcast_S_S512 : (⟨S_, .f32⟩ : BufTy).Contents (Elt F) → (⟨S512, .f32⟩ : BufTy).Contents (Elt F)),
    StableHlo.binary main_v228 main_v232 main_v233 (maximumf : (⟨S512, .f32⟩ : BufTy).Contents (Elt F) → (⟨S512, .f32⟩ : BufTy).Contents (Elt F) → (⟨S512, .f32⟩ : BufTy).Contents (Elt F)),
    StableHlo.unary main_v233 main_v234 (broadcastInDim S512x1 ![0] bcast_S512_S512x1_0 : (⟨S512, .f32⟩ : BufTy).Contents (Elt F) → (⟨S512x1, .f32⟩ : BufTy).Contents (Elt F)),
    StableHlo.unary main_v234 main_v235 (broadcastInDim S512x128 ![0, 1] bcast_S512x1_S512x128_0_1 : (⟨S512x1, .f32⟩ : BufTy).Contents (Elt F) → (⟨S512x128, .f32⟩ : BufTy).Contents (Elt F)),
    StableHlo.binary main_v231 main_v235 main_v236 (Host.divf : (⟨S512x128, .f32⟩ : BufTy).Contents (Elt F) → (⟨S512x128, .f32⟩ : BufTy).Contents (Elt F) → (⟨S512x128, .f32⟩ : BufTy).Contents (Elt F)) ]

end Cert.RefRun

end
-- ==== Proof.RefRun.Base.lean ====
/-
  What the buffers hold between the five stretches of the plain program.

  The plain program is one straight line of array operations; it is read here in five consecutive stretches.  Between
  two stretches only a few buffers matter: the eighteen argument buffers, which no operation writes, and the handful of
  intermediate arrays that a later stretch still reads.  For each cut this file states, as one proposition about a
  valuation `W` of the buffers and the network's inputs `I`, that those buffers hold the stage functions of
  `Cert.Spec` at `I`: the edge list's two rows, the encoded edge features, the per-graph table, the node features
  before or after normalisation, and — where a stage is cut in the middle — the part of it already computed.
-/
import proofs.«407958_j39685497815719_1_alg».proof.Proof.RefRun.Ops
import proofs.«407958_j39685497815719_1_alg».proof.Proof.Spec

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

/-- A valuation of the buffers at the ideal instance. -/
abbrev Val : Type := Valuation τ sig (Elt Ideal)

/-- The eighteen argument buffers hold the network's inputs. -/
structure ArgsAt (W : Val) (I : Inputs) : Prop where
  a0 : W (main_arg0 : DevRef τ sig) = I.x
  a1 : W (main_arg1 : DevRef τ sig) = I.ea
  a2 : W (main_arg2 : DevRef τ sig) = I.pw
  a3 : W (main_arg3 : DevRef τ sig) = I.pb
  a4 : W (main_arg4 : DevRef τ sig) = I.ew
  a5 : W (main_arg5 : DevRef τ sig) = I.eb
  a6 : W (main_arg6 : DevRef τ sig) = I.cw1
  a7 : W (main_arg7 : DevRef τ sig) = I.cb1
  a8 : W (main_arg8 : DevRef τ sig) = I.cw2
  a9 : W (main_arg9 : DevRef τ sig) = I.cb2
  a10 : W (main_arg10 : DevRef τ sig) = I.gam
  a11 : W (main_arg11 : DevRef τ sig) = I.bet
  a12 : W (main_arg12 : DevRef τ sig) = I.vw1
  a13 : W (main_arg13 : DevRef τ sig) = I.vb1
  a14 : W (main_arg14 : DevRef τ sig) = I.vw2
  a15 : W (main_arg15 : DevRef τ sig) = I.vb2
  a16 : W (main_arg16 : DevRef τ sig) = I.ei
  a17 : W (main_arg17 : DevRef τ sig) = I.bat

/-- After the first stretch: the two rows of the edge list, the encoded edge features, the all-zero table, the first
    layer's features before normalisation, their column sums, and the number of nodes as a float. -/
structure S0 (W : Val) (I : Inputs) : Prop extends ArgsAt W I where
  src : W (main_v1 : DevRef τ sig) = srcOf I.ei
  dst : W (main_v3 : DevRef τ sig) = dstOf I.ei
  e : W (main_v11 : DevRef τ sig) = I.e
  vn0 : W (main_v12 : DevRef τ sig) = zeroVn
  z0 : W (main_v50 : DevRef τ sig) = I.z0
  s0 : W (main_v51 : DevRef τ sig) = colSum I.z0
  n : W (main_cst_5 : DevRef τ sig) = constant (F := Ideal) S_ .f32 0x47435000#32

/-- After the second stretch: the table after the first layer, the second layer's input features with the table's
    rows added, and the second layer's messages. -/
structure S1 (W : Val) (I : Inputs) : Prop extends ArgsAt W I where
  src : W (main_v1 : DevRef τ sig) = srcOf I.ei
  dst : W (main_v3 : DevRef τ sig) = dstOf I.ei
  e : W (main_v11 : DevRef τ sig) = I.e
  vn1 : W (main_v87 : DevRef τ sig) = I.vn1
  hb1 : W (main_v95 : DevRef τ sig) = I.hb1
  msg1 : W (main_v104 : DevRef τ sig) = msgOf (gatherH I.hb1 (srcOf I.ei)) I.e

/-- After the third stretch: the features after the second layer, and the per-graph perceptron of their sums up to
    its second product (the last bias is still to be added). -/
structure S2 (W : Val) (I : Inputs) : Prop extends ArgsAt W I where
  src : W (main_v1 : DevRef τ sig) = srcOf I.ei
  dst : W (main_v3 : DevRef τ sig) = dstOf I.ei
  e : W (main_v11 : DevRef τ sig) = I.e
  vn1 : W (main_v87 : DevRef τ sig) = I.vn1
  h2 : W (main_v149 : DevRef τ sig) = I.h2
  u2 : W (main_v158 : DevRef τ sig)
    = Host.dotGeneral (F := Ideal) dot_S512x128_S128x128_S512x128_1_0_0_1_n_n none
        (reluG (addf (Host.dotGeneral (F := Ideal) dot_S512x128_S128x128_S512x128_1_0_0_1_n_n none (poolOf I.h2 I.bat) I.vw1) (rowsG I.vb1)))
        I.vw2

/-- After the fourth stretch: the third layer's features less their column means, and their column variances plus
    the small constant under the square root. -/
structure S3 (W : Val) (I : Inputs) : Prop extends ArgsAt W I where
  c2 : W (main_v207 : DevRef τ sig) = subf I.z2 (rowsN (meanOf I.z2))
  q2 : W (main_v209 : DevRef τ sig)
    = addf (varOf I.z2) (broadcastInDim S128 ![] bcast_S_S128 (constant (F := Ideal) S_ .f32 0x3727C5AC#32))

/-- At the end: the two results. -/
structure S4 (W : Val) (I : Inputs) : Prop extends ArgsAt W I where
  h3 : W (main_v224 : DevRef τ sig) = I.h3
  emb : W (main_v236 : DevRef τ sig) = I.emb

end Cert.RefRun

end
-- ==== Proof.RefRun.W0.lean ====
/-
  The first stretch of the plain program: the two rows of the edge list, the node and edge encoders, the first
  layer's gather of the (all-zero) per-graph table, its messages, their sums at the target nodes and the node
  perceptron; then the column sums of the result and the node count.

  Three facts: the printed stretch is the straight line of its operations (each call replaced by the callee's own
  operations); every operation touches TensorCore buffers only and determines its result; and, read off the fold of
  the operations' results, the buffers a later stretch reads hold the stage functions of `Cert.Spec`.
-/
import proofs.«407958_j39685497815719_1_alg».proof.Proof.RefRun.Base

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

section Line
variable {F : FTy → Type} [FloatOps F]

set_option maxRecDepth 4096 in
/-- The stretch as printed is the straight line of its operations: the two rectifier calls unfolded, sequencing
    reassociated, each typed operation the plain one (its type equations hold by computation). -/
theorem part0_eq (c : Dev nD) : main_part0 (F := F) c = seq ops0 := by
  simp only [main_part0, fn_relu.body, fn_relu_0.body, seq, bind_assoc, pure_bind]
  rfl

/-- Every operation touches TensorCore buffers only. -/
theorem ops0_sub : (ops0 : List (HloOp τ sig (Elt F))).Forall fun op => op.bufs ⊆ tcRefs τ sig := by
  simp only [ops0, List.forall_cons, List.Forall, nullary_bufs_sub, unary_bufs_sub, binary_bufs_sub, ternary_bufs_sub,
    reshape_bufs_sub, and_self]

/-- Every operation determines its result. -/
theorem ops0_fresh : ∀ op ∈ (ops0 : List (HloOp τ sig (Elt F))), op.fresh = ∅ := by
  intro _ h; (repeat (cases h with | head => rfl | tail _ h => ?_)); exact nomatch h

end Line

set_option maxRecDepth 8192 in
set_option maxHeartbeats 40000000 in
/-- From the inputs in the argument buffers, the first stretch leaves the edge list's rows, the encoded edge
    features, the zero table, the first layer's features before normalisation and their column sums. -/
theorem w0 {W : Val} {I : Inputs} (h : ArgsAt W I) : S0 (after ops0 W) I := by
  obtain ⟨a0, a1, a2, a3, a4, a5, a6, a7, a8, a9, a10, a11, a12, a13, a14, a15, a16, a17⟩ := h
  refine ⟨⟨?_, ?_, ?_, ?_, ?_, ?_, ?_, ?_, ?_, ?_, ?_, ?_, ?_, ?_, ?_, ?_, ?_, ?_⟩, ?src, ?dst, ?e, ?vn0, ?z0, ?s0, ?n⟩
  case src => after_results_simp; simp only [a16]; rfl
  case dst => after_results_simp; simp only [a16]; rfl
  case e => after_results_simp; simp only [a1, a4, a5]; rfl
  case vn0 => after_results_simp; rfl
  case z0 => after_results_simp; simp only [a0, a1, a2, a3, a4, a5, a6, a7, a8, a9, a10, a11, a12, a13, a14, a15, a16, a17]; rfl
  case s0 => after_results_simp; simp only [a0, a1, a2, a3, a4, a5, a6, a7, a8, a9, a10, a11, a12, a13, a14, a15, a16, a17]; rfl
  case n => after_results_simp
  all_goals (after_results_simp; assumption)

end Cert.RefRun

end
-- ==== Proof.RefRun.W1.lean ====
/-
  The second stretch of the plain program: the first layer's column means and variances, its normalisation, scale,
  shift and rectifier; the per-graph sums of the result and the per-graph perceptron that updates the table; the
  second layer's gather of the table and its messages.

  The printed stretch is the straight line of its operations; every operation touches TensorCore buffers only and
  determines its result; and the buffers a later stretch reads hold the stage functions of `Cert.Spec`.
-/
import proofs.«407958_j39685497815719_1_alg».proof.Proof.RefRun.Base

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

section Line
variable {F : FTy → Type} [FloatOps F]

set_option maxRecDepth 4096 in
/-- The stretch as printed is the straight line of its operations: the calls unfolded, sequencing reassociated,
    each typed operation the plain one (its type equations hold by computation). -/
theorem part1_eq (c : Dev nD) : main_part1 (F := F) c = seq ops1 := by
  simp only [main_part1, fn_var.body, fn_where.body, fn_relu_0.body, fn_relu_1.body, fn_relu.body, seq, bind_assoc, pure_bind]
  rfl

/-- Every operation touches TensorCore buffers only. -/
theorem ops1_sub : (ops1 : List (HloOp τ sig (Elt F))).Forall fun op => op.bufs ⊆ tcRefs τ sig := by
  simp only [ops1, List.forall_cons, List.Forall, nullary_bufs_sub, unary_bufs_sub, binary_bufs_sub, ternary_bufs_sub,
    reshape_bufs_sub, and_self]

/-- Every operation determines its result. -/
theorem ops1_fresh : ∀ op ∈ (ops1 : List (HloOp τ sig (Elt F))), op.fresh = ∅ := by
  intro _ h; (repeat (cases h with | head => rfl | tail _ h => ?_)); exact nomatch h

end Line

set_option maxRecDepth 16384 in
set_option maxHeartbeats 40000000 in
/-- From the first layer's features before normalisation, the second stretch leaves the table after the first layer,
    the second layer's input features with the table's rows added, and the second layer's messages. -/
theorem w1 {W : Val} {I : Inputs} (h : S0 W I) : S1 (after ops1 W) I := by
  obtain ⟨⟨a0, a1, a2, a3, a4, a5, a6, a7, a8, a9, a10, a11, a12, a13, a14, a15, a16, a17⟩, src, dst, e, vn0, z0, s0, n⟩ := h
  refine ⟨⟨?_, ?_, ?_, ?_, ?_, ?_, ?_, ?_, ?_, ?_, ?_, ?_, ?_, ?_, ?_, ?_, ?_, ?_⟩, ?src, ?dst, ?e, ?vn1, ?hb1, ?msg1⟩
  -- the table: the old (zero) table plus the per-graph perceptron of the per-graph sums of the normalised features
  case vn1 =>
    after_results_simp
    simp only [a10, a11, a12, a13, a14, a15, a17, vn0, z0, s0, n]
    rfl
  -- the normalised features plus every node's row of that table
  case hb1 =>
    after_results_simp
    simp only [a10, a11, a12, a13, a14, a15, a17, vn0, z0, s0, n]
    rfl
  -- the rectified sum of every edge's source row and the edge's features
  case msg1 =>
    after_results_simp
    simp only [a10, a11, a12, a13, a14, a15, a17, src, e, vn0, z0, s0, n]
    rfl
  -- the buffers the stretch only reads
  all_goals (after_results_simp; assumption)

end Cert.RefRun

end
-- ==== Proof.RefRun.W2.lean ====
/-
  The third stretch of the plain program: the second layer's sums of messages at the target nodes, its node
  perceptron, column means and variances, normalisation, scale, shift and rectifier; then the per-graph sums of the
  result and the per-graph perceptron up to its second product.

  The printed stretch is the straight line of its operations; every operation touches TensorCore buffers only and
  determines its result; and the buffers a later stretch reads hold the stage functions of `Cert.Spec`.
-/
import proofs.«407958_j39685497815719_1_alg».proof.Proof.RefRun.Base

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

section Line
variable {F : FTy → Type} [FloatOps F]

set_option maxRecDepth 4096 in
/-- The stretch as printed is the straight line of its operations: the calls unfolded, sequencing reassociated,
    each typed operation the plain one (its type equations hold by computation). -/
theorem part2_eq (c : Dev nD) : main_part2 (F := F) c = seq ops2 := by
  simp only [main_part2, fn_relu_0.body, fn_var.body, fn_where.body, fn_relu_1.body, seq, bind_assoc, pure_bind]
  rfl

/-- Every operation touches TensorCore buffers only. -/
theorem ops2_sub : (ops2 : List (HloOp τ sig (Elt F))).Forall fun op => op.bufs ⊆ tcRefs τ sig := by
  simp only [ops2, List.forall_cons, List.Forall, nullary_bufs_sub, unary_bufs_sub, binary_bufs_sub, ternary_bufs_sub,
    reshape_bufs_sub, and_self]

/-- Every operation determines its result. -/
theorem ops2_fresh : ∀ op ∈ (ops2 : List (HloOp τ sig (Elt F))), op.fresh = ∅ := by
  intro _ h; (repeat (cases h with | head => rfl | tail _ h => ?_)); exact nomatch h

end Line

set_option maxRecDepth 8192 in
set_option maxHeartbeats 40000000 in
/-- From the second layer's messages, the third stretch leaves the features after the second layer and the per-graph
    perceptron of their sums up to its second product. -/
theorem w2 {W : Val} {I : Inputs} (h : S1 W I) : S2 (after ops2 W) I := by
  obtain ⟨⟨a0, a1, a2, a3, a4, a5, a6, a7, a8, a9, a10, a11, a12, a13, a14, a15, a16, a17⟩, src, dst, e, vn1, hb1, msg1⟩ := h
  refine ⟨⟨?_, ?_, ?_, ?_, ?_, ?_, ?_, ?_, ?_, ?_, ?_, ?_, ?_, ?_, ?_, ?_, ?_, ?_⟩, ?src, ?dst, ?e, ?vn1, ?h2, ?u2⟩
  case h2 =>
    after_results_simp
    simp only [a6, a7, a8, a9, a10, a11, dst, hb1, msg1]
    rfl
  case u2 =>
    after_results_simp
    simp only [a6, a7, a8, a9, a10, a11, a12, a13, a14, a17, dst, hb1, msg1]
    rfl
  all_goals (after_results_simp; assumption)

end Cert.RefRun

end
-- ==== Proof.RefRun.W3.lean ====
/-
  The fourth stretch of the plain program: the table after the second layer, the third layer's gather of it, its
  messages, their sums at the target nodes, the node perceptron, and the column means and variances of the result.

  The printed stretch is the straight line of its operations; every operation touches TensorCore buffers only and
  determines its result; and the buffers the last stretch reads hold the stage functions of `Cert.Spec`.
-/
import proofs.«407958_j39685497815719_1_alg».proof.Proof.RefRun.Base

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

section Line
variable {F : FTy → Type} [FloatOps F]

set_option maxRecDepth 4096 in
/-- The stretch as printed is the straight line of its operations: the calls unfolded, sequencing reassociated,
    each typed operation the plain one (its type equations hold by computation). -/
theorem part3_eq (c : Dev nD) : main_part3 (F := F) c = seq ops3 := by
  simp only [main_part3, fn_relu.body, fn_relu_0.body, fn_var.body, fn_where.body, seq, bind_assoc, pure_bind]
  rfl

/-- Every operation touches TensorCore buffers only. -/
theorem ops3_sub : (ops3 : List (HloOp τ sig (Elt F))).Forall fun op => op.bufs ⊆ tcRefs τ sig := by
  simp only [ops3, List.forall_cons, List.Forall, nullary_bufs_sub, unary_bufs_sub, binary_bufs_sub, ternary_bufs_sub,
    reshape_bufs_sub, and_self]

/-- Every operation determines its result. -/
theorem ops3_fresh : ∀ op ∈ (ops3 : List (HloOp τ sig (Elt F))), op.fresh = ∅ := by
  intro _ h; (repeat (cases h with | head => rfl | tail _ h => ?_)); exact nomatch h

end Line

set_option maxRecDepth 8192 in
set_option maxHeartbeats 40000000 in
/-- From the features after the second layer, the fourth stretch leaves the third layer's features less their column
    means and their column variances plus the small constant. -/
theorem w3 {W : Val} {I : Inputs} (h : S2 W I) : S3 (after ops3 W) I := by
  obtain ⟨⟨a0, a1, a2, a3, a4, a5, a6, a7, a8, a9, a10, a11, a12, a13, a14, a15, a16, a17⟩, src, dst, e, vn1, h2, u2⟩ := h
  refine ⟨⟨?_, ?_, ?_, ?_, ?_, ?_, ?_, ?_, ?_, ?_, ?_, ?_, ?_, ?_, ?_, ?_, ?_, ?_⟩, ?c2, ?q2⟩
  -- the centred features: the fold's nested term over the carried buffers (the perceptron's second product, the old
  -- table, the second layer's features, the edge list's rows, the edge features) and the third layer's parameters is
  -- the third layer's pre-normalisation stage less its column means repeated down the rows
  case c2 =>
    after_results_simp
    simp only [u2, vn1, h2, src, dst, e, a6, a7, a8, a9, a15, a17]
    rfl
  -- the shifted variances: the same pre-normalisation term inside the mean of the squared deviations, plus the
  -- small constant
  case q2 =>
    after_results_simp
    simp only [u2, vn1, h2, src, dst, e, a6, a7, a8, a9, a15, a17]
    rfl
  -- no operation writes an argument buffer
  all_goals (after_results_simp; assumption)

end Cert.RefRun

end
-- ==== Proof.RefRun.W4.lean ====
/-
  The last stretch of the plain program: the third layer's scale by the inverse square root, scale, shift and
  rectifier; then the per-graph sums and node counts and their quotient.

  The printed stretch is the straight line of its operations; every operation touches TensorCore buffers only and
  determines its result; and the two result buffers hold the network's two results as `Cert.Spec` names them.
-/
import proofs.«407958_j39685497815719_1_alg».proof.Proof.RefRun.Base

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

section Line
variable {F : FTy → Type} [FloatOps F]

set_option maxRecDepth 4096 in
/-- The stretch as printed is the straight line of its operations: the calls unfolded, sequencing reassociated,
    each typed operation the plain one (its type equations hold by computation). -/
theorem part4_eq (c : Dev nD) : main_part4 (F := F) c = seq ops4 := by
  simp only [main_part4, fn_relu_0.body, seq, bind_assoc, pure_bind]
  rfl

/-- Every operation touches TensorCore buffers only. -/
theorem ops4_sub : (ops4 : List (HloOp τ sig (Elt F))).Forall fun op => op.bufs ⊆ tcRefs τ sig := by
  simp only [ops4, List.forall_cons, List.Forall, nullary_bufs_sub, unary_bufs_sub, binary_bufs_sub, ternary_bufs_sub,
    reshape_bufs_sub, and_self]

/-- Every operation determines its result. -/
theorem ops4_fresh : ∀ op ∈ (ops4 : List (HloOp τ sig (Elt F))), op.fresh = ∅ := by
  intro _ h; (repeat (cases h with | head => rfl | tail _ h => ?_)); exact nomatch h

end Line

set_option maxRecDepth 8192 in
set_option maxHeartbeats 40000000 in
/-- From the centred features and the variances, the last stretch leaves the two results. -/
theorem w4 {W : Val} {I : Inputs} (h : S3 W I) : S4 (after ops4 W) I := by
  obtain ⟨⟨a0, a1, a2, a3, a4, a5, a6, a7, a8, a9, a10, a11, a12, a13, a14, a15, a16, a17⟩, c2, q2⟩ := h
  refine ⟨⟨?_, ?_, ?_, ?_, ?_, ?_, ?_, ?_, ?_, ?_, ?_, ?_, ?_, ?_, ?_, ?_, ?_, ?_⟩, ?h3, ?emb⟩
  -- the node features: the fold's nested term over the two carried buffers and the scale and shift rows is the
  -- normalisation stage, once the carried buffers are read as the centred features and the shifted variances
  case h3 =>
    after_results_simp
    simp only [c2, q2, a10, a11]
    rfl
  -- the per-graph means: the same nested term inside the per-graph sums, over the node counts
  case emb =>
    after_results_simp
    simp only [c2, q2, a10, a11, a17]
    rfl
  -- no operation writes an argument buffer
  all_goals (after_results_simp; assumption)

end Cert.RefRun

end
-- ==== Proof.RefRun.lean ====
/-
  The plain program's run.

  The plain program is one straight line of 356 array operations on the TensorCore (its calls replaced by the callees'
  own operations).  Read in five consecutive stretches, each stretch takes what the buffers hold before it to what they
  hold after it (`w0` … `w4`: the stage functions of `Cert.Spec`, stage by stage).  Composed, the five say what the two
  result buffers hold at the end — the node features after the third layer and their per-graph means — and that the
  eighteen argument buffers are as they were.  The run theorem of straight lines then gives the same of every weakly
  fair execution from any launch memory.
-/
import proofs.«407958_j39685497815719_1_alg».proof.Proof.RefRun.W0
import proofs.«407958_j39685497815719_1_alg».proof.Proof.RefRun.W1
import proofs.«407958_j39685497815719_1_alg».proof.Proof.RefRun.W2
import proofs.«407958_j39685497815719_1_alg».proof.Proof.RefRun.W3
import proofs.«407958_j39685497815719_1_alg».proof.Proof.RefRun.W4
import proofs.«407958_j39685497815719_1_alg».proof.Proof.RefInputs
import Idealize.ShloMosaic.Lib.Pipeline.Frame

noncomputable section

namespace Cert.RefRun

open Cert.ReferenceIdeal Idealize.ShloMosaic Idealize.ShloMosaic.TcCoe Idealize.ShloMosaic.StableHlo Idealize.SL.Sem
open Cert.Spec

variable [Cert.ReferenceIdeal.Facts]
open Cert.ReferenceIdeal.Facts₀ Cert.ReferenceIdeal.Facts

/-- The whole line: the five stretches' operations one after the other. -/
abbrev opsAll : List (HloOp τ sig (Elt Ideal)) := ops0 ++ (ops1 ++ (ops2 ++ (ops3 ++ ops4)))

/-- @main is that line: its five parts in order, each the line of its own operations. -/
theorem main_eq (c : Dev nD) : main (F := Ideal) c = seq opsAll := by
  unfold main
  rw [part0_eq, part1_eq, part2_eq, part3_eq, part4_eq]
  simp only [opsAll, seq_append]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem opsAll_sub : opsAll.Forall fun op => op.bufs ⊆ tcRefs τ sig := by
  rw [List.forall_iff_forall_mem]
  intro op h
  simp only [opsAll, List.mem_append] at h
  rcases h with h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h

/-- Every operation of the line determines its result. -/
theorem opsAll_fresh : ∀ op ∈ opsAll, op.fresh = ∅ := by
  intro op h
  simp only [opsAll, List.mem_append] at h
  rcases h with h | h | h | h | h
  · exact ops0_fresh op h
  · exact ops1_fresh op h
  · exact ops2_fresh op h
  · exact ops3_fresh op h
  · exact ops4_fresh op h

/-- The fold of the whole line is the five stretches' folds composed. -/
theorem after_all (V : Val) : after opsAll V = after ops4 (after ops3 (after ops2 (after ops1 (after ops0 V)))) := by
  simp only [opsAll, after_append]

/-- From the inputs in the argument buffers the whole line leaves the two results, the arguments as they were. -/
theorem final {V : Val} {I : Inputs} (h : ArgsAt V I) : S4 (after opsAll V) I := by
  rw [after_all]
  exact w4 (w3 (w2 (w1 (w0 h))))

/-- On every device, from any memory with zero counters: every weakly fair execution of the plain program terminates
    with the first result buffer at the node features after the third layer, the second at their per-graph means,
    and the eighteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v224) = (Cert.RefInputs.inputsOf m c).h3
      ∧ r.2.mem ((c.tc : Thread nD τ).loc main_v236) = (Cert.RefInputs.inputsOf m c).emb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ hr c => by
      have hS : S4 (after opsAll (launchContents m c)) (Cert.RefInputs.inputsOf m c) :=
        final ⟨rfl, rfl, rfl, rfl, rfl, rfl, rfl, rfl, rfl, rfl, rfl, rfl, rfl, rfl, rfl, rfl, rfl, rfl⟩
      exact ⟨(hr c main_v224).trans hS.h3, (hr c main_v236).trans hS.emb,
        (hr c main_arg0).trans hS.a0,
        (hr c main_arg1).trans hS.a1,
        (hr c main_arg2).trans hS.a2,
        (hr c main_arg3).trans hS.a3,
        (hr c main_arg4).trans hS.a4,
        (hr c main_arg5).trans hS.a5,
        (hr c main_arg6).trans hS.a6,
        (hr c main_arg7).trans hS.a7,
        (hr c main_arg8).trans hS.a8,
        (hr c main_arg9).trans hS.a9,
        (hr c main_arg10).trans hS.a10,
        (hr c main_arg11).trans hS.a11,
        (hr c main_arg12).trans hS.a12,
        (hr c main_arg13).trans hS.a13,
        (hr c main_arg14).trans hS.a14,
        (hr c main_arg15).trans hS.a15,
        (hr c main_arg16).trans hS.a16,
        (hr c main_arg17).trans hS.a17⟩)
    (run_seq scopedRefs_eq scopedSems_eq defs main (fun _ => opsAll) main_eq (fun _ => opsAll_sub) m ρ
      (fun _ => opsAll_fresh))

end Cert.RefRun

end
-- ==== Proof.lean ====
/-
  The certificate of a three-layer graph network: a tiled program of eleven kernel regions among host operations
  against a plain host program, equal at the ideal instance, where a float is an extended real.

  Both programs compute, over N = 50000 nodes, E = 600000 edges, H = 128 features and G = 512 graphs: node
  features `x · P + p`, edge features `a · Q + q`; then three times — add to every node the row of a per-graph
  table that its graph index selects; send along every edge `max (h[src] + e) 0`; add up at every node the messages
  arriving there; pass `h + agg` through a two-layer perceptron; normalise every feature column by its mean and
  variance over the nodes, scale, shift and rectify; and, except after the third time, update the table by a
  perceptron of the per-graph sums — and return the last node features and their per-graph means.

  The tiled program differs from the plain one in three ways, and nothing else.  It computes the two encoders, the
  edge messages, the perceptron with the column sums of its output and of its squares, and the normalisation in
  row blocks on a grid: the blocks tile the arrays, a block's rows of a product are the product's rows, and the
  running sums over the 25 blocks are the whole column sums (sums in the extended reals commute and associate).  It
  looks rows up with a fill for indices out of range where the plain program clamps: under the precondition — every
  edge's source a node, every node's graph index a graph — no index is out of range and the two lookups agree.  And
  it takes the variance as the mean of the squares less the squared mean where the plain program takes the mean of
  the squared deviations: the two agree on real data, and from real inputs every intermediate array of every layer is
  real (each operation keeps reals real; the variance plus the positive ε is positive, so its inverse square root is
  real).  Every other host operation is the same operation on both sides, applied to equal arrays.

  The tiled program's run is read off its frame: the launch theorem over the same segments, with the two results
  kept beside the arguments; the contents at the last segment boundary are then followed back through the segments,
  layer by layer.  The plain program's run is its host operations in order, read window by window.
-/
import proofs.«407958_j39685497815719_1_alg».proof.Defs
import proofs.«407958_j39685497815719_1_alg».proof.Proof.Gen.Kernel
import proofs.«407958_j39685497815719_1_alg».proof.Proof.Gen.KernelIdeal
import proofs.«407958_j39685497815719_1_alg».proof.Proof.Gen.ReferenceIdeal
import proofs.«407958_j39685497815719_1_alg».proof.Proof.Gen.Pre_finite_inputs
import proofs.«407958_j39685497815719_1_alg».proof.Proof.Assembly
import proofs.«407958_j39685497815719_1_alg».proof.Proof.FoldL0
import proofs.«407958_j39685497815719_1_alg».proof.Proof.FoldL1
import proofs.«407958_j39685497815719_1_alg».proof.Proof.FoldL2
import proofs.«407958_j39685497815719_1_alg».proof.Proof.RefRun
import Idealize.ShloMosaic.Adequacy
import Idealize.ShloMosaic.Init

noncomputable section

namespace Cert.Proof

open Idealize.ShloMosaic Idealize.SL.Sem

/-- At the end of the tiled program's run its two result buffers hold the network's last node features and their
    per-graph means: the four stretches of the fold, one after the other. -/
theorem results_at_end
    (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hok : (Cert.Fold.kInputs m c).Ok) : Cert.Fold.Env36 m ρ c :=
  Cert.Fold.env36 m ρ c hok (Cert.Fold.env24 m ρ c hok (Cert.Fold.env13 m ρ c hok (Cert.Fold.env4 m ρ c)))

theorem claim : Cert.Claim :=
  ⟨Cert.Kernel.Gen.facts, Cert.KernelIdeal.Gen.facts, Cert.ReferenceIdeal.Gen.facts, Cert.Pre_finite_inputs.Gen.facts,
    Cert.Assembly.claim_of results_at_end Cert.RefRun.run⟩

end Cert.Proof

end
